-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11))

def preserves_Kernel_KernelIdeal : Prop :=
  IdealRules.truncf_extf.Statement Cert.KernelIdeal.S5000x512 .f32 .bf16

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)) →
    ∃ (v0 : (c : Dev Cert.KernelIdeal.nD) → Buf (Elt Ideal) ((c.tc : Thread Cert.KernelIdeal.nD Cert.KernelIdeal.τ).loc Cert.KernelIdeal.main_v97)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v97) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v113) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x64 : Shape := ⟨2, ![100000, 64]⟩
abbrev S2x1600000 : Shape := ⟨2, ![2, 1600000]⟩
abbrev S100000x128 : Shape := ⟨2, ![100000, 128]⟩
abbrev S100000 : Shape := ⟨1, ![100000]⟩
abbrev S128x128 : Shape := ⟨2, ![128, 128]⟩
abbrev S128 : Shape := ⟨1, ![128]⟩
abbrev S64x128 : Shape := ⟨2, ![64, 128]⟩
abbrev S2x128x128 : Shape := ⟨3, ![2, 128, 128]⟩
abbrev S2x128 : Shape := ⟨2, ![2, 128]⟩
abbrev S128x16 : Shape := ⟨2, ![128, 16]⟩
abbrev S16 : Shape := ⟨1, ![16]⟩
abbrev S_ : Shape := ⟨0, ![]⟩

class Facts : Prop where
  bcast_S_S100000x64 : S_.BroadcastsInDim S100000x64 (![] : Fin 0 → Fin S100000x64.rank)
  reducesTo_S100000x64_S_d0_1 : S100000x64.ReducesTo [0, 1] S_
  h_S_ : 0 < S_.numel
  bcast_S_S100000x128 : S_.BroadcastsInDim S100000x128 (![] : Fin 0 → Fin S100000x128.rank)
  reducesTo_S100000x128_S_d0_1 : S100000x128.ReducesTo [0, 1] S_
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_
  bcast_S_S64x128 : S_.BroadcastsInDim S64x128 (![] : Fin 0 → Fin S64x128.rank)
  reducesTo_S64x128_S_d0_1 : S64x128.ReducesTo [0, 1] S_
  bcast_S_S2x128x128 : S_.BroadcastsInDim S2x128x128 (![] : Fin 0 → Fin S2x128x128.rank)
  reducesTo_S2x128x128_S_d0_1_2 : S2x128x128.ReducesTo [0, 1, 2] S_
  bcast_S_S2x128 : S_.BroadcastsInDim S2x128 (![] : Fin 0 → Fin S2x128.rank)
  reducesTo_S2x128_S_d0_1 : S2x128.ReducesTo [0, 1] S_
  bcast_S_S128x16 : S_.BroadcastsInDim S128x16 (![] : Fin 0 → Fin S128x16.rank)
  reducesTo_S128x16_S_d0_1 : S128x16.ReducesTo [0, 1] S_
  bcast_S_S16 : S_.BroadcastsInDim S16 (![] : Fin 0 → Fin S16.rank)
  reducesTo_S16_S_d0 : S16.ReducesTo [0] S_

variable [Facts]

def fn_part2 {F : FTy → Type} [FloatOps F] (main_arg9 : FVec F S2x128 .f32) (main_arg10 : FVec F S128x16 .f32) (main_arg11 : FVec F S16 .f32) (main_v33 : IVec S_ 1) : IVec S_ 1 :=
  let main_v34 : FVec F S2x128 .f32 := Host.absf main_arg9
  let main_cst_12 : FVec F S_ .f32 := constant S_ .f32 0x7F800000#32
  let main_v35 : FVec F S2x128 .f32 := broadcastInDim S2x128 ![] bcast_S_S2x128 main_cst_12
  let main_v36 : IVec S2x128 1 := cmpf .olt main_v34 main_v35
  let main_c_13 : IVec S_ 1 := constantI S_ 1 1#1
  let main_v37 : IVec S_ 1 := (fun x v => Host.reduce IntOp.andi x v reducesTo_S2x128_S_d0_1 h_S_) main_v36 main_c_13
  let main_v38 : IVec S_ 1 := andi main_v33 main_v37
  let main_v39 : FVec F S128x16 .f32 := Host.absf main_arg10
  let main_cst_14 : FVec F S_ .f32 := constant S_ .f32 0x7F800000#32
  let main_v40 : FVec F S128x16 .f32 := broadcastInDim S128x16 ![] bcast_S_S128x16 main_cst_14
  let main_v41 : IVec S128x16 1 := cmpf .olt main_v39 main_v40
  let main_c_15 : IVec S_ 1 := constantI S_ 1 1#1
  let main_v42 : IVec S_ 1 := (fun x v => Host.reduce IntOp.andi x v reducesTo_S128x16_S_d0_1 h_S_) main_v41 main_c_15
  let main_v43 : IVec S_ 1 := andi main_v38 main_v42
  let main_v44 : FVec F S16 .f32 := Host.absf main_arg11
  let main_cst_16 : FVec F S_ .f32 := constant S_ .f32 0x7F800000#32
  let main_v45 : FVec F S16 .f32 := broadcastInDim S16 ![] bcast_S_S16 main_cst_16
  let main_v46 : IVec S16 1 := cmpf .olt main_v44 main_v45
  let main_c_17 : IVec S_ 1 := constantI S_ 1 1#1
  let main_v47 : IVec S_ 1 := (fun x v => Host.reduce IntOp.andi x v reducesTo_S16_S_d0 h_S_) main_v46 main_c_17
  let main_v48 : IVec S_ 1 := andi main_v43 main_v47
  main_v48

def fn_part1 {F : FTy → Type} [FloatOps F] (main_arg6 : FVec F S64x128 .f32) (main_arg7 : FVec F S128 .f32) (main_arg8 : FVec F S2x128x128 .f32) (main_arg9 : FVec F S2x128 .f32) (main_arg10 : FVec F S128x16 .f32) (main_arg11 : FVec F S16 .f32) (main_v13 : IVec S_ 1) (main_v16 : IVec S128 1) : IVec S_ 1 :=
  let main_c_5 : IVec S_ 1 := constantI S_ 1 1#1
  let main_v17 : IVec S_ 1 := (fun x v => Host.reduce IntOp.andi x v reducesTo_S128_S_d0 h_S_) main_v16 main_c_5
  let main_v18 : IVec S_ 1 := andi main_v13 main_v17
  let main_v19 : FVec F S64x128 .f32 := Host.absf main_arg6
  let main_cst_6 : FVec F S_ .f32 := constant S_ .f32 0x7F800000#32
  let main_v20 : FVec F S64x128 .f32 := broadcastInDim S64x128 ![] bcast_S_S64x128 main_cst_6
  let main_v21 : IVec S64x128 1 := cmpf .olt main_v19 main_v20
  let main_c_7 : IVec S_ 1 := constantI S_ 1 1#1
  let main_v22 : IVec S_ 1 := (fun x v => Host.reduce IntOp.andi x v reducesTo_S64x128_S_d0_1 h_S_) main_v21 main_c_7
  let main_v23 : IVec S_ 1 := andi main_v18 main_v22
  let main_v24 : FVec F S128 .f32 := Host.absf main_arg7
  let main_cst_8 : FVec F S_ .f32 := constant S_ .f32 0x7F800000#32
  let main_v25 : FVec F S128 .f32 := broadcastInDim S128 ![] bcast_S_S128 main_cst_8
  let main_v26 : IVec S128 1 := cmpf .olt main_v24 main_v25
  let main_c_9 : IVec S_ 1 := constantI S_ 1 1#1
  let main_v27 : IVec S_ 1 := (fun x v => Host.reduce IntOp.andi x v reducesTo_S128_S_d0 h_S_) main_v26 main_c_9
  let main_v28 : IVec S_ 1 := andi main_v23 main_v27
  let main_v29 : FVec F S2x128x128 .f32 := Host.absf main_arg8
  let main_cst_10 : FVec F S_ .f32 := constant S_ .f32 0x7F800000#32
  let main_v30 : FVec F S2x128x128 .f32 := broadcastInDim S2x128x128 ![] bcast_S_S2x128x128 main_cst_10
  let main_v31 : IVec S2x128x128 1 := cmpf .olt main_v29 main_v30
  let main_c_11 : IVec S_ 1 := constantI S_ 1 1#1
  let main_v32 : IVec S_ 1 := (fun x v => Host.reduce IntOp.andi x v reducesTo_S2x128x128_S_d0_1_2 h_S_) main_v31 main_c_11
  let main_v33 : IVec S_ 1 := andi main_v28 main_v32
  fn_part2 (F := F) main_arg9 main_arg10 main_arg11 main_v33

def fn {F : FTy → Type} [FloatOps F] (main_arg0 : FVec F S100000x64 .f32) (main_arg1 : IVec S2x1600000 32) (main_arg2 : FVec F S100000x128 .f32) (main_arg3 : IVec S100000 32) (main_arg4 : FVec F S128x128 .f32) (main_arg5 : FVec F S128 .f32) (main_arg6 : FVec F S64x128 .f32) (main_arg7 : FVec F S128 .f32) (main_arg8 : FVec F S2x128x128 .f32) (main_arg9 : FVec F S2x128 .f32) (main_arg10 : FVec F S128x16 .f32) (main_arg11 : FVec F S16 .f32) : IVec S_ 1 :=
  let main_v0 : FVec F S100000x64 .f32 := Host.absf main_arg0
  let main_cst : FVec F S_ .f32 := constant S_ .f32 0x7F800000#32
  let main_v1 : FVec F S100000x64 .f32 := broadcastInDim S100000x64 ![] bcast_S_S100000x64 main_cst
  let main_v2 : IVec S100000x64 1 := cmpf .olt main_v0 main_v1
  let main_c : IVec S_ 1 := constantI S_ 1 1#1
  let main_v3 : IVec S_ 1 := (fun x v => Host.reduce IntOp.andi x v reducesTo_S100000x64_S_d0_1 h_S_) main_v2 main_c
  let main_v4 : FVec F S100000x128 .f32 := Host.absf main_arg2
  let main_cst_0 : FVec F S_ .f32 := constant S_ .f32 0x7F800000#32
  let main_v5 : FVec F S100000x128 .f32 := broadcastInDim S100000x128 ![] bcast_S_S100000x128 main_cst_0
  let main_v6 : IVec S100000x128 1 := cmpf .olt main_v4 main_v5
  let main_c_1 : IVec S_ 1 := constantI S_ 1 1#1
  let main_v7 : IVec S_ 1 := (fun x v => Host.reduce IntOp.andi x v reducesTo_S100000x128_S_d0_1 h_S_) main_v6 main_c_1
  let main_v8 : IVec S_ 1 := andi main_v3 main_v7
  let main_v9 : FVec F S128x128 .f32 := Host.absf main_arg4
  let main_cst_2 : FVec F S_ .f32 := constant S_ .f32 0x7F800000#32
  let main_v10 : FVec F S128x128 .f32 := broadcastInDim S128x128 ![] bcast_S_S128x128 main_cst_2
  let main_v11 : IVec S128x128 1 := cmpf .olt main_v9 main_v10
  let main_c_3 : IVec S_ 1 := constantI S_ 1 1#1
  let main_v12 : IVec S_ 1 := (fun x v => Host.reduce IntOp.andi x v reducesTo_S128x128_S_d0_1 h_S_) main_v11 main_c_3
  let main_v13 : IVec S_ 1 := andi main_v8 main_v12
  let main_v14 : FVec F S128 .f32 := Host.absf main_arg5
  let main_cst_4 : FVec F S_ .f32 := constant S_ .f32 0x7F800000#32
  let main_v15 : FVec F S128 .f32 := broadcastInDim S128 ![] bcast_S_S128 main_cst_4
  let main_v16 : IVec S128 1 := cmpf .olt main_v14 main_v15
  fn_part1 (F := F) main_arg6 main_arg7 main_arg8 main_arg9 main_arg10 main_arg11 main_v13 main_v16
-- ==== Kernel.lean ====
abbrev S100000x64 : Shape := ⟨2, ![100000, 64]⟩
abbrev S2x1600000 : Shape := ⟨2, ![2, 1600000]⟩
abbrev S100000x128 : Shape := ⟨2, ![100000, 128]⟩
abbrev S100000 : Shape := ⟨1, ![100000]⟩
abbrev S128x128 : Shape := ⟨2, ![128, 128]⟩
abbrev S128 : Shape := ⟨1, ![128]⟩
abbrev S64x128 : Shape := ⟨2, ![64, 128]⟩
abbrev S2x128x128 : Shape := ⟨3, ![2, 128, 128]⟩
abbrev S2x128 : Shape := ⟨2, ![2, 128]⟩
abbrev S128x16 : Shape := ⟨2, ![128, 16]⟩
abbrev S16 : Shape := ⟨1, ![16]⟩
abbrev S1x1600000 : Shape := ⟨2, ![1, 1600000]⟩
abbrev S1600000 : Shape := ⟨1, ![1600000]⟩
abbrev S1700000 : Shape := ⟨1, ![1700000]⟩
abbrev S_ : Shape := ⟨0, ![]⟩
abbrev S1700000x1 : Shape := ⟨2, ![1700000, 1]⟩
abbrev S1x128 : Shape := ⟨2, ![1, 128]⟩
abbrev S10000x128 : Shape := ⟨2, ![10000, 128]⟩
abbrev S10000x64 : Shape := ⟨2, ![10000, 64]⟩
abbrev S1700000x128 : Shape := ⟨2, ![1700000, 128]⟩
abbrev S1x128x128 : Shape := ⟨3, ![1, 128, 128]⟩
abbrev S100000x1 : Shape := ⟨2, ![100000, 1]⟩
abbrev S512x128 : Shape := ⟨2, ![512, 128]⟩
abbrev S512x1 : Shape := ⟨2, ![512, 1]⟩
abbrev S5000x128 : Shape := ⟨2, ![5000, 128]⟩
abbrev S5000x1 : Shape := ⟨2, ![5000, 1]⟩
abbrev S5000x512 : Shape := ⟨2, ![5000, 512]⟩
abbrev S512 : Shape := ⟨1, ![512]⟩
abbrev S512x16 : Shape := ⟨2, ![512, 16]⟩
abbrev S1x16 : Shape := ⟨2, ![1, 16]⟩

abbrev nBuf : Space → Nat
  | .hbm => 131
  | .vmem => 46
  | .smem => 0
  | _ => 0

abbrev hbmTy0_0 (i : Nat) : BufTy := match i % 128 with
  | 0 => ⟨S100000x64, .f32⟩
  | 1 => ⟨S2x1600000, .i32⟩
  | 2 => ⟨S100000x128, .f32⟩
  | 3 => ⟨S100000, .i32⟩
  | 4 => ⟨S128x128, .f32⟩
  | 5 => ⟨S128, .f32⟩
  | 6 => ⟨S64x128, .f32⟩
  | 7 => ⟨S128, .f32⟩
  | 8 => ⟨S2x128x128, .f32⟩
  | 9 => ⟨S2x128, .f32⟩
  | 10 => ⟨S128x16, .f32⟩
  | 11 => ⟨S16, .f32⟩
  | 12 => ⟨S100000, .i32⟩
  | 13 => ⟨S1x1600000, .i32⟩
  | 14 => ⟨S1600000, .i32⟩
  | 15 => ⟨S1700000, .i32⟩
  | 16 => ⟨S1x1600000, .i32⟩
  | 17 => ⟨S1600000, .i32⟩
  | 18 => ⟨S1700000, .i32⟩
  | 19 => ⟨S_, .f32⟩
  | 20 => ⟨S1700000, .f32⟩
  | 21 => ⟨S_, .f32⟩
  | 22 => ⟨S100000, .f32⟩
  | 23 => ⟨S1700000x1, .i32⟩
  | 24 => ⟨S100000, .f32⟩
  | 25 => ⟨S_, .f32⟩
  | 26 => ⟨S100000, .f32⟩
  | 27 => ⟨S100000, .i1⟩
  | 28 => ⟨S100000, .f32⟩
  | 29 => ⟨S_, .f32⟩
  | 30 => ⟨S_, .f32⟩
  | 31 => ⟨S100000, .f32⟩
  | 32 => ⟨S100000, .f32⟩
  | 33 => ⟨S_, .i32⟩
  | 34 => ⟨S1700000, .i32⟩
  | 35 => ⟨S1700000, .i1⟩
  | 36 => ⟨S_, .i32⟩
  | 37 => ⟨S1700000, .i32⟩
  | 38 => ⟨S1700000, .i32⟩
  | 39 => ⟨S1700000, .i32⟩
  | 40 => ⟨S1700000x1, .i32⟩
  | 41 => ⟨S1700000, .f32⟩
  | 42 => ⟨S_, .i32⟩
  | 43 => ⟨S1700000, .i32⟩
  | 44 => ⟨S1700000, .i1⟩
  | 45 => ⟨S_, .i32⟩
  | 46 => ⟨S1700000, .i32⟩
  | 47 => ⟨S1700000, .i32⟩
  | 48 => ⟨S1700000, .i32⟩
  | 49 => ⟨S1700000x1, .i32⟩
  | 50 => ⟨S1700000, .f32⟩
  | 51 => ⟨S1700000, .f32⟩
  | 52 => ⟨S1x128, .f32⟩
  | 53 => ⟨S100000x128, .f32⟩
  | 54 => ⟨S100000x128, .f32⟩
  | 55 => ⟨S_, .i32⟩
  | 56 => ⟨S1700000, .i32⟩
  | 57 => ⟨S1700000, .i1⟩
  | 58 => ⟨S_, .i32⟩
  | 59 => ⟨S1700000, .i32⟩
  | 60 => ⟨S1700000, .i32⟩
  | 61 => ⟨S1700000, .i32⟩
  | 62 => ⟨S1700000x1, .i32⟩
  | 63 => ⟨S1700000x128, .f32⟩
  | 64 => ⟨S1700000x1, .f32⟩
  | 65 => ⟨S1700000x128, .f32⟩
  | 66 => ⟨S1700000x128, .f32⟩
  | 67 => ⟨S_, .f32⟩
  | 68 => ⟨S100000x128, .f32⟩
  | 69 => ⟨S1700000x1, .i32⟩
  | 70 => ⟨S100000x128, .f32⟩
  | 71 => ⟨S1x128, .f32⟩
  | 72 => ⟨S100000x128, .f32⟩
  | 73 => ⟨S1x128x128, .f32⟩
  | 74 => ⟨S128x128, .f32⟩
  | 75 => ⟨S100000x128, .f32⟩
  | 76 => ⟨S_, .i32⟩
  | 77 => ⟨S1700000, .i32⟩
  | 78 => ⟨S1700000, .i1⟩
  | 79 => ⟨S_, .i32⟩
  | 80 => ⟨S1700000, .i32⟩
  | 81 => ⟨S1700000, .i32⟩
  | 82 => ⟨S1700000, .i32⟩
  | 83 => ⟨S1700000x1, .i32⟩
  | 84 => ⟨S1700000x128, .f32⟩
  | 85 => ⟨S1700000x1, .f32⟩
  | 86 => ⟨S1700000x128, .f32⟩
  | 87 => ⟨S1700000x128, .f32⟩
  | 88 => ⟨S_, .f32⟩
  | 89 => ⟨S100000x128, .f32⟩
  | 90 => ⟨S1700000x1, .i32⟩
  | 91 => ⟨S100000x128, .f32⟩
  | 92 => ⟨S1x128, .f32⟩
  | 93 => ⟨S128, .f32⟩
  | 94 => ⟨S1x128, .f32⟩
  | 95 => ⟨S100000x128, .f32⟩
  | 96 => ⟨S1x128x128, .f32⟩
  | 97 => ⟨S128x128, .f32⟩
  | 98 => ⟨S100000x128, .f32⟩
  | 99 => ⟨S_, .i32⟩
  | 100 => ⟨S1700000, .i32⟩
  | 101 => ⟨S1700000, .i1⟩
  | 102 => ⟨S_, .i32⟩
  | 103 => ⟨S1700000, .i32⟩
  | 104 => ⟨S1700000, .i32⟩
  | 105 => ⟨S1700000, .i32⟩
  | 106 => ⟨S1700000x1, .i32⟩
  | 107 => ⟨S1700000x128, .f32⟩
  | 108 => ⟨S1700000x1, .f32⟩
  | 109 => ⟨S1700000x128, .f32⟩
  | 110 => ⟨S1700000x128, .f32⟩
  | 111 => ⟨S_, .f32⟩
  | 112 => ⟨S100000x128, .f32⟩
  | 113 => ⟨S1700000x1, .i32⟩
  | 114 => ⟨S100000x128, .f32⟩
  | 115 => ⟨S1x128, .f32⟩
  | 116 => ⟨S128, .f32⟩
  | 117 => ⟨S1x128, .f32⟩
  | 118 => ⟨S100000x128, .f32⟩
  | 119 => ⟨S100000x1, .i32⟩
  | 120 => ⟨S512x128, .f32⟩
  | 121 => ⟨S512x1, .f32⟩
  | 122 => ⟨S_, .f32⟩
  | 123 => ⟨S512x1, .f32⟩
  | 124 => ⟨S512x1, .f32⟩
  | 125 => ⟨S512x128, .f32⟩
  | 126 => ⟨S512x128, .f32⟩
  | 127 => ⟨S512x16, .f32⟩
  | _ => ⟨S100000x64, .f32⟩

abbrev hbmTy0_1 (i : Nat) : BufTy := match i % 128 with
  | 0 => ⟨S1x16, .f32⟩
  | 1 => ⟨S512x16, .f32⟩
  | 2 => ⟨S512x16, .f32⟩
  | _ => ⟨S100000x64, .f32⟩

abbrev hbmTy (i : Nat) : BufTy := match i / 128 with
  | 0 => hbmTy0_0 i
  | 1 => hbmTy0_1 i
  | _ => ⟨S100000x64, .f32⟩

abbrev bufTy : (tb : Table) → Fin (tcTables nBuf tb) → BufTy
  | .hbm, ⟨i, _⟩ => hbmTy i
  | .local _ .vmem, ⟨0, _⟩ => ⟨S10000x128, .f32⟩
  | .local _ .vmem, ⟨1, _⟩ => ⟨S10000x128, .f32⟩
  | .local _ .vmem, ⟨2, _⟩ => ⟨S128x128, .f32⟩
  | .local _ .vmem, ⟨3, _⟩ => ⟨S1x128, .f32⟩
  | .local _ .vmem, ⟨4, _⟩ => ⟨S10000x128, .f32⟩
  | .local _ .vmem, ⟨5, _⟩ => ⟨S10000x128, .f32⟩
  | .local _ .vmem, ⟨6, _⟩ => ⟨S10000x64, .f32⟩
  | .local _ .vmem, ⟨7, _⟩ => ⟨S10000x64, .f32⟩
  | .local _ .vmem, ⟨8, _⟩ => ⟨S64x128, .f32⟩
  | .local _ .vmem, ⟨9, _⟩ => ⟨S10000x128, .f32⟩
  | .local _ .vmem, ⟨10, _⟩ => ⟨S10000x128, .f32⟩
  | .local _ .vmem, ⟨11, _⟩ => ⟨S10000x128, .f32⟩
  | .local _ .vmem, ⟨12, _⟩ => ⟨S10000x128, .f32⟩
  | .local _ .vmem, ⟨13, _⟩ => ⟨S1x128, .f32⟩
  | .local _ .vmem, ⟨14, _⟩ => ⟨S10000x128, .f32⟩
  | .local _ .vmem, ⟨15, _⟩ => ⟨S10000x128, .f32⟩
  | .local _ .vmem, ⟨16, _⟩ => ⟨S10000x128, .f32⟩
  | .local _ .vmem, ⟨17, _⟩ => ⟨S10000x128, .f32⟩
  | .local _ .vmem, ⟨18, _⟩ => ⟨S10000x128, .f32⟩
  | .local _ .vmem, ⟨19, _⟩ => ⟨S10000x128, .f32⟩
  | .local _ .vmem, ⟨20, _⟩ => ⟨S128x128, .f32⟩
  | .local _ .vmem, ⟨21, _⟩ => ⟨S10000x128, .f32⟩
  | .local _ .vmem, ⟨22, _⟩ => ⟨S10000x128, .f32⟩
  | .local _ .vmem, ⟨23, _⟩ => ⟨S10000x128, .f32⟩
  | .local _ .vmem, ⟨24, _⟩ => ⟨S10000x128, .f32⟩
  | .local _ .vmem, ⟨25, _⟩ => ⟨S1x128, .f32⟩
  | .local _ .vmem, ⟨26, _⟩ => ⟨S10000x128, .f32⟩
  | .local _ .vmem, ⟨27, _⟩ => ⟨S10000x128, .f32⟩
  | .local _ .vmem, ⟨28, _⟩ => ⟨S10000x128, .f32⟩
  | .local _ .vmem, ⟨29, _⟩ => ⟨S10000x128, .f32⟩
  | .local _ .vmem, ⟨30, _⟩ => ⟨S128x128, .f32⟩
  | .local _ .vmem, ⟨31, _⟩ => ⟨S10000x128, .f32⟩
  | .local _ .vmem, ⟨32, _⟩ => ⟨S10000x128, .f32⟩
  | .local _ .vmem, ⟨33, _⟩ => ⟨S10000x128, .f32⟩
  | .local _ .vmem, ⟨34, _⟩ => ⟨S10000x128, .f32⟩
  | .local _ .vmem, ⟨35, _⟩ => ⟨S1x128, .f32⟩
  | .local _ .vmem, ⟨36, _⟩ => ⟨S10000x128, .f32⟩
  | .local _ .vmem, ⟨37, _⟩ => ⟨S10000x128, .f32⟩
  | .local _ .vmem, ⟨38, _⟩ => ⟨S5000x128, .f32⟩
  | .local _ .vmem, ⟨39, _⟩ => ⟨S5000x128, .f32⟩
  | .local _ .vmem, ⟨40, _⟩ => ⟨S5000x1, .i32⟩
  | .local _ .vmem, ⟨41, _⟩ => ⟨S5000x1, .i32⟩
  | .local _ .vmem, ⟨42, _⟩ => ⟨S512x128, .f32⟩
  | .local _ .vmem, ⟨43, _⟩ => ⟨S512x1, .f32⟩
  | .local _ .vmem, ⟨44, _⟩ => ⟨S512x128, .f32⟩
  | .local _ .vmem, ⟨45, _⟩ => ⟨S512x1, .f32⟩
  | _, _ => ⟨S100000x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | _, _ => false

abbrev semScoped : Fin 0 → Bool
  | ⟨_, h⟩ => absurd h (Nat.not_lt_zero _)

abbrev dmaSemScoped : Fin 44 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | _ => false

abbrev sig : RefSig :=
  ofTc nBuf bufTy 0 44 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_cst : Ref sig .tc := ⟨.hbm, 19, rfl⟩
abbrev main_v7 : Ref sig .tc := ⟨.hbm, 20, rfl⟩
abbrev main_cst_0 : Ref sig .tc := ⟨.hbm, 21, rfl⟩
abbrev main_v8 : Ref sig .tc := ⟨.hbm, 22, rfl⟩
abbrev main_v9 : Ref sig .tc := ⟨.hbm, 23, rfl⟩
abbrev main_v10 : Ref sig .tc := ⟨.hbm, 24, rfl⟩
abbrev main_cst_1 : Ref sig .tc := ⟨.hbm, 25, rfl⟩
abbrev main_v11 : Ref sig .tc := ⟨.hbm, 26, rfl⟩
abbrev main_v12 : Ref sig .tc := ⟨.hbm, 27, rfl⟩
abbrev main_v13 : Ref sig .tc := ⟨.hbm, 28, rfl⟩
abbrev main_cst_2 : Ref sig .tc := ⟨.hbm, 29, rfl⟩
abbrev main_call0_v0 : Ref sig .tc := ⟨.hbm, 30, rfl⟩
abbrev main_call0_v1 : Ref sig .tc := ⟨.hbm, 31, rfl⟩
abbrev main_v14 : Ref sig .tc := ⟨.hbm, 32, rfl⟩
abbrev main_c : Ref sig .tc := ⟨.hbm, 33, rfl⟩
abbrev main_v15 : Ref sig .tc := ⟨.hbm, 34, rfl⟩
abbrev main_v16 : Ref sig .tc := ⟨.hbm, 35, rfl⟩
abbrev main_c_3 : Ref sig .tc := ⟨.hbm, 36, rfl⟩
abbrev main_v17 : Ref sig .tc := ⟨.hbm, 37, rfl⟩
abbrev main_v18 : Ref sig .tc := ⟨.hbm, 38, rfl⟩
abbrev main_v19 : Ref sig .tc := ⟨.hbm, 39, rfl⟩
abbrev main_v20 : Ref sig .tc := ⟨.hbm, 40, rfl⟩
abbrev main_v21 : Ref sig .tc := ⟨.hbm, 41, rfl⟩
abbrev main_c_4 : Ref sig .tc := ⟨.hbm, 42, rfl⟩
abbrev main_v22 : Ref sig .tc := ⟨.hbm, 43, rfl⟩
abbrev main_v23 : Ref sig .tc := ⟨.hbm, 44, rfl⟩
abbrev main_c_5 : Ref sig .tc := ⟨.hbm, 45, rfl⟩
abbrev main_v24 : Ref sig .tc := ⟨.hbm, 46, rfl⟩
abbrev main_v25 : Ref sig .tc := ⟨.hbm, 47, rfl⟩
abbrev main_v26 : Ref sig .tc := ⟨.hbm, 48, rfl⟩
abbrev main_v27 : Ref sig .tc := ⟨.hbm, 49, rfl⟩
abbrev main_v28 : Ref sig .tc := ⟨.hbm, 50, rfl⟩
abbrev main_v29 : Ref sig .tc := ⟨.hbm, 51, rfl⟩
abbrev main_v30 : Ref sig .tc := ⟨.hbm, 52, rfl⟩
abbrev main_v31 : Ref sig .tc := ⟨.hbm, 53, rfl⟩
abbrev main_v32 : Ref sig .tc := ⟨.hbm, 54, rfl⟩
abbrev main_c_6 : Ref sig .tc := ⟨.hbm, 55, rfl⟩
abbrev main_v33 : Ref sig .tc := ⟨.hbm, 56, rfl⟩
abbrev main_v34 : Ref sig .tc := ⟨.hbm, 57, rfl⟩
abbrev main_c_7 : Ref sig .tc := ⟨.hbm, 58, rfl⟩
abbrev main_v35 : Ref sig .tc := ⟨.hbm, 59, rfl⟩
abbrev main_v36 : Ref sig .tc := ⟨.hbm, 60, rfl⟩
abbrev main_v37 : Ref sig .tc := ⟨.hbm, 61, rfl⟩
abbrev main_v38 : Ref sig .tc := ⟨.hbm, 62, rfl⟩
abbrev main_v39 : Ref sig .tc := ⟨.hbm, 63, rfl⟩
abbrev main_v40 : Ref sig .tc := ⟨.hbm, 64, rfl⟩
abbrev main_v41 : Ref sig .tc := ⟨.hbm, 65, rfl⟩
abbrev main_v42 : Ref sig .tc := ⟨.hbm, 66, rfl⟩
abbrev main_cst_8 : Ref sig .tc := ⟨.hbm, 67, rfl⟩
abbrev main_v43 : Ref sig .tc := ⟨.hbm, 68, rfl⟩
abbrev main_v44 : Ref sig .tc := ⟨.hbm, 69, rfl⟩
abbrev main_v45 : Ref sig .tc := ⟨.hbm, 70, rfl⟩
abbrev main_v46 : Ref sig .tc := ⟨.hbm, 71, rfl⟩
abbrev main_v47 : Ref sig .tc := ⟨.hbm, 72, rfl⟩
abbrev main_v48 : Ref sig .tc := ⟨.hbm, 73, rfl⟩
abbrev main_v49 : Ref sig .tc := ⟨.hbm, 74, rfl⟩
abbrev main_v50 : Ref sig .tc := ⟨.hbm, 75, rfl⟩
abbrev main_c_9 : Ref sig .tc := ⟨.hbm, 76, rfl⟩
abbrev main_v51 : Ref sig .tc := ⟨.hbm, 77, rfl⟩
abbrev main_v52 : Ref sig .tc := ⟨.hbm, 78, rfl⟩
abbrev main_c_10 : Ref sig .tc := ⟨.hbm, 79, rfl⟩
abbrev main_v53 : Ref sig .tc := ⟨.hbm, 80, rfl⟩
abbrev main_v54 : Ref sig .tc := ⟨.hbm, 81, rfl⟩
abbrev main_v55 : Ref sig .tc := ⟨.hbm, 82, rfl⟩
abbrev main_v56 : Ref sig .tc := ⟨.hbm, 83, rfl⟩
abbrev main_v57 : Ref sig .tc := ⟨.hbm, 84, rfl⟩
abbrev main_v58 : Ref sig .tc := ⟨.hbm, 85, rfl⟩
abbrev main_v59 : Ref sig .tc := ⟨.hbm, 86, rfl⟩
abbrev main_v60 : Ref sig .tc := ⟨.hbm, 87, rfl⟩
abbrev main_cst_11 : Ref sig .tc := ⟨.hbm, 88, rfl⟩
abbrev main_v61 : Ref sig .tc := ⟨.hbm, 89, rfl⟩
abbrev main_v62 : Ref sig .tc := ⟨.hbm, 90, rfl⟩
abbrev main_v63 : Ref sig .tc := ⟨.hbm, 91, rfl⟩
abbrev main_v64 : Ref sig .tc := ⟨.hbm, 92, rfl⟩
abbrev main_v65 : Ref sig .tc := ⟨.hbm, 93, rfl⟩
abbrev main_v66 : Ref sig .tc := ⟨.hbm, 94, rfl⟩
abbrev main_v67 : Ref sig .tc := ⟨.hbm, 95, rfl⟩
abbrev main_v68 : Ref sig .tc := ⟨.hbm, 96, rfl⟩
abbrev main_v69 : Ref sig .tc := ⟨.hbm, 97, rfl⟩
abbrev main_v70 : Ref sig .tc := ⟨.hbm, 98, rfl⟩
abbrev main_c_12 : Ref sig .tc := ⟨.hbm, 99, rfl⟩
abbrev main_v71 : Ref sig .tc := ⟨.hbm, 100, rfl⟩
abbrev main_v72 : Ref sig .tc := ⟨.hbm, 101, rfl⟩
abbrev main_c_13 : Ref sig .tc := ⟨.hbm, 102, rfl⟩
abbrev main_v73 : Ref sig .tc := ⟨.hbm, 103, rfl⟩
abbrev main_v74 : Ref sig .tc := ⟨.hbm, 104, rfl⟩
abbrev main_v75 : Ref sig .tc := ⟨.hbm, 105, rfl⟩
abbrev main_v76 : Ref sig .tc := ⟨.hbm, 106, rfl⟩
abbrev main_v77 : Ref sig .tc := ⟨.hbm, 107, rfl⟩
abbrev main_v78 : Ref sig .tc := ⟨.hbm, 108, rfl⟩
abbrev main_v79 : Ref sig .tc := ⟨.hbm, 109, rfl⟩
abbrev main_v80 : Ref sig .tc := ⟨.hbm, 110, rfl⟩
abbrev main_cst_14 : Ref sig .tc := ⟨.hbm, 111, rfl⟩
abbrev main_v81 : Ref sig .tc := ⟨.hbm, 112, rfl⟩
abbrev main_v82 : Ref sig .tc := ⟨.hbm, 113, rfl⟩
abbrev main_v83 : Ref sig .tc := ⟨.hbm, 114, rfl⟩
abbrev main_v84 : Ref sig .tc := ⟨.hbm, 115, rfl⟩
abbrev main_v85 : Ref sig .tc := ⟨.hbm, 116, rfl⟩
abbrev main_v86 : Ref sig .tc := ⟨.hbm, 117, rfl⟩
abbrev main_v87 : Ref sig .tc := ⟨.hbm, 118, rfl⟩
abbrev main_v88 : Ref sig .tc := ⟨.hbm, 119, rfl⟩
abbrev main_v89_0 : Ref sig .tc := ⟨.hbm, 120, rfl⟩
abbrev main_v89_1 : Ref sig .tc := ⟨.hbm, 121, rfl⟩
abbrev main_cst_15 : Ref sig .tc := ⟨.hbm, 122, rfl⟩
abbrev main_v90 : Ref sig .tc := ⟨.hbm, 123, rfl⟩
abbrev main_v91 : Ref sig .tc := ⟨.hbm, 124, rfl⟩
abbrev main_v92 : Ref sig .tc := ⟨.hbm, 125, rfl⟩
abbrev main_v93 : Ref sig .tc := ⟨.hbm, 126, rfl⟩
abbrev main_v94 : Ref sig .tc := ⟨.hbm, 127, rfl⟩
abbrev main_v95 : Ref sig .tc := ⟨.hbm, 128, rfl⟩
abbrev main_v96 : Ref sig .tc := ⟨.hbm, 129, rfl⟩
abbrev main_v97 : Ref sig .tc := ⟨.hbm, 130, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc1_stg0_0 : Ref sig .tc := ⟨.vmem, 6, rfl⟩
abbrev cc1_stg0_1 : Ref sig .tc := ⟨.vmem, 7, rfl⟩
abbrev cc1_stg1_0 : Ref sig .tc := ⟨.vmem, 8, rfl⟩
abbrev cc1_stg2_0 : Ref sig .tc := ⟨.vmem, 9, rfl⟩
abbrev cc1_stg2_1 : Ref sig .tc := ⟨.vmem, 10, rfl⟩
abbrev cc2_stg0_0 : Ref sig .tc := ⟨.vmem, 11, rfl⟩
abbrev cc2_stg0_1 : Ref sig .tc := ⟨.vmem, 12, rfl⟩
abbrev cc2_stg1_0 : Ref sig .tc := ⟨.vmem, 13, rfl⟩
abbrev cc2_stg2_0 : Ref sig .tc := ⟨.vmem, 14, rfl⟩
abbrev cc2_stg2_1 : Ref sig .tc := ⟨.vmem, 15, rfl⟩
abbrev cc2_stg3_0 : Ref sig .tc := ⟨.vmem, 16, rfl⟩
abbrev cc2_stg3_1 : Ref sig .tc := ⟨.vmem, 17, rfl⟩
abbrev cc3_stg0_0 : Ref sig .tc := ⟨.vmem, 18, rfl⟩
abbrev cc3_stg0_1 : Ref sig .tc := ⟨.vmem, 19, rfl⟩
abbrev cc3_stg1_0 : Ref sig .tc := ⟨.vmem, 20, rfl⟩
abbrev cc3_stg2_0 : Ref sig .tc := ⟨.vmem, 21, rfl⟩
abbrev cc3_stg2_1 : Ref sig .tc := ⟨.vmem, 22, rfl⟩
abbrev cc4_stg0_0 : Ref sig .tc := ⟨.vmem, 23, rfl⟩
abbrev cc4_stg0_1 : Ref sig .tc := ⟨.vmem, 24, rfl⟩
abbrev cc4_stg1_0 : Ref sig .tc := ⟨.vmem, 25, rfl⟩
abbrev cc4_stg2_0 : Ref sig .tc := ⟨.vmem, 26, rfl⟩
abbrev cc4_stg2_1 : Ref sig .tc := ⟨.vmem, 27, rfl⟩
abbrev cc5_stg0_0 : Ref sig .tc := ⟨.vmem, 28, rfl⟩
abbrev cc5_stg0_1 : Ref sig .tc := ⟨.vmem, 29, rfl⟩
abbrev cc5_stg1_0 : Ref sig .tc := ⟨.vmem, 30, rfl⟩
abbrev cc5_stg2_0 : Ref sig .tc := ⟨.vmem, 31, rfl⟩
abbrev cc5_stg2_1 : Ref sig .tc := ⟨.vmem, 32, rfl⟩
abbrev cc6_stg0_0 : Ref sig .tc := ⟨.vmem, 33, rfl⟩
abbrev cc6_stg0_1 : Ref sig .tc := ⟨.vmem, 34, rfl⟩
abbrev cc6_stg1_0 : Ref sig .tc := ⟨.vmem, 35, rfl⟩
abbrev cc6_stg2_0 : Ref sig .tc := ⟨.vmem, 36, rfl⟩
abbrev cc6_stg2_1 : Ref sig .tc := ⟨.vmem, 37, rfl⟩
abbrev cc7_stg0_0 : Ref sig .tc := ⟨.vmem, 38, rfl⟩
abbrev cc7_stg0_1 : Ref sig .tc := ⟨.vmem, 39, rfl⟩
abbrev cc7_stg1_0 : Ref sig .tc := ⟨.vmem, 40, rfl⟩
abbrev cc7_stg1_1 : Ref sig .tc := ⟨.vmem, 41, rfl⟩
abbrev cc7_stg2_0 : Ref sig .tc := ⟨.vmem, 42, rfl⟩
abbrev cc7_stg3_0 : Ref sig .tc := ⟨.vmem, 43, rfl⟩
abbrev cc7_scratch0 : Ref sig .tc := ⟨.vmem, 44, rfl⟩
abbrev cc7_scratch1 : Ref sig .tc := ⟨.vmem, 45, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc1_sem0_0 : DmaSem sig := 6
abbrev cc1_sem0_1 : DmaSem sig := 7
abbrev cc1_sem1_0 : DmaSem sig := 8
abbrev cc1_sem2_0 : DmaSem sig := 9
abbrev cc1_sem2_1 : DmaSem sig := 10
abbrev cc2_sem0_0 : DmaSem sig := 11
abbrev cc2_sem0_1 : DmaSem sig := 12
abbrev cc2_sem1_0 : DmaSem sig := 13
abbrev cc2_sem2_0 : DmaSem sig := 14
abbrev cc2_sem2_1 : DmaSem sig := 15
abbrev cc2_sem3_0 : DmaSem sig := 16
abbrev cc2_sem3_1 : DmaSem sig := 17
abbrev cc3_sem0_0 : DmaSem sig := 18
abbrev cc3_sem0_1 : DmaSem sig := 19
abbrev cc3_sem1_0 : DmaSem sig := 20
abbrev cc3_sem2_0 : DmaSem sig := 21
abbrev cc3_sem2_1 : DmaSem sig := 22
abbrev cc4_sem0_0 : DmaSem sig := 23
abbrev cc4_sem0_1 : DmaSem sig := 24
abbrev cc4_sem1_0 : DmaSem sig := 25
abbrev cc4_sem2_0 : DmaSem sig := 26
abbrev cc4_sem2_1 : DmaSem sig := 27
abbrev cc5_sem0_0 : DmaSem sig := 28
abbrev cc5_sem0_1 : DmaSem sig := 29
abbrev cc5_sem1_0 : DmaSem sig := 30
abbrev cc5_sem2_0 : DmaSem sig := 31
abbrev cc5_sem2_1 : DmaSem sig := 32
abbrev cc6_sem0_0 : DmaSem sig := 33
abbrev cc6_sem0_1 : DmaSem sig := 34
abbrev cc6_sem1_0 : DmaSem sig := 35
abbrev cc6_sem2_0 : DmaSem sig := 36
abbrev cc6_sem2_1 : DmaSem sig := 37
abbrev cc7_sem0_0 : DmaSem sig := 38
abbrev cc7_sem0_1 : DmaSem sig := 39
abbrev cc7_sem1_0 : DmaSem sig := 40
abbrev cc7_sem1_1 : DmaSem sig := 41
abbrev cc7_sem2_0 : DmaSem sig := 42
abbrev cc7_sem3_0 : DmaSem sig := 43

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S10000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S10000x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev grid1 : Pipeline.Grid := ⟨1, ![10], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S10000x64 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S64x128 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 2 → Memref sig .tc .vmem S10000x128 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev grid2 : Pipeline.Grid := ⟨1, ![10], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_3 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S10000x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S1x128 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 2 → Memref sig .tc .vmem S10000x128 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev stage2_3 : Fin 2 → Memref sig .tc .vmem S10000x128 .f32 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![true]

abbrev grid3 : Pipeline.Grid := ⟨1, ![10], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_2 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S10000x128 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 1 → Memref sig .tc .vmem S128x128 .f32 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![false]

abbrev stage3_2 : Fin 2 → Memref sig .tc .vmem S10000x128 .f32 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true]

abbrev grid4 : Pipeline.Grid := ⟨1, ![10], ![false]⟩

def cc4_transform_0 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_1 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_2 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage4_0 : Fin 2 → Memref sig .tc .vmem S10000x128 .f32 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true]

abbrev stage4_1 : Fin 1 → Memref sig .tc .vmem S1x128 .f32 := fun | 0 => Memref.whole cc4_stg1_0 | ⟨_ + 1, h⟩ => absurd h (Nat.not_lt.2 (Nat.le_add_left _ _))
abbrev sem4_1 : Fin 1 → DmaSem sig := fun | 0 => cc4_sem1_0 | ⟨_ + 1, h⟩ => absurd h (Nat.not_lt.2 (Nat.le_add_left _ _))
abbrev reads4_1 : Fin grid4.rank → Bool := ![false]

abbrev stage4_2 : Fin 2 → Memref sig .tc .vmem S10000x128 .f32 := fun | 0 => Memref.whole cc4_stg2_0 | 1 => Memref.whole cc4_stg2_1 | ⟨_ + 2, h⟩ => absurd h (Nat.not_lt.2 (Nat.le_add_left _ _))
abbrev sem4_2 : Fin 2 → DmaSem sig := fun | 0 => cc4_sem2_0 | 1 => cc4_sem2_1 | ⟨_ + 2, h⟩ => absurd h (Nat.not_lt.2 (Nat.le_add_left _ _))
abbrev reads4_2 : Fin grid4.rank → Bool := ![true]

abbrev grid5 : Pipeline.Grid := ⟨1, ![10], ![false]⟩

def cc5_transform_0 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_1 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_2 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage5_0 : Fin 2 → Memref sig .tc .vmem S10000x128 .f32 := fun | 0 => Memref.whole cc5_stg0_0 | 1 => Memref.whole cc5_stg0_1 | ⟨_ + 2, h⟩ => absurd h (Nat.not_lt.2 (Nat.le_add_left _ _))
abbrev sem5_0 : Fin 2 → DmaSem sig := fun | 0 => cc5_sem0_0 | 1 => cc5_sem0_1 | ⟨_ + 2, h⟩ => absurd h (Nat.not_lt.2 (Nat.le_add_left _ _))
abbrev reads5_0 : Fin grid5.rank → Bool := ![true]

abbrev stage5_1 : Fin 1 → Memref sig .tc .vmem S128x128 .f32 := fun | 0 => Memref.whole cc5_stg1_0 | ⟨_ + 1, h⟩ => absurd h (Nat.not_lt.2 (Nat.le_add_left _ _))
abbrev sem5_1 : Fin 1 → DmaSem sig := fun | 0 => cc5_sem1_0 | ⟨_ + 1, h⟩ => absurd h (Nat.not_lt.2 (Nat.le_add_left _ _))
abbrev reads5_1 : Fin grid5.rank → Bool := ![false]

abbrev stage5_2 : Fin 2 → Memref sig .tc .vmem S10000x128 .f32 := fun | 0 => Memref.whole cc5_stg2_0 | 1 => Memref.whole cc5_stg2_1 | ⟨_ + 2, h⟩ => absurd h (Nat.not_lt.2 (Nat.le_add_left _ _))
abbrev sem5_2 : Fin 2 → DmaSem sig := fun | 0 => cc5_sem2_0 | 1 => cc5_sem2_1 | ⟨_ + 2, h⟩ => absurd h (Nat.not_lt.2 (Nat.le_add_left _ _))
abbrev reads5_2 : Fin grid5.rank → Bool := ![true]

abbrev grid6 : Pipeline.Grid := ⟨1, ![10], ![false]⟩

def cc6_transform_0 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

def cc6_transform_1 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_2 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage6_0 : Fin 2 → Memref sig .tc .vmem S10000x128 .f32 := fun | 0 => Memref.whole cc6_stg0_0 | 1 => Memref.whole cc6_stg0_1 | ⟨_ + 2, h⟩ => absurd h (Nat.not_lt.2 (Nat.le_add_left _ _))
abbrev sem6_0 : Fin 2 → DmaSem sig := fun | 0 => cc6_sem0_0 | 1 => cc6_sem0_1 | ⟨_ + 2, h⟩ => absurd h (Nat.not_lt.2 (Nat.le_add_left _ _))
abbrev reads6_0 : Fin grid6.rank → Bool := ![true]

abbrev stage6_1 : Fin 1 → Memref sig .tc .vmem S1x128 .f32 := fun | 0 => Memref.whole cc6_stg1_0 | ⟨_ + 1, h⟩ => absurd h (Nat.not_lt.2 (Nat.le_add_left _ _))
abbrev sem6_1 : Fin 1 → DmaSem sig := fun | 0 => cc6_sem1_0 | ⟨_ + 1, h⟩ => absurd h (Nat.not_lt.2 (Nat.le_add_left _ _))
abbrev reads6_1 : Fin grid6.rank → Bool := ![false]

abbrev stage6_2 : Fin 2 → Memref sig .tc .vmem S10000x128 .f32 := fun | 0 => Memref.whole cc6_stg2_0 | 1 => Memref.whole cc6_stg2_1 | ⟨_ + 2, h⟩ => absurd h (Nat.not_lt.2 (Nat.le_add_left _ _))
abbrev sem6_2 : Fin 2 → DmaSem sig := fun | 0 => cc6_sem2_0 | 1 => cc6_sem2_1 | ⟨_ + 2, h⟩ => absurd h (Nat.not_lt.2 (Nat.le_add_left _ _))
abbrev reads6_2 : Fin grid6.rank → Bool := ![true]

abbrev grid7 : Pipeline.Grid := ⟨1, ![20], ![false]⟩

def k7_cond2 (i : grid7.Coords) : BitVec 1 :=
  let arg0 : BitVec 32 := BitVec.ofNat 32 (i 0).val
  let c19_i32 : BitVec 32 := 19#32
  let v28 : BitVec 1 := Scalar.cmpi .eq arg0 c19_i32
  let v29 : BitVec 32 := Scalar.extui v28
  let c0_i32_13 : BitVec 32 := 0#32
  let v30 : BitVec 1 := Scalar.cmpi .ne v29 c0_i32_13
  v30

def cc7_transform_0 (i : grid7.Coords) : Fin 2 → Nat :=
  let arg0 : BitVec 32 := BitVec.ofNat 32 (i 0).val
  let c0_i32 : BitVec 32 := 0#32
  let c0_i32_0 : BitVec 32 := 0#32
  ![arg0.toNat, c0_i32.toNat]

def cc7_transform_1 (i : grid7.Coords) : Fin 2 → Nat :=
  let arg0 : BitVec 32 := BitVec.ofNat 32 (i 0).val
  let c0_i32 : BitVec 32 := 0#32
  let c0_i32_0 : BitVec 32 := 0#32
  ![arg0.toNat, c0_i32.toNat]

def cc7_transform_2 (i : grid7.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc7_transform_3 (i : grid7.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage7_0 : Fin 2 → Memref sig .tc .vmem S5000x128 .f32 := fun | 0 => Memref.whole cc7_stg0_0 | 1 => Memref.whole cc7_stg0_1 | ⟨_ + 2, h⟩ => absurd h (Nat.not_lt.2 (Nat.le_add_left _ _))
abbrev sem7_0 : Fin 2 → DmaSem sig := fun | 0 => cc7_sem0_0 | 1 => cc7_sem0_1 | ⟨_ + 2, h⟩ => absurd h (Nat.not_lt.2 (Nat.le_add_left _ _))
abbrev reads7_0 : Fin grid7.rank → Bool := ![true]

abbrev stage7_1 : Fin 2 → Memref sig .tc .vmem S5000x1 .i32 := fun | 0 => Memref.whole cc7_stg1_0 | 1 => Memref.whole cc7_stg1_1 | ⟨_ + 2, h⟩ => absurd h (Nat.not_lt.2 (Nat.le_add_left _ _))
abbrev sem7_1 : Fin 2 → DmaSem sig := fun | 0 => cc7_sem1_0 | 1 => cc7_sem1_1 | ⟨_ + 2, h⟩ => absurd h (Nat.not_lt.2 (Nat.le_add_left _ _))
abbrev reads7_1 : Fin grid7.rank → Bool := ![true]

abbrev stage7_2 : Fin 1 → Memref sig .tc .vmem S512x128 .f32 := fun | 0 => Memref.whole cc7_stg2_0 | ⟨_ + 1, h⟩ => absurd h (Nat.not_lt.2 (Nat.le_add_left _ _))
abbrev sem7_2 : Fin 1 → DmaSem sig := fun | 0 => cc7_sem2_0 | ⟨_ + 1, h⟩ => absurd h (Nat.not_lt.2 (Nat.le_add_left _ _))
abbrev reads7_2 : Fin grid7.rank → Bool := ![false]

abbrev stage7_3 : Fin 1 → Memref sig .tc .vmem S512x1 .f32 := fun | 0 => Memref.whole cc7_stg3_0 | ⟨_ + 1, h⟩ => absurd h (Nat.not_lt.2 (Nat.le_add_left _ _))
abbrev sem7_3 : Fin 1 → DmaSem sig := fun | 0 => cc7_sem3_0 | ⟨_ + 1, h⟩ => absurd h (Nat.not_lt.2 (Nat.le_add_left _ _))
abbrev reads7_3 : Fin grid7.rank → Bool := ![false]

class Facts₀ : Prop where
  slices_S2x1600000_S1x1600000_0_0 : S2x1600000.Slices ![0, 0] S1x1600000
  shapeCasts_S1x1600000_S1600000 : S1x1600000.ShapeCasts S1600000
  concatenates_S1600000_S100000_S1700000_d0 : Shape.Concatenates [S1600000, S100000] S1700000 0
  slices_S2x1600000_S1x1600000_1_0 : S2x1600000.Slices ![1, 0] S1x1600000
  bcast_S_S1700000 : S_.BroadcastsInDim S1700000 (![] : Fin 0 → Fin S1700000.rank)
  bcast_S_S100000 : S_.BroadcastsInDim S100000 (![] : Fin 0 → Fin S100000.rank)
  bcast_S1700000_S1700000x1_0 : S1700000.BroadcastsInDim S1700000x1 (![0] : Fin 1 → Fin S1700000x1.rank)
  shapeCasts_S128_S1x128 : S128.ShapeCasts S1x128
  inb_S10000x128_S10000x128_0_0 : ∀ a, (![0, 0] : Fin 2 → Nat) a + S10000x128.size a ≤ S10000x128.size a
  h_S10000x128 : 0 < S10000x128.numel
  bitsLt_bf16_f32 : FTy.bits .bf16 < FTy.bits .f32
  inb_S128x128_S128x128_0_0 : ∀ a, (![0, 0] : Fin 2 → Nat) a + S128x128.size a ≤ S128x128.size a
  h_S128x128 : 0 < S128x128.numel
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S10000x128 : S1x128.Broadcasts S10000x128
  inb_S10000x64_S10000x64_0_0 : ∀ a, (![0, 0] : Fin 2 → Nat) a + S10000x64.size a ≤ S10000x64.size a
  h_S10000x64 : 0 < S10000x64.numel
  inb_S64x128_S64x128_0_0 : ∀ a, (![0, 0] : Fin 2 → Nat) a + S64x128.size a ≤ S64x128.size a
  h_S64x128 : 0 < S64x128.numel
  bcast_S1700000x1_S1700000x128_0_1 : S1700000x1.BroadcastsInDim S1700000x128 (![0, 1] : Fin 2 → Fin S1700000x128.rank)
  bcast_S_S100000x128 : S_.BroadcastsInDim S100000x128 (![] : Fin 0 → Fin S100000x128.rank)
  shapeCasts_S10000x128_S10000x128 : S10000x128.ShapeCasts S10000x128
  slices_S2x128x128_S1x128x128_0_0_0 : S2x128x128.Slices ![0, 0, 0] S1x128x128
  shapeCasts_S1x128x128_S128x128 : S1x128x128.ShapeCasts S128x128
  shapeCasts_S128x128_S128x128 : S128x128.ShapeCasts S128x128
  slices_S2x128_S1x128_0_0 : S2x128.Slices ![0, 0] S1x128
  shapeCasts_S1x128_S128 : S1x128.ShapeCasts S128
  slices_S2x128x128_S1x128x128_1_0_0 : S2x128x128.Slices ![1, 0, 0] S1x128x128
  slices_S2x128_S1x128_1_0 : S2x128.Slices ![1, 0] S1x128
  shapeCasts_S100000_S100000x1 : S100000.ShapeCasts S100000x1
  inb_S512x128_S512x128_0_0 : ∀ a, (![0, 0] : Fin 2 → Nat) a + S512x128.size a ≤ S512x128.size a
  h_S512x128 : 0 < S512x128.numel
  shapeCasts_S512x128_S512x128 : S512x128.ShapeCasts S512x128
  inb_S512x1_S512x1_0_0 : ∀ a, (![0, 0] : Fin 2 → Nat) a + S512x1.size a ≤ S512x1.size a
  h_S512x1 : 0 < S512x1.numel
  shapeCasts_S512x1_S512x1 : S512x1.ShapeCasts S512x1
  inb_S5000x1_S5000x1_0_0 : ∀ a, (![0, 0] : Fin 2 → Nat) a + S5000x1.size a ≤ S5000x1.size a
  h_S5000x1 : 0 < S5000x1.numel
  shapeCasts_S5000x1_S5000x1 : S5000x1.ShapeCasts S5000x1
  iota_S5000x512_d1_w32 : S5000x512.Iotas .tc 32 [1]
  broadcasts_S5000x1_S5000x512 : S5000x1.Broadcasts S5000x512
  natLt_1_32 : 1 < 32
  inb_S5000x128_S5000x128_0_0 : ∀ a, (![0, 0] : Fin 2 → Nat) a + S5000x128.size a ≤ S5000x128.size a
  h_S5000x128 : 0 < S5000x128.numel
  shapeCasts_S5000x128_S5000x128 : S5000x128.ShapeCasts S5000x128
  reduces_S5000x512_S512 : S5000x512.Reduces [0] S512
  shapeCasts_S512_S512x1 : S512.ShapeCasts S512x1
  bcast_S_S512x1 : S_.BroadcastsInDim S512x1 (![] : Fin 0 → Fin S512x1.rank)
  bcast_S512x1_S512x128_0_1 : S512x1.BroadcastsInDim S512x128 (![0, 1] : Fin 2 → Fin S512x128.rank)
  bcast_S16_S1x16_1 : S16.BroadcastsInDim S1x16 (![1] : Fin 1 → Fin S1x16.rank)
  bcast_S1x16_S512x16_0_1 : S1x16.BroadcastsInDim S512x16 (![0, 1] : Fin 2 → Fin S512x16.rank)
  scatter_S100000_S1700000x1_S1700000_n_0_0_1_wf : ScatterDims.WF S100000 S1700000x1 S1700000 [] [0] [0] 1
  gather_S100000_S1700000x1_S1700000_n_0_n_n_0_1_1_wf : GatherDims.WF S100000 S1700000x1 S1700000 [] [0] [] [0] [] 1 ![1]
  dot_S10000x128_S128x128_S10000x128_1_0_0_1_n_n_wf : DotDims.WF S10000x128 S128x128 S10000x128 [1] [0] [0] [1] [] []
  dot_S10000x64_S64x128_S10000x128_1_0_0_1_n_n_wf : DotDims.WF S10000x64 S64x128 S10000x128 [1] [0] [0] [1] [] []
  gather_S100000x128_S1700000x1_S1700000x128_1_0_n_n_0_1_1128_wf : GatherDims.WF S100000x128 S1700000x1 S1700000x128 [1] [0] [] [0] [] 1 ![1, 128]
  scatter_S100000x128_S1700000x1_S1700000x128_1_0_0_1_wf : ScatterDims.WF S100000x128 S1700000x1 S1700000x128 [1] [0] [0] 1
  dot_S5000x512_S5000x128_S512x128_0_0_1_1_n_n_wf : DotDims.WF S5000x512 S5000x128 S512x128 [0] [0] [1] [1] [] []
  dot_S512x128_S128x16_S512x16_1_0_0_1_n_n_wf : DotDims.WF S512x128 S128x16 S512x16 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S10000x128.size a ≤ S100000x128.size a
  hwx0_0 : ∀ i : grid0.Coords, EltTy.bits .f32 = 32 ∨ (Rect.block (s := S100000x128) S10000x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x128.size a ≤ S128x128.size a
  hwx0_1 : ∀ i : grid0.Coords, EltTy.bits .f32 = 32 ∨ (Rect.block (s := S128x128) S128x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x128.size a ≤ S1x128.size a
  hwx0_2 : ∀ i : grid0.Coords, EltTy.bits .f32 = 32 ∨ (Rect.block (s := S1x128) S1x128.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S10000x128.size a ≤ S100000x128.size a
  hwx0_3 : ∀ i : grid0.Coords, EltTy.bits .f32 = 32 ∨ (Rect.block (s := S100000x128) S10000x128.size (cc0_transform_3 i) (hinb0_3 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S10000x64.size a ≤ S100000x64.size a
  hwx1_0 : ∀ i : grid1.Coords, EltTy.bits .f32 = 32 ∨ (Rect.block (s := S100000x64) S10000x64.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S64x128.size a ≤ S64x128.size a
  hwx1_1 : ∀ i : grid1.Coords, EltTy.bits .f32 = 32 ∨ (Rect.block (s := S64x128) S64x128.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S10000x128.size a ≤ S100000x128.size a
  hwx1_2 : ∀ i : grid1.Coords, EltTy.bits .f32 = 32 ∨ (Rect.block (s := S100000x128) S10000x128.size (cc1_transform_2 i) (hinb1_2 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S10000x128.size a ≤ S100000x128.size a
  hwx2_0 : ∀ i : grid2.Coords, EltTy.bits .f32 = 32 ∨ (Rect.block (s := S100000x128) S10000x128.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S1x128.size a ≤ S1x128.size a
  hwx2_1 : ∀ i : grid2.Coords, EltTy.bits .f32 = 32 ∨ (Rect.block (s := S1x128) S1x128.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S10000x128.size a ≤ S100000x128.size a
  hwx2_2 : ∀ i : grid2.Coords, EltTy.bits .f32 = 32 ∨ (Rect.block (s := S100000x128) S10000x128.size (cc2_transform_2 i) (hinb2_2 i)).WholeWords (EltTy.packing .f32)
  hstage2_3 : ∀ j, (stage2_3 j).IsWhole
  nbuf2_3 : grid2.bufCount reads2_3 false = 2
  hreads2_3 : ∀ i i' : grid2.Coords, (∀ a, reads2_3 a = true → i a = i' a) → cc2_transform_3 i = cc2_transform_3 i'
  hinb2_3 : ∀ (i : grid2.Coords) a, (cc2_transform_3 i a + 1) * S10000x128.size a ≤ S100000x128.size a
  hwx2_3 : ∀ i : grid2.Coords, EltTy.bits .f32 = 32 ∨ (Rect.block (s := S100000x128) S10000x128.size (cc2_transform_3 i) (hinb2_3 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S10000x128.size a ≤ S100000x128.size a
  hwx3_0 : ∀ i : grid3.Coords, EltTy.bits .f32 = 32 ∨ (Rect.block (s := S100000x128) S10000x128.size (cc3_transform_0 i) (hinb3_0 i)).WholeWords (EltTy.packing .f32)
  hstage3_1 : ∀ j, (stage3_1 j).IsWhole
  nbuf3_1 : grid3.bufCount reads3_1 true = 1
  hreads3_1 : ∀ i i' : grid3.Coords, (∀ a, reads3_1 a = true → i a = i' a) → cc3_transform_1 i = cc3_transform_1 i'
  hinb3_1 : ∀ (i : grid3.Coords) a, (cc3_transform_1 i a + 1) * S128x128.size a ≤ S128x128.size a
  hwx3_1 : ∀ i : grid3.Coords, EltTy.bits .f32 = 32 ∨ (Rect.block (s := S128x128) S128x128.size (cc3_transform_1 i) (hinb3_1 i)).WholeWords (EltTy.packing .f32)
  hstage3_2 : ∀ j, (stage3_2 j).IsWhole
  nbuf3_2 : grid3.bufCount reads3_2 false = 2
  hreads3_2 : ∀ i i' : grid3.Coords, (∀ a, reads3_2 a = true → i a = i' a) → cc3_transform_2 i = cc3_transform_2 i'
  hinb3_2 : ∀ (i : grid3.Coords) a, (cc3_transform_2 i a + 1) * S10000x128.size a ≤ S100000x128.size a
  hwx3_2 : ∀ i : grid3.Coords, EltTy.bits .f32 = 32 ∨ (Rect.block (s := S100000x128) S10000x128.size (cc3_transform_2 i) (hinb3_2 i)).WholeWords (EltTy.packing .f32)
  hrank4 : 0 < grid4.rank
  hstage4_0 : ∀ j, (stage4_0 j).IsWhole
  nbuf4_0 : grid4.bufCount reads4_0 false = 2
  hreads4_0 : ∀ i i' : grid4.Coords, (∀ a, reads4_0 a = true → i a = i' a) → cc4_transform_0 i = cc4_transform_0 i'
  hinb4_0 : ∀ (i : grid4.Coords) a, (cc4_transform_0 i a + 1) * S10000x128.size a ≤ S100000x128.size a
  hwx4_0 : ∀ i : grid4.Coords, EltTy.bits .f32 = 32 ∨ (Rect.block (s := S100000x128) S10000x128.size (cc4_transform_0 i) (hinb4_0 i)).WholeWords (EltTy.packing .f32)
  hstage4_1 : ∀ j, (stage4_1 j).IsWhole
  nbuf4_1 : grid4.bufCount reads4_1 true = 1
  hreads4_1 : ∀ i i' : grid4.Coords, (∀ a, reads4_1 a = true → i a = i' a) → cc4_transform_1 i = cc4_transform_1 i'
  hinb4_1 : ∀ (i : grid4.Coords) a, (cc4_transform_1 i a + 1) * S1x128.size a ≤ S1x128.size a
  hwx4_1 : ∀ i : grid4.Coords, EltTy.bits .f32 = 32 ∨ (Rect.block (s := S1x128) S1x128.size (cc4_transform_1 i) (hinb4_1 i)).WholeWords (EltTy.packing .f32)
  hstage4_2 : ∀ j, (stage4_2 j).IsWhole
  nbuf4_2 : grid4.bufCount reads4_2 false = 2
  hreads4_2 : ∀ i i' : grid4.Coords, (∀ a, reads4_2 a = true → i a = i' a) → cc4_transform_2 i = cc4_transform_2 i'
  hinb4_2 : ∀ (i : grid4.Coords) a, (cc4_transform_2 i a + 1) * S10000x128.size a ≤ S100000x128.size a
  hwx4_2 : ∀ i : grid4.Coords, EltTy.bits .f32 = 32 ∨ (Rect.block (s := S100000x128) S10000x128.size (cc4_transform_2 i) (hinb4_2 i)).WholeWords (EltTy.packing .f32)
  hrank5 : 0 < grid5.rank
  hstage5_0 : ∀ j, (stage5_0 j).IsWhole
  nbuf5_0 : grid5.bufCount reads5_0 false = 2
  hreads5_0 : ∀ i i' : grid5.Coords, (∀ a, reads5_0 a = true → i a = i' a) → cc5_transform_0 i = cc5_transform_0 i'
  hinb5_0 : ∀ (i : grid5.Coords) a, (cc5_transform_0 i a + 1) * S10000x128.size a ≤ S100000x128.size a
  hwx5_0 : ∀ i : grid5.Coords, EltTy.bits .f32 = 32 ∨ (Rect.block (s := S100000x128) S10000x128.size (cc5_transform_0 i) (hinb5_0 i)).WholeWords (EltTy.packing .f32)
  hstage5_1 : ∀ j, (stage5_1 j).IsWhole
  nbuf5_1 : grid5.bufCount reads5_1 true = 1
  hreads5_1 : ∀ i i' : grid5.Coords, (∀ a, reads5_1 a = true → i a = i' a) → cc5_transform_1 i = cc5_transform_1 i'
  hinb5_1 : ∀ (i : grid5.Coords) a, (cc5_transform_1 i a + 1) * S128x128.size a ≤ S128x128.size a
  hwx5_1 : ∀ i : grid5.Coords, EltTy.bits .f32 = 32 ∨ (Rect.block (s := S128x128) S128x128.size (cc5_transform_1 i) (hinb5_1 i)).WholeWords (EltTy.packing .f32)
  hstage5_2 : ∀ j, (stage5_2 j).IsWhole
  nbuf5_2 : grid5.bufCount reads5_2 false = 2
  hreads5_2 : ∀ i i' : grid5.Coords, (∀ a, reads5_2 a = true → i a = i' a) → cc5_transform_2 i = cc5_transform_2 i'
  hinb5_2 : ∀ (i : grid5.Coords) a, (cc5_transform_2 i a + 1) * S10000x128.size a ≤ S100000x128.size a
  hwx5_2 : ∀ i : grid5.Coords, EltTy.bits .f32 = 32 ∨ (Rect.block (s := S100000x128) S10000x128.size (cc5_transform_2 i) (hinb5_2 i)).WholeWords (EltTy.packing .f32)
  hrank6 : 0 < grid6.rank
  hstage6_0 : ∀ j, (stage6_0 j).IsWhole
  nbuf6_0 : grid6.bufCount reads6_0 false = 2
  hreads6_0 : ∀ i i' : grid6.Coords, (∀ a, reads6_0 a = true → i a = i' a) → cc6_transform_0 i = cc6_transform_0 i'
  hinb6_0 : ∀ (i : grid6.Coords) a, (cc6_transform_0 i a + 1) * S10000x128.size a ≤ S100000x128.size a
  hwx6_0 : ∀ i : grid6.Coords, EltTy.bits .f32 = 32 ∨ (Rect.block (s := S100000x128) S10000x128.size (cc6_transform_0 i) (hinb6_0 i)).WholeWords (EltTy.packing .f32)
  hstage6_1 : ∀ j, (stage6_1 j).IsWhole
  nbuf6_1 : grid6.bufCount reads6_1 true = 1
  hreads6_1 : ∀ i i' : grid6.Coords, (∀ a, reads6_1 a = true → i a = i' a) → cc6_transform_1 i = cc6_transform_1 i'
  hinb6_1 : ∀ (i : grid6.Coords) a, (cc6_transform_1 i a + 1) * S1x128.size a ≤ S1x128.size a
  hwx6_1 : ∀ i : grid6.Coords, EltTy.bits .f32 = 32 ∨ (Rect.block (s := S1x128) S1x128.size (cc6_transform_1 i) (hinb6_1 i)).WholeWords (EltTy.packing .f32)
  hstage6_2 : ∀ j, (stage6_2 j).IsWhole
  nbuf6_2 : grid6.bufCount reads6_2 false = 2
  hreads6_2 : ∀ i i' : grid6.Coords, (∀ a, reads6_2 a = true → i a = i' a) → cc6_transform_2 i = cc6_transform_2 i'
  hinb6_2 : ∀ (i : grid6.Coords) a, (cc6_transform_2 i a + 1) * S10000x128.size a ≤ S100000x128.size a
  hwx6_2 : ∀ i : grid6.Coords, EltTy.bits .f32 = 32 ∨ (Rect.block (s := S100000x128) S10000x128.size (cc6_transform_2 i) (hinb6_2 i)).WholeWords (EltTy.packing .f32)
  hrank7 : 0 < grid7.rank
  hstage7_0 : ∀ j, (stage7_0 j).IsWhole
  nbuf7_0 : grid7.bufCount reads7_0 false = 2
  hreads7_0 : ∀ i i' : grid7.Coords, (∀ a, reads7_0 a = true → i a = i' a) → cc7_transform_0 i = cc7_transform_0 i'
  hinb7_0 : ∀ (i : grid7.Coords) a, (cc7_transform_0 i a + 1) * S5000x128.size a ≤ S100000x128.size a
  hwx7_0 : ∀ i : grid7.Coords, EltTy.bits .f32 = 32 ∨ (Rect.block (s := S100000x128) S5000x128.size (cc7_transform_0 i) (hinb7_0 i)).WholeWords (EltTy.packing .f32)
  hstage7_1 : ∀ j, (stage7_1 j).IsWhole
  nbuf7_1 : grid7.bufCount reads7_1 false = 2
  hreads7_1 : ∀ i i' : grid7.Coords, (∀ a, reads7_1 a = true → i a = i' a) → cc7_transform_1 i = cc7_transform_1 i'
  hinb7_1 : ∀ (i : grid7.Coords) a, (cc7_transform_1 i a + 1) * S5000x1.size a ≤ S100000x1.size a
  hwx7_1 : ∀ i : grid7.Coords, EltTy.bits .i32 = 32 ∨ (Rect.block (s := S100000x1) S5000x1.size (cc7_transform_1 i) (hinb7_1 i)).WholeWords (EltTy.packing .i32)
  hstage7_2 : ∀ j, (stage7_2 j).IsWhole
  nbuf7_2 : grid7.bufCount reads7_2 true = 1
  hreads7_2 : ∀ i i' : grid7.Coords, (∀ a, reads7_2 a = true → i a = i' a) → cc7_transform_2 i = cc7_transform_2 i'
  hinb7_2 : ∀ (i : grid7.Coords) a, (cc7_transform_2 i a + 1) * S512x128.size a ≤ S512x128.size a
  hwx7_2 : ∀ i : grid7.Coords, EltTy.bits .f32 = 32 ∨ (Rect.block (s := S512x128) S512x128.size (cc7_transform_2 i) (hinb7_2 i)).WholeWords (EltTy.packing .f32)
  hstage7_3 : ∀ j, (stage7_3 j).IsWhole
  nbuf7_3 : grid7.bufCount reads7_3 true = 1
  hreads7_3 : ∀ i i' : grid7.Coords, (∀ a, reads7_3 a = true → i a = i' a) → cc7_transform_3 i = cc7_transform_3 i'
  hinb7_3 : ∀ (i : grid7.Coords) a, (cc7_transform_3 i a + 1) * S512x1.size a ≤ S512x1.size a
  hwx7_3 : ∀ i : grid7.Coords, EltTy.bits .f32 = 32 ∨ (Rect.block (s := S512x1) S512x1.size (cc7_transform_3 i) (hinb7_3 i)).WholeWords (EltTy.packing .f32)

variable [Facts₀]

def scatter_S100000_S1700000x1_S1700000_n_0_0_1 : ScatterDims S100000 S1700000x1 S1700000 where
  updateWindowDims := []
  insertedWindowDims := [0]
  scatterDimsToOperandDims := [0]
  indexVectorDim := 1
  wf := scatter_S100000_S1700000x1_S1700000_n_0_0_1_wf
def gather_S100000_S1700000x1_S1700000_n_0_n_n_0_1_1 : GatherDims S100000 S1700000x1 S1700000 where
  offsetDims := []
  collapsedSliceDims := [0]
  operandBatchingDims := []
  startIndicesBatchingDims := []
  startIndexMap := [0]
  indexVectorDim := 1
  sliceSizes := ![1]
  wf := gather_S100000_S1700000x1_S1700000_n_0_n_n_0_1_1_wf
def dot_S10000x128_S128x128_S10000x128_1_0_0_1_n_n : DotDims S10000x128 S128x128 S10000x128 where
  lhsContracting := [1]
  rhsContracting := [0]
  lhsNonContracting := [0]
  rhsNonContracting := [1]
  lhsBatch := []
  rhsBatch := []
  wf := dot_S10000x128_S128x128_S10000x128_1_0_0_1_n_n_wf
def dot_S10000x64_S64x128_S10000x128_1_0_0_1_n_n : DotDims S10000x64 S64x128 S10000x128 where
  lhsContracting := [1]
  rhsContracting := [0]
  lhsNonContracting := [0]
  rhsNonContracting := [1]
  lhsBatch := []
  rhsBatch := []
  wf := dot_S10000x64_S64x128_S10000x128_1_0_0_1_n_n_wf
def gather_S100000x128_S1700000x1_S1700000x128_1_0_n_n_0_1_1128 : GatherDims S100000x128 S1700000x1 S1700000x128 where
  offsetDims := [1]
  collapsedSliceDims := [0]
  operandBatchingDims := []
  startIndicesBatchingDims := []
  startIndexMap := [0]
  indexVectorDim := 1
  sliceSizes := ![1, 128]
  wf := gather_S100000x128_S1700000x1_S1700000x128_1_0_n_n_0_1_1128_wf
def scatter_S100000x128_S1700000x1_S1700000x128_1_0_0_1 : ScatterDims S100000x128 S1700000x1 S1700000x128 where
  updateWindowDims := [1]
  insertedWindowDims := [0]
  scatterDimsToOperandDims := [0]
  indexVectorDim := 1
  wf := scatter_S100000x128_S1700000x1_S1700000x128_1_0_0_1_wf
def dot_S5000x512_S5000x128_S512x128_0_0_1_1_n_n : DotDims S5000x512 S5000x128 S512x128 where
  lhsContracting := [0]
  rhsContracting := [0]
  lhsNonContracting := [1]
  rhsNonContracting := [1]
  lhsBatch := []
  rhsBatch := []
  wf := dot_S5000x512_S5000x128_S512x128_0_0_1_1_n_n_wf
def dot_S512x128_S128x16_S512x16_1_0_0_1_n_n : DotDims S512x128 S128x16 S512x16 where
  lhsContracting := [1]
  rhsContracting := [0]
  lhsNonContracting := [0]
  rhsNonContracting := [1]
  lhsBatch := []
  rhsBatch := []
  wf := dot_S512x128_S128x16_S512x16_1_0_0_1_n_n_wf

abbrev win0_0 : Pipeline.Window sig grid0 :=
  Pipeline.Window.ofSpec (Memref.whole main_arg2) S10000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg4) S128x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v30) S1x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v31) S10000x128.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev win1_0 : Pipeline.Window sig grid1 :=
  Pipeline.Window.ofSpec (Memref.whole main_arg0) S10000x64.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_arg6) S64x128.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v32) S10000x128.size cc1_transform_2 reads1_2 true false 2 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

abbrev win2_0 : Pipeline.Window sig grid2 :=
  Pipeline.Window.ofSpec (Memref.whole main_v45) S10000x128.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v46) S1x128.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v31) S10000x128.size cc2_transform_2 reads2_2 false false 2 stage2_2 sem2_2
    hrank2 hreads2_2 hinb2_2 nbuf2_2 (Memref.isWhole_whole _) hwx2_2 hstage2_2

abbrev win2_3 : Pipeline.Window sig grid2 :=
  Pipeline.Window.ofSpec (Memref.whole main_v47) S10000x128.size cc2_transform_3 reads2_3 true false 2 stage2_3 sem2_3
    hrank2 hreads2_3 hinb2_3 nbuf2_3 (Memref.isWhole_whole _) hwx2_3 hstage2_3

abbrev win2 : Fin 4 → Pipeline.Window sig grid2 := fun | 0 => win2_0 | 1 => win2_1 | 2 => win2_2 | 3 => win2_3 | ⟨_ + 4, h⟩ => absurd h (Nat.not_lt.2 (Nat.le_add_left _ _))
abbrev spec2 : Fin 4 → Pipeline.WinSpec sig grid2.rank := fun w => (win2 w).toWinSpec

abbrev win3_0 : Pipeline.Window sig grid3 :=
  Pipeline.Window.ofSpec (Memref.whole main_v47) S10000x128.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v49) S128x128.size cc3_transform_1 reads3_1 false true 1 stage3_1 sem3_1
    hrank3 hreads3_1 hinb3_1 nbuf3_1 (Memref.isWhole_whole _) hwx3_1 hstage3_1

abbrev win3_2 : Pipeline.Window sig grid3 :=
  Pipeline.Window.ofSpec (Memref.whole main_v50) S10000x128.size cc3_transform_2 reads3_2 true false 2 stage3_2 sem3_2
    hrank3 hreads3_2 hinb3_2 nbuf3_2 (Memref.isWhole_whole _) hwx3_2 hstage3_2

abbrev win3 : Fin 3 → Pipeline.Window sig grid3 := fun | 0 => win3_0 | 1 => win3_1 | 2 => win3_2 | ⟨_ + 3, h⟩ => absurd h (Nat.not_lt.2 (Nat.le_add_left _ _))
abbrev spec3 : Fin 3 → Pipeline.WinSpec sig grid3.rank := fun w => (win3 w).toWinSpec

abbrev win4_0 : Pipeline.Window sig grid4 :=
  Pipeline.Window.ofSpec (Memref.whole main_v63) S10000x128.size cc4_transform_0 reads4_0 false false 2 stage4_0 sem4_0
    hrank4 hreads4_0 hinb4_0 nbuf4_0 (Memref.isWhole_whole _) hwx4_0 hstage4_0

abbrev win4_1 : Pipeline.Window sig grid4 :=
  Pipeline.Window.ofSpec (Memref.whole main_v66) S1x128.size cc4_transform_1 reads4_1 false true 1 stage4_1 sem4_1
    hrank4 hreads4_1 hinb4_1 nbuf4_1 (Memref.isWhole_whole _) hwx4_1 hstage4_1

abbrev win4_2 : Pipeline.Window sig grid4 :=
  Pipeline.Window.ofSpec (Memref.whole main_v67) S10000x128.size cc4_transform_2 reads4_2 true false 2 stage4_2 sem4_2
    hrank4 hreads4_2 hinb4_2 nbuf4_2 (Memref.isWhole_whole _) hwx4_2 hstage4_2

abbrev win4 : Fin 3 → Pipeline.Window sig grid4 := fun | 0 => win4_0 | 1 => win4_1 | 2 => win4_2 | ⟨_ + 3, h⟩ => absurd h (Nat.not_lt.2 (Nat.le_add_left _ _))
abbrev spec4 : Fin 3 → Pipeline.WinSpec sig grid4.rank := fun w => (win4 w).toWinSpec

abbrev win5_0 : Pipeline.Window sig grid5 :=
  Pipeline.Window.ofSpec (Memref.whole main_v67) S10000x128.size cc5_transform_0 reads5_0 false false 2 stage5_0 sem5_0
    hrank5 hreads5_0 hinb5_0 nbuf5_0 (Memref.isWhole_whole _) hwx5_0 hstage5_0

abbrev win5_1 : Pipeline.Window sig grid5 :=
  Pipeline.Window.ofSpec (Memref.whole main_v69) S128x128.size cc5_transform_1 reads5_1 false true 1 stage5_1 sem5_1
    hrank5 hreads5_1 hinb5_1 nbuf5_1 (Memref.isWhole_whole _) hwx5_1 hstage5_1

abbrev win5_2 : Pipeline.Window sig grid5 :=
  Pipeline.Window.ofSpec (Memref.whole main_v70) S10000x128.size cc5_transform_2 reads5_2 true false 2 stage5_2 sem5_2
    hrank5 hreads5_2 hinb5_2 nbuf5_2 (Memref.isWhole_whole _) hwx5_2 hstage5_2

abbrev win5 : Fin 3 → Pipeline.Window sig grid5 := fun | 0 => win5_0 | 1 => win5_1 | 2 => win5_2 | ⟨_ + 3, h⟩ => absurd h (Nat.not_lt.2 (Nat.le_add_left _ _))
abbrev spec5 : Fin 3 → Pipeline.WinSpec sig grid5.rank := fun w => (win5 w).toWinSpec

abbrev win6_0 : Pipeline.Window sig grid6 :=
  Pipeline.Window.ofSpec (Memref.whole main_v83) S10000x128.size cc6_transform_0 reads6_0 false false 2 stage6_0 sem6_0
    hrank6 hreads6_0 hinb6_0 nbuf6_0 (Memref.isWhole_whole _) hwx6_0 hstage6_0

abbrev win6_1 : Pipeline.Window sig grid6 :=
  Pipeline.Window.ofSpec (Memref.whole main_v86) S1x128.size cc6_transform_1 reads6_1 false true 1 stage6_1 sem6_1
    hrank6 hreads6_1 hinb6_1 nbuf6_1 (Memref.isWhole_whole _) hwx6_1 hstage6_1

abbrev win6_2 : Pipeline.Window sig grid6 :=
  Pipeline.Window.ofSpec (Memref.whole main_v87) S10000x128.size cc6_transform_2 reads6_2 true false 2 stage6_2 sem6_2
    hrank6 hreads6_2 hinb6_2 nbuf6_2 (Memref.isWhole_whole _) hwx6_2 hstage6_2

abbrev win6 : Fin 3 → Pipeline.Window sig grid6 := fun | 0 => win6_0 | 1 => win6_1 | 2 => win6_2 | ⟨_ + 3, h⟩ => absurd h (Nat.not_lt.2 (Nat.le_add_left _ _))
abbrev spec6 : Fin 3 → Pipeline.WinSpec sig grid6.rank := fun w => (win6 w).toWinSpec

abbrev win7_0 : Pipeline.Window sig grid7 :=
  Pipeline.Window.ofSpec (Memref.whole main_v87) S5000x128.size cc7_transform_0 reads7_0 false false 2 stage7_0 sem7_0
    hrank7 hreads7_0 hinb7_0 nbuf7_0 (Memref.isWhole_whole _) hwx7_0 hstage7_0

abbrev win7_1 : Pipeline.Window sig grid7 :=
  Pipeline.Window.ofSpec (Memref.whole main_v88) S5000x1.size cc7_transform_1 reads7_1 false false 2 stage7_1 sem7_1
    hrank7 hreads7_1 hinb7_1 nbuf7_1 (Memref.isWhole_whole _) hwx7_1 hstage7_1

abbrev win7_2 : Pipeline.Window sig grid7 :=
  Pipeline.Window.ofSpec (Memref.whole main_v89_0) S512x128.size cc7_transform_2 reads7_2 true true 1 stage7_2 sem7_2
    hrank7 hreads7_2 hinb7_2 nbuf7_2 (Memref.isWhole_whole _) hwx7_2 hstage7_2

abbrev win7_3 : Pipeline.Window sig grid7 :=
  Pipeline.Window.ofSpec (Memref.whole main_v89_1) S512x1.size cc7_transform_3 reads7_3 true true 1 stage7_3 sem7_3
    hrank7 hreads7_3 hinb7_3 nbuf7_3 (Memref.isWhole_whole _) hwx7_3 hstage7_3

abbrev win7 : Fin 4 → Pipeline.Window sig grid7 := fun | 0 => win7_0 | 1 => win7_1 | 2 => win7_2 | 3 => win7_3 | ⟨_ + 4, h⟩ => absurd h (Nat.not_lt.2 (Nat.le_add_left _ _))
abbrev spec7 : Fin 4 → Pipeline.WinSpec sig grid7.rank := fun w => (win7 w).toWinSpec

abbrev idle7 : Fin 4 → grid7.Coords → Bool := fun | 0 => fun _ => false | 1 => fun _ => false | 2 => fun i => !(k7_cond2 i == 1#1) | 3 => fun i => !(k7_cond2 i == 1#1) | ⟨_ + 4, h⟩ => absurd h (Nat.not_lt.2 (Nat.le_add_left _ _))

class Facts : Prop extends Facts₀ where

variable [Facts]
-- ==== ReferenceIdeal.lean ====
abbrev S100000x64 : Shape := ⟨2, ![100000, 64]⟩
abbrev S2x1600000 : Shape := ⟨2, ![2, 1600000]⟩
abbrev S100000x128 : Shape := ⟨2, ![100000, 128]⟩
abbrev S100000 : Shape := ⟨1, ![100000]⟩
abbrev S128x128 : Shape := ⟨2, ![128, 128]⟩
abbrev S128 : Shape := ⟨1, ![128]⟩
abbrev S64x128 : Shape := ⟨2, ![64, 128]⟩
abbrev S2x128x128 : Shape := ⟨3, ![2, 128, 128]⟩
abbrev S2x128 : Shape := ⟨2, ![2, 128]⟩
abbrev S128x16 : Shape := ⟨2, ![128, 16]⟩
abbrev S16 : Shape := ⟨1, ![16]⟩
abbrev S1x1600000 : Shape := ⟨2, ![1, 1600000]⟩
abbrev S1600000 : Shape := ⟨1, ![1600000]⟩
abbrev S1700000 : Shape := ⟨1, ![1700000]⟩
abbrev S_ : Shape := ⟨0, ![]⟩
abbrev S1700000x1 : Shape := ⟨2, ![1700000, 1]⟩
abbrev S1x128 : Shape := ⟨2, ![1, 128]⟩
abbrev S1700000x128 : Shape := ⟨2, ![1700000, 128]⟩
abbrev S1x128x128 : Shape := ⟨3, ![1, 128, 128]⟩
abbrev S512x128 : Shape := ⟨2, ![512, 128]⟩
abbrev S100000x1 : Shape := ⟨2, ![100000, 1]⟩
abbrev S512 : Shape := ⟨1, ![512]⟩
abbrev S512x1 : Shape := ⟨2, ![512, 1]⟩
abbrev S512x16 : Shape := ⟨2, ![512, 16]⟩
abbrev S1x16 : Shape := ⟨2, ![1, 16]⟩

abbrev nBuf : Space → Nat
  | .hbm => 157
  | .vmem => 0
  | .smem => 0
  | _ => 0

abbrev hbmTy0_0 (i : Nat) : BufTy := match i % 128 with
  | 0 => ⟨S100000x64, .f32⟩
  | 1 => ⟨S2x1600000, .i32⟩
  | 2 => ⟨S100000x128, .f32⟩
  | 3 => ⟨S100000, .i32⟩
  | 4 => ⟨S128x128, .f32⟩
  | 5 => ⟨S128, .f32⟩
  | 6 => ⟨S64x128, .f32⟩
  | 7 => ⟨S128, .f32⟩
  | 8 => ⟨S2x128x128, .f32⟩
  | 9 => ⟨S2x128, .f32⟩
  | 10 => ⟨S128x16, .f32⟩
  | 11 => ⟨S16, .f32⟩
  | 12 => ⟨S100000, .i32⟩
  | 13 => ⟨S1x1600000, .i32⟩
  | 14 => ⟨S1600000, .i32⟩
  | 15 => ⟨S1700000, .i32⟩
  | 16 => ⟨S1x1600000, .i32⟩
  | 17 => ⟨S1600000, .i32⟩
  | 18 => ⟨S1700000, .i32⟩
  | 19 => ⟨S_, .f32⟩
  | 20 => ⟨S1700000, .f32⟩
  | 21 => ⟨S_, .f32⟩
  | 22 => ⟨S100000, .f32⟩
  | 23 => ⟨S1700000x1, .i32⟩
  | 24 => ⟨S100000, .f32⟩
  | 25 => ⟨S_, .f32⟩
  | 26 => ⟨S100000, .f32⟩
  | 27 => ⟨S100000, .i1⟩
  | 28 => ⟨S100000, .f32⟩
  | 29 => ⟨S_, .f32⟩
  | 30 => ⟨S_, .f32⟩
  | 31 => ⟨S100000, .f32⟩
  | 32 => ⟨S100000, .f32⟩
  | 33 => ⟨S_, .i32⟩
  | 34 => ⟨S1700000, .i32⟩
  | 35 => ⟨S1700000, .i1⟩
  | 36 => ⟨S_, .i32⟩
  | 37 => ⟨S1700000, .i32⟩
  | 38 => ⟨S1700000, .i32⟩
  | 39 => ⟨S1700000, .i32⟩
  | 40 => ⟨S1700000x1, .i32⟩
  | 41 => ⟨S1700000, .f32⟩
  | 42 => ⟨S_, .i32⟩
  | 43 => ⟨S1700000, .i32⟩
  | 44 => ⟨S1700000, .i1⟩
  | 45 => ⟨S_, .i32⟩
  | 46 => ⟨S1700000, .i32⟩
  | 47 => ⟨S1700000, .i32⟩
  | 48 => ⟨S1700000, .i32⟩
  | 49 => ⟨S1700000x1, .i32⟩
  | 50 => ⟨S1700000, .f32⟩
  | 51 => ⟨S1700000, .f32⟩
  | 52 => ⟨S100000x128, .f32⟩
  | 53 => ⟨S1x128, .f32⟩
  | 54 => ⟨S100000x128, .f32⟩
  | 55 => ⟨S100000x128, .f32⟩
  | 56 => ⟨S_, .f32⟩
  | 57 => ⟨S100000x128, .f32⟩
  | 58 => ⟨S100000x128, .f32⟩
  | 59 => ⟨S100000x128, .f32⟩
  | 60 => ⟨S_, .i32⟩
  | 61 => ⟨S1700000, .i32⟩
  | 62 => ⟨S1700000, .i1⟩
  | 63 => ⟨S_, .i32⟩
  | 64 => ⟨S1700000, .i32⟩
  | 65 => ⟨S1700000, .i32⟩
  | 66 => ⟨S1700000, .i32⟩
  | 67 => ⟨S1700000x1, .i32⟩
  | 68 => ⟨S1700000x128, .f32⟩
  | 69 => ⟨S1700000x1, .f32⟩
  | 70 => ⟨S1700000x128, .f32⟩
  | 71 => ⟨S1700000x128, .f32⟩
  | 72 => ⟨S_, .f32⟩
  | 73 => ⟨S100000x128, .f32⟩
  | 74 => ⟨S1700000x1, .i32⟩
  | 75 => ⟨S100000x128, .f32⟩
  | 76 => ⟨S1x128, .f32⟩
  | 77 => ⟨S100000x128, .f32⟩
  | 78 => ⟨S100000x128, .f32⟩
  | 79 => ⟨S_, .f32⟩
  | 80 => ⟨S100000x128, .f32⟩
  | 81 => ⟨S100000x128, .f32⟩
  | 82 => ⟨S100000x128, .f32⟩
  | 83 => ⟨S1x128x128, .f32⟩
  | 84 => ⟨S128x128, .f32⟩
  | 85 => ⟨S1x128, .f32⟩
  | 86 => ⟨S128, .f32⟩
  | 87 => ⟨S100000x128, .f32⟩
  | 88 => ⟨S_, .i32⟩
  | 89 => ⟨S1700000, .i32⟩
  | 90 => ⟨S1700000, .i1⟩
  | 91 => ⟨S_, .i32⟩
  | 92 => ⟨S1700000, .i32⟩
  | 93 => ⟨S1700000, .i32⟩
  | 94 => ⟨S1700000, .i32⟩
  | 95 => ⟨S1700000x1, .i32⟩
  | 96 => ⟨S1700000x128, .f32⟩
  | 97 => ⟨S1700000x1, .f32⟩
  | 98 => ⟨S1700000x128, .f32⟩
  | 99 => ⟨S1700000x128, .f32⟩
  | 100 => ⟨S_, .f32⟩
  | 101 => ⟨S100000x128, .f32⟩
  | 102 => ⟨S1700000x1, .i32⟩
  | 103 => ⟨S100000x128, .f32⟩
  | 104 => ⟨S1x128, .f32⟩
  | 105 => ⟨S100000x128, .f32⟩
  | 106 => ⟨S100000x128, .f32⟩
  | 107 => ⟨S_, .f32⟩
  | 108 => ⟨S100000x128, .f32⟩
  | 109 => ⟨S100000x128, .f32⟩
  | 110 => ⟨S1x128x128, .f32⟩
  | 111 => ⟨S128x128, .f32⟩
  | 112 => ⟨S1x128, .f32⟩
  | 113 => ⟨S128, .f32⟩
  | 114 => ⟨S100000x128, .f32⟩
  | 115 => ⟨S_, .i32⟩
  | 116 => ⟨S1700000, .i32⟩
  | 117 => ⟨S1700000, .i1⟩
  | 118 => ⟨S_, .i32⟩
  | 119 => ⟨S1700000, .i32⟩
  | 120 => ⟨S1700000, .i32⟩
  | 121 => ⟨S1700000, .i32⟩
  | 122 => ⟨S1700000x1, .i32⟩
  | 123 => ⟨S1700000x128, .f32⟩
  | 124 => ⟨S1700000x1, .f32⟩
  | 125 => ⟨S1700000x128, .f32⟩
  | 126 => ⟨S1700000x128, .f32⟩
  | 127 => ⟨S_, .f32⟩
  | _ => ⟨S100000x64, .f32⟩

abbrev hbmTy0_1 (i : Nat) : BufTy := match i % 128 with
  | 0 => ⟨S100000x128, .f32⟩
  | 1 => ⟨S1700000x1, .i32⟩
  | 2 => ⟨S100000x128, .f32⟩
  | 3 => ⟨S1x128, .f32⟩
  | 4 => ⟨S100000x128, .f32⟩
  | 5 => ⟨S100000x128, .f32⟩
  | 6 => ⟨S_, .f32⟩
  | 7 => ⟨S100000x128, .f32⟩
  | 8 => ⟨S100000x128, .f32⟩
  | 9 => ⟨S_, .f32⟩
  | 10 => ⟨S512x128, .f32⟩
  | 11 => ⟨S100000x1, .i32⟩
  | 12 => ⟨S512x128, .f32⟩
  | 13 => ⟨S_, .f32⟩
  | 14 => ⟨S100000, .f32⟩
  | 15 => ⟨S_, .f32⟩
  | 16 => ⟨S512, .f32⟩
  | 17 => ⟨S100000x1, .i32⟩
  | 18 => ⟨S512, .f32⟩
  | 19 => ⟨S_, .f32⟩
  | 20 => ⟨S512, .f32⟩
  | 21 => ⟨S512, .f32⟩
  | 22 => ⟨S512x1, .f32⟩
  | 23 => ⟨S512x128, .f32⟩
  | 24 => ⟨S512x128, .f32⟩
  | 25 => ⟨S512x16, .f32⟩
  | 26 => ⟨S1x16, .f32⟩
  | 27 => ⟨S512x16, .f32⟩
  | 28 => ⟨S512x16, .f32⟩
  | _ => ⟨S100000x64, .f32⟩

abbrev hbmTy (i : Nat) : BufTy := match i / 128 with
  | 0 => hbmTy0_0 i
  | 1 => hbmTy0_1 i
  | _ => ⟨S100000x64, .f32⟩

abbrev bufTy : (tb : Table) → Fin (tcTables nBuf tb) → BufTy
  | .hbm, ⟨i, _⟩ => hbmTy i
  | _, _ => ⟨S100000x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_cst : Ref sig .tc := ⟨.hbm, 19, rfl⟩
abbrev main_v7 : Ref sig .tc := ⟨.hbm, 20, rfl⟩
abbrev main_cst_0 : Ref sig .tc := ⟨.hbm, 21, rfl⟩
abbrev main_v8 : Ref sig .tc := ⟨.hbm, 22, rfl⟩
abbrev main_v9 : Ref sig .tc := ⟨.hbm, 23, rfl⟩
abbrev main_v10 : Ref sig .tc := ⟨.hbm, 24, rfl⟩
abbrev main_cst_1 : Ref sig .tc := ⟨.hbm, 25, rfl⟩
abbrev main_v11 : Ref sig .tc := ⟨.hbm, 26, rfl⟩
abbrev main_v12 : Ref sig .tc := ⟨.hbm, 27, rfl⟩
abbrev main_v13 : Ref sig .tc := ⟨.hbm, 28, rfl⟩
abbrev main_cst_2 : Ref sig .tc := ⟨.hbm, 29, rfl⟩
abbrev main_call0_v0 : Ref sig .tc := ⟨.hbm, 30, rfl⟩
abbrev main_call0_v1 : Ref sig .tc := ⟨.hbm, 31, rfl⟩
abbrev main_v14 : Ref sig .tc := ⟨.hbm, 32, rfl⟩
abbrev main_c : Ref sig .tc := ⟨.hbm, 33, rfl⟩
abbrev main_v15 : Ref sig .tc := ⟨.hbm, 34, rfl⟩
abbrev main_v16 : Ref sig .tc := ⟨.hbm, 35, rfl⟩
abbrev main_c_3 : Ref sig .tc := ⟨.hbm, 36, rfl⟩
abbrev main_v17 : Ref sig .tc := ⟨.hbm, 37, rfl⟩
abbrev main_v18 : Ref sig .tc := ⟨.hbm, 38, rfl⟩
abbrev main_v19 : Ref sig .tc := ⟨.hbm, 39, rfl⟩
abbrev main_v20 : Ref sig .tc := ⟨.hbm, 40, rfl⟩
abbrev main_v21 : Ref sig .tc := ⟨.hbm, 41, rfl⟩
abbrev main_c_4 : Ref sig .tc := ⟨.hbm, 42, rfl⟩
abbrev main_v22 : Ref sig .tc := ⟨.hbm, 43, rfl⟩
abbrev main_v23 : Ref sig .tc := ⟨.hbm, 44, rfl⟩
abbrev main_c_5 : Ref sig .tc := ⟨.hbm, 45, rfl⟩
abbrev main_v24 : Ref sig .tc := ⟨.hbm, 46, rfl⟩
abbrev main_v25 : Ref sig .tc := ⟨.hbm, 47, rfl⟩
abbrev main_v26 : Ref sig .tc := ⟨.hbm, 48, rfl⟩
abbrev main_v27 : Ref sig .tc := ⟨.hbm, 49, rfl⟩
abbrev main_v28 : Ref sig .tc := ⟨.hbm, 50, rfl⟩
abbrev main_v29 : Ref sig .tc := ⟨.hbm, 51, rfl⟩
abbrev main_v30 : Ref sig .tc := ⟨.hbm, 52, rfl⟩
abbrev main_v31 : Ref sig .tc := ⟨.hbm, 53, rfl⟩
abbrev main_v32 : Ref sig .tc := ⟨.hbm, 54, rfl⟩
abbrev main_v33 : Ref sig .tc := ⟨.hbm, 55, rfl⟩
abbrev main_call1_cst : Ref sig .tc := ⟨.hbm, 56, rfl⟩
abbrev main_call1_v0 : Ref sig .tc := ⟨.hbm, 57, rfl⟩
abbrev main_v34 : Ref sig .tc := ⟨.hbm, 58, rfl⟩
abbrev main_v35 : Ref sig .tc := ⟨.hbm, 59, rfl⟩
abbrev main_c_6 : Ref sig .tc := ⟨.hbm, 60, rfl⟩
abbrev main_v36 : Ref sig .tc := ⟨.hbm, 61, rfl⟩
abbrev main_v37 : Ref sig .tc := ⟨.hbm, 62, rfl⟩
abbrev main_c_7 : Ref sig .tc := ⟨.hbm, 63, rfl⟩
abbrev main_v38 : Ref sig .tc := ⟨.hbm, 64, rfl⟩
abbrev main_v39 : Ref sig .tc := ⟨.hbm, 65, rfl⟩
abbrev main_v40 : Ref sig .tc := ⟨.hbm, 66, rfl⟩
abbrev main_v41 : Ref sig .tc := ⟨.hbm, 67, rfl⟩
abbrev main_v42 : Ref sig .tc := ⟨.hbm, 68, rfl⟩
abbrev main_v43 : Ref sig .tc := ⟨.hbm, 69, rfl⟩
abbrev main_v44 : Ref sig .tc := ⟨.hbm, 70, rfl⟩
abbrev main_v45 : Ref sig .tc := ⟨.hbm, 71, rfl⟩
abbrev main_cst_8 : Ref sig .tc := ⟨.hbm, 72, rfl⟩
abbrev main_v46 : Ref sig .tc := ⟨.hbm, 73, rfl⟩
abbrev main_v47 : Ref sig .tc := ⟨.hbm, 74, rfl⟩
abbrev main_v48 : Ref sig .tc := ⟨.hbm, 75, rfl⟩
abbrev main_v49 : Ref sig .tc := ⟨.hbm, 76, rfl⟩
abbrev main_v50 : Ref sig .tc := ⟨.hbm, 77, rfl⟩
abbrev main_v51 : Ref sig .tc := ⟨.hbm, 78, rfl⟩
abbrev main_call2_cst : Ref sig .tc := ⟨.hbm, 79, rfl⟩
abbrev main_call2_v0 : Ref sig .tc := ⟨.hbm, 80, rfl⟩
abbrev main_v52 : Ref sig .tc := ⟨.hbm, 81, rfl⟩
abbrev main_v53 : Ref sig .tc := ⟨.hbm, 82, rfl⟩
abbrev main_v54 : Ref sig .tc := ⟨.hbm, 83, rfl⟩
abbrev main_v55 : Ref sig .tc := ⟨.hbm, 84, rfl⟩
abbrev main_v56 : Ref sig .tc := ⟨.hbm, 85, rfl⟩
abbrev main_v57 : Ref sig .tc := ⟨.hbm, 86, rfl⟩
abbrev main_v58 : Ref sig .tc := ⟨.hbm, 87, rfl⟩
abbrev main_c_9 : Ref sig .tc := ⟨.hbm, 88, rfl⟩
abbrev main_v59 : Ref sig .tc := ⟨.hbm, 89, rfl⟩
abbrev main_v60 : Ref sig .tc := ⟨.hbm, 90, rfl⟩
abbrev main_c_10 : Ref sig .tc := ⟨.hbm, 91, rfl⟩
abbrev main_v61 : Ref sig .tc := ⟨.hbm, 92, rfl⟩
abbrev main_v62 : Ref sig .tc := ⟨.hbm, 93, rfl⟩
abbrev main_v63 : Ref sig .tc := ⟨.hbm, 94, rfl⟩
abbrev main_v64 : Ref sig .tc := ⟨.hbm, 95, rfl⟩
abbrev main_v65 : Ref sig .tc := ⟨.hbm, 96, rfl⟩
abbrev main_v66 : Ref sig .tc := ⟨.hbm, 97, rfl⟩
abbrev main_v67 : Ref sig .tc := ⟨.hbm, 98, rfl⟩
abbrev main_v68 : Ref sig .tc := ⟨.hbm, 99, rfl⟩
abbrev main_cst_11 : Ref sig .tc := ⟨.hbm, 100, rfl⟩
abbrev main_v69 : Ref sig .tc := ⟨.hbm, 101, rfl⟩
abbrev main_v70 : Ref sig .tc := ⟨.hbm, 102, rfl⟩
abbrev main_v71 : Ref sig .tc := ⟨.hbm, 103, rfl⟩
abbrev main_v72 : Ref sig .tc := ⟨.hbm, 104, rfl⟩
abbrev main_v73 : Ref sig .tc := ⟨.hbm, 105, rfl⟩
abbrev main_v74 : Ref sig .tc := ⟨.hbm, 106, rfl⟩
abbrev main_call3_cst : Ref sig .tc := ⟨.hbm, 107, rfl⟩
abbrev main_call3_v0 : Ref sig .tc := ⟨.hbm, 108, rfl⟩
abbrev main_v75 : Ref sig .tc := ⟨.hbm, 109, rfl⟩
abbrev main_v76 : Ref sig .tc := ⟨.hbm, 110, rfl⟩
abbrev main_v77 : Ref sig .tc := ⟨.hbm, 111, rfl⟩
abbrev main_v78 : Ref sig .tc := ⟨.hbm, 112, rfl⟩
abbrev main_v79 : Ref sig .tc := ⟨.hbm, 113, rfl⟩
abbrev main_v80 : Ref sig .tc := ⟨.hbm, 114, rfl⟩
abbrev main_c_12 : Ref sig .tc := ⟨.hbm, 115, rfl⟩
abbrev main_v81 : Ref sig .tc := ⟨.hbm, 116, rfl⟩
abbrev main_v82 : Ref sig .tc := ⟨.hbm, 117, rfl⟩
abbrev main_c_13 : Ref sig .tc := ⟨.hbm, 118, rfl⟩
abbrev main_v83 : Ref sig .tc := ⟨.hbm, 119, rfl⟩
abbrev main_v84 : Ref sig .tc := ⟨.hbm, 120, rfl⟩
abbrev main_v85 : Ref sig .tc := ⟨.hbm, 121, rfl⟩
abbrev main_v86 : Ref sig .tc := ⟨.hbm, 122, rfl⟩
abbrev main_v87 : Ref sig .tc := ⟨.hbm, 123, rfl⟩
abbrev main_v88 : Ref sig .tc := ⟨.hbm, 124, rfl⟩
abbrev main_v89 : Ref sig .tc := ⟨.hbm, 125, rfl⟩
abbrev main_v90 : Ref sig .tc := ⟨.hbm, 126, rfl⟩
abbrev main_cst_14 : Ref sig .tc := ⟨.hbm, 127, rfl⟩
abbrev main_v91 : Ref sig .tc := ⟨.hbm, 128, rfl⟩
abbrev main_v92 : Ref sig .tc := ⟨.hbm, 129, rfl⟩
abbrev main_v93 : Ref sig .tc := ⟨.hbm, 130, rfl⟩
abbrev main_v94 : Ref sig .tc := ⟨.hbm, 131, rfl⟩
abbrev main_v95 : Ref sig .tc := ⟨.hbm, 132, rfl⟩
abbrev main_v96 : Ref sig .tc := ⟨.hbm, 133, rfl⟩
abbrev main_call4_cst : Ref sig .tc := ⟨.hbm, 134, rfl⟩
abbrev main_call4_v0 : Ref sig .tc := ⟨.hbm, 135, rfl⟩
abbrev main_v97 : Ref sig .tc := ⟨.hbm, 136, rfl⟩
abbrev main_cst_15 : Ref sig .tc := ⟨.hbm, 137, rfl⟩
abbrev main_v98 : Ref sig .tc := ⟨.hbm, 138, rfl⟩
abbrev main_v99 : Ref sig .tc := ⟨.hbm, 139, rfl⟩
abbrev main_v100 : Ref sig .tc := ⟨.hbm, 140, rfl⟩
abbrev main_cst_16 : Ref sig .tc := ⟨.hbm, 141, rfl⟩
abbrev main_v101 : Ref sig .tc := ⟨.hbm, 142, rfl⟩
abbrev main_cst_17 : Ref sig .tc := ⟨.hbm, 143, rfl⟩
abbrev main_v102 : Ref sig .tc := ⟨.hbm, 144, rfl⟩
abbrev main_v103 : Ref sig .tc := ⟨.hbm, 145, rfl⟩
abbrev main_v104 : Ref sig .tc := ⟨.hbm, 146, rfl⟩
abbrev main_cst_18 : Ref sig .tc := ⟨.hbm, 147, rfl⟩
abbrev main_v105 : Ref sig .tc := ⟨.hbm, 148, rfl⟩
abbrev main_v106 : Ref sig .tc := ⟨.hbm, 149, rfl⟩
abbrev main_v107 : Ref sig .tc := ⟨.hbm, 150, rfl⟩
abbrev main_v108 : Ref sig .tc := ⟨.hbm, 151, rfl⟩
abbrev main_v109 : Ref sig .tc := ⟨.hbm, 152, rfl⟩
abbrev main_v110 : Ref sig .tc := ⟨.hbm, 153, rfl⟩
abbrev main_v111 : Ref sig .tc := ⟨.hbm, 154, rfl⟩
abbrev main_v112 : Ref sig .tc := ⟨.hbm, 155, rfl⟩
abbrev main_v113 : Ref sig .tc := ⟨.hbm, 156, rfl⟩

abbrev nD : Nat := 1
abbrev τ : Topo := Topo.v7x

variable {F : FTy → Type} [FloatOps F]

class Facts₀ : Prop where
  slices_S2x1600000_S1x1600000_0_0 : S2x1600000.Slices ![0, 0] S1x1600000
  shapeCasts_S1x1600000_S1600000 : S1x1600000.ShapeCasts S1600000
  concatenates_S1600000_S100000_S1700000_d0 : Shape.Concatenates [S1600000, S100000] S1700000 0
  slices_S2x1600000_S1x1600000_1_0 : S2x1600000.Slices ![1, 0] S1x1600000
  bcast_S_S1700000 : S_.BroadcastsInDim S1700000 (![] : Fin 0 → Fin S1700000.rank)
  bcast_S_S100000 : S_.BroadcastsInDim S100000 (![] : Fin 0 → Fin S100000.rank)
  bcast_S1700000_S1700000x1_0 : S1700000.BroadcastsInDim S1700000x1 (![0] : Fin 1 → Fin S1700000x1.rank)
  bcast_S128_S1x128_1 : S128.BroadcastsInDim S1x128 (![1] : Fin 1 → Fin S1x128.rank)
  bcast_S1x128_S100000x128_0_1 : S1x128.BroadcastsInDim S100000x128 (![0, 1] : Fin 2 → Fin S100000x128.rank)
  bcast_S_S100000x128 : S_.BroadcastsInDim S100000x128 (![] : Fin 0 → Fin S100000x128.rank)
  bcast_S1700000x1_S1700000x128_0_1 : S1700000x1.BroadcastsInDim S1700000x128 (![0, 1] : Fin 2 → Fin S1700000x128.rank)
  slices_S2x128x128_S1x128x128_0_0_0 : S2x128x128.Slices ![0, 0, 0] S1x128x128
  shapeCasts_S1x128x128_S128x128 : S1x128x128.ShapeCasts S128x128
  slices_S2x128_S1x128_0_0 : S2x128.Slices ![0, 0] S1x128
  shapeCasts_S1x128_S128 : S1x128.ShapeCasts S128
  slices_S2x128x128_S1x128x128_1_0_0 : S2x128x128.Slices ![1, 0, 0] S1x128x128
  slices_S2x128_S1x128_1_0 : S2x128.Slices ![1, 0] S1x128
  bcast_S_S512x128 : S_.BroadcastsInDim S512x128 (![] : Fin 0 → Fin S512x128.rank)
  bcast_S100000_S100000x1_0 : S100000.BroadcastsInDim S100000x1 (![0] : Fin 1 → Fin S100000x1.rank)
  bcast_S_S512 : S_.BroadcastsInDim S512 (![] : Fin 0 → Fin S512.rank)
  bcast_S512_S512x1_0 : S512.BroadcastsInDim S512x1 (![0] : Fin 1 → Fin S512x1.rank)
  bcast_S512x1_S512x128_0_1 : S512x1.BroadcastsInDim S512x128 (![0, 1] : Fin 2 → Fin S512x128.rank)
  bcast_S16_S1x16_1 : S16.BroadcastsInDim S1x16 (![1] : Fin 1 → Fin S1x16.rank)
  bcast_S1x16_S512x16_0_1 : S1x16.BroadcastsInDim S512x16 (![0, 1] : Fin 2 → Fin S512x16.rank)
  scatter_S100000_S1700000x1_S1700000_n_0_0_1_wf : ScatterDims.WF S100000 S1700000x1 S1700000 [] [0] [0] 1
  gather_S100000_S1700000x1_S1700000_n_0_n_n_0_1_1_wf : GatherDims.WF S100000 S1700000x1 S1700000 [] [0] [] [0] [] 1 ![1]
  dot_S100000x128_S128x128_S100000x128_1_0_0_1_n_n_wf : DotDims.WF S100000x128 S128x128 S100000x128 [1] [0] [0] [1] [] []
  dot_S100000x64_S64x128_S100000x128_1_0_0_1_n_n_wf : DotDims.WF S100000x64 S64x128 S100000x128 [1] [0] [0] [1] [] []
  gather_S100000x128_S1700000x1_S1700000x128_1_0_n_n_0_1_1128_wf : GatherDims.WF S100000x128 S1700000x1 S1700000x128 [1] [0] [] [0] [] 1 ![1, 128]
  scatter_S100000x128_S1700000x1_S1700000x128_1_0_0_1_wf : ScatterDims.WF S100000x128 S1700000x1 S1700000x128 [1] [0] [0] 1
  scatter_S512x128_S100000x1_S100000x128_1_0_0_1_wf : ScatterDims.WF S512x128 S100000x1 S100000x128 [1] [0] [0] 1
  scatter_S512_S100000x1_S100000_n_0_0_1_wf : ScatterDims.WF S512 S100000x1 S100000 [] [0] [0] 1
  dot_S512x128_S128x16_S512x16_1_0_0_1_n_n_wf : DotDims.WF S512x128 S128x16 S512x16 [1] [0] [0] [1] [] []

variable [Facts₀]

def scatter_S100000_S1700000x1_S1700000_n_0_0_1 : ScatterDims S100000 S1700000x1 S1700000 where
  updateWindowDims := []
  insertedWindowDims := [0]
  scatterDimsToOperandDims := [0]
  indexVectorDim := 1
  wf := scatter_S100000_S1700000x1_S1700000_n_0_0_1_wf
def gather_S100000_S1700000x1_S1700000_n_0_n_n_0_1_1 : GatherDims S100000 S1700000x1 S1700000 where
  offsetDims := []
  collapsedSliceDims := [0]
  operandBatchingDims := []
  startIndicesBatchingDims := []
  startIndexMap := [0]
  indexVectorDim := 1
  sliceSizes := ![1]
  wf := gather_S100000_S1700000x1_S1700000_n_0_n_n_0_1_1_wf
def dot_S100000x128_S128x128_S100000x128_1_0_0_1_n_n : DotDims S100000x128 S128x128 S100000x128 where
  lhsContracting := [1]
  rhsContracting := [0]
  lhsNonContracting := [0]
  rhsNonContracting := [1]
  lhsBatch := []
  rhsBatch := []
  wf := dot_S100000x128_S128x128_S100000x128_1_0_0_1_n_n_wf
def dot_S100000x64_S64x128_S100000x128_1_0_0_1_n_n : DotDims S100000x64 S64x128 S100000x128 where
  lhsContracting := [1]
  rhsContracting := [0]
  lhsNonContracting := [0]
  rhsNonContracting := [1]
  lhsBatch := []
  rhsBatch := []
  wf := dot_S100000x64_S64x128_S100000x128_1_0_0_1_n_n_wf
def gather_S100000x128_S1700000x1_S1700000x128_1_0_n_n_0_1_1128 : GatherDims S100000x128 S1700000x1 S1700000x128 where
  offsetDims := [1]
  collapsedSliceDims := [0]
  operandBatchingDims := []
  startIndicesBatchingDims := []
  startIndexMap := [0]
  indexVectorDim := 1
  sliceSizes := ![1, 128]
  wf := gather_S100000x128_S1700000x1_S1700000x128_1_0_n_n_0_1_1128_wf
def scatter_S100000x128_S1700000x1_S1700000x128_1_0_0_1 : ScatterDims S100000x128 S1700000x1 S1700000x128 where
  updateWindowDims := [1]
  insertedWindowDims := [0]
  scatterDimsToOperandDims := [0]
  indexVectorDim := 1
  wf := scatter_S100000x128_S1700000x1_S1700000x128_1_0_0_1_wf
def scatter_S512x128_S100000x1_S100000x128_1_0_0_1 : ScatterDims S512x128 S100000x1 S100000x128 where
  updateWindowDims := [1]
  insertedWindowDims := [0]
  scatterDimsToOperandDims := [0]
  indexVectorDim := 1
  wf := scatter_S512x128_S100000x1_S100000x128_1_0_0_1_wf
def scatter_S512_S100000x1_S100000_n_0_0_1 : ScatterDims S512 S100000x1 S100000 where
  updateWindowDims := []
  insertedWindowDims := [0]
  scatterDimsToOperandDims := [0]
  indexVectorDim := 1
  wf := scatter_S512_S100000x1_S100000_n_0_0_1_wf
def dot_S512x128_S128x16_S512x16_1_0_0_1_n_n : DotDims S512x128 S128x16 S512x16 where
  lhsContracting := [1]
  rhsContracting := [0]
  lhsNonContracting := [0]
  rhsNonContracting := [1]
  lhsBatch := []
  rhsBatch := []
  wf := dot_S512x128_S128x16_S512x16_1_0_0_1_n_n_wf

class Facts : Prop extends Facts₀ where

variable [Facts]
-- ==== Proof.K.RegA0.lean ====
/-
  Region 0 of the idealized kernel program, its class-A half at a parameter `V` (the TensorCore's buffer
  contents when the region is entered): three inputs (a 10000x128 block of main_arg2, all of main_arg4, all of main_v30) and the output main_v31.
  Each window's block at a grid point is read off its array at `V`; the body loads every input block whole, loads
  its output buffer once (at whatever it holds) and stores one payload over all of it, so what it leaves there is a
  closed function of the input blocks. An input whose block index does not move between points is not fetched again
  and still holds the block of the point before, which is the same block.
-/
import proofs.«402161_j18391049961554_1_alg».proof.Proof.Gen.Kernel.Launch
import proofs.«402161_j18391049961554_1_alg».proof.Proof.Gen.Kernel.Skeleton
import proofs.«402161_j18391049961554_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

-- membership in a rectangle of 10000 rows: the structural look recurses once per coordinate of the long axis
set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Region0
-- the TensorCore's buffer contents when the region is entered
variable (V : (c : Dev nD) → (b : Ref sig .tc) → Buf (Elt F) ((c : Thread nD τ).loc b))

/-! ## The windows' blocks -/

/-- Window `w`'s block at point `t`, read off its array as the region finds it (`V`). -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- Input window 0 (its block index moves with the point, so it is fetched at every point) holds its block at every
    point, for any proof data whose array is `V`'s and whose body leaves the block in place. The window is uncut and
    never idle. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

/-- Input window 1 (the weights, a constant block index: fetched at the first point only) holds its block at every
    point all the same: where it is not fetched the index has not moved, and the buffer still holds the block of the
    point before, which is this point's. -/
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

/-- Input window 2 (the bias row, a constant block index too) likewise. -/
theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)

/-! ## The body's accesses: each buffer whole -/

abbrev r0_0 : Rect S10000x128 := Rect.unit (s := S10000x128) ![0, 0] S10000x128.size inb_S10000x128_S10000x128_0_0
abbrev r0_1 : Rect S128x128 := Rect.unit (s := S128x128) ![0, 0] S128x128.size inb_S128x128_S128x128_0_0
abbrev r0_2 : Rect S1x128 := Rect.unit (s := S1x128) ![0, 0] S1x128.size inb_S1x128_S1x128_0_0

/-! ## What the body leaves in the output window's buffer -/

/-- The output buffer after the body, from the three input blocks (rows, weights, bias): one store of the payload
    over all of it. -/
def out0 (x0 : Vec F S10000x128 .f32) (x1 : Vec F S128x128 .f32) (x2 : Vec F S1x128 .f32) : Vec F S10000x128 .f32 :=
  View.canon [⟨r0_0, k0_pay1 (View.ld x0 r0_0) (View.ld x1 r0_1) (View.ld x2 r0_2)⟩]

/-- The one store's rectangle is the whole buffer, so it covers it. -/
theorem cover0 (p0 : Vec F S10000x128 .f32) (y : S10000x128.Idx) :
    ∃ pc ∈ ([⟨r0_0, p0⟩] : List (View.Piece (Elt F) S10000x128 .f32)), y ∈ pc.1.set :=
  View.cover_of_tiled [⟨r0_0, p0⟩] S10000x128.size (by rfl) y

/-! ## The body's triple -/

set_option maxHeartbeats 1000000 in
/-- The kernel body on whole staging memrefs, the inputs' at read contents `x0`, `x1`, `x2` and the output's at
    anything, at any grid coordinate, runs to the continuation holding the inputs' as they were and the output's at
    `out0` of them: the load of the output buffer before the store reads what the buffer held and is not used. -/
theorem sound_kernel0 (c : Dev nD) (E : Set ℕ) (i : grid0.Coords)
    (arg1 : Memref sig .tc .vmem S10000x128 .f32) (harg1 : arg1.IsWhole) (arg2 : Memref sig .tc .vmem S128x128 .f32) (harg2 : arg2.IsWhole)
    (arg3 : Memref sig .tc .vmem S1x128 .f32) (harg3 : arg3.IsWhole) (arg4 : Memref sig .tc .vmem S10000x128 .f32) (harg4 : arg4.IsWhole)
    (x0 : Vec F S10000x128 .f32) (x1 : Vec F S128x128 .f32) (x2 : Vec F S1x128 .f32) (K : PUnit → sProp 𝕄) :
    iprop(owns (c : Thread nD τ) arg1 fullShare x0 ∗ owns (c : Thread nD τ) arg2 fullShare x1 ∗ owns (c : Thread nD τ) arg3 fullShare x2
        ∗ (∃ d, owns (c : Thread nD τ) arg4 fullShare d)
        ∗ (iprop(owns (c : Thread nD τ) arg1 fullShare x0 ∗ owns (c : Thread nD τ) arg2 fullShare x1 ∗ owns (c : Thread nD τ) arg3 fullShare x2
            ∗ owns (c : Thread nD τ) arg4 fullShare (out0 x0 x1 x2)) -∗ K ⟨⟩))
      ⊢ wp frame (wpE (defs₀ (F := F)) Variants.none c none) E (cc0__dense_bias_relu_kernel i arg1 harg1 arg2 harg2 arg3 harg3 arg4 harg4) K := by
  simp only [cc0__dense_bias_relu_kernel_eq_skeleton]; unfold cc0__dense_bias_relu_kernel_skel
  unfold owns
  iintro ⟨⟨%f0, %hf0, H0⟩, ⟨%f1, %hf1, H1⟩, ⟨%f2, %hf2, H2⟩, ⟨%d3, %f3, -, H3⟩, Hk⟩
  subst hf0; subst hf1; subst hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover0 _)

/-! ## The pipeline's proof data -/

/-- The proof data of pipeline 0 on core `c`: the arrays as the region finds them; after the body at point `t` each
    input's buffer at its block and the output's at `out0` of the input blocks; the class's invariant; nothing owed;
    full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => out0 (iblk0 V c 0 t) (iblk0 V c 1 t) (iblk0 V c 2 t)
  Φ _ := Pipeline.ΦA spec0 c
  q _ := fullShare
  owed _ := 0

theorem A_eq0 (c : Dev nD) (w : Fin cfg0.W) : (dat0 V c).A w = V c (Pipeline.arrRef spec0 w) := by
  dsimp only [dat0]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = out0 (iblk0 V c 0 t) (iblk0 V c 1 t) (iblk0 V c 2 t) := by dsimp only [dat0]

/-- Each input's current staging buffer holds its block at every point, fetched there or not. -/
theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d

/-! ## The body obligation, at a generic point -/

/-- What the body is called with at point `t`, the windows one by one, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t))

/-- The body at any point: the inputs' memrefs hold their blocks, so `sound_kernel0` applies; the invariant and the
    core's dues pass through unread. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2]
  rw [show (dat0 V c).Φ t.succ = (dat0 V c).Φ t.castSucc from rfl,
    show (dat0 V c).owesAt () t.succ = (dat0 V c).owesAt () t.castSucc from rfl,
    after0_0, after0_1, after0_2, after0_3]
  iintro ⟨HΦ, Ho, ⟨%d0, H0⟩, ⟨%d1, H1⟩, ⟨%d2, H2⟩, ⟨%d3, H3⟩⟩
  iapply (sound_kernel0 c Set.univ _ _ _ _ _ _ _ _ _ (iblk0 V c 0 t) (iblk0 V c 1 t) (iblk0 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The library's body obligation, at every point. -/
theorem body_obligation0 (c : Dev nD) : BodyObligation (dat0 (F := F) V c) (defs₀ (F := F)) Variants.none () Set.univ := fun t => by
  rw [bigSep_W0, bigSep_W0]
  exact sound_body0 V c t

end Region0

end Cert.Kernel.Hand

end
-- ==== Proof.K.RegA1.lean ====
/-
  Region 1 of the idealized kernel program, its class-A half at a parameter `V` (the TensorCore's buffer
  contents when the region is entered): two inputs (a 10000x64 block of main_arg0, all of main_arg6) and the output main_v32.
  Each window's block at a grid point is read off its array at `V`; the body loads every input block whole, loads
  its output buffer once (at whatever it holds) and stores one payload over all of it, so what it leaves there is a
  closed function of the input blocks. An input whose block index does not move between points is not fetched again
  and still holds the block of the point before, which is the same block.
-/
import proofs.«402161_j18391049961554_1_alg».proof.Proof.Gen.Kernel.Launch
import proofs.«402161_j18391049961554_1_alg».proof.Proof.Gen.Kernel.Skeleton
import proofs.«402161_j18391049961554_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

-- membership in a rectangle of 10000 rows: the structural look recurses once per coordinate of the long axis
set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Region1
-- the TensorCore's buffer contents when the region is entered
variable (V : (c : Dev nD) → (b : Ref sig .tc) → Buf (Elt F) ((c : Thread nD τ).loc b))

/-! ## The windows' blocks -/

/-- Window `w`'s block at point `t`, read off its array as the region finds it (`V`). -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- Input window 0 (its block index moves with the point, so it is fetched at every point) holds its block at every
    point, for any proof data whose array is `V`'s and whose body leaves the block in place. The window is uncut and
    never idle. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)

/-- Input window 1 (a constant block index: fetched at the first point only) holds its block at every point all
    the same: where it is not fetched the index has not moved, and the buffer still holds the block of the point
    before, which is this point's. -/
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

/-! ## The body's accesses: each buffer whole -/

abbrev r1_0 : Rect S10000x64 := Rect.unit (s := S10000x64) ![0, 0] S10000x64.size inb_S10000x64_S10000x64_0_0
abbrev r1_1 : Rect S64x128 := Rect.unit (s := S64x128) ![0, 0] S64x128.size inb_S64x128_S64x128_0_0
abbrev r1_2 : Rect S10000x128 := Rect.unit (s := S10000x128) ![0, 0] S10000x128.size inb_S10000x128_S10000x128_0_0

/-! ## What the body leaves in the output window's buffer -/

/-- The output buffer after the body, from the two input blocks: one store of the product payload over all of it. -/
def out1 (x0 : Vec F S10000x64 .f32) (x1 : Vec F S64x128 .f32) : Vec F S10000x128 .f32 :=
  View.canon [⟨r1_2, k1_pay1 (View.ld x0 r1_0) (View.ld x1 r1_1)⟩]

/-- The one store's rectangle is the whole buffer, so it covers it. -/
theorem cover1 (p0 : Vec F S10000x128 .f32) (y : S10000x128.Idx) :
    ∃ pc ∈ ([⟨r1_2, p0⟩] : List (View.Piece (Elt F) S10000x128 .f32)), y ∈ pc.1.set :=
  View.cover_of_tiled [⟨r1_2, p0⟩] S10000x128.size (by rfl) y

/-! ## The body's triple -/

set_option maxHeartbeats 1000000 in
/-- The kernel body on whole staging memrefs, the inputs' at read contents `x0`, `x1` and the output's at anything,
    at any grid coordinate, runs to the continuation holding the inputs' as they were and the output's at `out1` of
    them: the load of the output buffer before the store reads what the buffer held and is not used. -/
theorem sound_kernel1 (c : Dev nD) (E : Set ℕ) (i : grid1.Coords)
    (arg1 : Memref sig .tc .vmem S10000x64 .f32) (harg1 : arg1.IsWhole) (arg2 : Memref sig .tc .vmem S64x128 .f32) (harg2 : arg2.IsWhole)
    (arg3 : Memref sig .tc .vmem S10000x128 .f32) (harg3 : arg3.IsWhole)
    (x0 : Vec F S10000x64 .f32) (x1 : Vec F S64x128 .f32) (K : PUnit → sProp 𝕄) :
    iprop(owns (c : Thread nD τ) arg1 fullShare x0 ∗ owns (c : Thread nD τ) arg2 fullShare x1 ∗ (∃ d, owns (c : Thread nD τ) arg3 fullShare d)
        ∗ (iprop(owns (c : Thread nD τ) arg1 fullShare x0 ∗ owns (c : Thread nD τ) arg2 fullShare x1
            ∗ owns (c : Thread nD τ) arg3 fullShare (out1 x0 x1)) -∗ K ⟨⟩))
      ⊢ wp frame (wpE (defs₀ (F := F)) Variants.none c none) E (cc1__dense_matmul_kernel i arg1 harg1 arg2 harg2 arg3 harg3) K := by
  simp only [cc1__dense_matmul_kernel_eq_skeleton]; unfold cc1__dense_matmul_kernel_skel
  unfold owns
  iintro ⟨⟨%f0, %hf0, H0⟩, ⟨%f1, %hf1, H1⟩, ⟨%d2, %f2, -, H2⟩, Hk⟩
  subst hf0; subst hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover1 _)

/-! ## The pipeline's proof data -/

/-- The proof data of pipeline 1 on core `c`: the arrays as the region finds them; after the body at point `t` each
    input's buffer at its block and the output's at `out1` of the input blocks; the class's invariant; nothing owed;
    full shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => out1 (iblk1 V c 0 t) (iblk1 V c 1 t)
  Φ _ := Pipeline.ΦA spec1 c
  q _ := fullShare
  owed _ := 0

theorem A_eq1 (c : Dev nD) (w : Fin cfg1.W) : (dat1 V c).A w = V c (Pipeline.arrRef spec1 w) := by
  dsimp only [dat1]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = out1 (iblk1 V c 0 t) (iblk1 V c 1 t) := by dsimp only [dat1]

/-- Each input's current staging buffer holds its block at every point, fetched there or not. -/
theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d

/-! ## The body obligation, at a generic point -/

/-- What the body is called with at point `t`, the windows one by one, -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d)))

/-- and what it returns. -/
def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t))

/-- The body at any point: the inputs' memrefs hold their blocks, so `sound_kernel1` applies; the invariant and the
    core's dues pass through unread. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1]
  rw [show (dat1 V c).Φ t.succ = (dat1 V c).Φ t.castSucc from rfl,
    show (dat1 V c).owesAt () t.succ = (dat1 V c).owesAt () t.castSucc from rfl,
    after1_0, after1_1, after1_2]
  iintro ⟨HΦ, Ho, ⟨%d0, H0⟩, ⟨%d1, H1⟩, ⟨%d2, H2⟩⟩
  iapply (sound_kernel1 c Set.univ _ _ _ _ _ _ _ (iblk1 V c 0 t) (iblk1 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The library's body obligation, at every point. -/
theorem body_obligation1 (c : Dev nD) : BodyObligation (dat1 (F := F) V c) (defs₀ (F := F)) Variants.none () Set.univ := fun t => by
  rw [bigSep_W1, bigSep_W1]
  exact sound_body1 V c t

end Region1

end Cert.Kernel.Hand

end
-- ==== Proof.K.RegA2.lean ====
/-
  Region 2 of the idealized kernel program, its class-A half at a parameter `V` (the TensorCore's buffer
  contents when the region is entered): three inputs (a 10000x128 block of main_v45, all of main_v46, a 10000x128 block of main_v31) and the output main_v47.
  Each window's block at a grid point is read off its array at `V`; the body loads every input block whole, loads
  its output buffer once (at whatever it holds) and stores one payload over all of it, so what it leaves there is a
  closed function of the input blocks. An input whose block index does not move between points is not fetched again
  and still holds the block of the point before, which is the same block.
-/
import proofs.«402161_j18391049961554_1_alg».proof.Proof.Gen.Kernel.Launch
import proofs.«402161_j18391049961554_1_alg».proof.Proof.Gen.Kernel.Skeleton
import proofs.«402161_j18391049961554_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

-- membership in a rectangle of 10000 rows: the structural look recurses once per coordinate of the long axis
set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Region2
-- the TensorCore's buffer contents when the region is entered
variable (V : (c : Dev nD) → (b : Ref sig .tc) → Buf (Elt F) ((c : Thread nD τ).loc b))

/-! ## The windows' blocks -/

/-- Window `w`'s block at point `t`, read off its array as the region finds it (`V`). -/
def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-- Input window 0 (its block index moves with the point, so it is fetched at every point) holds its block at every
    point, for any proof data whose array is `V`'s and whose body leaves the block in place. The window is uncut and
    never idle. -/
theorem before2_0_of {c : Dev nD} (dat : Dat τ (Elt F) Unit ℕ (UR sig nD τ) ℕ cfg2 c) (hA : dat.A 0 = V c (Pipeline.arrRef spec2 0))
    (hafter : ∀ t, dat.after 0 t = iblk2 V c 0 t) (t : Fin cfg2.N) (d) : dat.before 0 t d = iblk2 V c 0 t :=
  (dat.before_in_eq_fetched 0 rfl (fun _ => rfl) (fun _ _ _ => rfl) (fun t => by rw [hafter]; unfold Dat.blockOf iblk2; rw [hA]; try rfl) t d).trans
    (by unfold Dat.fetched Dat.blockOf iblk2; rw [hA]; try rfl)

/-- Input window 1 (the bias row, a constant block index: fetched at the first point only) holds its block at every
    point all the same: where it is not fetched the index has not moved, and the buffer still holds the block of the
    point before, which is this point's. -/
theorem before2_1_of {c : Dev nD} (dat : Dat τ (Elt F) Unit ℕ (UR sig nD τ) ℕ cfg2 c) (hA : dat.A 1 = V c (Pipeline.arrRef spec2 1))
    (hafter : ∀ t, dat.after 1 t = iblk2 V c 1 t) (t : Fin cfg2.N) (d) : dat.before 1 t d = iblk2 V c 1 t :=
  (dat.before_in_eq_fetched 1 rfl (fun _ => rfl) (fun _ _ _ => rfl) (fun t => by rw [hafter]; unfold Dat.blockOf iblk2; rw [hA]; try rfl) t d).trans
    (by unfold Dat.fetched Dat.blockOf iblk2; rw [hA]; try rfl)

/-- Input window 2 (the rows added back; its block index moves with the point, fetched at every point) likewise. -/
theorem before2_2_of {c : Dev nD} (dat : Dat τ (Elt F) Unit ℕ (UR sig nD τ) ℕ cfg2 c) (hA : dat.A 2 = V c (Pipeline.arrRef spec2 2))
    (hafter : ∀ t, dat.after 2 t = iblk2 V c 2 t) (t : Fin cfg2.N) (d) : dat.before 2 t d = iblk2 V c 2 t :=
  (dat.before_in_eq_fetched 2 rfl (fun _ => rfl) (fun _ _ _ => rfl) (fun t => by rw [hafter]; unfold Dat.blockOf iblk2; rw [hA]; try rfl) t d).trans
    (by unfold Dat.fetched Dat.blockOf iblk2; rw [hA]; try rfl)

/-! ## The body's accesses: each buffer whole -/

abbrev r2_0 : Rect S10000x128 := Rect.unit (s := S10000x128) ![0, 0] S10000x128.size inb_S10000x128_S10000x128_0_0
abbrev r2_1 : Rect S1x128 := Rect.unit (s := S1x128) ![0, 0] S1x128.size inb_S1x128_S1x128_0_0

/-! ## What the body leaves in the output window's buffer -/

/-- The output buffer after the body, from the three input blocks (rows, bias, the rows added back): one store of the
    payload over all of it. -/
def out2 (x0 : Vec F S10000x128 .f32) (x1 : Vec F S1x128 .f32) (x2 : Vec F S10000x128 .f32) : Vec F S10000x128 .f32 :=
  View.canon [⟨r2_0, k2_pay1 (View.ld x0 r2_0) (View.ld x1 r2_1) (View.ld x2 r2_0)⟩]

/-- The one store's rectangle is the whole buffer, so it covers it. -/
theorem cover2 (p0 : Vec F S10000x128 .f32) (y : S10000x128.Idx) :
    ∃ pc ∈ ([⟨r2_0, p0⟩] : List (View.Piece (Elt F) S10000x128 .f32)), y ∈ pc.1.set :=
  View.cover_of_tiled [⟨r2_0, p0⟩] S10000x128.size (by rfl) y

/-! ## The body's triple -/

set_option maxHeartbeats 1000000 in
/-- The kernel body on whole staging memrefs, the inputs' at read contents `x0`, `x1`, `x2` and the output's at
    anything, at any grid coordinate, runs to the continuation holding the inputs' as they were and the output's at
    `out2` of them: the load of the output buffer before the store reads what the buffer held and is not used. -/
theorem sound_kernel2 (c : Dev nD) (E : Set ℕ) (i : grid2.Coords)
    (arg1 : Memref sig .tc .vmem S10000x128 .f32) (harg1 : arg1.IsWhole) (arg2 : Memref sig .tc .vmem S1x128 .f32) (harg2 : arg2.IsWhole)
    (arg3 : Memref sig .tc .vmem S10000x128 .f32) (harg3 : arg3.IsWhole) (arg4 : Memref sig .tc .vmem S10000x128 .f32) (harg4 : arg4.IsWhole)
    (x0 : Vec F S10000x128 .f32) (x1 : Vec F S1x128 .f32) (x2 : Vec F S10000x128 .f32) (K : PUnit → sProp 𝕄) :
    iprop(owns (c : Thread nD τ) arg1 fullShare x0 ∗ owns (c : Thread nD τ) arg2 fullShare x1 ∗ owns (c : Thread nD τ) arg3 fullShare x2
        ∗ (∃ d, owns (c : Thread nD τ) arg4 fullShare d)
        ∗ (iprop(owns (c : Thread nD τ) arg1 fullShare x0 ∗ owns (c : Thread nD τ) arg2 fullShare x1 ∗ owns (c : Thread nD τ) arg3 fullShare x2
            ∗ owns (c : Thread nD τ) arg4 fullShare (out2 x0 x1 x2)) -∗ K ⟨⟩))
      ⊢ wp frame (wpE (defs₀ (F := F)) Variants.none c none) E (cc2__bias_relu_add_kernel i arg1 harg1 arg2 harg2 arg3 harg3 arg4 harg4) K := by
  simp only [cc2__bias_relu_add_kernel_eq_skeleton]; unfold cc2__bias_relu_add_kernel_skel
  unfold owns
  iintro ⟨⟨%f0, %hf0, H0⟩, ⟨%f1, %hf1, H1⟩, ⟨%f2, %hf2, H2⟩, ⟨%d3, %f3, -, H3⟩, Hk⟩
  subst hf0; subst hf1; subst hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover2 _)

/-! ## The pipeline's proof data -/

/-- The proof data of pipeline 2 on core `c`: the arrays as the region finds them; after the body at point `t` each
    input's buffer at its block and the output's at `out2` of the input blocks; the class's invariant; nothing owed;
    full shares. -/
def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => iblk2 V c 2 t
    | ⟨3, _⟩ => out2 (iblk2 V c 0 t) (iblk2 V c 1 t) (iblk2 V c 2 t)
  Φ _ := Pipeline.ΦA spec2 c
  q _ := fullShare
  owed _ := 0

theorem A_eq2 (c : Dev nD) (w : Fin cfg2.W) : (dat2 V c).A w = V c (Pipeline.arrRef spec2 w) := by
  dsimp only [dat2]

theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = iblk2 V c 2 t := by dsimp only [dat2]
theorem after2_3 (c : Dev nD) (t : Fin cfg2.N) : (dat2 V c).after 3 t = out2 (iblk2 V c 0 t) (iblk2 V c 1 t) (iblk2 V c 2 t) := by dsimp only [dat2]

/-- Each input's current staging buffer holds its block at every point, fetched there or not. -/
theorem before2_0 (c : Dev nD) (t : Fin cfg2.N) (d) : (dat2 V c).before 0 t d = iblk2 V c 0 t :=
  before2_0_of V (dat2 V c) (A_eq2 V c 0) (after2_0 V c) t d
theorem before2_1 (c : Dev nD) (t : Fin cfg2.N) (d) : (dat2 V c).before 1 t d = iblk2 V c 1 t :=
  before2_1_of V (dat2 V c) (A_eq2 V c 1) (after2_1 V c) t d
theorem before2_2 (c : Dev nD) (t : Fin cfg2.N) (d) : (dat2 V c).before 2 t d = iblk2 V c 2 t :=
  before2_2_of V (dat2 V c) (A_eq2 V c 2) (after2_2 V c) t d

/-! ## The body obligation, at a generic point -/

/-- What the body is called with at point `t`, the windows one by one, -/
def bodyPre2 (c : Dev nD) (t : Fin cfg2.N) : sProp 𝕄 :=
  iprop((dat2 V c).Φ t.castSucc ∗ (dat2 V c).owesAt () t.castSucc
    ∗ (∃ d, owns (c : Thread nD τ) (st2_0 t) fullShare ((dat2 V c).before 0 t d))
    ∗ (∃ d, owns (c : Thread nD τ) (st2_1 t) fullShare ((dat2 V c).before 1 t d))
    ∗ (∃ d, owns (c : Thread nD τ) (st2_2 t) fullShare ((dat2 V c).before 2 t d))
    ∗ (∃ d, owns (c : Thread nD τ) (st2_3 t) fullShare ((dat2 V c).before 3 t d)))

/-- and what it returns. -/
def bodyPost2 (c : Dev nD) (t : Fin cfg2.N) : sProp 𝕄 :=
  iprop((dat2 V c).Φ t.succ ∗ (dat2 V c).owesAt () t.succ
    ∗ owns (c : Thread nD τ) (st2_0 t) fullShare ((dat2 V c).after 0 t)
    ∗ owns (c : Thread nD τ) (st2_1 t) fullShare ((dat2 V c).after 1 t)
    ∗ owns (c : Thread nD τ) (st2_2 t) fullShare ((dat2 V c).after 2 t)
    ∗ owns (c : Thread nD τ) (st2_3 t) fullShare ((dat2 V c).after 3 t))

/-- The body at any point: the inputs' memrefs hold their blocks, so `sound_kernel2` applies; the invariant and the
    core's dues pass through unread. -/
theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1, before2_2]
  rw [show (dat2 V c).Φ t.succ = (dat2 V c).Φ t.castSucc from rfl,
    show (dat2 V c).owesAt () t.succ = (dat2 V c).owesAt () t.castSucc from rfl,
    after2_0, after2_1, after2_2, after2_3]
  iintro ⟨HΦ, Ho, ⟨%d0, H0⟩, ⟨%d1, H1⟩, ⟨%d2, H2⟩, ⟨%d3, H3⟩⟩
  iapply (sound_kernel2 c Set.univ _ _ _ _ _ _ _ _ _ (iblk2 V c 0 t) (iblk2 V c 1 t) (iblk2 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The library's body obligation, at every point. -/
theorem body_obligation2 (c : Dev nD) : BodyObligation (dat2 (F := F) V c) (defs₀ (F := F)) Variants.none () Set.univ := fun t => by
  rw [bigSep_W2, bigSep_W2]
  exact sound_body2 V c t

end Region2

end Cert.Kernel.Hand

end
-- ==== Proof.K.RegA3.lean ====
/-
  Region 3 of the idealized kernel program, its class-A half at a parameter `V` (the TensorCore's buffer
  contents when the region is entered): two inputs (a 10000x128 block of main_v47, all of main_v49) and the output main_v50.
  Each window's block at a grid point is read off its array at `V`; the body loads every input block whole, loads
  its output buffer once (at whatever it holds) and stores one payload over all of it, so what it leaves there is a
  closed function of the input blocks. An input whose block index does not move between points is not fetched again
  and still holds the block of the point before, which is the same block.
-/
import proofs.«402161_j18391049961554_1_alg».proof.Proof.Gen.Kernel.Launch
import proofs.«402161_j18391049961554_1_alg».proof.Proof.Gen.Kernel.Skeleton
import proofs.«402161_j18391049961554_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

-- membership in a rectangle of 10000 rows: the structural look recurses once per coordinate of the long axis
set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Region3
-- the TensorCore's buffer contents when the region is entered
variable (V : (c : Dev nD) → (b : Ref sig .tc) → Buf (Elt F) ((c : Thread nD τ).loc b))

/-! ## The windows' blocks -/

/-- Window `w`'s block at point `t`, read off its array as the region finds it (`V`). -/
def iblk3 (c : Dev nD) (w : Fin cfg3.W) (t : Fin cfg3.N) : ((cfg3.win w).xblock (cfg3.grid.coords t)).Idx → Elt F (cfg3.win w).elt :=
  ((cfg3.win w).blk t).view.read (Elt F) (V c (Pipeline.arrRef spec3 w))

/-- Input window 0 (its block index moves with the point, so it is fetched at every point) holds its block at every
    point, for any proof data whose array is `V`'s and whose body leaves the block in place. The window is uncut and
    never idle. -/
theorem before3_0_of {c : Dev nD} (dat : Dat τ (Elt F) Unit ℕ (UR sig nD τ) ℕ cfg3 c) (hA : dat.A 0 = V c (Pipeline.arrRef spec3 0))
    (hafter : ∀ t, dat.after 0 t = iblk3 V c 0 t) (t : Fin cfg3.N) (d) : dat.before 0 t d = iblk3 V c 0 t :=
  (dat.before_in_eq_fetched 0 rfl (fun _ => rfl) (fun _ _ _ => rfl) (fun t => by rw [hafter]; unfold Dat.blockOf iblk3; rw [hA]; try rfl) t d).trans
    (by unfold Dat.fetched Dat.blockOf iblk3; rw [hA]; try rfl)

/-- Input window 1 (the weights, a constant block index: fetched at the first point only) holds its block at every
    point all the same: where it is not fetched the index has not moved, and the buffer still holds the block of the
    point before, which is this point's. -/
theorem before3_1_of {c : Dev nD} (dat : Dat τ (Elt F) Unit ℕ (UR sig nD τ) ℕ cfg3 c) (hA : dat.A 1 = V c (Pipeline.arrRef spec3 1))
    (hafter : ∀ t, dat.after 1 t = iblk3 V c 1 t) (t : Fin cfg3.N) (d) : dat.before 1 t d = iblk3 V c 1 t :=
  (dat.before_in_eq_fetched 1 rfl (fun _ => rfl) (fun _ _ _ => rfl) (fun t => by rw [hafter]; unfold Dat.blockOf iblk3; rw [hA]; try rfl) t d).trans
    (by unfold Dat.fetched Dat.blockOf iblk3; rw [hA]; try rfl)

/-! ## The body's accesses: each buffer whole -/

abbrev r3_0 : Rect S10000x128 := Rect.unit (s := S10000x128) ![0, 0] S10000x128.size inb_S10000x128_S10000x128_0_0
abbrev r3_1 : Rect S128x128 := Rect.unit (s := S128x128) ![0, 0] S128x128.size inb_S128x128_S128x128_0_0

/-! ## What the body leaves in the output window's buffer -/

/-- The output buffer after the body, from the two input blocks (rows, weights): one store of the product payload
    over all of it. -/
def out3 (x0 : Vec F S10000x128 .f32) (x1 : Vec F S128x128 .f32) : Vec F S10000x128 .f32 :=
  View.canon [⟨r3_0, k3_pay1 (View.ld x0 r3_0) (View.ld x1 r3_1)⟩]

/-- The one store's rectangle is the whole buffer, so it covers it. -/
theorem cover3 (p0 : Vec F S10000x128 .f32) (y : S10000x128.Idx) :
    ∃ pc ∈ ([⟨r3_0, p0⟩] : List (View.Piece (Elt F) S10000x128 .f32)), y ∈ pc.1.set :=
  View.cover_of_tiled [⟨r3_0, p0⟩] S10000x128.size (by rfl) y

/-! ## The body's triple -/

set_option maxHeartbeats 1000000 in
/-- The kernel body on whole staging memrefs, the inputs' at read contents `x0`, `x1` and the output's at anything,
    at any grid coordinate, runs to the continuation holding the inputs' as they were and the output's at `out3` of
    them: the load of the output buffer before the store reads what the buffer held and is not used. -/
theorem sound_kernel3 (c : Dev nD) (E : Set ℕ) (i : grid3.Coords)
    (arg1 : Memref sig .tc .vmem S10000x128 .f32) (harg1 : arg1.IsWhole) (arg2 : Memref sig .tc .vmem S128x128 .f32) (harg2 : arg2.IsWhole)
    (arg3 : Memref sig .tc .vmem S10000x128 .f32) (harg3 : arg3.IsWhole)
    (x0 : Vec F S10000x128 .f32) (x1 : Vec F S128x128 .f32) (K : PUnit → sProp 𝕄) :
    iprop(owns (c : Thread nD τ) arg1 fullShare x0 ∗ owns (c : Thread nD τ) arg2 fullShare x1 ∗ (∃ d, owns (c : Thread nD τ) arg3 fullShare d)
        ∗ (iprop(owns (c : Thread nD τ) arg1 fullShare x0 ∗ owns (c : Thread nD τ) arg2 fullShare x1
            ∗ owns (c : Thread nD τ) arg3 fullShare (out3 x0 x1)) -∗ K ⟨⟩))
      ⊢ wp frame (wpE (defs₀ (F := F)) Variants.none c none) E (cc3__dense_matmul_kernel i arg1 harg1 arg2 harg2 arg3 harg3) K := by
  simp only [cc3__dense_matmul_kernel_eq_skeleton]; unfold cc3__dense_matmul_kernel_skel
  unfold owns
  iintro ⟨⟨%f0, %hf0, H0⟩, ⟨%f1, %hf1, H1⟩, ⟨%d2, %f2, -, H2⟩, Hk⟩
  subst hf0; subst hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover3 _)

/-! ## The pipeline's proof data -/

/-- The proof data of pipeline 3 on core `c`: the arrays as the region finds them; after the body at point `t` each
    input's buffer at its block and the output's at `out3` of the input blocks; the class's invariant; nothing owed;
    full shares. -/
def dat3 (c : Dev nD) : Dat τ (Elt F) Unit ℕ (UR sig nD τ) ℕ cfg3 c where
  A w := V c (Pipeline.arrRef spec3 w)
  after w t := match w with
    | ⟨0, _⟩ => iblk3 V c 0 t
    | ⟨1, _⟩ => iblk3 V c 1 t
    | ⟨2, _⟩ => out3 (iblk3 V c 0 t) (iblk3 V c 1 t)
  Φ _ := Pipeline.ΦA spec3 c
  q _ := fullShare
  owed _ := 0

theorem A_eq3 (c : Dev nD) (w : Fin cfg3.W) : (dat3 V c).A w = V c (Pipeline.arrRef spec3 w) := by
  dsimp only [dat3]

theorem after3_0 (c : Dev nD) (t : Fin cfg3.N) : (dat3 V c).after 0 t = iblk3 V c 0 t := by dsimp only [dat3]
theorem after3_1 (c : Dev nD) (t : Fin cfg3.N) : (dat3 V c).after 1 t = iblk3 V c 1 t := by dsimp only [dat3]
theorem after3_2 (c : Dev nD) (t : Fin cfg3.N) : (dat3 V c).after 2 t = out3 (iblk3 V c 0 t) (iblk3 V c 1 t) := by dsimp only [dat3]

/-- Each input's current staging buffer holds its block at every point, fetched there or not. -/
theorem before3_0 (c : Dev nD) (t : Fin cfg3.N) (d) : (dat3 V c).before 0 t d = iblk3 V c 0 t :=
  before3_0_of V (dat3 V c) (A_eq3 V c 0) (after3_0 V c) t d
theorem before3_1 (c : Dev nD) (t : Fin cfg3.N) (d) : (dat3 V c).before 1 t d = iblk3 V c 1 t :=
  before3_1_of V (dat3 V c) (A_eq3 V c 1) (after3_1 V c) t d

/-! ## The body obligation, at a generic point -/

/-- What the body is called with at point `t`, the windows one by one, -/
def bodyPre3 (c : Dev nD) (t : Fin cfg3.N) : sProp 𝕄 :=
  iprop((dat3 V c).Φ t.castSucc ∗ (dat3 V c).owesAt () t.castSucc
    ∗ (∃ d, owns (c : Thread nD τ) (st3_0 t) fullShare ((dat3 V c).before 0 t d))
    ∗ (∃ d, owns (c : Thread nD τ) (st3_1 t) fullShare ((dat3 V c).before 1 t d))
    ∗ (∃ d, owns (c : Thread nD τ) (st3_2 t) fullShare ((dat3 V c).before 2 t d)))

/-- and what it returns. -/
def bodyPost3 (c : Dev nD) (t : Fin cfg3.N) : sProp 𝕄 :=
  iprop((dat3 V c).Φ t.succ ∗ (dat3 V c).owesAt () t.succ
    ∗ owns (c : Thread nD τ) (st3_0 t) fullShare ((dat3 V c).after 0 t)
    ∗ owns (c : Thread nD τ) (st3_1 t) fullShare ((dat3 V c).after 1 t)
    ∗ owns (c : Thread nD τ) (st3_2 t) fullShare ((dat3 V c).after 2 t))

/-- The body at any point: the inputs' memrefs hold their blocks, so `sound_kernel3` applies; the invariant and the
    core's dues pass through unread. -/
theorem sound_body3 (c : Dev nD) (t : Fin cfg3.N) :
    bodyPre3 V c t ⊢ wp frame (wpE (defs₀ (F := F)) Variants.none c none) Set.univ (bodyAt3 t) (fun _ => bodyPost3 V c t) := by
  unfold bodyPre3 bodyPost3 bodyAt3
  simp only [before3_0, before3_1]
  rw [show (dat3 V c).Φ t.succ = (dat3 V c).Φ t.castSucc from rfl,
    show (dat3 V c).owesAt () t.succ = (dat3 V c).owesAt () t.castSucc from rfl,
    after3_0, after3_1, after3_2]
  iintro ⟨HΦ, Ho, ⟨%d0, H0⟩, ⟨%d1, H1⟩, ⟨%d2, H2⟩⟩
  iapply (sound_kernel3 c Set.univ _ _ _ _ _ _ _ (iblk3 V c 0 t) (iblk3 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The library's body obligation, at every point. -/
theorem body_obligation3 (c : Dev nD) : BodyObligation (dat3 (F := F) V c) (defs₀ (F := F)) Variants.none () Set.univ := fun t => by
  rw [bigSep_W3, bigSep_W3]
  exact sound_body3 V c t

end Region3

end Cert.Kernel.Hand

end
-- ==== Proof.K.RegA4.lean ====
/-
  Region 4 of the idealized kernel program, its class-A half at a parameter `V` (the TensorCore's buffer
  contents when the region is entered): two inputs (a 10000x128 block of main_v63, all of main_v66) and the output main_v67.
  Each window's block at a grid point is read off its array at `V`; the body loads every input block whole, loads
  its output buffer once (at whatever it holds) and stores one payload over all of it, so what it leaves there is a
  closed function of the input blocks. An input whose block index does not move between points is not fetched again
  and still holds the block of the point before, which is the same block.
-/
import proofs.«402161_j18391049961554_1_alg».proof.Proof.Gen.Kernel.Launch
import proofs.«402161_j18391049961554_1_alg».proof.Proof.Gen.Kernel.Skeleton
import proofs.«402161_j18391049961554_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

-- membership in a rectangle of 10000 rows: the structural look recurses once per coordinate of the long axis
set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Region4
-- the TensorCore's buffer contents when the region is entered
variable (V : (c : Dev nD) → (b : Ref sig .tc) → Buf (Elt F) ((c : Thread nD τ).loc b))

/-! ## The windows' blocks -/

/-- Window `w`'s block at point `t`, read off its array as the region finds it (`V`). -/
def iblk4 (c : Dev nD) (w : Fin cfg4.W) (t : Fin cfg4.N) : ((cfg4.win w).xblock (cfg4.grid.coords t)).Idx → Elt F (cfg4.win w).elt :=
  ((cfg4.win w).blk t).view.read (Elt F) (V c (Pipeline.arrRef spec4 w))

/-- Input window 0 (its block index moves with the point, so it is fetched at every point) holds its block at every
    point, for any proof data whose array is `V`'s and whose body leaves the block in place. The window is uncut and
    never idle. -/
theorem before4_0_of {c : Dev nD} (dat : Dat τ (Elt F) Unit ℕ (UR sig nD τ) ℕ cfg4 c) (hA : dat.A 0 = V c (Pipeline.arrRef spec4 0))
    (hafter : ∀ t, dat.after 0 t = iblk4 V c 0 t) (t : Fin cfg4.N) (d) : dat.before 0 t d = iblk4 V c 0 t :=
  (dat.before_in_eq_fetched 0 rfl (fun _ => rfl) (fun _ _ _ => rfl) (fun t => by rw [hafter]; unfold Dat.blockOf iblk4; rw [hA]; try rfl) t d).trans
    (by unfold Dat.fetched Dat.blockOf iblk4; rw [hA]; try rfl)

/-- Input window 1 (the bias row, a constant block index: fetched at the first point only) holds its block at every
    point all the same: where it is not fetched the index has not moved, and the buffer still holds the block of the
    point before, which is this point's. -/
theorem before4_1_of {c : Dev nD} (dat : Dat τ (Elt F) Unit ℕ (UR sig nD τ) ℕ cfg4 c) (hA : dat.A 1 = V c (Pipeline.arrRef spec4 1))
    (hafter : ∀ t, dat.after 1 t = iblk4 V c 1 t) (t : Fin cfg4.N) (d) : dat.before 1 t d = iblk4 V c 1 t :=
  (dat.before_in_eq_fetched 1 rfl (fun _ => rfl) (fun _ _ _ => rfl) (fun t => by rw [hafter]; unfold Dat.blockOf iblk4; rw [hA]; try rfl) t d).trans
    (by unfold Dat.fetched Dat.blockOf iblk4; rw [hA]; try rfl)

/-! ## The body's accesses: each buffer whole -/

abbrev r4_0 : Rect S10000x128 := Rect.unit (s := S10000x128) ![0, 0] S10000x128.size inb_S10000x128_S10000x128_0_0
abbrev r4_1 : Rect S1x128 := Rect.unit (s := S1x128) ![0, 0] S1x128.size inb_S1x128_S1x128_0_0

/-! ## What the body leaves in the output window's buffer -/

/-- The output buffer after the body, from the two input blocks (rows, bias): one store of the payload over all of it. -/
def out4 (x0 : Vec F S10000x128 .f32) (x1 : Vec F S1x128 .f32) : Vec F S10000x128 .f32 :=
  View.canon [⟨r4_0, k4_pay1 (View.ld x0 r4_0) (View.ld x1 r4_1)⟩]

/-- The one store's rectangle is the whole buffer, so it covers it. -/
theorem cover4 (p0 : Vec F S10000x128 .f32) (y : S10000x128.Idx) :
    ∃ pc ∈ ([⟨r4_0, p0⟩] : List (View.Piece (Elt F) S10000x128 .f32)), y ∈ pc.1.set :=
  View.cover_of_tiled [⟨r4_0, p0⟩] S10000x128.size (by rfl) y

/-! ## The body's triple -/

set_option maxHeartbeats 1000000 in
/-- The kernel body on whole staging memrefs, the inputs' at read contents `x0`, `x1` and the output's at anything,
    at any grid coordinate, runs to the continuation holding the inputs' as they were and the output's at `out4` of
    them: the load of the output buffer before the store reads what the buffer held and is not used. -/
theorem sound_kernel4 (c : Dev nD) (E : Set ℕ) (i : grid4.Coords)
    (arg1 : Memref sig .tc .vmem S10000x128 .f32) (harg1 : arg1.IsWhole) (arg2 : Memref sig .tc .vmem S1x128 .f32) (harg2 : arg2.IsWhole)
    (arg3 : Memref sig .tc .vmem S10000x128 .f32) (harg3 : arg3.IsWhole)
    (x0 : Vec F S10000x128 .f32) (x1 : Vec F S1x128 .f32) (K : PUnit → sProp 𝕄) :
    iprop(owns (c : Thread nD τ) arg1 fullShare x0 ∗ owns (c : Thread nD τ) arg2 fullShare x1 ∗ (∃ d, owns (c : Thread nD τ) arg3 fullShare d)
        ∗ (iprop(owns (c : Thread nD τ) arg1 fullShare x0 ∗ owns (c : Thread nD τ) arg2 fullShare x1
            ∗ owns (c : Thread nD τ) arg3 fullShare (out4 x0 x1)) -∗ K ⟨⟩))
      ⊢ wp frame (wpE (defs₀ (F := F)) Variants.none c none) E (cc4__bias_relu_kernel i arg1 harg1 arg2 harg2 arg3 harg3) K := by
  simp only [cc4__bias_relu_kernel_eq_skeleton]; unfold cc4__bias_relu_kernel_skel
  unfold owns
  iintro ⟨⟨%f0, %hf0, H0⟩, ⟨%f1, %hf1, H1⟩, ⟨%d2, %f2, -, H2⟩, Hk⟩
  subst hf0; subst hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover4 _)

/-! ## The pipeline's proof data -/

/-- The proof data of pipeline 4 on core `c`: the arrays as the region finds them; after the body at point `t` each
    input's buffer at its block and the output's at `out4` of the input blocks; the class's invariant; nothing owed;
    full shares. -/
def dat4 (c : Dev nD) : Dat τ (Elt F) Unit ℕ (UR sig nD τ) ℕ cfg4 c where
  A w := V c (Pipeline.arrRef spec4 w)
  after w t := match w with
    | ⟨0, _⟩ => iblk4 V c 0 t
    | ⟨1, _⟩ => iblk4 V c 1 t
    | ⟨2, _⟩ => out4 (iblk4 V c 0 t) (iblk4 V c 1 t)
  Φ _ := Pipeline.ΦA spec4 c
  q _ := fullShare
  owed _ := 0

theorem A_eq4 (c : Dev nD) (w : Fin cfg4.W) : (dat4 V c).A w = V c (Pipeline.arrRef spec4 w) := by
  dsimp only [dat4]

theorem after4_0 (c : Dev nD) (t : Fin cfg4.N) : (dat4 V c).after 0 t = iblk4 V c 0 t := by dsimp only [dat4]
theorem after4_1 (c : Dev nD) (t : Fin cfg4.N) : (dat4 V c).after 1 t = iblk4 V c 1 t := by dsimp only [dat4]
theorem after4_2 (c : Dev nD) (t : Fin cfg4.N) : (dat4 V c).after 2 t = out4 (iblk4 V c 0 t) (iblk4 V c 1 t) := by dsimp only [dat4]

/-- Each input's current staging buffer holds its block at every point, fetched there or not. -/
theorem before4_0 (c : Dev nD) (t : Fin cfg4.N) (d) : (dat4 V c).before 0 t d = iblk4 V c 0 t :=
  before4_0_of V (dat4 V c) (A_eq4 V c 0) (after4_0 V c) t d
theorem before4_1 (c : Dev nD) (t : Fin cfg4.N) (d) : (dat4 V c).before 1 t d = iblk4 V c 1 t :=
  before4_1_of V (dat4 V c) (A_eq4 V c 1) (after4_1 V c) t d

/-! ## The body obligation, at a generic point -/

/-- What the body is called with at point `t`, the windows one by one, -/
def bodyPre4 (c : Dev nD) (t : Fin cfg4.N) : sProp 𝕄 :=
  iprop((dat4 V c).Φ t.castSucc ∗ (dat4 V c).owesAt () t.castSucc
    ∗ (∃ d, owns (c : Thread nD τ) (st4_0 t) fullShare ((dat4 V c).before 0 t d))
    ∗ (∃ d, owns (c : Thread nD τ) (st4_1 t) fullShare ((dat4 V c).before 1 t d))
    ∗ (∃ d, owns (c : Thread nD τ) (st4_2 t) fullShare ((dat4 V c).before 2 t d)))

/-- and what it returns. -/
def bodyPost4 (c : Dev nD) (t : Fin cfg4.N) : sProp 𝕄 :=
  iprop((dat4 V c).Φ t.succ ∗ (dat4 V c).owesAt () t.succ
    ∗ owns (c : Thread nD τ) (st4_0 t) fullShare ((dat4 V c).after 0 t)
    ∗ owns (c : Thread nD τ) (st4_1 t) fullShare ((dat4 V c).after 1 t)
    ∗ owns (c : Thread nD τ) (st4_2 t) fullShare ((dat4 V c).after 2 t))

/-- The body at any point: the inputs' memrefs hold their blocks, so `sound_kernel4` applies; the invariant and the
    core's dues pass through unread. -/
theorem sound_body4 (c : Dev nD) (t : Fin cfg4.N) :
    bodyPre4 V c t ⊢ wp frame (wpE (defs₀ (F := F)) Variants.none c none) Set.univ (bodyAt4 t) (fun _ => bodyPost4 V c t) := by
  unfold bodyPre4 bodyPost4 bodyAt4
  simp only [before4_0, before4_1]
  rw [show (dat4 V c).Φ t.succ = (dat4 V c).Φ t.castSucc from rfl,
    show (dat4 V c).owesAt () t.succ = (dat4 V c).owesAt () t.castSucc from rfl,
    after4_0, after4_1, after4_2]
  iintro ⟨HΦ, Ho, ⟨%d0, H0⟩, ⟨%d1, H1⟩, ⟨%d2, H2⟩⟩
  iapply (sound_kernel4 c Set.univ _ _ _ _ _ _ _ (iblk4 V c 0 t) (iblk4 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The library's body obligation, at every point. -/
theorem body_obligation4 (c : Dev nD) : BodyObligation (dat4 (F := F) V c) (defs₀ (F := F)) Variants.none () Set.univ := fun t => by
  rw [bigSep_W4, bigSep_W4]
  exact sound_body4 V c t

end Region4

end Cert.Kernel.Hand

end
-- ==== Proof.K.RegA5.lean ====
/-
  Region 5 of the idealized kernel program, its class-A half at a parameter `V` (the TensorCore's buffer
  contents when the region is entered): two inputs (a 10000x128 block of main_v67, all of main_v69) and the output main_v70.
  Each window's block at a grid point is read off its array at `V`; the body loads every input block whole, loads
  its output buffer once (at whatever it holds) and stores one payload over all of it, so what it leaves there is a
  closed function of the input blocks. An input whose block index does not move between points is not fetched again
  and still holds the block of the point before, which is the same block.
-/
import proofs.«402161_j18391049961554_1_alg».proof.Proof.Gen.Kernel.Launch
import proofs.«402161_j18391049961554_1_alg».proof.Proof.Gen.Kernel.Skeleton
import proofs.«402161_j18391049961554_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

-- membership in a rectangle of 10000 rows: the structural look recurses once per coordinate of the long axis
set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Region5
-- the TensorCore's buffer contents when the region is entered
variable (V : (c : Dev nD) → (b : Ref sig .tc) → Buf (Elt F) ((c : Thread nD τ).loc b))

/-! ## The windows' blocks -/

/-- Window `w`'s block at point `t`, read off its array as the region finds it (`V`). -/
def iblk5 (c : Dev nD) (w : Fin cfg5.W) (t : Fin cfg5.N) : ((cfg5.win w).xblock (cfg5.grid.coords t)).Idx → Elt F (cfg5.win w).elt :=
  ((cfg5.win w).blk t).view.read (Elt F) (V c (Pipeline.arrRef spec5 w))

/-- Input window 0 (its block index moves with the point, so it is fetched at every point) holds its block at every
    point, for any proof data whose array is `V`'s and whose body leaves the block in place. The window is uncut and
    never idle. -/
theorem before5_0_of {c : Dev nD} (dat : Dat τ (Elt F) Unit ℕ (UR sig nD τ) ℕ cfg5 c) (hA : dat.A 0 = V c (Pipeline.arrRef spec5 0))
    (hafter : ∀ t, dat.after 0 t = iblk5 V c 0 t) (t : Fin cfg5.N) (d) : dat.before 0 t d = iblk5 V c 0 t :=
  (dat.before_in_eq_fetched 0 rfl (fun _ => rfl) (fun _ _ _ => rfl) (fun t => by rw [hafter]; unfold Dat.blockOf iblk5; rw [hA]; try rfl) t d).trans
    (by unfold Dat.fetched Dat.blockOf iblk5; rw [hA]; try rfl)

/-- Input window 1 (the weights, a constant block index: fetched at the first point only) holds its block at every
    point all the same: where it is not fetched the index has not moved, and the buffer still holds the block of the
    point before, which is this point's. -/
theorem before5_1_of {c : Dev nD} (dat : Dat τ (Elt F) Unit ℕ (UR sig nD τ) ℕ cfg5 c) (hA : dat.A 1 = V c (Pipeline.arrRef spec5 1))
    (hafter : ∀ t, dat.after 1 t = iblk5 V c 1 t) (t : Fin cfg5.N) (d) : dat.before 1 t d = iblk5 V c 1 t :=
  (dat.before_in_eq_fetched 1 rfl (fun _ => rfl) (fun _ _ _ => rfl) (fun t => by rw [hafter]; unfold Dat.blockOf iblk5; rw [hA]; try rfl) t d).trans
    (by unfold Dat.fetched Dat.blockOf iblk5; rw [hA]; try rfl)

/-! ## The body's accesses: each buffer whole -/

abbrev r5_0 : Rect S10000x128 := Rect.unit (s := S10000x128) ![0, 0] S10000x128.size inb_S10000x128_S10000x128_0_0
abbrev r5_1 : Rect S128x128 := Rect.unit (s := S128x128) ![0, 0] S128x128.size inb_S128x128_S128x128_0_0

/-! ## What the body leaves in the output window's buffer -/

/-- The output buffer after the body, from the two input blocks (rows, weights): one store of the product payload
    over all of it. -/
def out5 (x0 : Vec F S10000x128 .f32) (x1 : Vec F S128x128 .f32) : Vec F S10000x128 .f32 :=
  View.canon [⟨r5_0, k5_pay1 (View.ld x0 r5_0) (View.ld x1 r5_1)⟩]

/-- The one store's rectangle is the whole buffer, so it covers it. -/
theorem cover5 (p0 : Vec F S10000x128 .f32) (y : S10000x128.Idx) :
    ∃ pc ∈ ([⟨r5_0, p0⟩] : List (View.Piece (Elt F) S10000x128 .f32)), y ∈ pc.1.set :=
  View.cover_of_tiled [⟨r5_0, p0⟩] S10000x128.size (by rfl) y

/-! ## The body's triple -/

set_option maxHeartbeats 1000000 in
/-- The kernel body on whole staging memrefs, the inputs' at read contents `x0`, `x1` and the output's at anything,
    at any grid coordinate, runs to the continuation holding the inputs' as they were and the output's at `out5` of
    them: the load of the output buffer before the store reads what the buffer held and is not used. -/
theorem sound_kernel5 (c : Dev nD) (E : Set ℕ) (i : grid5.Coords)
    (arg1 : Memref sig .tc .vmem S10000x128 .f32) (harg1 : arg1.IsWhole) (arg2 : Memref sig .tc .vmem S128x128 .f32) (harg2 : arg2.IsWhole)
    (arg3 : Memref sig .tc .vmem S10000x128 .f32) (harg3 : arg3.IsWhole)
    (x0 : Vec F S10000x128 .f32) (x1 : Vec F S128x128 .f32) (K : PUnit → sProp 𝕄) :
    iprop(owns (c : Thread nD τ) arg1 fullShare x0 ∗ owns (c : Thread nD τ) arg2 fullShare x1 ∗ (∃ d, owns (c : Thread nD τ) arg3 fullShare d)
        ∗ (iprop(owns (c : Thread nD τ) arg1 fullShare x0 ∗ owns (c : Thread nD τ) arg2 fullShare x1
            ∗ owns (c : Thread nD τ) arg3 fullShare (out5 x0 x1)) -∗ K ⟨⟩))
      ⊢ wp frame (wpE (defs₀ (F := F)) Variants.none c none) E (cc5__dense_matmul_kernel i arg1 harg1 arg2 harg2 arg3 harg3) K := by
  simp only [cc5__dense_matmul_kernel_eq_skeleton]; unfold cc5__dense_matmul_kernel_skel
  unfold owns
  iintro ⟨⟨%f0, %hf0, H0⟩, ⟨%f1, %hf1, H1⟩, ⟨%d2, %f2, -, H2⟩, Hk⟩
  subst hf0; subst hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover5 _)

/-! ## The pipeline's proof data -/

/-- The proof data of pipeline 5 on core `c`: the arrays as the region finds them; after the body at point `t` each
    input's buffer at its block and the output's at `out5` of the input blocks; the class's invariant; nothing owed;
    full shares. -/
def dat5 (c : Dev nD) : Dat τ (Elt F) Unit ℕ (UR sig nD τ) ℕ cfg5 c where
  A w := V c (Pipeline.arrRef spec5 w)
  after w t := match w with
    | ⟨0, _⟩ => iblk5 V c 0 t
    | ⟨1, _⟩ => iblk5 V c 1 t
    | ⟨2, _⟩ => out5 (iblk5 V c 0 t) (iblk5 V c 1 t)
  Φ _ := Pipeline.ΦA spec5 c
  q _ := fullShare
  owed _ := 0

theorem A_eq5 (c : Dev nD) (w : Fin cfg5.W) : (dat5 V c).A w = V c (Pipeline.arrRef spec5 w) := by
  dsimp only [dat5]

theorem after5_0 (c : Dev nD) (t : Fin cfg5.N) : (dat5 V c).after 0 t = iblk5 V c 0 t := by dsimp only [dat5]
theorem after5_1 (c : Dev nD) (t : Fin cfg5.N) : (dat5 V c).after 1 t = iblk5 V c 1 t := by dsimp only [dat5]
theorem after5_2 (c : Dev nD) (t : Fin cfg5.N) : (dat5 V c).after 2 t = out5 (iblk5 V c 0 t) (iblk5 V c 1 t) := by dsimp only [dat5]

/-- Each input's current staging buffer holds its block at every point, fetched there or not. -/
theorem before5_0 (c : Dev nD) (t : Fin cfg5.N) (d) : (dat5 V c).before 0 t d = iblk5 V c 0 t :=
  before5_0_of V (dat5 V c) (A_eq5 V c 0) (after5_0 V c) t d
theorem before5_1 (c : Dev nD) (t : Fin cfg5.N) (d) : (dat5 V c).before 1 t d = iblk5 V c 1 t :=
  before5_1_of V (dat5 V c) (A_eq5 V c 1) (after5_1 V c) t d

/-! ## The body obligation, at a generic point -/

/-- What the body is called with at point `t`, the windows one by one, -/
def bodyPre5 (c : Dev nD) (t : Fin cfg5.N) : sProp 𝕄 :=
  iprop((dat5 V c).Φ t.castSucc ∗ (dat5 V c).owesAt () t.castSucc
    ∗ (∃ d, owns (c : Thread nD τ) (st5_0 t) fullShare ((dat5 V c).before 0 t d))
    ∗ (∃ d, owns (c : Thread nD τ) (st5_1 t) fullShare ((dat5 V c).before 1 t d))
    ∗ (∃ d, owns (c : Thread nD τ) (st5_2 t) fullShare ((dat5 V c).before 2 t d)))

/-- and what it returns. -/
def bodyPost5 (c : Dev nD) (t : Fin cfg5.N) : sProp 𝕄 :=
  iprop((dat5 V c).Φ t.succ ∗ (dat5 V c).owesAt () t.succ
    ∗ owns (c : Thread nD τ) (st5_0 t) fullShare ((dat5 V c).after 0 t)
    ∗ owns (c : Thread nD τ) (st5_1 t) fullShare ((dat5 V c).after 1 t)
    ∗ owns (c : Thread nD τ) (st5_2 t) fullShare ((dat5 V c).after 2 t))

/-- The body at any point: the inputs' memrefs hold their blocks, so `sound_kernel5` applies; the invariant and the
    core's dues pass through unread. -/
theorem sound_body5 (c : Dev nD) (t : Fin cfg5.N) :
    bodyPre5 V c t ⊢ wp frame (wpE (defs₀ (F := F)) Variants.none c none) Set.univ (bodyAt5 t) (fun _ => bodyPost5 V c t) := by
  unfold bodyPre5 bodyPost5 bodyAt5
  simp only [before5_0, before5_1]
  rw [show (dat5 V c).Φ t.succ = (dat5 V c).Φ t.castSucc from rfl,
    show (dat5 V c).owesAt () t.succ = (dat5 V c).owesAt () t.castSucc from rfl,
    after5_0, after5_1, after5_2]
  iintro ⟨HΦ, Ho, ⟨%d0, H0⟩, ⟨%d1, H1⟩, ⟨%d2, H2⟩⟩
  iapply (sound_kernel5 c Set.univ _ _ _ _ _ _ _ (iblk5 V c 0 t) (iblk5 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The library's body obligation, at every point. -/
theorem body_obligation5 (c : Dev nD) : BodyObligation (dat5 (F := F) V c) (defs₀ (F := F)) Variants.none () Set.univ := fun t => by
  rw [bigSep_W5, bigSep_W5]
  exact sound_body5 V c t

end Region5

end Cert.Kernel.Hand

end
-- ==== Proof.K.RegA6.lean ====
/-
  Region 6 of the idealized kernel program, its class-A half at a parameter `V` (the TensorCore's buffer
  contents when the region is entered): two inputs (a 10000x128 block of main_v83, all of main_v86) and the output main_v87.
  Each window's block at a grid point is read off its array at `V`; the body loads every input block whole, loads
  its output buffer once (at whatever it holds) and stores one payload over all of it, so what it leaves there is a
  closed function of the input blocks. An input whose block index does not move between points is not fetched again
  and still holds the block of the point before, which is the same block.
-/
import proofs.«402161_j18391049961554_1_alg».proof.Proof.Gen.Kernel.Launch
import proofs.«402161_j18391049961554_1_alg».proof.Proof.Gen.Kernel.Skeleton
import proofs.«402161_j18391049961554_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

-- membership in a rectangle of 10000 rows: the structural look recurses once per coordinate of the long axis
set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Region6
-- the TensorCore's buffer contents when the region is entered
variable (V : (c : Dev nD) → (b : Ref sig .tc) → Buf (Elt F) ((c : Thread nD τ).loc b))

/-! ## The windows' blocks -/

/-- Window `w`'s block at point `t`, read off its array as the region finds it (`V`). -/
def iblk6 (c : Dev nD) (w : Fin cfg6.W) (t : Fin cfg6.N) : ((cfg6.win w).xblock (cfg6.grid.coords t)).Idx → Elt F (cfg6.win w).elt :=
  ((cfg6.win w).blk t).view.read (Elt F) (V c (Pipeline.arrRef spec6 w))

/-- Input window 0 (its block index moves with the point, so it is fetched at every point) holds its block at every
    point, for any proof data whose array is `V`'s and whose body leaves the block in place. The window is uncut and
    never idle. -/
theorem before6_0_of {c : Dev nD} (dat : Dat τ (Elt F) Unit ℕ (UR sig nD τ) ℕ cfg6 c) (hA : dat.A 0 = V c (Pipeline.arrRef spec6 0))
    (hafter : ∀ t, dat.after 0 t = iblk6 V c 0 t) (t : Fin cfg6.N) (d) : dat.before 0 t d = iblk6 V c 0 t :=
  (dat.before_in_eq_fetched 0 rfl (fun _ => rfl) (fun _ _ _ => rfl) (fun t => by rw [hafter]; unfold Dat.blockOf iblk6; rw [hA]; try rfl) t d).trans
    (by unfold Dat.fetched Dat.blockOf iblk6; rw [hA]; try rfl)

/-- Input window 1 (the bias row, a constant block index: fetched at the first point only) holds its block at every
    point all the same: where it is not fetched the index has not moved, and the buffer still holds the block of the
    point before, which is this point's. -/
theorem before6_1_of {c : Dev nD} (dat : Dat τ (Elt F) Unit ℕ (UR sig nD τ) ℕ cfg6 c) (hA : dat.A 1 = V c (Pipeline.arrRef spec6 1))
    (hafter : ∀ t, dat.after 1 t = iblk6 V c 1 t) (t : Fin cfg6.N) (d) : dat.before 1 t d = iblk6 V c 1 t :=
  (dat.before_in_eq_fetched 1 rfl (fun _ => rfl) (fun _ _ _ => rfl) (fun t => by rw [hafter]; unfold Dat.blockOf iblk6; rw [hA]; try rfl) t d).trans
    (by unfold Dat.fetched Dat.blockOf iblk6; rw [hA]; try rfl)

/-! ## The body's accesses: each buffer whole -/

abbrev r6_0 : Rect S10000x128 := Rect.unit (s := S10000x128) ![0, 0] S10000x128.size inb_S10000x128_S10000x128_0_0
abbrev r6_1 : Rect S1x128 := Rect.unit (s := S1x128) ![0, 0] S1x128.size inb_S1x128_S1x128_0_0

/-! ## What the body leaves in the output window's buffer -/

/-- The output buffer after the body, from the two input blocks (rows, bias): one store of the payload over all of it. -/
def out6 (x0 : Vec F S10000x128 .f32) (x1 : Vec F S1x128 .f32) : Vec F S10000x128 .f32 :=
  View.canon [⟨r6_0, k6_pay1 (View.ld x0 r6_0) (View.ld x1 r6_1)⟩]

/-- The one store's rectangle is the whole buffer, so it covers it. -/
theorem cover6 (p0 : Vec F S10000x128 .f32) (y : S10000x128.Idx) :
    ∃ pc ∈ ([⟨r6_0, p0⟩] : List (View.Piece (Elt F) S10000x128 .f32)), y ∈ pc.1.set :=
  View.cover_of_tiled [⟨r6_0, p0⟩] S10000x128.size (by rfl) y

/-! ## The body's triple -/

set_option maxHeartbeats 1000000 in
/-- The kernel body on whole staging memrefs, the inputs' at read contents `x0`, `x1` and the output's at anything,
    at any grid coordinate, runs to the continuation holding the inputs' as they were and the output's at `out6` of
    them: the load of the output buffer before the store reads what the buffer held and is not used. -/
theorem sound_kernel6 (c : Dev nD) (E : Set ℕ) (i : grid6.Coords)
    (arg1 : Memref sig .tc .vmem S10000x128 .f32) (harg1 : arg1.IsWhole) (arg2 : Memref sig .tc .vmem S1x128 .f32) (harg2 : arg2.IsWhole)
    (arg3 : Memref sig .tc .vmem S10000x128 .f32) (harg3 : arg3.IsWhole)
    (x0 : Vec F S10000x128 .f32) (x1 : Vec F S1x128 .f32) (K : PUnit → sProp 𝕄) :
    iprop(owns (c : Thread nD τ) arg1 fullShare x0 ∗ owns (c : Thread nD τ) arg2 fullShare x1 ∗ (∃ d, owns (c : Thread nD τ) arg3 fullShare d)
        ∗ (iprop(owns (c : Thread nD τ) arg1 fullShare x0 ∗ owns (c : Thread nD τ) arg2 fullShare x1
            ∗ owns (c : Thread nD τ) arg3 fullShare (out6 x0 x1)) -∗ K ⟨⟩))
      ⊢ wp frame (wpE (defs₀ (F := F)) Variants.none c none) E (cc6__bias_relu_kernel i arg1 harg1 arg2 harg2 arg3 harg3) K := by
  simp only [cc6__bias_relu_kernel_eq_skeleton]; unfold cc6__bias_relu_kernel_skel
  unfold owns
  iintro ⟨⟨%f0, %hf0, H0⟩, ⟨%f1, %hf1, H1⟩, ⟨%d2, %f2, -, H2⟩, Hk⟩
  subst hf0; subst hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover6 _)

/-! ## The pipeline's proof data -/

/-- The proof data of pipeline 6 on core `c`: the arrays as the region finds them; after the body at point `t` each
    input's buffer at its block and the output's at `out6` of the input blocks; the class's invariant; nothing owed;
    full shares. -/
def dat6 (c : Dev nD) : Dat τ (Elt F) Unit ℕ (UR sig nD τ) ℕ cfg6 c where
  A w := V c (Pipeline.arrRef spec6 w)
  after w t := match w with
    | ⟨0, _⟩ => iblk6 V c 0 t
    | ⟨1, _⟩ => iblk6 V c 1 t
    | ⟨2, _⟩ => out6 (iblk6 V c 0 t) (iblk6 V c 1 t)
  Φ _ := Pipeline.ΦA spec6 c
  q _ := fullShare
  owed _ := 0

theorem A_eq6 (c : Dev nD) (w : Fin cfg6.W) : (dat6 V c).A w = V c (Pipeline.arrRef spec6 w) := by
  dsimp only [dat6]

theorem after6_0 (c : Dev nD) (t : Fin cfg6.N) : (dat6 V c).after 0 t = iblk6 V c 0 t := by dsimp only [dat6]
theorem after6_1 (c : Dev nD) (t : Fin cfg6.N) : (dat6 V c).after 1 t = iblk6 V c 1 t := by dsimp only [dat6]
theorem after6_2 (c : Dev nD) (t : Fin cfg6.N) : (dat6 V c).after 2 t = out6 (iblk6 V c 0 t) (iblk6 V c 1 t) := by dsimp only [dat6]

/-- Each input's current staging buffer holds its block at every point, fetched there or not. -/
theorem before6_0 (c : Dev nD) (t : Fin cfg6.N) (d) : (dat6 V c).before 0 t d = iblk6 V c 0 t :=
  before6_0_of V (dat6 V c) (A_eq6 V c 0) (after6_0 V c) t d
theorem before6_1 (c : Dev nD) (t : Fin cfg6.N) (d) : (dat6 V c).before 1 t d = iblk6 V c 1 t :=
  before6_1_of V (dat6 V c) (A_eq6 V c 1) (after6_1 V c) t d

/-! ## The body obligation, at a generic point -/

/-- What the body is called with at point `t`, the windows one by one, -/
def bodyPre6 (c : Dev nD) (t : Fin cfg6.N) : sProp 𝕄 :=
  iprop((dat6 V c).Φ t.castSucc ∗ (dat6 V c).owesAt () t.castSucc
    ∗ (∃ d, owns (c : Thread nD τ) (st6_0 t) fullShare ((dat6 V c).before 0 t d))
    ∗ (∃ d, owns (c : Thread nD τ) (st6_1 t) fullShare ((dat6 V c).before 1 t d))
    ∗ (∃ d, owns (c : Thread nD τ) (st6_2 t) fullShare ((dat6 V c).before 2 t d)))

/-- and what it returns. -/
def bodyPost6 (c : Dev nD) (t : Fin cfg6.N) : sProp 𝕄 :=
  iprop((dat6 V c).Φ t.succ ∗ (dat6 V c).owesAt () t.succ
    ∗ owns (c : Thread nD τ) (st6_0 t) fullShare ((dat6 V c).after 0 t)
    ∗ owns (c : Thread nD τ) (st6_1 t) fullShare ((dat6 V c).after 1 t)
    ∗ owns (c : Thread nD τ) (st6_2 t) fullShare ((dat6 V c).after 2 t))

/-- The body at any point: the inputs' memrefs hold their blocks, so `sound_kernel6` applies; the invariant and the
    core's dues pass through unread. -/
theorem sound_body6 (c : Dev nD) (t : Fin cfg6.N) :
    bodyPre6 V c t ⊢ wp frame (wpE (defs₀ (F := F)) Variants.none c none) Set.univ (bodyAt6 t) (fun _ => bodyPost6 V c t) := by
  unfold bodyPre6 bodyPost6 bodyAt6
  simp only [before6_0, before6_1]
  rw [show (dat6 V c).Φ t.succ = (dat6 V c).Φ t.castSucc from rfl,
    show (dat6 V c).owesAt () t.succ = (dat6 V c).owesAt () t.castSucc from rfl,
    after6_0, after6_1, after6_2]
  iintro ⟨HΦ, Ho, ⟨%d0, H0⟩, ⟨%d1, H1⟩, ⟨%d2, H2⟩⟩
  iapply (sound_kernel6 c Set.univ _ _ _ _ _ _ _ (iblk6 V c 0 t) (iblk6 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The library's body obligation, at every point. -/
theorem body_obligation6 (c : Dev nD) : BodyObligation (dat6 (F := F) V c) (defs₀ (F := F)) Variants.none () Set.univ := fun t => by
  rw [bigSep_W6, bigSep_W6]
  exact sound_body6 V c t

end Region6

end Cert.Kernel.Hand

end
-- ==== Proof.K.Reg7.lean ====
import proofs.«402161_j18391049961554_1_alg».proof.Proof.Gen.Kernel.Launch
import proofs.«402161_j18391049961554_1_alg».proof.Proof.Gen.Kernel.Skeleton
import proofs.«402161_j18391049961554_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Pipeline.Value
import Idealize.ShloMosaic.Lib.Ring
import Idealize.ShloMosaic.Lib.Tactic

/-! # Region 7: the pooling kernel

Two scratch accumulators are carried across the twenty grid points: both are reset at the first
point, each point adds its block's contribution, and the last point copies what they then hold to
the two output windows. The region's proof data names the accumulators point by point; the body
obligation is proved from one triple per kind of point (first, middle, last). -/

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Region7

variable (V : (c : Dev nD) → (b : Ref sig .tc) → Buf (Elt F) ((c : Thread nD τ).loc b))

/-! ## The windows' blocks -/

/-- Window `w`'s block at point `t`, read off its array as the region finds it. -/
def iblk7 (c : Dev nD) (w : Fin cfg7.W) (t : Fin cfg7.N) : ((cfg7.win w).xblock (cfg7.grid.coords t)).Idx → Elt F (cfg7.win w).elt :=
  ((cfg7.win w).blk t).view.read (Elt F) (V c (Pipeline.arrRef spec7 w))

/-- The grid is not empty. -/
theorem N7_pos : 0 < cfg7.N := by
  have h : cfg7.N = 20 := N_7
  omega

/-! ## The accumulators, point by point -/

/-- The feature accumulator after point `n`: reset and fed the first block at point 0, fed one more block
    at every later point of the grid, unchanged beyond it. -/
def accS (c : Dev nD) : ℕ → Vec F S512x128 .f32
  | 0 => k7_pay4 (iblk7 V c 1 ⟨0, N7_pos⟩) (iblk7 V c 0 ⟨0, N7_pos⟩) k7_pay1
  | n + 1 => if h : n + 1 < cfg7.N then k7_pay4 (iblk7 V c 1 ⟨n + 1, h⟩) (iblk7 V c 0 ⟨n + 1, h⟩) (accS c n) else accS c n

/-- The count accumulator after point `n`, likewise. -/
def accC (c : Dev nD) : ℕ → Vec F S512x1 .f32
  | 0 => k7_pay5 (iblk7 V c 1 ⟨0, N7_pos⟩) k7_pay2
  | n + 1 => if h : n + 1 < cfg7.N then k7_pay5 (iblk7 V c 1 ⟨n + 1, h⟩) (accC c n) else accC c n

theorem accS_zero (c : Dev nD) (h : 0 < cfg7.N) :
    accS V c 0 = k7_pay4 (iblk7 V c 1 ⟨0, h⟩) (iblk7 V c 0 ⟨0, h⟩) k7_pay1 := rfl

theorem accS_succ (c : Dev nD) (n : ℕ) (h : n + 1 < cfg7.N) :
    accS V c (n + 1) = k7_pay4 (iblk7 V c 1 ⟨n + 1, h⟩) (iblk7 V c 0 ⟨n + 1, h⟩) (accS V c n) := by
  rw [accS, dif_pos h]

theorem accC_zero (c : Dev nD) (h : 0 < cfg7.N) :
    accC V c 0 = k7_pay5 (iblk7 V c 1 ⟨0, h⟩) k7_pay2 := rfl

theorem accC_succ (c : Dev nD) (n : ℕ) (h : n + 1 < cfg7.N) :
    accC V c (n + 1) = k7_pay5 (iblk7 V c 1 ⟨n + 1, h⟩) (accC V c n) := by
  rw [accC, dif_pos h]

/-! ## The body's branch conditions, decided over the grid -/

/-- The condition of the body's first `scf.if` (the reset), from the grid coordinates. -/
abbrev cond7_0 (i : grid7.Coords) : Prop :=
  (Scalar.cmpi .ne (Scalar.extui (Scalar.cmpi .eq (BitVec.ofNat 32 (i 0).val) 0#32)) 0#32) = 1#1
/-- It holds at the first point only. -/
theorem hcond7_0 : ∀ t : Fin cfg7.N, cond7_0 (grid7.coords t) ↔ t.val % 20 = 0 :=
  (by decide +kernel : ∀ t : Fin grid7.N, cond7_0 (grid7.coords t) ↔ t.val % 20 = 0)

/-- The condition of the body's second `scf.if` (the copy to the outputs). -/
abbrev cond7_1 (i : grid7.Coords) : Prop := k7_cond2 i = 1#1
/-- It holds at the last point only. -/
theorem hcond7_1 : ∀ t : Fin cfg7.N, cond7_1 (grid7.coords t) ↔ t.val % 20 = 19 :=
  (by decide +kernel : ∀ t : Fin grid7.N, cond7_1 (grid7.coords t) ↔ t.val % 20 = 19)

/-! ## Where the windows are idle -/

theorem liveAt7_0 : ∀ t : Fin cfg7.N, cfg7.idle 0 (grid7.coords t) = false := by decide +kernel
theorem liveAt7_1 : ∀ t : Fin cfg7.N, cfg7.idle 1 (grid7.coords t) = false := by decide +kernel
/-- Away from the last point the two output windows are idle and not written back. -/
theorem idleAt7_2 : ∀ t : Fin cfg7.N, ¬cond7_1 (grid7.coords t) → cfg7.idle 2 (grid7.coords t) = true := by decide +kernel
theorem noFlush7_2 : ∀ t : Fin cfg7.N, ¬cond7_1 (grid7.coords t) → (cfg7.win 2).flush t = false := by decide +kernel
theorem idleAt7_3 : ∀ t : Fin cfg7.N, ¬cond7_1 (grid7.coords t) → cfg7.idle 3 (grid7.coords t) = true := by decide +kernel
theorem noFlush7_3 : ∀ t : Fin cfg7.N, ¬cond7_1 (grid7.coords t) → (cfg7.win 3).flush t = false := by decide +kernel
/-- At the last point they are live. -/
theorem liveAt7_2 : ∀ t : Fin cfg7.N, cond7_1 (grid7.coords t) → cfg7.idle 2 (grid7.coords t) = false := by decide +kernel
theorem liveAt7_3 : ∀ t : Fin cfg7.N, cond7_1 (grid7.coords t) → cfg7.idle 3 (grid7.coords t) = false := by decide +kernel

/-! ## The scratch operands and the invariant -/

/-- The two scratch operands: whole scoped buffers of the kernel's own. -/
abbrev scM7_0 : Memref sig .tc .vmem S512x128 .f32 := Memref.whole cc7_scratch0
abbrev scM7_1 : Memref sig .tc .vmem S512x1 .f32 := Memref.whole cc7_scratch1

/-- The scoped buffers that are neither staging buffers nor the kernel's two scratch operands. -/
abbrev rest7 (c : Dev nD) : sProp 𝕄 :=
  Pipeline.scopedRestBut (Ix := Unit) (Name := ℕ) (U := UR sig nD τ) (Lvl := ℕ) (Val := Elt F) spec7 c [cc7_scratch0, cc7_scratch1]

/-- The region's entry invariant with the two scratch operands as memrefs owned at some contents. -/
theorem PhiA7_eq (c : Dev nD) :
    (Pipeline.ΦA spec7 c : sProp 𝕄)
      = iprop(iprop(iprop((∃ d, owns (c : Thread nD τ) scM7_0 fullShare d) ∗ (∃ d, owns (c : Thread nD τ) scM7_1 fullShare d)) ∗ rest7 c) ∗ (∃ r, prngReg c r)) := by
  unfold Pipeline.ΦA; rw [scopedRest7_split]; simp only [scM7_0, scM7_1, owns_whole]; try rfl

/-- The invariant before position `n`: the entry invariant before the first point; afterwards the two
    scratch operands at what the point before left in them, everything else as at entry. -/
def PhiS7 (c : Dev nD) : ℕ → sProp 𝕄
  | 0 => Pipeline.ΦA spec7 c
  | n + 1 => iprop(iprop(iprop(owns (c : Thread nD τ) scM7_0 fullShare (accS V c n) ∗ owns (c : Thread nD τ) scM7_1 fullShare (accC V c n)) ∗ rest7 c) ∗ (∃ r, prngReg c r))

theorem PhiS7_zero (c : Dev nD) (n : ℕ) (hz : n = 0) : PhiS7 V c n = Pipeline.ΦA spec7 c := by
  subst hz; rfl

theorem PhiS7_succ (c : Dev nD) (n : ℕ) :
    PhiS7 V c (n + 1) = iprop(iprop(iprop(owns (c : Thread nD τ) scM7_0 fullShare (accS V c n) ∗ owns (c : Thread nD τ) scM7_1 fullShare (accC V c n)) ∗ rest7 c) ∗ (∃ r, prngReg c r)) := rfl

theorem PhiS7_pos (c : Dev nD) (n : ℕ) (hz : n ≠ 0) :
    PhiS7 V c n = iprop(iprop(iprop(owns (c : Thread nD τ) scM7_0 fullShare (accS V c (n - 1)) ∗ owns (c : Thread nD τ) scM7_1 fullShare (accC V c (n - 1))) ∗ rest7 c) ∗ (∃ r, prngReg c r)) := by
  cases n with
  | zero => exact absurd rfl hz
  | succ n => rfl

/-! ## The proof data -/

/-- The proof data of the region on core `c`: the arrays as the region finds them; after the body each
    input's buffer at its block, the outputs' at the accumulators (consulted at the last point only:
    elsewhere the output windows are idle); the invariant `PhiS7`; nothing owed; full shares. -/
def dat7 (c : Dev nD) : Dat τ (Elt F) Unit ℕ (UR sig nD τ) ℕ cfg7 c where
  A w := V c (Pipeline.arrRef spec7 w)
  after w t := match w with
    | ⟨0, _⟩ => iblk7 V c 0 t
    | ⟨1, _⟩ => iblk7 V c 1 t
    | ⟨2, _⟩ => accS V c t.val
    | ⟨3, _⟩ => accC V c t.val
  Φ t := PhiS7 V c t.val
  q _ := fullShare
  owed _ := 0

theorem A_eq7 (c : Dev nD) (w : Fin cfg7.W) : (dat7 V c).A w = V c (Pipeline.arrRef spec7 w) := by
  dsimp only [dat7]

theorem after7_0 (c : Dev nD) (t : Fin cfg7.N) : (dat7 V c).after 0 t = iblk7 V c 0 t := by dsimp only [dat7]
theorem after7_1 (c : Dev nD) (t : Fin cfg7.N) : (dat7 V c).after 1 t = iblk7 V c 1 t := by dsimp only [dat7]
theorem after7_2 (c : Dev nD) (t : Fin cfg7.N) : (dat7 V c).after 2 t = accS V c t.val := by dsimp only [dat7]
theorem after7_3 (c : Dev nD) (t : Fin cfg7.N) : (dat7 V c).after 3 t = accC V c t.val := by dsimp only [dat7]

/-- At the last point the first output window is left at the feature accumulator's final contents. -/
theorem after7_2_last (c : Dev nD) (t : Fin cfg7.N) (h : t.val = 19) : (dat7 V c).after 2 t = accS V c 19 := by
  rw [after7_2, h]
/-- At the last point the second output window is left at the count accumulator's final contents. -/
theorem after7_3_last (c : Dev nD) (t : Fin cfg7.N) (h : t.val = 19) : (dat7 V c).after 3 t = accC V c 19 := by
  rw [after7_3, h]

/-- The invariant at a point's start and end, restated at the point's position. -/
theorem Phi7_castSucc (c : Dev nD) (t : Fin cfg7.N) : (dat7 V c).Φ t.castSucc = PhiS7 V c t.val := by
  dsimp only [dat7]; simp only [Fin.coe_castSucc]
theorem Phi7_succ (c : Dev nD) (t : Fin cfg7.N) : (dat7 V c).Φ t.succ = PhiS7 V c (t.val + 1) := by
  dsimp only [dat7]; simp only [Fin.val_succ]

/-- Each input's current staging buffer holds its block at every point, fetched there or not. -/
theorem before7_0 (c : Dev nD) (t : Fin cfg7.N) (d) : (dat7 V c).before 0 t d = iblk7 V c 0 t :=
  ((dat7 V c).before_in_eq_fetched 0 rfl (fun _ => rfl) (fun _ _ _ => rfl)
    (fun t => by rw [after7_0]; unfold Dat.blockOf iblk7; rw [A_eq7]; try rfl) t d).trans
    (by unfold Dat.fetched Dat.blockOf iblk7; rw [A_eq7]; try rfl)
theorem before7_1 (c : Dev nD) (t : Fin cfg7.N) (d) : (dat7 V c).before 1 t d = iblk7 V c 1 t :=
  ((dat7 V c).before_in_eq_fetched 1 rfl (fun _ => rfl) (fun _ _ _ => rfl)
    (fun t => by rw [after7_1]; unfold Dat.blockOf iblk7; rw [A_eq7]; try rfl) t d).trans
    (by unfold Dat.fetched Dat.blockOf iblk7; rw [A_eq7]; try rfl)

/-! ## The region's boundary -/

/-- What the launch hands the region is the invariant before the first point. -/
theorem hin7 (c : Dev nD) : Pipeline.ΦA spec7 c ⊢ (dat7 V c).Φ 0 := by
  rw [show (dat7 V c).Φ 0 = PhiS7 V c 0 from rfl, PhiS7_zero V c 0 rfl]

/-- After the last point the invariant gives the entry invariant back: the scratch contents are forgotten. -/
theorem hout7 (c : Dev nD) : (dat7 V c).Φ (Fin.last cfg7.N) ⊢ Pipeline.ΦA spec7 c := by
  have hN : cfg7.N = 20 := N_7
  rw [show (dat7 V c).Φ (Fin.last cfg7.N) = PhiS7 V c cfg7.N from rfl,
    PhiS7_pos V c _ (by omega), PhiA7_eq]
  iintro ⟨⟨⟨HS0, HS1⟩, Hr⟩, Hg⟩
  isplitl [HS0 HS1 Hr]
  · isplitl [HS0 HS1]
    · isplitl [HS0]
      · iexists _; iexact HS0
      iexists _; iexact HS1
    iexact Hr
  iexact Hg

/-! ## The body's three triples

Every access of the body is of a whole buffer, through the unit rectangle at zero offsets: a load reads the
buffer's contents, and what a buffer holds after the run is the payload of the last store into it. -/

theorem hz2 : (![0, 0] : Fin 2 → Nat) = fun _ => 0 := funext fun a => by fin_cases a <;> rfl

/-- A list of stores whose last is of the whole buffer covers the buffer. -/
theorem cover_unit {Val : EltTy → Type} {S : Shape} {e : EltTy} {off : Fin S.rank → Nat} (h : off = fun _ => 0)
    (inb : ∀ a, off a + S.size a ≤ S.size a) (w : S.Idx → Val e) (L : List (View.Piece Val S e)) (y : S.Idx) :
    ∃ p ∈ ((⟨Rect.unit off S.size inb, w⟩ : View.Piece Val S e) :: L), y ∈ p.1.set :=
  ⟨_, List.mem_cons.mpr (Or.inl rfl), View.mem_set_unit_zero h inb y⟩

set_option maxHeartbeats 1000000 in
/-- THE FIRST POINT. Both scratch operands are reset, then fed the point's block; the output windows' buffers are
    handed back untouched. -/
theorem sound_first (c : Dev nD) (E : Set ℕ) (i : grid7.Coords) (hc0 : cond7_0 i) (hc1 : ¬cond7_1 i)
    (arg1 : Memref sig .tc .vmem S5000x128 .f32) (harg1 : arg1.IsWhole) (arg2 : Memref sig .tc .vmem S5000x1 .i32) (harg2 : arg2.IsWhole)
    (arg3 : Memref sig .tc .vmem S512x128 .f32) (harg3 : arg3.IsWhole) (arg4 : Memref sig .tc .vmem S512x1 .f32) (harg4 : arg4.IsWhole)
    (arg5 : Memref sig .tc .vmem S512x128 .f32) (harg5 : arg5.IsWhole) (arg6 : Memref sig .tc .vmem S512x1 .f32) (harg6 : arg6.IsWhole)
    (x0 : Vec F S5000x128 .f32) (x1 : Vec F S5000x1 .i32) (xi2 : Vec F S512x128 .f32) (xi3 : Vec F S512x1 .f32)
    (K : PUnit → sProp 𝕄) :
    iprop(owns (c : Thread nD τ) arg1 fullShare x0 ∗ owns (c : Thread nD τ) arg2 fullShare x1
        ∗ owns (c : Thread nD τ) arg3 fullShare xi2 ∗ owns (c : Thread nD τ) arg4 fullShare xi3
        ∗ (∃ d, owns (c : Thread nD τ) arg5 fullShare d) ∗ (∃ d, owns (c : Thread nD τ) arg6 fullShare d)
        ∗ (iprop(owns (c : Thread nD τ) arg1 fullShare x0 ∗ owns (c : Thread nD τ) arg2 fullShare x1
            ∗ owns (c : Thread nD τ) arg3 fullShare xi2 ∗ owns (c : Thread nD τ) arg4 fullShare xi3
            ∗ owns (c : Thread nD τ) arg5 fullShare (k7_pay4 x1 x0 k7_pay1)
            ∗ owns (c : Thread nD τ) arg6 fullShare (k7_pay5 x1 k7_pay2)) -∗ K ⟨⟩))
      ⊢ wp frame (wpE (defs₀ (F := F)) Variants.none c none) E
          (cc7__lambda_ i arg1 harg1 arg2 harg2 arg3 harg3 arg4 harg4 arg5 harg5 arg6 harg6) K := by
  simp only [cc7__lambda__eq_skeleton]; unfold cc7__lambda__skel
  unfold owns
  iintro ⟨⟨%f0, %hf0, H0⟩, ⟨%f1, %hf1, H1⟩, ⟨%f2, %hf2, H2⟩, ⟨%f3, %hf3, H3⟩, ⟨%d5, %f5, -, H5⟩, ⟨%d6, %f6, -, H6⟩, Hk⟩
  subst hf0; subst hf1; subst hf2; subst hf3
  sl_exec (disch := first | sl_exact hc0 | sl_exact hc1)
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H5]
  · iexists _; isplitr
    swap; · iexact H5
    ipureintro
    sl_unfold_words
    rw [View.read_writes_eq_canon _ _ _ (cover_unit hz2 _ _ _),
      View.canon_cons_unit_zero (S := S512x128) hz2, View.readCov_unit_zero (S := S512x128) _ hz2]
    simp only [View.readAt_eq_ld, View.ld_unit_zero (S := S5000x1) hz2, View.ld_unit_zero (S := S5000x128) hz2]
  iexists _; isplitr
  swap; · iexact H6
  ipureintro
  sl_unfold_words
  rw [View.read_writes_eq_canon _ _ _ (cover_unit hz2 _ _ _),
    View.canon_cons_unit_zero (S := S512x1) hz2, View.readCov_unit_zero (S := S512x1) _ hz2]
  simp only [View.readAt_eq_ld, View.ld_unit_zero (S := S5000x1) hz2]

set_option maxHeartbeats 1000000 in
/-- A MIDDLE POINT. Each scratch operand, holding `s` (resp. `s'`), is fed the point's block; the output windows'
    buffers are handed back untouched. -/
theorem sound_mid (c : Dev nD) (E : Set ℕ) (i : grid7.Coords) (hc0 : ¬cond7_0 i) (hc1 : ¬cond7_1 i)
    (arg1 : Memref sig .tc .vmem S5000x128 .f32) (harg1 : arg1.IsWhole) (arg2 : Memref sig .tc .vmem S5000x1 .i32) (harg2 : arg2.IsWhole)
    (arg3 : Memref sig .tc .vmem S512x128 .f32) (harg3 : arg3.IsWhole) (arg4 : Memref sig .tc .vmem S512x1 .f32) (harg4 : arg4.IsWhole)
    (arg5 : Memref sig .tc .vmem S512x128 .f32) (harg5 : arg5.IsWhole) (arg6 : Memref sig .tc .vmem S512x1 .f32) (harg6 : arg6.IsWhole)
    (x0 : Vec F S5000x128 .f32) (x1 : Vec F S5000x1 .i32) (xi2 : Vec F S512x128 .f32) (xi3 : Vec F S512x1 .f32)
    (s : Vec F S512x128 .f32) (s' : Vec F S512x1 .f32)
    (K : PUnit → sProp 𝕄) :
    iprop(owns (c : Thread nD τ) arg1 fullShare x0 ∗ owns (c : Thread nD τ) arg2 fullShare x1
        ∗ owns (c : Thread nD τ) arg3 fullShare xi2 ∗ owns (c : Thread nD τ) arg4 fullShare xi3
        ∗ owns (c : Thread nD τ) arg5 fullShare s ∗ owns (c : Thread nD τ) arg6 fullShare s'
        ∗ (iprop(owns (c : Thread nD τ) arg1 fullShare x0 ∗ owns (c : Thread nD τ) arg2 fullShare x1
            ∗ owns (c : Thread nD τ) arg3 fullShare xi2 ∗ owns (c : Thread nD τ) arg4 fullShare xi3
            ∗ owns (c : Thread nD τ) arg5 fullShare (k7_pay4 x1 x0 s)
            ∗ owns (c : Thread nD τ) arg6 fullShare (k7_pay5 x1 s')) -∗ K ⟨⟩))
      ⊢ wp frame (wpE (defs₀ (F := F)) Variants.none c none) E
          (cc7__lambda_ i arg1 harg1 arg2 harg2 arg3 harg3 arg4 harg4 arg5 harg5 arg6 harg6) K := by
  simp only [cc7__lambda__eq_skeleton]; unfold cc7__lambda__skel
  unfold owns
  iintro ⟨⟨%f0, %hf0, H0⟩, ⟨%f1, %hf1, H1⟩, ⟨%f2, %hf2, H2⟩, ⟨%f3, %hf3, H3⟩, ⟨%f5, %hf5, H5⟩, ⟨%f6, %hf6, H6⟩, Hk⟩
  subst hf0; subst hf1; subst hf2; subst hf3; subst hf5; subst hf6
  sl_exec (disch := first | sl_exact hc0 | sl_exact hc1)
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H5]
  · iexists _; isplitr
    swap; · iexact H5
    ipureintro
    rw [View.read_writes_eq_canon _ _ _ (cover_unit hz2 _ _ _), View.canon_unit_zero (S := S512x128) hz2]
    simp only [View.readAt_eq_ld, View.ld_unit_zero (S := S5000x1) hz2, View.ld_unit_zero (S := S5000x128) hz2,
      View.ld_unit_zero (S := S512x128) hz2]
  iexists _; isplitr
  swap; · iexact H6
  ipureintro
  rw [View.read_writes_eq_canon _ _ _ (cover_unit hz2 _ _ _), View.canon_unit_zero (S := S512x1) hz2]
  simp only [View.readAt_eq_ld, View.ld_unit_zero (S := S5000x1) hz2, View.ld_unit_zero (S := S512x1) hz2]

set_option maxHeartbeats 1000000 in
/-- THE LAST POINT. As a middle point; then each output window's buffer is stored with what its scratch operand
    then holds. -/
theorem sound_last (c : Dev nD) (E : Set ℕ) (i : grid7.Coords) (hc0 : ¬cond7_0 i) (hc1 : cond7_1 i)
    (arg1 : Memref sig .tc .vmem S5000x128 .f32) (harg1 : arg1.IsWhole) (arg2 : Memref sig .tc .vmem S5000x1 .i32) (harg2 : arg2.IsWhole)
    (arg3 : Memref sig .tc .vmem S512x128 .f32) (harg3 : arg3.IsWhole) (arg4 : Memref sig .tc .vmem S512x1 .f32) (harg4 : arg4.IsWhole)
    (arg5 : Memref sig .tc .vmem S512x128 .f32) (harg5 : arg5.IsWhole) (arg6 : Memref sig .tc .vmem S512x1 .f32) (harg6 : arg6.IsWhole)
    (x0 : Vec F S5000x128 .f32) (x1 : Vec F S5000x1 .i32)
    (s : Vec F S512x128 .f32) (s' : Vec F S512x1 .f32)
    (K : PUnit → sProp 𝕄) :
    iprop(owns (c : Thread nD τ) arg1 fullShare x0 ∗ owns (c : Thread nD τ) arg2 fullShare x1
        ∗ (∃ d, owns (c : Thread nD τ) arg3 fullShare d) ∗ (∃ d, owns (c : Thread nD τ) arg4 fullShare d)
        ∗ owns (c : Thread nD τ) arg5 fullShare s ∗ owns (c : Thread nD τ) arg6 fullShare s'
        ∗ (iprop(owns (c : Thread nD τ) arg1 fullShare x0 ∗ owns (c : Thread nD τ) arg2 fullShare x1
            ∗ owns (c : Thread nD τ) arg3 fullShare (k7_pay4 x1 x0 s) ∗ owns (c : Thread nD τ) arg4 fullShare (k7_pay5 x1 s')
            ∗ owns (c : Thread nD τ) arg5 fullShare (k7_pay4 x1 x0 s)
            ∗ owns (c : Thread nD τ) arg6 fullShare (k7_pay5 x1 s')) -∗ K ⟨⟩))
      ⊢ wp frame (wpE (defs₀ (F := F)) Variants.none c none) E
          (cc7__lambda_ i arg1 harg1 arg2 harg2 arg3 harg3 arg4 harg4 arg5 harg5 arg6 harg6) K := by
  simp only [cc7__lambda__eq_skeleton]; unfold cc7__lambda__skel
  unfold owns
  iintro ⟨⟨%f0, %hf0, H0⟩, ⟨%f1, %hf1, H1⟩, ⟨%d2, %f2, -, H2⟩, ⟨%d3, %f3, -, H3⟩, ⟨%f5, %hf5, H5⟩, ⟨%f6, %hf6, H6⟩, Hk⟩
  subst hf0; subst hf1; subst hf5; subst hf6
  sl_exec (disch := first | sl_exact hc0 | sl_exact hc1)
  sl_step
  iapply Hk
  isplitl [H0]
  · iexists f0; isplitr; · ipureintro; rfl
    iexact H0
  isplitl [H1]
  · iexists f1; isplitr; · ipureintro; rfl
    iexact H1
  isplitl [H2]
  · iexists _; isplitr
    swap; · iexact H2
    ipureintro
    sl_unfold_words
    rw [View.read_writes_eq_canon _ _ _ (cover_unit hz2 _ _ _), View.canon_unit_zero (S := S512x128) hz2,
      View.readCov_unit_zero (S := S512x128) _ hz2]
    simp only [View.readAt_eq_ld, View.ld_unit_zero (S := S5000x1) hz2, View.ld_unit_zero (S := S5000x128) hz2,
      View.ld_unit_zero (S := S512x128) hz2]
  isplitl [H3]
  · iexists _; isplitr
    swap; · iexact H3
    ipureintro
    sl_unfold_words
    rw [View.read_writes_eq_canon _ _ _ (cover_unit hz2 _ _ _), View.canon_unit_zero (S := S512x1) hz2,
      View.readCov_unit_zero (S := S512x1) _ hz2]
    simp only [View.readAt_eq_ld, View.ld_unit_zero (S := S5000x1) hz2, View.ld_unit_zero (S := S512x1) hz2]
  isplitl [H5]
  · iexists _; isplitr
    swap; · iexact H5
    ipureintro
    sl_unfold_words
    rw [View.read_writes_eq_canon _ _ _ (cover_unit hz2 _ _ _), View.canon_unit_zero (S := S512x128) hz2]
    simp only [View.readAt_eq_ld, View.ld_unit_zero (S := S5000x1) hz2, View.ld_unit_zero (S := S5000x128) hz2,
      View.ld_unit_zero (S := S512x128) hz2]
  iexists _; isplitr
  swap; · iexact H6
  ipureintro
  sl_unfold_words
  rw [View.read_writes_eq_canon _ _ _ (cover_unit hz2 _ _ _), View.canon_unit_zero (S := S512x1) hz2]
  simp only [View.readAt_eq_ld, View.ld_unit_zero (S := S5000x1) hz2, View.ld_unit_zero (S := S512x1) hz2]

/-! ## The body obligation, at a generic point -/

/-- The feature accumulator at a point of the grid: the reset, at the first point; -/
theorem accS_at_zero (c : Dev nD) (t : Fin cfg7.N) (hz : t.val = 0) :
    accS V c t.val = k7_pay4 (iblk7 V c 1 t) (iblk7 V c 0 t) k7_pay1 := by
  obtain ⟨n, hn⟩ := t
  cases n with
  | zero => rfl
  | succ n => exact absurd hz (Nat.succ_ne_zero n)
/-- fed the point's block over what the point before left, at a later one. -/
theorem accS_at_pos (c : Dev nD) (t : Fin cfg7.N) (hz : t.val ≠ 0) :
    accS V c t.val = k7_pay4 (iblk7 V c 1 t) (iblk7 V c 0 t) (accS V c (t.val - 1)) := by
  obtain ⟨n, hn⟩ := t
  cases n with
  | zero => exact absurd rfl hz
  | succ n => exact accS_succ V c n hn
/-- The count accumulator likewise. -/
theorem accC_at_zero (c : Dev nD) (t : Fin cfg7.N) (hz : t.val = 0) :
    accC V c t.val = k7_pay5 (iblk7 V c 1 t) k7_pay2 := by
  obtain ⟨n, hn⟩ := t
  cases n with
  | zero => rfl
  | succ n => exact absurd hz (Nat.succ_ne_zero n)
theorem accC_at_pos (c : Dev nD) (t : Fin cfg7.N) (hz : t.val ≠ 0) :
    accC V c t.val = k7_pay5 (iblk7 V c 1 t) (accC V c (t.val - 1)) := by
  obtain ⟨n, hn⟩ := t
  cases n with
  | zero => exact absurd rfl hz
  | succ n => exact accC_succ V c n hn

/-- What the body is called with at point `t` (the windows one by one), -/
def bodyPre7 (c : Dev nD) (t : Fin cfg7.N) : sProp 𝕄 :=
  iprop((dat7 V c).Φ t.castSucc ∗ (dat7 V c).owesAt () t.castSucc
    ∗ (∃ d, owns (c : Thread nD τ) (st7_0 t) fullShare ((dat7 V c).before 0 t d))
    ∗ (∃ d, owns (c : Thread nD τ) (st7_1 t) fullShare ((dat7 V c).before 1 t d))
    ∗ (∃ d, owns (c : Thread nD τ) (st7_2 t) fullShare ((dat7 V c).before 2 t d))
    ∗ (∃ d, owns (c : Thread nD τ) (st7_3 t) fullShare ((dat7 V c).before 3 t d)))

/-- and what it returns. -/
def bodyPost7 (c : Dev nD) (t : Fin cfg7.N) : sProp 𝕄 :=
  iprop((dat7 V c).Φ t.succ ∗ (dat7 V c).owesAt () t.succ
    ∗ (dat7 V c).leavesExact 0 t
    ∗ (dat7 V c).leavesExact 1 t
    ∗ (dat7 V c).leavesExact 2 t
    ∗ (dat7 V c).leavesExact 3 t)

set_option maxHeartbeats 4000000 in
/-- The body at any point. The inputs' buffers hold their blocks; the closed forms of the two conditions say which
    kind of point it is, and that kind's triple applies: the invariant hands the body the scratch operands (at anything
    at the first point, else at what the point before left) and takes them back at this point's accumulators; away
    from the last point the output windows are idle and their buffers pass through, at the last they are left at the
    accumulators. -/
theorem sound_body7 (c : Dev nD) (t : Fin cfg7.N) :
    bodyPre7 V c t ⊢ wp frame (wpE (defs₀ (F := F)) Variants.none c none) Set.univ (bodyAt7 t) (fun _ => bodyPost7 V c t) := by
  unfold bodyPre7 bodyPost7 bodyAt7
  simp only [before7_0, before7_1]
  rw [show (dat7 V c).owesAt () t.succ = (dat7 V c).owesAt () t.castSucc from rfl]
  rw [Phi7_succ, PhiS7_succ, Phi7_castSucc]
  have hN : t.val < 20 := lt_of_lt_of_eq t.isLt (show cfg7.N = 20 from N_7)
  rw [show (dat7 V c).leavesExact 0 t = owns (c : Thread nD τ) (st7_0 t) fullShare ((dat7 V c).after 0 t) from by
    unfold Dat.leavesExact; rw [liveAt7_0 t], after7_0]
  rw [show (dat7 V c).leavesExact 1 t = owns (c : Thread nD τ) (st7_1 t) fullShare ((dat7 V c).after 1 t) from by
    unfold Dat.leavesExact; rw [liveAt7_1 t], after7_1]
  by_cases h1 : t.val % 20 = 19
  · -- the last point
    have hc1 : cond7_1 (grid7.coords t) := (hcond7_1 t).mpr h1
    have hc0 : ¬cond7_0 (grid7.coords t) := fun h => by have := (hcond7_0 t).mp h; omega
    have hz : t.val ≠ 0 := by omega
    rw [show (dat7 V c).leavesExact 2 t = owns (c : Thread nD τ) (st7_2 t) fullShare ((dat7 V c).after 2 t) from by
      unfold Dat.leavesExact; rw [liveAt7_2 t hc1], after7_2]
    rw [show (dat7 V c).leavesExact 3 t = owns (c : Thread nD τ) (st7_3 t) fullShare ((dat7 V c).after 3 t) from by
      unfold Dat.leavesExact; rw [liveAt7_3 t hc1], after7_3]
    rw [PhiS7_pos V c _ hz, accS_at_pos V c t hz, accC_at_pos V c t hz]
    iintro ⟨⟨⟨⟨HS0, HS1⟩, Hr⟩, Hg⟩, Ho, ⟨%d0, H0⟩, ⟨%d1, H1⟩, ⟨%d2, H2⟩, ⟨%d3, H3⟩⟩
    iapply (sound_last c Set.univ (grid7.coords t) hc0 hc1 _ _ _ _ _ _ _ _ _ _ _ _
      (iblk7 V c 0 t) (iblk7 V c 1 t) (accS V c (t.val - 1)) (accC V c (t.val - 1)) _)
    isplitl [H0]; · iexact H0
    isplitl [H1]; · iexact H1
    isplitl [H2]; · iexists _; iexact H2
    isplitl [H3]; · iexists _; iexact H3
    isplitl [HS0]; · iexact HS0
    isplitl [HS1]; · iexact HS1
    iintro ⟨H0, H1, H2, H3, HS0, HS1⟩
    isplitl [HS0 HS1 Hr Hg]
    · isplitl [HS0 HS1 Hr]
      · isplitl [HS0 HS1]
        · isplitl [HS0]; · iexact HS0
          iexact HS1
        iexact Hr
      iexact Hg
    isplitl [Ho]; · iexact Ho
    isplitl [H0]; · iexact H0
    isplitl [H1]; · iexact H1
    isplitl [H2]; · iexact H2
    iexact H3
  · -- the output windows are idle
    have hc1 : ¬cond7_1 (grid7.coords t) := fun h => h1 ((hcond7_1 t).mp h)
    rw [Dat.leavesExact_idle (dat7 V c) 2 t (idleAt7_2 t hc1) (noFlush7_2 t hc1)]
    rw [Dat.leavesExact_idle (dat7 V c) 3 t (idleAt7_3 t hc1) (noFlush7_3 t hc1)]
    by_cases hz : t.val = 0
    · -- the first point
      have hc0 : cond7_0 (grid7.coords t) := (hcond7_0 t).mpr (by omega)
      rw [PhiS7_zero V c _ hz, PhiA7_eq, accS_at_zero V c t hz, accC_at_zero V c t hz]
      iintro ⟨⟨⟨⟨HS0, HS1⟩, Hr⟩, Hg⟩, Ho, ⟨%d0, H0⟩, ⟨%d1, H1⟩, ⟨%d2, H2⟩, ⟨%d3, H3⟩⟩
      iapply (sound_first c Set.univ (grid7.coords t) hc0 hc1 _ _ _ _ _ _ _ _ _ _ _ _
        (iblk7 V c 0 t) (iblk7 V c 1 t) ((dat7 V c).before 2 t d2) ((dat7 V c).before 3 t d3) _)
      isplitl [H0]; · iexact H0
      isplitl [H1]; · iexact H1
      isplitl [H2]; · iexact H2
      isplitl [H3]; · iexact H3
      isplitl [HS0]; · iexact HS0
      isplitl [HS1]; · iexact HS1
      iintro ⟨H0, H1, H2, H3, HS0, HS1⟩
      isplitl [HS0 HS1 Hr Hg]
      · isplitl [HS0 HS1 Hr]
        · isplitl [HS0 HS1]
          · isplitl [HS0]; · iexact HS0
            iexact HS1
          iexact Hr
        iexact Hg
      isplitl [Ho]; · iexact Ho
      isplitl [H0]; · iexact H0
      isplitl [H1]; · iexact H1
      isplitl [H2]; · iexists _; iexact H2
      iexists _; iexact H3
    · -- a middle point
      have hc0 : ¬cond7_0 (grid7.coords t) := fun h => by have := (hcond7_0 t).mp h; omega
      rw [PhiS7_pos V c _ hz, accS_at_pos V c t hz, accC_at_pos V c t hz]
      iintro ⟨⟨⟨⟨HS0, HS1⟩, Hr⟩, Hg⟩, Ho, ⟨%d0, H0⟩, ⟨%d1, H1⟩, ⟨%d2, H2⟩, ⟨%d3, H3⟩⟩
      iapply (sound_mid c Set.univ (grid7.coords t) hc0 hc1 _ _ _ _ _ _ _ _ _ _ _ _
        (iblk7 V c 0 t) (iblk7 V c 1 t) ((dat7 V c).before 2 t d2) ((dat7 V c).before 3 t d3)
        (accS V c (t.val - 1)) (accC V c (t.val - 1)) _)
      isplitl [H0]; · iexact H0
      isplitl [H1]; · iexact H1
      isplitl [H2]; · iexact H2
      isplitl [H3]; · iexact H3
      isplitl [HS0]; · iexact HS0
      isplitl [HS1]; · iexact HS1
      iintro ⟨H0, H1, H2, H3, HS0, HS1⟩
      isplitl [HS0 HS1 Hr Hg]
      · isplitl [HS0 HS1 Hr]
        · isplitl [HS0 HS1]
          · isplitl [HS0]; · iexact HS0
            iexact HS1
          iexact Hr
        iexact Hg
      isplitl [Ho]; · iexact Ho
      isplitl [H0]; · iexact H0
      isplitl [H1]; · iexact H1
      isplitl [H2]; · iexists _; iexact H2
      iexists _; iexact H3

/-- The library's body obligation, at every point. -/
theorem body_obligation7 (c : Dev nD) : BodyObligation (dat7 (F := F) V c) (defs₀ (F := F)) Variants.none () Set.univ := fun t => by
  rw [bigSep_W7, bigSep_W7]
  exact sound_body7 V c t

end Region7

end Cert.Kernel.Hand

end
-- ==== Proof.K.Run.lean ====
/-
  The run of Kernel's @main on the TensorCore, from the launch to the return.

  @main is eighteen items: ten stretches of host operations around eight kernel regions. The buffer contents at every
  boundary are a fold from the launch memory (`W0` … `W18`): a stretch applies its operations' results, a region
  leaves its windows' arrays at what its write-backs fold to and everything else untouched. Each pipeline's proof data
  are taken at its region's entry contents (`pdats`). Every item is a segment over one thread state — all unscoped
  buffers whole at the boundary's contents, the generator register at some state, nothing owed — and the segments
  chain, so the launch theorem for a list of segments gives termination of every weakly fair execution and the final
  memory at `W18` on every unscoped buffer (`run_all`). Each argument array is read back through the fold to its
  launch contents (`W18_main_arg<i>`).
-/
import proofs.«402161_j18391049961554_1_alg».proof.Proof.Gen.Kernel.Launch
import proofs.«402161_j18391049961554_1_alg».proof.Proof.Gen.Kernel.Skeleton
import proofs.«402161_j18391049961554_1_alg».proof.Proof.Gen.Kernel.Points
import proofs.«402161_j18391049961554_1_alg».proof.Proof.Gen.Kernel.Regions
import proofs.«402161_j18391049961554_1_alg».proof.Proof.K.RegA0
import proofs.«402161_j18391049961554_1_alg».proof.Proof.K.RegA1
import proofs.«402161_j18391049961554_1_alg».proof.Proof.K.RegA2
import proofs.«402161_j18391049961554_1_alg».proof.Proof.K.RegA3
import proofs.«402161_j18391049961554_1_alg».proof.Proof.K.RegA4
import proofs.«402161_j18391049961554_1_alg».proof.Proof.K.RegA5
import proofs.«402161_j18391049961554_1_alg».proof.Proof.K.RegA6
import proofs.«402161_j18391049961554_1_alg».proof.Proof.K.Reg7
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! # The run of @main: ten stretches of host operations around eight kernel regions

## The buffer contents at each boundary, folded from the launch memory

`WJ m c` is what core `c`'s buffers hold after the first `J` items of @main: a stretch of host operations
rewrites the valuation by the operations' results; a kernel region leaves each of its windows' arrays at what its
write-backs fold to and every other buffer as it found it. `VJ` is `WJ` read at the TensorCore's references, the form
a region's proof data take their entry contents in. -/

variable (m : (ℓ : Loc nD τ sig) → Buf (Elt F) ℓ)

/-- Core `c`'s buffers at launch. -/
abbrev W0 (c : Dev nD) : Valuation τ sig (Elt F) := fun b => m (c, b)
/-- After the stretch `hostOps0`. -/
abbrev W1 (c : Dev nD) : Valuation τ sig (Elt F) := StableHlo.after hostOps0 (W0 m c)
/-- A buffer no operation of `hostOps0` writes is as before the stretch. -/
theorem W1_of (c : Dev nD) (r : Ref sig .tc) (h : r ∉ hostOps0_W) :
    W1 m c (Proc.devRef .tc r) = W0 m c (Proc.devRef .tc r) :=
  StableHlo.after_of_writes_sub hostOps0 _ hostOps0_writes h
/-- After the stretch `hostOps0_1`. -/
abbrev W2 (c : Dev nD) : Valuation τ sig (Elt F) := StableHlo.after hostOps0_1 (W1 m c)
/-- A buffer no operation of `hostOps0_1` writes is as before the stretch. -/
theorem W2_of (c : Dev nD) (r : Ref sig .tc) (h : r ∉ hostOps0_1_W) :
    W2 m c (Proc.devRef .tc r) = W1 m c (Proc.devRef .tc r) :=
  StableHlo.after_of_writes_sub hostOps0_1 _ hostOps0_1_writes h
/-- After the stretch `hostOps0_2`. -/
abbrev W3 (c : Dev nD) : Valuation τ sig (Elt F) := StableHlo.after hostOps0_2 (W2 m c)
/-- A buffer no operation of `hostOps0_2` writes is as before the stretch. -/
theorem W3_of (c : Dev nD) (r : Ref sig .tc) (h : r ∉ hostOps0_2_W) :
    W3 m c (Proc.devRef .tc r) = W2 m c (Proc.devRef .tc r) :=
  StableHlo.after_of_writes_sub hostOps0_2 _ hostOps0_2_writes h
/-- `W3` read at the TensorCore's references. -/
abbrev V3 (c : Dev nD) (b : Ref sig .tc) : Buf (Elt F) ((c : Thread nD τ).loc b) := W3 m c b
/-- After region 0: its windows' arrays at the fold of its write-backs, every other buffer as entered. -/
def W4 (c : Dev nD) : Valuation τ sig (Elt F) :=
  Pipeline.withArrays spec0 c (W3 m c) fun w => (dat0 (V3 m) c).arrAt w cfg0.N
theorem W4_arr (c : Dev nD) (w : Fin cfg0.W) :
    W4 m c (Proc.devRef .tc (Pipeline.arrRef spec0 w)) = (dat0 (V3 m) c).arrAt w cfg0.N := by
  unfold W4; exact Pipeline.withArrays_arr spec0 launch0.win.arr_inj c _ _ w
theorem W4_of_ne (c : Dev nD) (b : Ref sig .tc) (hb : ∀ w, Pipeline.arrRef spec0 w ≠ b) :
    W4 m c (Proc.devRef .tc b) = W3 m c (Proc.devRef .tc b) := by
  unfold W4; exact Pipeline.withArrays_of_ne spec0 c _ _ b hb
/-- `W4` read at the TensorCore's references. -/
abbrev V4 (c : Dev nD) (b : Ref sig .tc) : Buf (Elt F) ((c : Thread nD τ).loc b) := W4 m c b
/-- After region 1: its windows' arrays at the fold of its write-backs, every other buffer as entered. -/
def W5 (c : Dev nD) : Valuation τ sig (Elt F) :=
  Pipeline.withArrays spec1 c (W4 m c) fun w => (dat1 (V4 m) c).arrAt w cfg1.N
theorem W5_arr (c : Dev nD) (w : Fin cfg1.W) :
    W5 m c (Proc.devRef .tc (Pipeline.arrRef spec1 w)) = (dat1 (V4 m) c).arrAt w cfg1.N := by
  unfold W5; exact Pipeline.withArrays_arr spec1 launch1.win.arr_inj c _ _ w
theorem W5_of_ne (c : Dev nD) (b : Ref sig .tc) (hb : ∀ w, Pipeline.arrRef spec1 w ≠ b) :
    W5 m c (Proc.devRef .tc b) = W4 m c (Proc.devRef .tc b) := by
  unfold W5; exact Pipeline.withArrays_of_ne spec1 c _ _ b hb
/-- After the stretch `hostOps2`. -/
abbrev W6 (c : Dev nD) : Valuation τ sig (Elt F) := StableHlo.after hostOps2 (W5 m c)
/-- A buffer no operation of `hostOps2` writes is as before the stretch. -/
theorem W6_of (c : Dev nD) (r : Ref sig .tc) (h : r ∉ hostOps2_W) :
    W6 m c (Proc.devRef .tc r) = W5 m c (Proc.devRef .tc r) :=
  StableHlo.after_of_writes_sub hostOps2 _ hostOps2_writes h
/-- `W6` read at the TensorCore's references. -/
abbrev V6 (c : Dev nD) (b : Ref sig .tc) : Buf (Elt F) ((c : Thread nD τ).loc b) := W6 m c b
/-- After region 2: its windows' arrays at the fold of its write-backs, every other buffer as entered. -/
def W7 (c : Dev nD) : Valuation τ sig (Elt F) :=
  Pipeline.withArrays spec2 c (W6 m c) fun w => (dat2 (V6 m) c).arrAt w cfg2.N
theorem W7_arr (c : Dev nD) (w : Fin cfg2.W) :
    W7 m c (Proc.devRef .tc (Pipeline.arrRef spec2 w)) = (dat2 (V6 m) c).arrAt w cfg2.N := by
  unfold W7; exact Pipeline.withArrays_arr spec2 launch2.win.arr_inj c _ _ w
theorem W7_of_ne (c : Dev nD) (b : Ref sig .tc) (hb : ∀ w, Pipeline.arrRef spec2 w ≠ b) :
    W7 m c (Proc.devRef .tc b) = W6 m c (Proc.devRef .tc b) := by
  unfold W7; exact Pipeline.withArrays_of_ne spec2 c _ _ b hb
/-- After the stretch `hostOps3`. -/
abbrev W8 (c : Dev nD) : Valuation τ sig (Elt F) := StableHlo.after hostOps3 (W7 m c)
/-- A buffer no operation of `hostOps3` writes is as before the stretch. -/
theorem W8_of (c : Dev nD) (r : Ref sig .tc) (h : r ∉ hostOps3_W) :
    W8 m c (Proc.devRef .tc r) = W7 m c (Proc.devRef .tc r) :=
  StableHlo.after_of_writes_sub hostOps3 _ hostOps3_writes h
/-- `W8` read at the TensorCore's references. -/
abbrev V8 (c : Dev nD) (b : Ref sig .tc) : Buf (Elt F) ((c : Thread nD τ).loc b) := W8 m c b
/-- After region 3: its windows' arrays at the fold of its write-backs, every other buffer as entered. -/
def W9 (c : Dev nD) : Valuation τ sig (Elt F) :=
  Pipeline.withArrays spec3 c (W8 m c) fun w => (dat3 (V8 m) c).arrAt w cfg3.N
theorem W9_arr (c : Dev nD) (w : Fin cfg3.W) :
    W9 m c (Proc.devRef .tc (Pipeline.arrRef spec3 w)) = (dat3 (V8 m) c).arrAt w cfg3.N := by
  unfold W9; exact Pipeline.withArrays_arr spec3 launch3.win.arr_inj c _ _ w
theorem W9_of_ne (c : Dev nD) (b : Ref sig .tc) (hb : ∀ w, Pipeline.arrRef spec3 w ≠ b) :
    W9 m c (Proc.devRef .tc b) = W8 m c (Proc.devRef .tc b) := by
  unfold W9; exact Pipeline.withArrays_of_ne spec3 c _ _ b hb
/-- After the stretch `hostOps4`. -/
abbrev W10 (c : Dev nD) : Valuation τ sig (Elt F) := StableHlo.after hostOps4 (W9 m c)
/-- A buffer no operation of `hostOps4` writes is as before the stretch. -/
theorem W10_of (c : Dev nD) (r : Ref sig .tc) (h : r ∉ hostOps4_W) :
    W10 m c (Proc.devRef .tc r) = W9 m c (Proc.devRef .tc r) :=
  StableHlo.after_of_writes_sub hostOps4 _ hostOps4_writes h
/-- `W10` read at the TensorCore's references. -/
abbrev V10 (c : Dev nD) (b : Ref sig .tc) : Buf (Elt F) ((c : Thread nD τ).loc b) := W10 m c b
/-- After region 4: its windows' arrays at the fold of its write-backs, every other buffer as entered. -/
def W11 (c : Dev nD) : Valuation τ sig (Elt F) :=
  Pipeline.withArrays spec4 c (W10 m c) fun w => (dat4 (V10 m) c).arrAt w cfg4.N
theorem W11_arr (c : Dev nD) (w : Fin cfg4.W) :
    W11 m c (Proc.devRef .tc (Pipeline.arrRef spec4 w)) = (dat4 (V10 m) c).arrAt w cfg4.N := by
  unfold W11; exact Pipeline.withArrays_arr spec4 launch4.win.arr_inj c _ _ w
theorem W11_of_ne (c : Dev nD) (b : Ref sig .tc) (hb : ∀ w, Pipeline.arrRef spec4 w ≠ b) :
    W11 m c (Proc.devRef .tc b) = W10 m c (Proc.devRef .tc b) := by
  unfold W11; exact Pipeline.withArrays_of_ne spec4 c _ _ b hb
/-- After the stretch `hostOps5`. -/
abbrev W12 (c : Dev nD) : Valuation τ sig (Elt F) := StableHlo.after hostOps5 (W11 m c)
/-- A buffer no operation of `hostOps5` writes is as before the stretch. -/
theorem W12_of (c : Dev nD) (r : Ref sig .tc) (h : r ∉ hostOps5_W) :
    W12 m c (Proc.devRef .tc r) = W11 m c (Proc.devRef .tc r) :=
  StableHlo.after_of_writes_sub hostOps5 _ hostOps5_writes h
/-- `W12` read at the TensorCore's references. -/
abbrev V12 (c : Dev nD) (b : Ref sig .tc) : Buf (Elt F) ((c : Thread nD τ).loc b) := W12 m c b
/-- After region 5: its windows' arrays at the fold of its write-backs, every other buffer as entered. -/
def W13 (c : Dev nD) : Valuation τ sig (Elt F) :=
  Pipeline.withArrays spec5 c (W12 m c) fun w => (dat5 (V12 m) c).arrAt w cfg5.N
theorem W13_arr (c : Dev nD) (w : Fin cfg5.W) :
    W13 m c (Proc.devRef .tc (Pipeline.arrRef spec5 w)) = (dat5 (V12 m) c).arrAt w cfg5.N := by
  unfold W13; exact Pipeline.withArrays_arr spec5 launch5.win.arr_inj c _ _ w
theorem W13_of_ne (c : Dev nD) (b : Ref sig .tc) (hb : ∀ w, Pipeline.arrRef spec5 w ≠ b) :
    W13 m c (Proc.devRef .tc b) = W12 m c (Proc.devRef .tc b) := by
  unfold W13; exact Pipeline.withArrays_of_ne spec5 c _ _ b hb
/-- After the stretch `hostOps6`. -/
abbrev W14 (c : Dev nD) : Valuation τ sig (Elt F) := StableHlo.after hostOps6 (W13 m c)
/-- A buffer no operation of `hostOps6` writes is as before the stretch. -/
theorem W14_of (c : Dev nD) (r : Ref sig .tc) (h : r ∉ hostOps6_W) :
    W14 m c (Proc.devRef .tc r) = W13 m c (Proc.devRef .tc r) :=
  StableHlo.after_of_writes_sub hostOps6 _ hostOps6_writes h
/-- `W14` read at the TensorCore's references. -/
abbrev V14 (c : Dev nD) (b : Ref sig .tc) : Buf (Elt F) ((c : Thread nD τ).loc b) := W14 m c b
/-- After region 6: its windows' arrays at the fold of its write-backs, every other buffer as entered. -/
def W15 (c : Dev nD) : Valuation τ sig (Elt F) :=
  Pipeline.withArrays spec6 c (W14 m c) fun w => (dat6 (V14 m) c).arrAt w cfg6.N
theorem W15_arr (c : Dev nD) (w : Fin cfg6.W) :
    W15 m c (Proc.devRef .tc (Pipeline.arrRef spec6 w)) = (dat6 (V14 m) c).arrAt w cfg6.N := by
  unfold W15; exact Pipeline.withArrays_arr spec6 launch6.win.arr_inj c _ _ w
theorem W15_of_ne (c : Dev nD) (b : Ref sig .tc) (hb : ∀ w, Pipeline.arrRef spec6 w ≠ b) :
    W15 m c (Proc.devRef .tc b) = W14 m c (Proc.devRef .tc b) := by
  unfold W15; exact Pipeline.withArrays_of_ne spec6 c _ _ b hb
/-- After the stretch `hostOps7`. -/
abbrev W16 (c : Dev nD) : Valuation τ sig (Elt F) := StableHlo.after hostOps7 (W15 m c)
/-- A buffer no operation of `hostOps7` writes is as before the stretch. -/
theorem W16_of (c : Dev nD) (r : Ref sig .tc) (h : r ∉ hostOps7_W) :
    W16 m c (Proc.devRef .tc r) = W15 m c (Proc.devRef .tc r) :=
  StableHlo.after_of_writes_sub hostOps7 _ hostOps7_writes h
/-- `W16` read at the TensorCore's references. -/
abbrev V16 (c : Dev nD) (b : Ref sig .tc) : Buf (Elt F) ((c : Thread nD τ).loc b) := W16 m c b
/-- After region 7: its windows' arrays at the fold of its write-backs, every other buffer as entered. -/
def W17 (c : Dev nD) : Valuation τ sig (Elt F) :=
  Pipeline.withArrays spec7 c (W16 m c) fun w => (dat7 (V16 m) c).arrAt w cfg7.N
theorem W17_arr (c : Dev nD) (w : Fin cfg7.W) :
    W17 m c (Proc.devRef .tc (Pipeline.arrRef spec7 w)) = (dat7 (V16 m) c).arrAt w cfg7.N := by
  unfold W17; exact Pipeline.withArrays_arr spec7 launch7.win.arr_inj c _ _ w
theorem W17_of_ne (c : Dev nD) (b : Ref sig .tc) (hb : ∀ w, Pipeline.arrRef spec7 w ≠ b) :
    W17 m c (Proc.devRef .tc b) = W16 m c (Proc.devRef .tc b) := by
  unfold W17; exact Pipeline.withArrays_of_ne spec7 c _ _ b hb
/-- After the stretch `hostOps8`. -/
abbrev W18 (c : Dev nD) : Valuation τ sig (Elt F) := StableHlo.after hostOps8 (W17 m c)
/-- A buffer no operation of `hostOps8` writes is as before the stretch. -/
theorem W18_of (c : Dev nD) (r : Ref sig .tc) (h : r ∉ hostOps8_W) :
    W18 m c (Proc.devRef .tc r) = W17 m c (Proc.devRef .tc r) :=
  StableHlo.after_of_writes_sub hostOps8 _ hostOps8_writes h

/-! ## The proof data of the eight pipelines, each at its region's entry contents -/

/-- Every pipeline's proof data, at what its region finds in the buffers. No pipeline of this program has a prefetched
    table: the admissible contents `adm` are the empty ones. -/
def pdats : (p : Fin 8) → (c : Dev nD) → Dat τ (Elt F) Unit ℕ (UR sig nD τ) ℕ (Pipeline.pin (pcfgs (F := F)) adm p) c
  | ⟨0, _⟩ => fun c => dat0 (V3 m) c
  | ⟨1, _⟩ => fun c => dat1 (V4 m) c
  | ⟨2, _⟩ => dat2 (V6 m)
  | ⟨3, _⟩ => dat3 (V8 m)
  | ⟨4, _⟩ => dat4 (V10 m)
  | ⟨5, _⟩ => dat5 (V12 m)
  | ⟨6, _⟩ => dat6 (V14 m)
  | ⟨7, _⟩ => dat7 (V16 m)

/-! ## The thread state between items -/

/-- No kernel body of this program recurses: no variant is carried. -/
abbrev 𝒱₀ : Variants := Variants.none
/-- No core owes another anything: no pair is assigned a level. -/
abbrev L : GSem nD τ sig → Finset Unit := fun _ => ∅
abbrev lv : GSem nD τ sig → Unit → ℕ := fun _ _ => 0
/-- What rides beside the buffers through every item: the core's generator register at some state, and its `owes`
    at nothing. -/
abbrev R (c : Dev nD) : sProp 𝕄 := iprop((∃ r, prngReg c r) ∗ ∃ W, owes (c : Thread nD τ) (0 : CellTallies nD τ sig Unit) W)
/-- The thread state at a boundary whose contents are `W`: every unscoped buffer whole at `W c`, beside `R c`. -/
abbrev T (W : Dev nD → Valuation τ sig (Elt F)) (c : Dev nD) : sProp 𝕄 :=
  iprop(StableHlo.held (c : Thread nD τ) (Pipeline.ucRefs τ sig) (W c) ∗ R c)
/-- A stretch of host operations as a segment from the contents `W`: it runs to the thread state at the contents
    `fun c => StableHlo.after ops (W c)`. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

/-- An unscoped TensorCore reference is among those the thread state holds. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩

/-! ## A kernel region as a segment, once for all eight

Pipeline `p`'s region between the boundary contents `Win` and `Wout`. What it needs of the pipeline: the launch's
decided layout; the body obligation; full shares, nothing owed, no bound on the recorded pairs; the proof data's
entry arrays read off `Win`; `Wout` holding the fold of the write-backs at each array and `Win` elsewhere; and the
body's invariant entered from, and returned to, the class invariant (the scoped buffers no window stages, the
generator register). The windows' arrays are split out of the unscoped buffers at entry and put back at exit; the
register goes into the invariant and comes back; the `owes` passes through at zero. -/

set_option backward.isDefEq.respectTransparency.types false in
def regOf (p : Fin 8) (lf : Pipeline.LaunchFacts (nD := nD) (τ := τ) cfgs p)
    (Win Wout : Dev nD → Valuation τ sig (Elt F))
    (hbody : ∀ c, BodyObligation (pdats m p c) (defs₀ (F := F)) Variants.none () Set.univ)
    (hq : ∀ c w, (pdats m p c).q w = fullShare)
    (howed : ∀ c t, (pdats m p c).owed t = 0)
    (hrec : ∀ c t, (pdats m p c).recorded t = Set.univ)
    (hA : ∀ c w, (pdats m p c).A w = Win c (Proc.devRef .tc (Pipeline.arrRef (cfgs p).spec w)))
    (hF : ∀ c w, (pdats m p c).arrAt w (cfgs p).N = Wout c (Proc.devRef .tc (Pipeline.arrRef (cfgs p).spec w)))
    (hrest : ∀ c (b : Ref sig .tc), b ∉ Finset.univ.image (Pipeline.arrRef (cfgs p).spec) →
      Wout c (Proc.devRef .tc b) = Win c (Proc.devRef .tc b))
    (hin : ∀ c, (Pipeline.ΦA (cfgs p).spec c : sProp 𝕄) ⊢ (pdats m p c).Φ 0)
    (hout : ∀ c, (pdats m p c).Φ (Fin.last (cfgs p).N) ⊢ (Pipeline.ΦA (cfgs p).spec c : sProp 𝕄)) :
    Pipeline.RegionSeg (pcfgs (F := F)) adm (pdats m) () defs₀ 𝒱₀ L lv p where
  win := lf.win.to₀
  block_pos := lf.block_pos
  stage_whole := lf.stage_whole
  K := PEmpty
  osem k := k.elim
  ho := Pipeline.OwnSemFacts.none _
  hbody c := (hbody c).loose
  hwaits := Pipeline.hwaits_of_owed_zero _ _ _ _ L lv p howed
  pre := T Win
  post := T Wout
  X c := iprop(∃ r, prngReg c r)
  Y c := iprop(∃ r, prngReg c r)
  Z c := Pipeline.unscopedRest (Ix := Unit) (Name := ℕ) (U := UR sig nD τ) (Lvl := ℕ) (cfgs p).spec c (fun b => Win c b)
  hentry c := by
    rw [Pipeline.ownSems0_none]
    have hsplit := Pipeline.arrays_of_unscopedBufs (p := p) (pcfgs (F := F)) adm (pdats m) lf.win lf.arr_whole c
      ((pdats m p c).share_full (hq c)) (fun b => Win c b) (hA c)
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr
    · unfold Pipeline.prefHeld
      rw [show (Finset.univ : Finset (Fin 0)) = ∅ from rfl, BI.bigSep_empty]; iempintro
    isplitl [HO]
    · unfold Pipeline.Dat.owesAt Pipeline.owesWithin
      rw [howed c 0]
      icases HO with ⟨%W, HO⟩; iexists W; isplitr; · ipureintro; exact fun _ _ => Or.inl (by rw [hrec c 0]; exact Set.mem_univ _)
      iexact HO
    isplitl [Hp]; · iexact Hp
    iexact Hrest
  hin c := by
    refine BIBase.Entails.trans ?_ (hin c)
    unfold Pipeline.ΦA
    iintro ⟨Hp, -, Hr⟩
    isplitl [Hr]; · iexact Hr
    iexact Hp
  hout c := by
    rw [Pipeline.ownSems0_none]
    refine BIBase.Entails.trans (hout c) ?_
    unfold Pipeline.ΦA
    iintro ⟨Hr, Hp⟩
    isplitl [Hp]; · iexact Hp
    isplitr; · iempintro
    iexact Hr
  hexit c := by
    have hjoin := Pipeline.unscopedBufs_of_arrays (p := p) (pcfgs (F := F)) adm (Ix := Unit) (Name := ℕ) (U := UR sig nD τ) (Lvl := ℕ)
      lf.win lf.arr_whole c (pdats m) ((pdats m p c).share_full (hq c))
      (fun b => Win c b) (fun b => Wout c b) ((pdats m p c).arrAt · (cfgs p).N) (hF c) (hrest c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    rw [howed c (Fin.last _)]
    icases HO with ⟨%W, -, HO⟩; iexists W; iexact HO

/-! ## The eight regions

Regions 0 to 6 keep the class invariant itself as the body's invariant, so entering and leaving it is the identity;
region 7's invariant also tracks its two accumulators, and is entered and left by that region's own two lemmas. -/

/-- REGION 0 over the thread state: entered at `W3`, left at `W4`. -/
def reg0 : Pipeline.RegionSeg (pcfgs (F := F)) adm (pdats m) () defs₀ 𝒱₀ L lv 0 :=
  regOf m 0 launch0 (W3 m) (W4 m)
    (fun c => body_obligation0 (V3 m) c) (fun _ _ => rfl) (fun _ _ => rfl) (fun _ _ => rfl)
    (fun c w => A_eq0 (V3 m) c w)
    (fun c w => (W4_arr m c w).symm)
    (fun c b hb => W4_of_ne m c b fun w e => hb (Finset.mem_image.mpr ⟨w, Finset.mem_univ _, e⟩))
    (fun _ => .rfl) (fun _ => .rfl)

/-- REGION 1 over the thread state: entered at `W4`, left at `W5`. -/
def reg1 : Pipeline.RegionSeg (pcfgs (F := F)) adm (pdats m) () defs₀ 𝒱₀ L lv 1 :=
  regOf m 1 launch1 (W4 m) (W5 m)
    (fun c => body_obligation1 (V4 m) c) (fun _ _ => rfl) (fun _ _ => rfl) (fun _ _ => rfl)
    (fun c w => A_eq1 (V4 m) c w)
    (fun c w => (W5_arr m c w).symm)
    (fun c b hb => W5_of_ne m c b fun w e => hb (Finset.mem_image.mpr ⟨w, Finset.mem_univ _, e⟩))
    (fun _ => .rfl) (fun _ => .rfl)

/-- REGION 2 over the thread state: entered at `W6`, left at `W7`. -/
def reg2 : Pipeline.RegionSeg (pcfgs (F := F)) adm (pdats m) () defs₀ 𝒱₀ L lv 2 :=
  regOf m 2 launch2 (W6 m) (W7 m)
    (fun c => body_obligation2 (V6 m) c) (fun _ _ => rfl) (fun _ _ => rfl) (fun _ _ => rfl)
    (fun c w => A_eq2 (V6 m) c w)
    (fun c w => (W7_arr m c w).symm)
    (fun c b hb => W7_of_ne m c b fun w e => hb (Finset.mem_image.mpr ⟨w, Finset.mem_univ _, e⟩))
    (fun _ => .rfl) (fun _ => .rfl)

/-- REGION 3 over the thread state: entered at `W8`, left at `W9`. -/
def reg3 : Pipeline.RegionSeg (pcfgs (F := F)) adm (pdats m) () defs₀ 𝒱₀ L lv 3 :=
  regOf m 3 launch3 (W8 m) (W9 m)
    (fun c => body_obligation3 (V8 m) c) (fun _ _ => rfl) (fun _ _ => rfl) (fun _ _ => rfl)
    (fun c w => A_eq3 (V8 m) c w)
    (fun c w => (W9_arr m c w).symm)
    (fun c b hb => W9_of_ne m c b fun w e => hb (Finset.mem_image.mpr ⟨w, Finset.mem_univ _, e⟩))
    (fun _ => .rfl) (fun _ => .rfl)

/-- REGION 4 over the thread state: entered at `W10`, left at `W11`. -/
def reg4 : Pipeline.RegionSeg (pcfgs (F := F)) adm (pdats m) () defs₀ 𝒱₀ L lv 4 :=
  regOf m 4 launch4 (W10 m) (W11 m)
    (fun c => body_obligation4 (V10 m) c) (fun _ _ => rfl) (fun _ _ => rfl) (fun _ _ => rfl)
    (fun c w => A_eq4 (V10 m) c w)
    (fun c w => (W11_arr m c w).symm)
    (fun c b hb => W11_of_ne m c b fun w e => hb (Finset.mem_image.mpr ⟨w, Finset.mem_univ _, e⟩))
    (fun _ => .rfl) (fun _ => .rfl)

/-- REGION 5 over the thread state: entered at `W12`, left at `W13`. -/
def reg5 : Pipeline.RegionSeg (pcfgs (F := F)) adm (pdats m) () defs₀ 𝒱₀ L lv 5 :=
  regOf m 5 launch5 (W12 m) (W13 m)
    (fun c => body_obligation5 (V12 m) c) (fun _ _ => rfl) (fun _ _ => rfl) (fun _ _ => rfl)
    (fun c w => A_eq5 (V12 m) c w)
    (fun c w => (W13_arr m c w).symm)
    (fun c b hb => W13_of_ne m c b fun w e => hb (Finset.mem_image.mpr ⟨w, Finset.mem_univ _, e⟩))
    (fun _ => .rfl) (fun _ => .rfl)

/-- REGION 6 over the thread state: entered at `W14`, left at `W15`. -/
def reg6 : Pipeline.RegionSeg (pcfgs (F := F)) adm (pdats m) () defs₀ 𝒱₀ L lv 6 :=
  regOf m 6 launch6 (W14 m) (W15 m)
    (fun c => body_obligation6 (V14 m) c) (fun _ _ => rfl) (fun _ _ => rfl) (fun _ _ => rfl)
    (fun c w => A_eq6 (V14 m) c w)
    (fun c w => (W15_arr m c w).symm)
    (fun c b hb => W15_of_ne m c b fun w e => hb (Finset.mem_image.mpr ⟨w, Finset.mem_univ _, e⟩))
    (fun _ => .rfl) (fun _ => .rfl)

/-- REGION 7 over the thread state: entered at `W16`, left at `W17`. -/
def reg7 : Pipeline.RegionSeg (pcfgs (F := F)) adm (pdats m) () defs₀ 𝒱₀ L lv 7 :=
  regOf m 7 launch7 (W16 m) (W17 m)
    (fun c => body_obligation7 (V16 m) c) (fun _ _ => rfl) (fun _ _ => rfl) (fun _ _ => rfl)
    (fun c w => A_eq7 (V16 m) c w)
    (fun c w => (W17_arr m c w).symm)
    (fun c b hb => W17_of_ne m c b fun w e => hb (Finset.mem_image.mpr ⟨w, Finset.mem_univ _, e⟩))
    (fun c => hin7 (V16 m) c) (fun c => hout7 (V16 m) c)

/-! ## @main as segments -/

/-- @main's eighteen items in order: a host segment per stretch from its boundary's contents, a region per kernel call. -/
abbrev segs : List (Pipeline.Seg (pcfgs (F := F)) adm (pdats m) () defs₀ 𝒱₀ L lv) :=
  [ .host (hseg hostOps0 hostOps0_sub hostOps0_fresh (W0 m)),
    .host (hseg hostOps0_1 hostOps0_1_sub hostOps0_1_fresh (W1 m)),
    .host (hseg hostOps0_2 hostOps0_2_sub hostOps0_2_fresh (W2 m)),
    .region (reg0 m),
    .region (reg1 m),
    .host (hseg hostOps2 hostOps2_sub hostOps2_fresh (W5 m)),
    .region (reg2 m),
    .host (hseg hostOps3 hostOps3_sub hostOps3_fresh (W7 m)),
    .region (reg3 m),
    .host (hseg hostOps4 hostOps4_sub hostOps4_fresh (W9 m)),
    .region (reg4 m),
    .host (hseg hostOps5 hostOps5_sub hostOps5_fresh (W11 m)),
    .region (reg5 m),
    .host (hseg hostOps6 hostOps6_sub hostOps6_fresh (W13 m)),
    .region (reg6 m),
    .host (hseg hostOps7 hostOps7_sub hostOps7_fresh (W15 m)),
    .region (reg7 m),
    .host (hseg hostOps8 hostOps8_sub hostOps8_fresh (W17 m)) ]

/-- @main is the run of the segments: both are the chain of the same eighteen items. -/
theorem main_run (c : Dev nD) : main (F := F) c = Pipeline.Seg.run (segs m) := (main_chain c).trans (by chain_rfl)

/-! ## The arguments end as launched

No stretch writes an argument and no region has one as an output window; a region that stages an argument as an input
window never writes its array. So the fold at an argument's buffer walks back, item by item, to the launch memory. -/

theorem W18_main_arg0 (c : Dev nD) : W18 m c (Proc.devRef .tc main_arg0) = m ((c : Thread nD τ).loc main_arg0) :=
  (W18_of m c main_arg0 (by decide)).trans <|
  (W17_of_ne m c main_arg0 (by decide)).trans <|
  (W16_of m c main_arg0 (by decide)).trans <|
  (W15_of_ne m c main_arg0 (by decide)).trans <|
  (W14_of m c main_arg0 (by decide)).trans <|
  (W13_of_ne m c main_arg0 (by decide)).trans <|
  (W12_of m c main_arg0 (by decide)).trans <|
  (W11_of_ne m c main_arg0 (by decide)).trans <|
  (W10_of m c main_arg0 (by decide)).trans <|
  (W9_of_ne m c main_arg0 (by decide)).trans <|
  (W8_of m c main_arg0 (by decide)).trans <|
  (W7_of_ne m c main_arg0 (by decide)).trans <|
  (W6_of m c main_arg0 (by decide)).trans <|
  ((W5_arr m c 0).trans (((dat1 (V4 m) c).arrAt_in 0 rfl _).trans (A_eq1 (V4 m) c 0))).trans <|
  (W4_of_ne m c main_arg0 (by decide)).trans <|
  (W3_of m c main_arg0 (by decide)).trans <|
  (W2_of m c main_arg0 (by decide)).trans <|
  (W1_of m c main_arg0 (by decide)).trans <|
  rfl

theorem W18_main_arg1 (c : Dev nD) : W18 m c (Proc.devRef .tc main_arg1) = m ((c : Thread nD τ).loc main_arg1) :=
  (W18_of m c main_arg1 (by decide)).trans <|
  (W17_of_ne m c main_arg1 (by decide)).trans <|
  (W16_of m c main_arg1 (by decide)).trans <|
  (W15_of_ne m c main_arg1 (by decide)).trans <|
  (W14_of m c main_arg1 (by decide)).trans <|
  (W13_of_ne m c main_arg1 (by decide)).trans <|
  (W12_of m c main_arg1 (by decide)).trans <|
  (W11_of_ne m c main_arg1 (by decide)).trans <|
  (W10_of m c main_arg1 (by decide)).trans <|
  (W9_of_ne m c main_arg1 (by decide)).trans <|
  (W8_of m c main_arg1 (by decide)).trans <|
  (W7_of_ne m c main_arg1 (by decide)).trans <|
  (W6_of m c main_arg1 (by decide)).trans <|
  (W5_of_ne m c main_arg1 (by decide)).trans <|
  (W4_of_ne m c main_arg1 (by decide)).trans <|
  (W3_of m c main_arg1 (by decide)).trans <|
  (W2_of m c main_arg1 (by decide)).trans <|
  (W1_of m c main_arg1 (by decide)).trans <|
  rfl

theorem W18_main_arg2 (c : Dev nD) : W18 m c (Proc.devRef .tc main_arg2) = m ((c : Thread nD τ).loc main_arg2) :=
  (W18_of m c main_arg2 (by decide)).trans <|
  (W17_of_ne m c main_arg2 (by decide)).trans <|
  (W16_of m c main_arg2 (by decide)).trans <|
  (W15_of_ne m c main_arg2 (by decide)).trans <|
  (W14_of m c main_arg2 (by decide)).trans <|
  (W13_of_ne m c main_arg2 (by decide)).trans <|
  (W12_of m c main_arg2 (by decide)).trans <|
  (W11_of_ne m c main_arg2 (by decide)).trans <|
  (W10_of m c main_arg2 (by decide)).trans <|
  (W9_of_ne m c main_arg2 (by decide)).trans <|
  (W8_of m c main_arg2 (by decide)).trans <|
  (W7_of_ne m c main_arg2 (by decide)).trans <|
  (W6_of m c main_arg2 (by decide)).trans <|
  (W5_of_ne m c main_arg2 (by decide)).trans <|
  ((W4_arr m c 0).trans (((dat0 (V3 m) c).arrAt_in 0 rfl _).trans (A_eq0 (V3 m) c 0))).trans <|
  (W3_of m c main_arg2 (by decide)).trans <|
  (W2_of m c main_arg2 (by decide)).trans <|
  (W1_of m c main_arg2 (by decide)).trans <|
  rfl

theorem W18_main_arg3 (c : Dev nD) : W18 m c (Proc.devRef .tc main_arg3) = m ((c : Thread nD τ).loc main_arg3) :=
  (W18_of m c main_arg3 (by decide)).trans <|
  (W17_of_ne m c main_arg3 (by decide)).trans <|
  (W16_of m c main_arg3 (by decide)).trans <|
  (W15_of_ne m c main_arg3 (by decide)).trans <|
  (W14_of m c main_arg3 (by decide)).trans <|
  (W13_of_ne m c main_arg3 (by decide)).trans <|
  (W12_of m c main_arg3 (by decide)).trans <|
  (W11_of_ne m c main_arg3 (by decide)).trans <|
  (W10_of m c main_arg3 (by decide)).trans <|
  (W9_of_ne m c main_arg3 (by decide)).trans <|
  (W8_of m c main_arg3 (by decide)).trans <|
  (W7_of_ne m c main_arg3 (by decide)).trans <|
  (W6_of m c main_arg3 (by decide)).trans <|
  (W5_of_ne m c main_arg3 (by decide)).trans <|
  (W4_of_ne m c main_arg3 (by decide)).trans <|
  (W3_of m c main_arg3 (by decide)).trans <|
  (W2_of m c main_arg3 (by decide)).trans <|
  (W1_of m c main_arg3 (by decide)).trans <|
  rfl

theorem W18_main_arg4 (c : Dev nD) : W18 m c (Proc.devRef .tc main_arg4) = m ((c : Thread nD τ).loc main_arg4) :=
  (W18_of m c main_arg4 (by decide)).trans <|
  (W17_of_ne m c main_arg4 (by decide)).trans <|
  (W16_of m c main_arg4 (by decide)).trans <|
  (W15_of_ne m c main_arg4 (by decide)).trans <|
  (W14_of m c main_arg4 (by decide)).trans <|
  (W13_of_ne m c main_arg4 (by decide)).trans <|
  (W12_of m c main_arg4 (by decide)).trans <|
  (W11_of_ne m c main_arg4 (by decide)).trans <|
  (W10_of m c main_arg4 (by decide)).trans <|
  (W9_of_ne m c main_arg4 (by decide)).trans <|
  (W8_of m c main_arg4 (by decide)).trans <|
  (W7_of_ne m c main_arg4 (by decide)).trans <|
  (W6_of m c main_arg4 (by decide)).trans <|
  (W5_of_ne m c main_arg4 (by decide)).trans <|
  ((W4_arr m c 1).trans (((dat0 (V3 m) c).arrAt_in 1 rfl _).trans (A_eq0 (V3 m) c 1))).trans <|
  (W3_of m c main_arg4 (by decide)).trans <|
  (W2_of m c main_arg4 (by decide)).trans <|
  (W1_of m c main_arg4 (by decide)).trans <|
  rfl

theorem W18_main_arg5 (c : Dev nD) : W18 m c (Proc.devRef .tc main_arg5) = m ((c : Thread nD τ).loc main_arg5) :=
  (W18_of m c main_arg5 (by decide)).trans <|
  (W17_of_ne m c main_arg5 (by decide)).trans <|
  (W16_of m c main_arg5 (by decide)).trans <|
  (W15_of_ne m c main_arg5 (by decide)).trans <|
  (W14_of m c main_arg5 (by decide)).trans <|
  (W13_of_ne m c main_arg5 (by decide)).trans <|
  (W12_of m c main_arg5 (by decide)).trans <|
  (W11_of_ne m c main_arg5 (by decide)).trans <|
  (W10_of m c main_arg5 (by decide)).trans <|
  (W9_of_ne m c main_arg5 (by decide)).trans <|
  (W8_of m c main_arg5 (by decide)).trans <|
  (W7_of_ne m c main_arg5 (by decide)).trans <|
  (W6_of m c main_arg5 (by decide)).trans <|
  (W5_of_ne m c main_arg5 (by decide)).trans <|
  (W4_of_ne m c main_arg5 (by decide)).trans <|
  (W3_of m c main_arg5 (by decide)).trans <|
  (W2_of m c main_arg5 (by decide)).trans <|
  (W1_of m c main_arg5 (by decide)).trans <|
  rfl

theorem W18_main_arg6 (c : Dev nD) : W18 m c (Proc.devRef .tc main_arg6) = m ((c : Thread nD τ).loc main_arg6) :=
  (W18_of m c main_arg6 (by decide)).trans <|
  (W17_of_ne m c main_arg6 (by decide)).trans <|
  (W16_of m c main_arg6 (by decide)).trans <|
  (W15_of_ne m c main_arg6 (by decide)).trans <|
  (W14_of m c main_arg6 (by decide)).trans <|
  (W13_of_ne m c main_arg6 (by decide)).trans <|
  (W12_of m c main_arg6 (by decide)).trans <|
  (W11_of_ne m c main_arg6 (by decide)).trans <|
  (W10_of m c main_arg6 (by decide)).trans <|
  (W9_of_ne m c main_arg6 (by decide)).trans <|
  (W8_of m c main_arg6 (by decide)).trans <|
  (W7_of_ne m c main_arg6 (by decide)).trans <|
  (W6_of m c main_arg6 (by decide)).trans <|
  ((W5_arr m c 1).trans (((dat1 (V4 m) c).arrAt_in 1 rfl _).trans (A_eq1 (V4 m) c 1))).trans <|
  (W4_of_ne m c main_arg6 (by decide)).trans <|
  (W3_of m c main_arg6 (by decide)).trans <|
  (W2_of m c main_arg6 (by decide)).trans <|
  (W1_of m c main_arg6 (by decide)).trans <|
  rfl

theorem W18_main_arg7 (c : Dev nD) : W18 m c (Proc.devRef .tc main_arg7) = m ((c : Thread nD τ).loc main_arg7) :=
  (W18_of m c main_arg7 (by decide)).trans <|
  (W17_of_ne m c main_arg7 (by decide)).trans <|
  (W16_of m c main_arg7 (by decide)).trans <|
  (W15_of_ne m c main_arg7 (by decide)).trans <|
  (W14_of m c main_arg7 (by decide)).trans <|
  (W13_of_ne m c main_arg7 (by decide)).trans <|
  (W12_of m c main_arg7 (by decide)).trans <|
  (W11_of_ne m c main_arg7 (by decide)).trans <|
  (W10_of m c main_arg7 (by decide)).trans <|
  (W9_of_ne m c main_arg7 (by decide)).trans <|
  (W8_of m c main_arg7 (by decide)).trans <|
  (W7_of_ne m c main_arg7 (by decide)).trans <|
  (W6_of m c main_arg7 (by decide)).trans <|
  (W5_of_ne m c main_arg7 (by decide)).trans <|
  (W4_of_ne m c main_arg7 (by decide)).trans <|
  (W3_of m c main_arg7 (by decide)).trans <|
  (W2_of m c main_arg7 (by decide)).trans <|
  (W1_of m c main_arg7 (by decide)).trans <|
  rfl

theorem W18_main_arg8 (c : Dev nD) : W18 m c (Proc.devRef .tc main_arg8) = m ((c : Thread nD τ).loc main_arg8) :=
  (W18_of m c main_arg8 (by decide)).trans <|
  (W17_of_ne m c main_arg8 (by decide)).trans <|
  (W16_of m c main_arg8 (by decide)).trans <|
  (W15_of_ne m c main_arg8 (by decide)).trans <|
  (W14_of m c main_arg8 (by decide)).trans <|
  (W13_of_ne m c main_arg8 (by decide)).trans <|
  (W12_of m c main_arg8 (by decide)).trans <|
  (W11_of_ne m c main_arg8 (by decide)).trans <|
  (W10_of m c main_arg8 (by decide)).trans <|
  (W9_of_ne m c main_arg8 (by decide)).trans <|
  (W8_of m c main_arg8 (by decide)).trans <|
  (W7_of_ne m c main_arg8 (by decide)).trans <|
  (W6_of m c main_arg8 (by decide)).trans <|
  (W5_of_ne m c main_arg8 (by decide)).trans <|
  (W4_of_ne m c main_arg8 (by decide)).trans <|
  (W3_of m c main_arg8 (by decide)).trans <|
  (W2_of m c main_arg8 (by decide)).trans <|
  (W1_of m c main_arg8 (by decide)).trans <|
  rfl

theorem W18_main_arg9 (c : Dev nD) : W18 m c (Proc.devRef .tc main_arg9) = m ((c : Thread nD τ).loc main_arg9) :=
  (W18_of m c main_arg9 (by decide)).trans <|
  (W17_of_ne m c main_arg9 (by decide)).trans <|
  (W16_of m c main_arg9 (by decide)).trans <|
  (W15_of_ne m c main_arg9 (by decide)).trans <|
  (W14_of m c main_arg9 (by decide)).trans <|
  (W13_of_ne m c main_arg9 (by decide)).trans <|
  (W12_of m c main_arg9 (by decide)).trans <|
  (W11_of_ne m c main_arg9 (by decide)).trans <|
  (W10_of m c main_arg9 (by decide)).trans <|
  (W9_of_ne m c main_arg9 (by decide)).trans <|
  (W8_of m c main_arg9 (by decide)).trans <|
  (W7_of_ne m c main_arg9 (by decide)).trans <|
  (W6_of m c main_arg9 (by decide)).trans <|
  (W5_of_ne m c main_arg9 (by decide)).trans <|
  (W4_of_ne m c main_arg9 (by decide)).trans <|
  (W3_of m c main_arg9 (by decide)).trans <|
  (W2_of m c main_arg9 (by decide)).trans <|
  (W1_of m c main_arg9 (by decide)).trans <|
  rfl

theorem W18_main_arg10 (c : Dev nD) : W18 m c (Proc.devRef .tc main_arg10) = m ((c : Thread nD τ).loc main_arg10) :=
  (W18_of m c main_arg10 (by decide)).trans <|
  (W17_of_ne m c main_arg10 (by decide)).trans <|
  (W16_of m c main_arg10 (by decide)).trans <|
  (W15_of_ne m c main_arg10 (by decide)).trans <|
  (W14_of m c main_arg10 (by decide)).trans <|
  (W13_of_ne m c main_arg10 (by decide)).trans <|
  (W12_of m c main_arg10 (by decide)).trans <|
  (W11_of_ne m c main_arg10 (by decide)).trans <|
  (W10_of m c main_arg10 (by decide)).trans <|
  (W9_of_ne m c main_arg10 (by decide)).trans <|
  (W8_of m c main_arg10 (by decide)).trans <|
  (W7_of_ne m c main_arg10 (by decide)).trans <|
  (W6_of m c main_arg10 (by decide)).trans <|
  (W5_of_ne m c main_arg10 (by decide)).trans <|
  (W4_of_ne m c main_arg10 (by decide)).trans <|
  (W3_of m c main_arg10 (by decide)).trans <|
  (W2_of m c main_arg10 (by decide)).trans <|
  (W1_of m c main_arg10 (by decide)).trans <|
  rfl

theorem W18_main_arg11 (c : Dev nD) : W18 m c (Proc.devRef .tc main_arg11) = m ((c : Thread nD τ).loc main_arg11) :=
  (W18_of m c main_arg11 (by decide)).trans <|
  (W17_of_ne m c main_arg11 (by decide)).trans <|
  (W16_of m c main_arg11 (by decide)).trans <|
  (W15_of_ne m c main_arg11 (by decide)).trans <|
  (W14_of m c main_arg11 (by decide)).trans <|
  (W13_of_ne m c main_arg11 (by decide)).trans <|
  (W12_of m c main_arg11 (by decide)).trans <|
  (W11_of_ne m c main_arg11 (by decide)).trans <|
  (W10_of m c main_arg11 (by decide)).trans <|
  (W9_of_ne m c main_arg11 (by decide)).trans <|
  (W8_of m c main_arg11 (by decide)).trans <|
  (W7_of_ne m c main_arg11 (by decide)).trans <|
  (W6_of m c main_arg11 (by decide)).trans <|
  (W5_of_ne m c main_arg11 (by decide)).trans <|
  (W4_of_ne m c main_arg11 (by decide)).trans <|
  (W3_of m c main_arg11 (by decide)).trans <|
  (W2_of m c main_arg11 (by decide)).trans <|
  (W1_of m c main_arg11 (by decide)).trans <|
  rfl

/-! ## The launch -/

set_option backward.isDefEq.respectTransparency.types false in
/-- From any memory `m` with zero counters, every weakly fair execution of @main on the TensorCore terminates, and in
    every final state each unscoped buffer holds what the fold leaves there (`W18`): the thread state chains through
    the eighteen segments, and the last one is read against the final state. -/
theorem run_all (ρ : Dev nD → PrngReg) : θ_run defs (onTc (τ := τ) (main (F := F))) ⟨m, fun _ => 0, ρ⟩
    (fun r => ∀ c : Dev nD, ∀ b ∈ Pipeline.ucRefs τ sig, r.2.mem (((c : Thread nD τ)).1, b) = W18 m c b) :=
  Pipeline.θ_run_regions_kit (pcfgs (F := F)) adm (pdats m) () cellOf_inj emb₁ defs₀ 𝒱₀ L lv m ρ main (segs m)
    (fun c Q => by rw [main_run m c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := T (W0 m))
    (Tₙ := fun c => iprop(StableHlo.held (c : Thread nD τ) (Pipeline.ucRefs τ sig) (W18 m c) ∗ ∃ r, prngReg c r))
    (hch := ⟨fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl,
      fun c => by
        show T (W18 m) c ⊢ _
        iintro ⟨Hh, Hp, HO⟩
        isplitl [Hh Hp]
        · isplitl [Hh] <;> iassumption
        iexact HO⟩)
    (hinit := by
      refine Pipeline.initEach L lv fun c => ?_
      rw [show unscopedBufs c (fun b => m ((c : Thread nD τ).loc b)) = StableHlo.held (c : Thread nD τ) (Pipeline.ucRefs τ sig) (W0 m c)
        from Pipeline.unscopedBufs_held c (W0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W18 m c b)
    (hfin := fun c s' => by
      iintro ⟨⟨Hh, -⟩, HSI⟩
      unfold StableHlo.held
      imodintro
      iapply (pointsTo_read_all (Pipeline.ucRefs τ sig) (fun b => (((c : Thread nD τ)).1, b)) (W18 m c) s')
      isplitl [Hh] <;> iassumption)
    (hQ := fun s h => h)

end Cert.Kernel.Hand

end
-- ==== Proof.KI.RegA0.lean ====
/-
  Region 0 of the idealized kernel program, its class-A half at a parameter `V` (the TensorCore's buffer
  contents when the region is entered): three inputs (a 10000x128 block of main_arg2, all of main_arg4, all of main_v30) and the output main_v31.
  Each window's block at a grid point is read off its array at `V`; the body loads every input block whole, loads
  its output buffer once (at whatever it holds) and stores one payload over all of it, so what it leaves there is a
  closed function of the input blocks. An input whose block index does not move between points is not fetched again
  and still holds the block of the point before, which is the same block.
-/
import proofs.«402161_j18391049961554_1_alg».proof.Proof.Gen.KernelIdeal.Launch
import proofs.«402161_j18391049961554_1_alg».proof.Proof.Gen.KernelIdeal.Skeleton
import proofs.«402161_j18391049961554_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

-- membership in a rectangle of 10000 rows: the structural look recurses once per coordinate of the long axis
set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Region0
-- the TensorCore's buffer contents when the region is entered
variable (V : (c : Dev nD) → (b : Ref sig .tc) → Buf (Elt F) ((c : Thread nD τ).loc b))

/-! ## The windows' blocks -/

/-- Window `w`'s block at point `t`, read off its array as the region finds it (`V`). -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- Input window 0 (its block index moves with the point, so it is fetched at every point) holds its block at every
    point, for any proof data whose array is `V`'s and whose body leaves the block in place. The window is uncut and
    never idle. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

/-- Input window 1 (the weights, a constant block index: fetched at the first point only) holds its block at every
    point all the same: where it is not fetched the index has not moved, and the buffer still holds the block of the
    point before, which is this point's. -/
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

/-- Input window 2 (the bias row, a constant block index too) likewise. -/
theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)

/-! ## The body's accesses: each buffer whole -/

abbrev r0_0 : Rect S10000x128 := Rect.unit (s := S10000x128) ![0, 0] S10000x128.size inb_S10000x128_S10000x128_0_0
abbrev r0_1 : Rect S128x128 := Rect.unit (s := S128x128) ![0, 0] S128x128.size inb_S128x128_S128x128_0_0
abbrev r0_2 : Rect S1x128 := Rect.unit (s := S1x128) ![0, 0] S1x128.size inb_S1x128_S1x128_0_0

/-! ## What the body leaves in the output window's buffer -/

/-- The output buffer after the body, from the three input blocks (rows, weights, bias): one store of the payload
    over all of it. -/
def out0 (x0 : Vec F S10000x128 .f32) (x1 : Vec F S128x128 .f32) (x2 : Vec F S1x128 .f32) : Vec F S10000x128 .f32 :=
  View.canon [⟨r0_0, k0_pay1 (View.ld x0 r0_0) (View.ld x1 r0_1) (View.ld x2 r0_2)⟩]

/-- The one store's rectangle is the whole buffer, so it covers it. -/
theorem cover0 (p0 : Vec F S10000x128 .f32) (y : S10000x128.Idx) :
    ∃ pc ∈ ([⟨r0_0, p0⟩] : List (View.Piece (Elt F) S10000x128 .f32)), y ∈ pc.1.set :=
  View.cover_of_tiled [⟨r0_0, p0⟩] S10000x128.size (by rfl) y

/-! ## The body's triple -/

set_option maxHeartbeats 1000000 in
/-- The kernel body on whole staging memrefs, the inputs' at read contents `x0`, `x1`, `x2` and the output's at
    anything, at any grid coordinate, runs to the continuation holding the inputs' as they were and the output's at
    `out0` of them: the load of the output buffer before the store reads what the buffer held and is not used. -/
theorem sound_kernel0 (c : Dev nD) (E : Set ℕ) (i : grid0.Coords)
    (arg1 : Memref sig .tc .vmem S10000x128 .f32) (harg1 : arg1.IsWhole) (arg2 : Memref sig .tc .vmem S128x128 .f32) (harg2 : arg2.IsWhole)
    (arg3 : Memref sig .tc .vmem S1x128 .f32) (harg3 : arg3.IsWhole) (arg4 : Memref sig .tc .vmem S10000x128 .f32) (harg4 : arg4.IsWhole)
    (x0 : Vec F S10000x128 .f32) (x1 : Vec F S128x128 .f32) (x2 : Vec F S1x128 .f32) (K : PUnit → sProp 𝕄) :
    iprop(owns (c : Thread nD τ) arg1 fullShare x0 ∗ owns (c : Thread nD τ) arg2 fullShare x1 ∗ owns (c : Thread nD τ) arg3 fullShare x2
        ∗ (∃ d, owns (c : Thread nD τ) arg4 fullShare d)
        ∗ (iprop(owns (c : Thread nD τ) arg1 fullShare x0 ∗ owns (c : Thread nD τ) arg2 fullShare x1 ∗ owns (c : Thread nD τ) arg3 fullShare x2
            ∗ owns (c : Thread nD τ) arg4 fullShare (out0 x0 x1 x2)) -∗ K ⟨⟩))
      ⊢ wp frame (wpE (defs₀ (F := F)) Variants.none c none) E (cc0__dense_bias_relu_kernel i arg1 harg1 arg2 harg2 arg3 harg3 arg4 harg4) K := by
  simp only [cc0__dense_bias_relu_kernel_eq_skeleton]; unfold cc0__dense_bias_relu_kernel_skel
  unfold owns
  iintro ⟨⟨%f0, %hf0, H0⟩, ⟨%f1, %hf1, H1⟩, ⟨%f2, %hf2, H2⟩, ⟨%d3, %f3, -, H3⟩, Hk⟩
  subst hf0; subst hf1; subst hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover0 _)

/-! ## The pipeline's proof data -/

/-- The proof data of pipeline 0 on core `c`: the arrays as the region finds them; after the body at point `t` each
    input's buffer at its block and the output's at `out0` of the input blocks; the class's invariant; nothing owed;
    full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => out0 (iblk0 V c 0 t) (iblk0 V c 1 t) (iblk0 V c 2 t)
  Φ _ := Pipeline.ΦA spec0 c
  q _ := fullShare
  owed _ := 0

theorem A_eq0 (c : Dev nD) (w : Fin cfg0.W) : (dat0 V c).A w = V c (Pipeline.arrRef spec0 w) := by
  dsimp only [dat0]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = out0 (iblk0 V c 0 t) (iblk0 V c 1 t) (iblk0 V c 2 t) := by dsimp only [dat0]

/-- Each input's current staging buffer holds its block at every point, fetched there or not. -/
theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d

/-! ## The body obligation, at a generic point -/

/-- What the body is called with at point `t`, the windows one by one, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t))

/-- The body at any point: the inputs' memrefs hold their blocks, so `sound_kernel0` applies; the invariant and the
    core's dues pass through unread. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2]
  rw [show (dat0 V c).Φ t.succ = (dat0 V c).Φ t.castSucc from rfl,
    show (dat0 V c).owesAt () t.succ = (dat0 V c).owesAt () t.castSucc from rfl,
    after0_0, after0_1, after0_2, after0_3]
  iintro ⟨HΦ, Ho, ⟨%d0, H0⟩, ⟨%d1, H1⟩, ⟨%d2, H2⟩, ⟨%d3, H3⟩⟩
  iapply (sound_kernel0 c Set.univ _ _ _ _ _ _ _ _ _ (iblk0 V c 0 t) (iblk0 V c 1 t) (iblk0 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The library's body obligation, at every point. -/
theorem body_obligation0 (c : Dev nD) : BodyObligation (dat0 (F := F) V c) (defs₀ (F := F)) Variants.none () Set.univ := fun t => by
  rw [bigSep_W0, bigSep_W0]
  exact sound_body0 V c t

end Region0

end Cert.KernelIdeal.Hand

end
-- ==== Proof.KI.RegA1.lean ====
/-
  Region 1 of the idealized kernel program, its class-A half at a parameter `V` (the TensorCore's buffer
  contents when the region is entered): two inputs (a 10000x64 block of main_arg0, all of main_arg6) and the output main_v32.
  Each window's block at a grid point is read off its array at `V`; the body loads every input block whole, loads
  its output buffer once (at whatever it holds) and stores one payload over all of it, so what it leaves there is a
  closed function of the input blocks. An input whose block index does not move between points is not fetched again
  and still holds the block of the point before, which is the same block.
-/
import proofs.«402161_j18391049961554_1_alg».proof.Proof.Gen.KernelIdeal.Launch
import proofs.«402161_j18391049961554_1_alg».proof.Proof.Gen.KernelIdeal.Skeleton
import proofs.«402161_j18391049961554_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

-- membership in a rectangle of 10000 rows: the structural look recurses once per coordinate of the long axis
set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Region1
-- the TensorCore's buffer contents when the region is entered
variable (V : (c : Dev nD) → (b : Ref sig .tc) → Buf (Elt F) ((c : Thread nD τ).loc b))

/-! ## The windows' blocks -/

/-- Window `w`'s block at point `t`, read off its array as the region finds it (`V`). -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- Input window 0 (its block index moves with the point, so it is fetched at every point) holds its block at every
    point, for any proof data whose array is `V`'s and whose body leaves the block in place. The window is uncut and
    never idle. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)

/-- Input window 1 (a constant block index: fetched at the first point only) holds its block at every point all
    the same: where it is not fetched the index has not moved, and the buffer still holds the block of the point
    before, which is this point's. -/
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

/-! ## The body's accesses: each buffer whole -/

abbrev r1_0 : Rect S10000x64 := Rect.unit (s := S10000x64) ![0, 0] S10000x64.size inb_S10000x64_S10000x64_0_0
abbrev r1_1 : Rect S64x128 := Rect.unit (s := S64x128) ![0, 0] S64x128.size inb_S64x128_S64x128_0_0
abbrev r1_2 : Rect S10000x128 := Rect.unit (s := S10000x128) ![0, 0] S10000x128.size inb_S10000x128_S10000x128_0_0

/-! ## What the body leaves in the output window's buffer -/

/-- The output buffer after the body, from the two input blocks: one store of the product payload over all of it. -/
def out1 (x0 : Vec F S10000x64 .f32) (x1 : Vec F S64x128 .f32) : Vec F S10000x128 .f32 :=
  View.canon [⟨r1_2, k1_pay1 (View.ld x0 r1_0) (View.ld x1 r1_1)⟩]

/-- The one store's rectangle is the whole buffer, so it covers it. -/
theorem cover1 (p0 : Vec F S10000x128 .f32) (y : S10000x128.Idx) :
    ∃ pc ∈ ([⟨r1_2, p0⟩] : List (View.Piece (Elt F) S10000x128 .f32)), y ∈ pc.1.set :=
  View.cover_of_tiled [⟨r1_2, p0⟩] S10000x128.size (by rfl) y

/-! ## The body's triple -/

set_option maxHeartbeats 1000000 in
/-- The kernel body on whole staging memrefs, the inputs' at read contents `x0`, `x1` and the output's at anything,
    at any grid coordinate, runs to the continuation holding the inputs' as they were and the output's at `out1` of
    them: the load of the output buffer before the store reads what the buffer held and is not used. -/
theorem sound_kernel1 (c : Dev nD) (E : Set ℕ) (i : grid1.Coords)
    (arg1 : Memref sig .tc .vmem S10000x64 .f32) (harg1 : arg1.IsWhole) (arg2 : Memref sig .tc .vmem S64x128 .f32) (harg2 : arg2.IsWhole)
    (arg3 : Memref sig .tc .vmem S10000x128 .f32) (harg3 : arg3.IsWhole)
    (x0 : Vec F S10000x64 .f32) (x1 : Vec F S64x128 .f32) (K : PUnit → sProp 𝕄) :
    iprop(owns (c : Thread nD τ) arg1 fullShare x0 ∗ owns (c : Thread nD τ) arg2 fullShare x1 ∗ (∃ d, owns (c : Thread nD τ) arg3 fullShare d)
        ∗ (iprop(owns (c : Thread nD τ) arg1 fullShare x0 ∗ owns (c : Thread nD τ) arg2 fullShare x1
            ∗ owns (c : Thread nD τ) arg3 fullShare (out1 x0 x1)) -∗ K ⟨⟩))
      ⊢ wp frame (wpE (defs₀ (F := F)) Variants.none c none) E (cc1__dense_matmul_kernel i arg1 harg1 arg2 harg2 arg3 harg3) K := by
  simp only [cc1__dense_matmul_kernel_eq_skeleton]; unfold cc1__dense_matmul_kernel_skel
  unfold owns
  iintro ⟨⟨%f0, %hf0, H0⟩, ⟨%f1, %hf1, H1⟩, ⟨%d2, %f2, -, H2⟩, Hk⟩
  subst hf0; subst hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover1 _)

/-! ## The pipeline's proof data -/

/-- The proof data of pipeline 1 on core `c`: the arrays as the region finds them; after the body at point `t` each
    input's buffer at its block and the output's at `out1` of the input blocks; the class's invariant; nothing owed;
    full shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => out1 (iblk1 V c 0 t) (iblk1 V c 1 t)
  Φ _ := Pipeline.ΦA spec1 c
  q _ := fullShare
  owed _ := 0

theorem A_eq1 (c : Dev nD) (w : Fin cfg1.W) : (dat1 V c).A w = V c (Pipeline.arrRef spec1 w) := by
  dsimp only [dat1]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = out1 (iblk1 V c 0 t) (iblk1 V c 1 t) := by dsimp only [dat1]

/-- Each input's current staging buffer holds its block at every point, fetched there or not. -/
theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d

/-! ## The body obligation, at a generic point -/

/-- What the body is called with at point `t`, the windows one by one, -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d)))

/-- and what it returns. -/
def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t))

/-- The body at any point: the inputs' memrefs hold their blocks, so `sound_kernel1` applies; the invariant and the
    core's dues pass through unread. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1]
  rw [show (dat1 V c).Φ t.succ = (dat1 V c).Φ t.castSucc from rfl,
    show (dat1 V c).owesAt () t.succ = (dat1 V c).owesAt () t.castSucc from rfl,
    after1_0, after1_1, after1_2]
  iintro ⟨HΦ, Ho, ⟨%d0, H0⟩, ⟨%d1, H1⟩, ⟨%d2, H2⟩⟩
  iapply (sound_kernel1 c Set.univ _ _ _ _ _ _ _ (iblk1 V c 0 t) (iblk1 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The library's body obligation, at every point. -/
theorem body_obligation1 (c : Dev nD) : BodyObligation (dat1 (F := F) V c) (defs₀ (F := F)) Variants.none () Set.univ := fun t => by
  rw [bigSep_W1, bigSep_W1]
  exact sound_body1 V c t

end Region1

end Cert.KernelIdeal.Hand

end
-- ==== Proof.KI.RegA2.lean ====
/-
  Region 2 of the idealized kernel program, its class-A half at a parameter `V` (the TensorCore's buffer
  contents when the region is entered): three inputs (a 10000x128 block of main_v45, all of main_v46, a 10000x128 block of main_v31) and the output main_v47.
  Each window's block at a grid point is read off its array at `V`; the body loads every input block whole, loads
  its output buffer once (at whatever it holds) and stores one payload over all of it, so what it leaves there is a
  closed function of the input blocks. An input whose block index does not move between points is not fetched again
  and still holds the block of the point before, which is the same block.
-/
import proofs.«402161_j18391049961554_1_alg».proof.Proof.Gen.KernelIdeal.Launch
import proofs.«402161_j18391049961554_1_alg».proof.Proof.Gen.KernelIdeal.Skeleton
import proofs.«402161_j18391049961554_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

-- membership in a rectangle of 10000 rows: the structural look recurses once per coordinate of the long axis
set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Region2
-- the TensorCore's buffer contents when the region is entered
variable (V : (c : Dev nD) → (b : Ref sig .tc) → Buf (Elt F) ((c : Thread nD τ).loc b))

/-! ## The windows' blocks -/

/-- Window `w`'s block at point `t`, read off its array as the region finds it (`V`). -/
def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-- Input window 0 (its block index moves with the point, so it is fetched at every point) holds its block at every
    point, for any proof data whose array is `V`'s and whose body leaves the block in place. The window is uncut and
    never idle. -/
theorem before2_0_of {c : Dev nD} (dat : Dat τ (Elt F) Unit ℕ (UR sig nD τ) ℕ cfg2 c) (hA : dat.A 0 = V c (Pipeline.arrRef spec2 0))
    (hafter : ∀ t, dat.after 0 t = iblk2 V c 0 t) (t : Fin cfg2.N) (d) : dat.before 0 t d = iblk2 V c 0 t :=
  (dat.before_in_eq_fetched 0 rfl (fun _ => rfl) (fun _ _ _ => rfl) (fun t => by rw [hafter]; unfold Dat.blockOf iblk2; rw [hA]; try rfl) t d).trans
    (by unfold Dat.fetched Dat.blockOf iblk2; rw [hA]; try rfl)

/-- Input window 1 (the bias row, a constant block index: fetched at the first point only) holds its block at every
    point all the same: where it is not fetched the index has not moved, and the buffer still holds the block of the
    point before, which is this point's. -/
theorem before2_1_of {c : Dev nD} (dat : Dat τ (Elt F) Unit ℕ (UR sig nD τ) ℕ cfg2 c) (hA : dat.A 1 = V c (Pipeline.arrRef spec2 1))
    (hafter : ∀ t, dat.after 1 t = iblk2 V c 1 t) (t : Fin cfg2.N) (d) : dat.before 1 t d = iblk2 V c 1 t :=
  (dat.before_in_eq_fetched 1 rfl (fun _ => rfl) (fun _ _ _ => rfl) (fun t => by rw [hafter]; unfold Dat.blockOf iblk2; rw [hA]; try rfl) t d).trans
    (by unfold Dat.fetched Dat.blockOf iblk2; rw [hA]; try rfl)

/-- Input window 2 (the rows added back; its block index moves with the point, fetched at every point) likewise. -/
theorem before2_2_of {c : Dev nD} (dat : Dat τ (Elt F) Unit ℕ (UR sig nD τ) ℕ cfg2 c) (hA : dat.A 2 = V c (Pipeline.arrRef spec2 2))
    (hafter : ∀ t, dat.after 2 t = iblk2 V c 2 t) (t : Fin cfg2.N) (d) : dat.before 2 t d = iblk2 V c 2 t :=
  (dat.before_in_eq_fetched 2 rfl (fun _ => rfl) (fun _ _ _ => rfl) (fun t => by rw [hafter]; unfold Dat.blockOf iblk2; rw [hA]; try rfl) t d).trans
    (by unfold Dat.fetched Dat.blockOf iblk2; rw [hA]; try rfl)

/-! ## The body's accesses: each buffer whole -/

abbrev r2_0 : Rect S10000x128 := Rect.unit (s := S10000x128) ![0, 0] S10000x128.size inb_S10000x128_S10000x128_0_0
abbrev r2_1 : Rect S1x128 := Rect.unit (s := S1x128) ![0, 0] S1x128.size inb_S1x128_S1x128_0_0

/-! ## What the body leaves in the output window's buffer -/

/-- The output buffer after the body, from the three input blocks (rows, bias, the rows added back): one store of the
    payload over all of it. -/
def out2 (x0 : Vec F S10000x128 .f32) (x1 : Vec F S1x128 .f32) (x2 : Vec F S10000x128 .f32) : Vec F S10000x128 .f32 :=
  View.canon [⟨r2_0, k2_pay1 (View.ld x0 r2_0) (View.ld x1 r2_1) (View.ld x2 r2_0)⟩]

/-- The one store's rectangle is the whole buffer, so it covers it. -/
theorem cover2 (p0 : Vec F S10000x128 .f32) (y : S10000x128.Idx) :
    ∃ pc ∈ ([⟨r2_0, p0⟩] : List (View.Piece (Elt F) S10000x128 .f32)), y ∈ pc.1.set :=
  View.cover_of_tiled [⟨r2_0, p0⟩] S10000x128.size (by rfl) y

/-! ## The body's triple -/

set_option maxHeartbeats 1000000 in
/-- The kernel body on whole staging memrefs, the inputs' at read contents `x0`, `x1`, `x2` and the output's at
    anything, at any grid coordinate, runs to the continuation holding the inputs' as they were and the output's at
    `out2` of them: the load of the output buffer before the store reads what the buffer held and is not used. -/
theorem sound_kernel2 (c : Dev nD) (E : Set ℕ) (i : grid2.Coords)
    (arg1 : Memref sig .tc .vmem S10000x128 .f32) (harg1 : arg1.IsWhole) (arg2 : Memref sig .tc .vmem S1x128 .f32) (harg2 : arg2.IsWhole)
    (arg3 : Memref sig .tc .vmem S10000x128 .f32) (harg3 : arg3.IsWhole) (arg4 : Memref sig .tc .vmem S10000x128 .f32) (harg4 : arg4.IsWhole)
    (x0 : Vec F S10000x128 .f32) (x1 : Vec F S1x128 .f32) (x2 : Vec F S10000x128 .f32) (K : PUnit → sProp 𝕄) :
    iprop(owns (c : Thread nD τ) arg1 fullShare x0 ∗ owns (c : Thread nD τ) arg2 fullShare x1 ∗ owns (c : Thread nD τ) arg3 fullShare x2
        ∗ (∃ d, owns (c : Thread nD τ) arg4 fullShare d)
        ∗ (iprop(owns (c : Thread nD τ) arg1 fullShare x0 ∗ owns (c : Thread nD τ) arg2 fullShare x1 ∗ owns (c : Thread nD τ) arg3 fullShare x2
            ∗ owns (c : Thread nD τ) arg4 fullShare (out2 x0 x1 x2)) -∗ K ⟨⟩))
      ⊢ wp frame (wpE (defs₀ (F := F)) Variants.none c none) E (cc2__bias_relu_add_kernel i arg1 harg1 arg2 harg2 arg3 harg3 arg4 harg4) K := by
  simp only [cc2__bias_relu_add_kernel_eq_skeleton]; unfold cc2__bias_relu_add_kernel_skel
  unfold owns
  iintro ⟨⟨%f0, %hf0, H0⟩, ⟨%f1, %hf1, H1⟩, ⟨%f2, %hf2, H2⟩, ⟨%d3, %f3, -, H3⟩, Hk⟩
  subst hf0; subst hf1; subst hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover2 _)

/-! ## The pipeline's proof data -/

/-- The proof data of pipeline 2 on core `c`: the arrays as the region finds them; after the body at point `t` each
    input's buffer at its block and the output's at `out2` of the input blocks; the class's invariant; nothing owed;
    full shares. -/
def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => iblk2 V c 2 t
    | ⟨3, _⟩ => out2 (iblk2 V c 0 t) (iblk2 V c 1 t) (iblk2 V c 2 t)
  Φ _ := Pipeline.ΦA spec2 c
  q _ := fullShare
  owed _ := 0

theorem A_eq2 (c : Dev nD) (w : Fin cfg2.W) : (dat2 V c).A w = V c (Pipeline.arrRef spec2 w) := by
  dsimp only [dat2]

theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = iblk2 V c 2 t := by dsimp only [dat2]
theorem after2_3 (c : Dev nD) (t : Fin cfg2.N) : (dat2 V c).after 3 t = out2 (iblk2 V c 0 t) (iblk2 V c 1 t) (iblk2 V c 2 t) := by dsimp only [dat2]

/-- Each input's current staging buffer holds its block at every point, fetched there or not. -/
theorem before2_0 (c : Dev nD) (t : Fin cfg2.N) (d) : (dat2 V c).before 0 t d = iblk2 V c 0 t :=
  before2_0_of V (dat2 V c) (A_eq2 V c 0) (after2_0 V c) t d
theorem before2_1 (c : Dev nD) (t : Fin cfg2.N) (d) : (dat2 V c).before 1 t d = iblk2 V c 1 t :=
  before2_1_of V (dat2 V c) (A_eq2 V c 1) (after2_1 V c) t d
theorem before2_2 (c : Dev nD) (t : Fin cfg2.N) (d) : (dat2 V c).before 2 t d = iblk2 V c 2 t :=
  before2_2_of V (dat2 V c) (A_eq2 V c 2) (after2_2 V c) t d

/-! ## The body obligation, at a generic point -/

/-- What the body is called with at point `t`, the windows one by one, -/
def bodyPre2 (c : Dev nD) (t : Fin cfg2.N) : sProp 𝕄 :=
  iprop((dat2 V c).Φ t.castSucc ∗ (dat2 V c).owesAt () t.castSucc
    ∗ (∃ d, owns (c : Thread nD τ) (st2_0 t) fullShare ((dat2 V c).before 0 t d))
    ∗ (∃ d, owns (c : Thread nD τ) (st2_1 t) fullShare ((dat2 V c).before 1 t d))
    ∗ (∃ d, owns (c : Thread nD τ) (st2_2 t) fullShare ((dat2 V c).before 2 t d))
    ∗ (∃ d, owns (c : Thread nD τ) (st2_3 t) fullShare ((dat2 V c).before 3 t d)))

/-- and what it returns. -/
def bodyPost2 (c : Dev nD) (t : Fin cfg2.N) : sProp 𝕄 :=
  iprop((dat2 V c).Φ t.succ ∗ (dat2 V c).owesAt () t.succ
    ∗ owns (c : Thread nD τ) (st2_0 t) fullShare ((dat2 V c).after 0 t)
    ∗ owns (c : Thread nD τ) (st2_1 t) fullShare ((dat2 V c).after 1 t)
    ∗ owns (c : Thread nD τ) (st2_2 t) fullShare ((dat2 V c).after 2 t)
    ∗ owns (c : Thread nD τ) (st2_3 t) fullShare ((dat2 V c).after 3 t))

/-- The body at any point: the inputs' memrefs hold their blocks, so `sound_kernel2` applies; the invariant and the
    core's dues pass through unread. -/
theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1, before2_2]
  rw [show (dat2 V c).Φ t.succ = (dat2 V c).Φ t.castSucc from rfl,
    show (dat2 V c).owesAt () t.succ = (dat2 V c).owesAt () t.castSucc from rfl,
    after2_0, after2_1, after2_2, after2_3]
  iintro ⟨HΦ, Ho, ⟨%d0, H0⟩, ⟨%d1, H1⟩, ⟨%d2, H2⟩, ⟨%d3, H3⟩⟩
  iapply (sound_kernel2 c Set.univ _ _ _ _ _ _ _ _ _ (iblk2 V c 0 t) (iblk2 V c 1 t) (iblk2 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The library's body obligation, at every point. -/
theorem body_obligation2 (c : Dev nD) : BodyObligation (dat2 (F := F) V c) (defs₀ (F := F)) Variants.none () Set.univ := fun t => by
  rw [bigSep_W2, bigSep_W2]
  exact sound_body2 V c t

end Region2

end Cert.KernelIdeal.Hand

end
-- ==== Proof.KI.RegA3.lean ====
/-
  Region 3 of the idealized kernel program, its class-A half at a parameter `V` (the TensorCore's buffer
  contents when the region is entered): two inputs (a 10000x128 block of main_v47, all of main_v49) and the output main_v50.
  Each window's block at a grid point is read off its array at `V`; the body loads every input block whole, loads
  its output buffer once (at whatever it holds) and stores one payload over all of it, so what it leaves there is a
  closed function of the input blocks. An input whose block index does not move between points is not fetched again
  and still holds the block of the point before, which is the same block.
-/
import proofs.«402161_j18391049961554_1_alg».proof.Proof.Gen.KernelIdeal.Launch
import proofs.«402161_j18391049961554_1_alg».proof.Proof.Gen.KernelIdeal.Skeleton
import proofs.«402161_j18391049961554_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

-- membership in a rectangle of 10000 rows: the structural look recurses once per coordinate of the long axis
set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Region3
-- the TensorCore's buffer contents when the region is entered
variable (V : (c : Dev nD) → (b : Ref sig .tc) → Buf (Elt F) ((c : Thread nD τ).loc b))

/-! ## The windows' blocks -/

/-- Window `w`'s block at point `t`, read off its array as the region finds it (`V`). -/
def iblk3 (c : Dev nD) (w : Fin cfg3.W) (t : Fin cfg3.N) : ((cfg3.win w).xblock (cfg3.grid.coords t)).Idx → Elt F (cfg3.win w).elt :=
  ((cfg3.win w).blk t).view.read (Elt F) (V c (Pipeline.arrRef spec3 w))

/-- Input window 0 (its block index moves with the point, so it is fetched at every point) holds its block at every
    point, for any proof data whose array is `V`'s and whose body leaves the block in place. The window is uncut and
    never idle. -/
theorem before3_0_of {c : Dev nD} (dat : Dat τ (Elt F) Unit ℕ (UR sig nD τ) ℕ cfg3 c) (hA : dat.A 0 = V c (Pipeline.arrRef spec3 0))
    (hafter : ∀ t, dat.after 0 t = iblk3 V c 0 t) (t : Fin cfg3.N) (d) : dat.before 0 t d = iblk3 V c 0 t :=
  (dat.before_in_eq_fetched 0 rfl (fun _ => rfl) (fun _ _ _ => rfl) (fun t => by rw [hafter]; unfold Dat.blockOf iblk3; rw [hA]; try rfl) t d).trans
    (by unfold Dat.fetched Dat.blockOf iblk3; rw [hA]; try rfl)

/-- Input window 1 (the weights, a constant block index: fetched at the first point only) holds its block at every
    point all the same: where it is not fetched the index has not moved, and the buffer still holds the block of the
    point before, which is this point's. -/
theorem before3_1_of {c : Dev nD} (dat : Dat τ (Elt F) Unit ℕ (UR sig nD τ) ℕ cfg3 c) (hA : dat.A 1 = V c (Pipeline.arrRef spec3 1))
    (hafter : ∀ t, dat.after 1 t = iblk3 V c 1 t) (t : Fin cfg3.N) (d) : dat.before 1 t d = iblk3 V c 1 t :=
  (dat.before_in_eq_fetched 1 rfl (fun _ => rfl) (fun _ _ _ => rfl) (fun t => by rw [hafter]; unfold Dat.blockOf iblk3; rw [hA]; try rfl) t d).trans
    (by unfold Dat.fetched Dat.blockOf iblk3; rw [hA]; try rfl)

/-! ## The body's accesses: each buffer whole -/

abbrev r3_0 : Rect S10000x128 := Rect.unit (s := S10000x128) ![0, 0] S10000x128.size inb_S10000x128_S10000x128_0_0
abbrev r3_1 : Rect S128x128 := Rect.unit (s := S128x128) ![0, 0] S128x128.size inb_S128x128_S128x128_0_0

/-! ## What the body leaves in the output window's buffer -/

/-- The output buffer after the body, from the two input blocks (rows, weights): one store of the product payload
    over all of it. -/
def out3 (x0 : Vec F S10000x128 .f32) (x1 : Vec F S128x128 .f32) : Vec F S10000x128 .f32 :=
  View.canon [⟨r3_0, k3_pay1 (View.ld x0 r3_0) (View.ld x1 r3_1)⟩]

/-- The one store's rectangle is the whole buffer, so it covers it. -/
theorem cover3 (p0 : Vec F S10000x128 .f32) (y : S10000x128.Idx) :
    ∃ pc ∈ ([⟨r3_0, p0⟩] : List (View.Piece (Elt F) S10000x128 .f32)), y ∈ pc.1.set :=
  View.cover_of_tiled [⟨r3_0, p0⟩] S10000x128.size (by rfl) y

/-! ## The body's triple -/

set_option maxHeartbeats 1000000 in
/-- The kernel body on whole staging memrefs, the inputs' at read contents `x0`, `x1` and the output's at anything,
    at any grid coordinate, runs to the continuation holding the inputs' as they were and the output's at `out3` of
    them: the load of the output buffer before the store reads what the buffer held and is not used. -/
theorem sound_kernel3 (c : Dev nD) (E : Set ℕ) (i : grid3.Coords)
    (arg1 : Memref sig .tc .vmem S10000x128 .f32) (harg1 : arg1.IsWhole) (arg2 : Memref sig .tc .vmem S128x128 .f32) (harg2 : arg2.IsWhole)
    (arg3 : Memref sig .tc .vmem S10000x128 .f32) (harg3 : arg3.IsWhole)
    (x0 : Vec F S10000x128 .f32) (x1 : Vec F S128x128 .f32) (K : PUnit → sProp 𝕄) :
    iprop(owns (c : Thread nD τ) arg1 fullShare x0 ∗ owns (c : Thread nD τ) arg2 fullShare x1 ∗ (∃ d, owns (c : Thread nD τ) arg3 fullShare d)
        ∗ (iprop(owns (c : Thread nD τ) arg1 fullShare x0 ∗ owns (c : Thread nD τ) arg2 fullShare x1
            ∗ owns (c : Thread nD τ) arg3 fullShare (out3 x0 x1)) -∗ K ⟨⟩))
      ⊢ wp frame (wpE (defs₀ (F := F)) Variants.none c none) E (cc3__dense_matmul_kernel i arg1 harg1 arg2 harg2 arg3 harg3) K := by
  simp only [cc3__dense_matmul_kernel_eq_skeleton]; unfold cc3__dense_matmul_kernel_skel
  unfold owns
  iintro ⟨⟨%f0, %hf0, H0⟩, ⟨%f1, %hf1, H1⟩, ⟨%d2, %f2, -, H2⟩, Hk⟩
  subst hf0; subst hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover3 _)

/-! ## The pipeline's proof data -/

/-- The proof data of pipeline 3 on core `c`: the arrays as the region finds them; after the body at point `t` each
    input's buffer at its block and the output's at `out3` of the input blocks; the class's invariant; nothing owed;
    full shares. -/
def dat3 (c : Dev nD) : Dat τ (Elt F) Unit ℕ (UR sig nD τ) ℕ cfg3 c where
  A w := V c (Pipeline.arrRef spec3 w)
  after w t := match w with
    | ⟨0, _⟩ => iblk3 V c 0 t
    | ⟨1, _⟩ => iblk3 V c 1 t
    | ⟨2, _⟩ => out3 (iblk3 V c 0 t) (iblk3 V c 1 t)
  Φ _ := Pipeline.ΦA spec3 c
  q _ := fullShare
  owed _ := 0

theorem A_eq3 (c : Dev nD) (w : Fin cfg3.W) : (dat3 V c).A w = V c (Pipeline.arrRef spec3 w) := by
  dsimp only [dat3]

theorem after3_0 (c : Dev nD) (t : Fin cfg3.N) : (dat3 V c).after 0 t = iblk3 V c 0 t := by dsimp only [dat3]
theorem after3_1 (c : Dev nD) (t : Fin cfg3.N) : (dat3 V c).after 1 t = iblk3 V c 1 t := by dsimp only [dat3]
theorem after3_2 (c : Dev nD) (t : Fin cfg3.N) : (dat3 V c).after 2 t = out3 (iblk3 V c 0 t) (iblk3 V c 1 t) := by dsimp only [dat3]

/-- Each input's current staging buffer holds its block at every point, fetched there or not. -/
theorem before3_0 (c : Dev nD) (t : Fin cfg3.N) (d) : (dat3 V c).before 0 t d = iblk3 V c 0 t :=
  before3_0_of V (dat3 V c) (A_eq3 V c 0) (after3_0 V c) t d
theorem before3_1 (c : Dev nD) (t : Fin cfg3.N) (d) : (dat3 V c).before 1 t d = iblk3 V c 1 t :=
  before3_1_of V (dat3 V c) (A_eq3 V c 1) (after3_1 V c) t d

/-! ## The body obligation, at a generic point -/

/-- What the body is called with at point `t`, the windows one by one, -/
def bodyPre3 (c : Dev nD) (t : Fin cfg3.N) : sProp 𝕄 :=
  iprop((dat3 V c).Φ t.castSucc ∗ (dat3 V c).owesAt () t.castSucc
    ∗ (∃ d, owns (c : Thread nD τ) (st3_0 t) fullShare ((dat3 V c).before 0 t d))
    ∗ (∃ d, owns (c : Thread nD τ) (st3_1 t) fullShare ((dat3 V c).before 1 t d))
    ∗ (∃ d, owns (c : Thread nD τ) (st3_2 t) fullShare ((dat3 V c).before 2 t d)))

/-- and what it returns. -/
def bodyPost3 (c : Dev nD) (t : Fin cfg3.N) : sProp 𝕄 :=
  iprop((dat3 V c).Φ t.succ ∗ (dat3 V c).owesAt () t.succ
    ∗ owns (c : Thread nD τ) (st3_0 t) fullShare ((dat3 V c).after 0 t)
    ∗ owns (c : Thread nD τ) (st3_1 t) fullShare ((dat3 V c).after 1 t)
    ∗ owns (c : Thread nD τ) (st3_2 t) fullShare ((dat3 V c).after 2 t))

/-- The body at any point: the inputs' memrefs hold their blocks, so `sound_kernel3` applies; the invariant and the
    core's dues pass through unread. -/
theorem sound_body3 (c : Dev nD) (t : Fin cfg3.N) :
    bodyPre3 V c t ⊢ wp frame (wpE (defs₀ (F := F)) Variants.none c none) Set.univ (bodyAt3 t) (fun _ => bodyPost3 V c t) := by
  unfold bodyPre3 bodyPost3 bodyAt3
  simp only [before3_0, before3_1]
  rw [show (dat3 V c).Φ t.succ = (dat3 V c).Φ t.castSucc from rfl,
    show (dat3 V c).owesAt () t.succ = (dat3 V c).owesAt () t.castSucc from rfl,
    after3_0, after3_1, after3_2]
  iintro ⟨HΦ, Ho, ⟨%d0, H0⟩, ⟨%d1, H1⟩, ⟨%d2, H2⟩⟩
  iapply (sound_kernel3 c Set.univ _ _ _ _ _ _ _ (iblk3 V c 0 t) (iblk3 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The library's body obligation, at every point. -/
theorem body_obligation3 (c : Dev nD) : BodyObligation (dat3 (F := F) V c) (defs₀ (F := F)) Variants.none () Set.univ := fun t => by
  rw [bigSep_W3, bigSep_W3]
  exact sound_body3 V c t

end Region3

end Cert.KernelIdeal.Hand

end
-- ==== Proof.KI.RegA4.lean ====
/-
  Region 4 of the idealized kernel program, its class-A half at a parameter `V` (the TensorCore's buffer
  contents when the region is entered): two inputs (a 10000x128 block of main_v63, all of main_v66) and the output main_v67.
  Each window's block at a grid point is read off its array at `V`; the body loads every input block whole, loads
  its output buffer once (at whatever it holds) and stores one payload over all of it, so what it leaves there is a
  closed function of the input blocks. An input whose block index does not move between points is not fetched again
  and still holds the block of the point before, which is the same block.
-/
import proofs.«402161_j18391049961554_1_alg».proof.Proof.Gen.KernelIdeal.Launch
import proofs.«402161_j18391049961554_1_alg».proof.Proof.Gen.KernelIdeal.Skeleton
import proofs.«402161_j18391049961554_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

-- membership in a rectangle of 10000 rows: the structural look recurses once per coordinate of the long axis
set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Region4
-- the TensorCore's buffer contents when the region is entered
variable (V : (c : Dev nD) → (b : Ref sig .tc) → Buf (Elt F) ((c : Thread nD τ).loc b))

/-! ## The windows' blocks -/

/-- Window `w`'s block at point `t`, read off its array as the region finds it (`V`). -/
def iblk4 (c : Dev nD) (w : Fin cfg4.W) (t : Fin cfg4.N) : ((cfg4.win w).xblock (cfg4.grid.coords t)).Idx → Elt F (cfg4.win w).elt :=
  ((cfg4.win w).blk t).view.read (Elt F) (V c (Pipeline.arrRef spec4 w))

/-- Input window 0 (its block index moves with the point, so it is fetched at every point) holds its block at every
    point, for any proof data whose array is `V`'s and whose body leaves the block in place. The window is uncut and
    never idle. -/
theorem before4_0_of {c : Dev nD} (dat : Dat τ (Elt F) Unit ℕ (UR sig nD τ) ℕ cfg4 c) (hA : dat.A 0 = V c (Pipeline.arrRef spec4 0))
    (hafter : ∀ t, dat.after 0 t = iblk4 V c 0 t) (t : Fin cfg4.N) (d) : dat.before 0 t d = iblk4 V c 0 t :=
  (dat.before_in_eq_fetched 0 rfl (fun _ => rfl) (fun _ _ _ => rfl) (fun t => by rw [hafter]; unfold Dat.blockOf iblk4; rw [hA]; try rfl) t d).trans
    (by unfold Dat.fetched Dat.blockOf iblk4; rw [hA]; try rfl)

/-- Input window 1 (the bias row, a constant block index: fetched at the first point only) holds its block at every
    point all the same: where it is not fetched the index has not moved, and the buffer still holds the block of the
    point before, which is this point's. -/
theorem before4_1_of {c : Dev nD} (dat : Dat τ (Elt F) Unit ℕ (UR sig nD τ) ℕ cfg4 c) (hA : dat.A 1 = V c (Pipeline.arrRef spec4 1))
    (hafter : ∀ t, dat.after 1 t = iblk4 V c 1 t) (t : Fin cfg4.N) (d) : dat.before 1 t d = iblk4 V c 1 t :=
  (dat.before_in_eq_fetched 1 rfl (fun _ => rfl) (fun _ _ _ => rfl) (fun t => by rw [hafter]; unfold Dat.blockOf iblk4; rw [hA]; try rfl) t d).trans
    (by unfold Dat.fetched Dat.blockOf iblk4; rw [hA]; try rfl)

/-! ## The body's accesses: each buffer whole -/

abbrev r4_0 : Rect S10000x128 := Rect.unit (s := S10000x128) ![0, 0] S10000x128.size inb_S10000x128_S10000x128_0_0
abbrev r4_1 : Rect S1x128 := Rect.unit (s := S1x128) ![0, 0] S1x128.size inb_S1x128_S1x128_0_0

/-! ## What the body leaves in the output window's buffer -/

/-- The output buffer after the body, from the two input blocks (rows, bias): one store of the payload over all of it. -/
def out4 (x0 : Vec F S10000x128 .f32) (x1 : Vec F S1x128 .f32) : Vec F S10000x128 .f32 :=
  View.canon [⟨r4_0, k4_pay1 (View.ld x0 r4_0) (View.ld x1 r4_1)⟩]

/-- The one store's rectangle is the whole buffer, so it covers it. -/
theorem cover4 (p0 : Vec F S10000x128 .f32) (y : S10000x128.Idx) :
    ∃ pc ∈ ([⟨r4_0, p0⟩] : List (View.Piece (Elt F) S10000x128 .f32)), y ∈ pc.1.set :=
  View.cover_of_tiled [⟨r4_0, p0⟩] S10000x128.size (by rfl) y

/-! ## The body's triple -/

set_option maxHeartbeats 1000000 in
/-- The kernel body on whole staging memrefs, the inputs' at read contents `x0`, `x1` and the output's at anything,
    at any grid coordinate, runs to the continuation holding the inputs' as they were and the output's at `out4` of
    them: the load of the output buffer before the store reads what the buffer held and is not used. -/
theorem sound_kernel4 (c : Dev nD) (E : Set ℕ) (i : grid4.Coords)
    (arg1 : Memref sig .tc .vmem S10000x128 .f32) (harg1 : arg1.IsWhole) (arg2 : Memref sig .tc .vmem S1x128 .f32) (harg2 : arg2.IsWhole)
    (arg3 : Memref sig .tc .vmem S10000x128 .f32) (harg3 : arg3.IsWhole)
    (x0 : Vec F S10000x128 .f32) (x1 : Vec F S1x128 .f32) (K : PUnit → sProp 𝕄) :
    iprop(owns (c : Thread nD τ) arg1 fullShare x0 ∗ owns (c : Thread nD τ) arg2 fullShare x1 ∗ (∃ d, owns (c : Thread nD τ) arg3 fullShare d)
        ∗ (iprop(owns (c : Thread nD τ) arg1 fullShare x0 ∗ owns (c : Thread nD τ) arg2 fullShare x1
            ∗ owns (c : Thread nD τ) arg3 fullShare (out4 x0 x1)) -∗ K ⟨⟩))
      ⊢ wp frame (wpE (defs₀ (F := F)) Variants.none c none) E (cc4__bias_relu_kernel i arg1 harg1 arg2 harg2 arg3 harg3) K := by
  simp only [cc4__bias_relu_kernel_eq_skeleton]; unfold cc4__bias_relu_kernel_skel
  unfold owns
  iintro ⟨⟨%f0, %hf0, H0⟩, ⟨%f1, %hf1, H1⟩, ⟨%d2, %f2, -, H2⟩, Hk⟩
  subst hf0; subst hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover4 _)

/-! ## The pipeline's proof data -/

/-- The proof data of pipeline 4 on core `c`: the arrays as the region finds them; after the body at point `t` each
    input's buffer at its block and the output's at `out4` of the input blocks; the class's invariant; nothing owed;
    full shares. -/
def dat4 (c : Dev nD) : Dat τ (Elt F) Unit ℕ (UR sig nD τ) ℕ cfg4 c where
  A w := V c (Pipeline.arrRef spec4 w)
  after w t := match w with
    | ⟨0, _⟩ => iblk4 V c 0 t
    | ⟨1, _⟩ => iblk4 V c 1 t
    | ⟨2, _⟩ => out4 (iblk4 V c 0 t) (iblk4 V c 1 t)
  Φ _ := Pipeline.ΦA spec4 c
  q _ := fullShare
  owed _ := 0

theorem A_eq4 (c : Dev nD) (w : Fin cfg4.W) : (dat4 V c).A w = V c (Pipeline.arrRef spec4 w) := by
  dsimp only [dat4]

theorem after4_0 (c : Dev nD) (t : Fin cfg4.N) : (dat4 V c).after 0 t = iblk4 V c 0 t := by dsimp only [dat4]
theorem after4_1 (c : Dev nD) (t : Fin cfg4.N) : (dat4 V c).after 1 t = iblk4 V c 1 t := by dsimp only [dat4]
theorem after4_2 (c : Dev nD) (t : Fin cfg4.N) : (dat4 V c).after 2 t = out4 (iblk4 V c 0 t) (iblk4 V c 1 t) := by dsimp only [dat4]

/-- Each input's current staging buffer holds its block at every point, fetched there or not. -/
theorem before4_0 (c : Dev nD) (t : Fin cfg4.N) (d) : (dat4 V c).before 0 t d = iblk4 V c 0 t :=
  before4_0_of V (dat4 V c) (A_eq4 V c 0) (after4_0 V c) t d
theorem before4_1 (c : Dev nD) (t : Fin cfg4.N) (d) : (dat4 V c).before 1 t d = iblk4 V c 1 t :=
  before4_1_of V (dat4 V c) (A_eq4 V c 1) (after4_1 V c) t d

/-! ## The body obligation, at a generic point -/

/-- What the body is called with at point `t`, the windows one by one, -/
def bodyPre4 (c : Dev nD) (t : Fin cfg4.N) : sProp 𝕄 :=
  iprop((dat4 V c).Φ t.castSucc ∗ (dat4 V c).owesAt () t.castSucc
    ∗ (∃ d, owns (c : Thread nD τ) (st4_0 t) fullShare ((dat4 V c).before 0 t d))
    ∗ (∃ d, owns (c : Thread nD τ) (st4_1 t) fullShare ((dat4 V c).before 1 t d))
    ∗ (∃ d, owns (c : Thread nD τ) (st4_2 t) fullShare ((dat4 V c).before 2 t d)))

/-- and what it returns. -/
def bodyPost4 (c : Dev nD) (t : Fin cfg4.N) : sProp 𝕄 :=
  iprop((dat4 V c).Φ t.succ ∗ (dat4 V c).owesAt () t.succ
    ∗ owns (c : Thread nD τ) (st4_0 t) fullShare ((dat4 V c).after 0 t)
    ∗ owns (c : Thread nD τ) (st4_1 t) fullShare ((dat4 V c).after 1 t)
    ∗ owns (c : Thread nD τ) (st4_2 t) fullShare ((dat4 V c).after 2 t))

/-- The body at any point: the inputs' memrefs hold their blocks, so `sound_kernel4` applies; the invariant and the
    core's dues pass through unread. -/
theorem sound_body4 (c : Dev nD) (t : Fin cfg4.N) :
    bodyPre4 V c t ⊢ wp frame (wpE (defs₀ (F := F)) Variants.none c none) Set.univ (bodyAt4 t) (fun _ => bodyPost4 V c t) := by
  unfold bodyPre4 bodyPost4 bodyAt4
  simp only [before4_0, before4_1]
  rw [show (dat4 V c).Φ t.succ = (dat4 V c).Φ t.castSucc from rfl,
    show (dat4 V c).owesAt () t.succ = (dat4 V c).owesAt () t.castSucc from rfl,
    after4_0, after4_1, after4_2]
  iintro ⟨HΦ, Ho, ⟨%d0, H0⟩, ⟨%d1, H1⟩, ⟨%d2, H2⟩⟩
  iapply (sound_kernel4 c Set.univ _ _ _ _ _ _ _ (iblk4 V c 0 t) (iblk4 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The library's body obligation, at every point. -/
theorem body_obligation4 (c : Dev nD) : BodyObligation (dat4 (F := F) V c) (defs₀ (F := F)) Variants.none () Set.univ := fun t => by
  rw [bigSep_W4, bigSep_W4]
  exact sound_body4 V c t

end Region4

end Cert.KernelIdeal.Hand

end
-- ==== Proof.KI.RegA5.lean ====
/-
  Region 5 of the idealized kernel program, its class-A half at a parameter `V` (the TensorCore's buffer
  contents when the region is entered): two inputs (a 10000x128 block of main_v67, all of main_v69) and the output main_v70.
  Each window's block at a grid point is read off its array at `V`; the body loads every input block whole, loads
  its output buffer once (at whatever it holds) and stores one payload over all of it, so what it leaves there is a
  closed function of the input blocks. An input whose block index does not move between points is not fetched again
  and still holds the block of the point before, which is the same block.
-/
import proofs.«402161_j18391049961554_1_alg».proof.Proof.Gen.KernelIdeal.Launch
import proofs.«402161_j18391049961554_1_alg».proof.Proof.Gen.KernelIdeal.Skeleton
import proofs.«402161_j18391049961554_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

-- membership in a rectangle of 10000 rows: the structural look recurses once per coordinate of the long axis
set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Region5
-- the TensorCore's buffer contents when the region is entered
variable (V : (c : Dev nD) → (b : Ref sig .tc) → Buf (Elt F) ((c : Thread nD τ).loc b))

/-! ## The windows' blocks -/

/-- Window `w`'s block at point `t`, read off its array as the region finds it (`V`). -/
def iblk5 (c : Dev nD) (w : Fin cfg5.W) (t : Fin cfg5.N) : ((cfg5.win w).xblock (cfg5.grid.coords t)).Idx → Elt F (cfg5.win w).elt :=
  ((cfg5.win w).blk t).view.read (Elt F) (V c (Pipeline.arrRef spec5 w))

/-- Input window 0 (its block index moves with the point, so it is fetched at every point) holds its block at every
    point, for any proof data whose array is `V`'s and whose body leaves the block in place. The window is uncut and
    never idle. -/
theorem before5_0_of {c : Dev nD} (dat : Dat τ (Elt F) Unit ℕ (UR sig nD τ) ℕ cfg5 c) (hA : dat.A 0 = V c (Pipeline.arrRef spec5 0))
    (hafter : ∀ t, dat.after 0 t = iblk5 V c 0 t) (t : Fin cfg5.N) (d) : dat.before 0 t d = iblk5 V c 0 t :=
  (dat.before_in_eq_fetched 0 rfl (fun _ => rfl) (fun _ _ _ => rfl) (fun t => by rw [hafter]; unfold Dat.blockOf iblk5; rw [hA]; try rfl) t d).trans
    (by unfold Dat.fetched Dat.blockOf iblk5; rw [hA]; try rfl)

/-- Input window 1 (the weights, a constant block index: fetched at the first point only) holds its block at every
    point all the same: where it is not fetched the index has not moved, and the buffer still holds the block of the
    point before, which is this point's. -/
theorem before5_1_of {c : Dev nD} (dat : Dat τ (Elt F) Unit ℕ (UR sig nD τ) ℕ cfg5 c) (hA : dat.A 1 = V c (Pipeline.arrRef spec5 1))
    (hafter : ∀ t, dat.after 1 t = iblk5 V c 1 t) (t : Fin cfg5.N) (d) : dat.before 1 t d = iblk5 V c 1 t :=
  (dat.before_in_eq_fetched 1 rfl (fun _ => rfl) (fun _ _ _ => rfl) (fun t => by rw [hafter]; unfold Dat.blockOf iblk5; rw [hA]; try rfl) t d).trans
    (by unfold Dat.fetched Dat.blockOf iblk5; rw [hA]; try rfl)

/-! ## The body's accesses: each buffer whole -/

abbrev r5_0 : Rect S10000x128 := Rect.unit (s := S10000x128) ![0, 0] S10000x128.size inb_S10000x128_S10000x128_0_0
abbrev r5_1 : Rect S128x128 := Rect.unit (s := S128x128) ![0, 0] S128x128.size inb_S128x128_S128x128_0_0

/-! ## What the body leaves in the output window's buffer -/

/-- The output buffer after the body, from the two input blocks (rows, weights): one store of the product payload
    over all of it. -/
def out5 (x0 : Vec F S10000x128 .f32) (x1 : Vec F S128x128 .f32) : Vec F S10000x128 .f32 :=
  View.canon [⟨r5_0, k5_pay1 (View.ld x0 r5_0) (View.ld x1 r5_1)⟩]

/-- The one store's rectangle is the whole buffer, so it covers it. -/
theorem cover5 (p0 : Vec F S10000x128 .f32) (y : S10000x128.Idx) :
    ∃ pc ∈ ([⟨r5_0, p0⟩] : List (View.Piece (Elt F) S10000x128 .f32)), y ∈ pc.1.set :=
  View.cover_of_tiled [⟨r5_0, p0⟩] S10000x128.size (by rfl) y

/-! ## The body's triple -/

set_option maxHeartbeats 1000000 in
/-- The kernel body on whole staging memrefs, the inputs' at read contents `x0`, `x1` and the output's at anything,
    at any grid coordinate, runs to the continuation holding the inputs' as they were and the output's at `out5` of
    them: the load of the output buffer before the store reads what the buffer held and is not used. -/
theorem sound_kernel5 (c : Dev nD) (E : Set ℕ) (i : grid5.Coords)
    (arg1 : Memref sig .tc .vmem S10000x128 .f32) (harg1 : arg1.IsWhole) (arg2 : Memref sig .tc .vmem S128x128 .f32) (harg2 : arg2.IsWhole)
    (arg3 : Memref sig .tc .vmem S10000x128 .f32) (harg3 : arg3.IsWhole)
    (x0 : Vec F S10000x128 .f32) (x1 : Vec F S128x128 .f32) (K : PUnit → sProp 𝕄) :
    iprop(owns (c : Thread nD τ) arg1 fullShare x0 ∗ owns (c : Thread nD τ) arg2 fullShare x1 ∗ (∃ d, owns (c : Thread nD τ) arg3 fullShare d)
        ∗ (iprop(owns (c : Thread nD τ) arg1 fullShare x0 ∗ owns (c : Thread nD τ) arg2 fullShare x1
            ∗ owns (c : Thread nD τ) arg3 fullShare (out5 x0 x1)) -∗ K ⟨⟩))
      ⊢ wp frame (wpE (defs₀ (F := F)) Variants.none c none) E (cc5__dense_matmul_kernel i arg1 harg1 arg2 harg2 arg3 harg3) K := by
  simp only [cc5__dense_matmul_kernel_eq_skeleton]; unfold cc5__dense_matmul_kernel_skel
  unfold owns
  iintro ⟨⟨%f0, %hf0, H0⟩, ⟨%f1, %hf1, H1⟩, ⟨%d2, %f2, -, H2⟩, Hk⟩
  subst hf0; subst hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover5 _)

/-! ## The pipeline's proof data -/

/-- The proof data of pipeline 5 on core `c`: the arrays as the region finds them; after the body at point `t` each
    input's buffer at its block and the output's at `out5` of the input blocks; the class's invariant; nothing owed;
    full shares. -/
def dat5 (c : Dev nD) : Dat τ (Elt F) Unit ℕ (UR sig nD τ) ℕ cfg5 c where
  A w := V c (Pipeline.arrRef spec5 w)
  after w t := match w with
    | ⟨0, _⟩ => iblk5 V c 0 t
    | ⟨1, _⟩ => iblk5 V c 1 t
    | ⟨2, _⟩ => out5 (iblk5 V c 0 t) (iblk5 V c 1 t)
  Φ _ := Pipeline.ΦA spec5 c
  q _ := fullShare
  owed _ := 0

theorem A_eq5 (c : Dev nD) (w : Fin cfg5.W) : (dat5 V c).A w = V c (Pipeline.arrRef spec5 w) := by
  dsimp only [dat5]

theorem after5_0 (c : Dev nD) (t : Fin cfg5.N) : (dat5 V c).after 0 t = iblk5 V c 0 t := by dsimp only [dat5]
theorem after5_1 (c : Dev nD) (t : Fin cfg5.N) : (dat5 V c).after 1 t = iblk5 V c 1 t := by dsimp only [dat5]
theorem after5_2 (c : Dev nD) (t : Fin cfg5.N) : (dat5 V c).after 2 t = out5 (iblk5 V c 0 t) (iblk5 V c 1 t) := by dsimp only [dat5]

/-- Each input's current staging buffer holds its block at every point, fetched there or not. -/
theorem before5_0 (c : Dev nD) (t : Fin cfg5.N) (d) : (dat5 V c).before 0 t d = iblk5 V c 0 t :=
  before5_0_of V (dat5 V c) (A_eq5 V c 0) (after5_0 V c) t d
theorem before5_1 (c : Dev nD) (t : Fin cfg5.N) (d) : (dat5 V c).before 1 t d = iblk5 V c 1 t :=
  before5_1_of V (dat5 V c) (A_eq5 V c 1) (after5_1 V c) t d

/-! ## The body obligation, at a generic point -/

/-- What the body is called with at point `t`, the windows one by one, -/
def bodyPre5 (c : Dev nD) (t : Fin cfg5.N) : sProp 𝕄 :=
  iprop((dat5 V c).Φ t.castSucc ∗ (dat5 V c).owesAt () t.castSucc
    ∗ (∃ d, owns (c : Thread nD τ) (st5_0 t) fullShare ((dat5 V c).before 0 t d))
    ∗ (∃ d, owns (c : Thread nD τ) (st5_1 t) fullShare ((dat5 V c).before 1 t d))
    ∗ (∃ d, owns (c : Thread nD τ) (st5_2 t) fullShare ((dat5 V c).before 2 t d)))

/-- and what it returns. -/
def bodyPost5 (c : Dev nD) (t : Fin cfg5.N) : sProp 𝕄 :=
  iprop((dat5 V c).Φ t.succ ∗ (dat5 V c).owesAt () t.succ
    ∗ owns (c : Thread nD τ) (st5_0 t) fullShare ((dat5 V c).after 0 t)
    ∗ owns (c : Thread nD τ) (st5_1 t) fullShare ((dat5 V c).after 1 t)
    ∗ owns (c : Thread nD τ) (st5_2 t) fullShare ((dat5 V c).after 2 t))

/-- The body at any point: the inputs' memrefs hold their blocks, so `sound_kernel5` applies; the invariant and the
    core's dues pass through unread. -/
theorem sound_body5 (c : Dev nD) (t : Fin cfg5.N) :
    bodyPre5 V c t ⊢ wp frame (wpE (defs₀ (F := F)) Variants.none c none) Set.univ (bodyAt5 t) (fun _ => bodyPost5 V c t) := by
  unfold bodyPre5 bodyPost5 bodyAt5
  simp only [before5_0, before5_1]
  rw [show (dat5 V c).Φ t.succ = (dat5 V c).Φ t.castSucc from rfl,
    show (dat5 V c).owesAt () t.succ = (dat5 V c).owesAt () t.castSucc from rfl,
    after5_0, after5_1, after5_2]
  iintro ⟨HΦ, Ho, ⟨%d0, H0⟩, ⟨%d1, H1⟩, ⟨%d2, H2⟩⟩
  iapply (sound_kernel5 c Set.univ _ _ _ _ _ _ _ (iblk5 V c 0 t) (iblk5 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The library's body obligation, at every point. -/
theorem body_obligation5 (c : Dev nD) : BodyObligation (dat5 (F := F) V c) (defs₀ (F := F)) Variants.none () Set.univ := fun t => by
  rw [bigSep_W5, bigSep_W5]
  exact sound_body5 V c t

end Region5

end Cert.KernelIdeal.Hand

end
-- ==== Proof.KI.RegA6.lean ====
/-
  Region 6 of the idealized kernel program, its class-A half at a parameter `V` (the TensorCore's buffer
  contents when the region is entered): two inputs (a 10000x128 block of main_v83, all of main_v86) and the output main_v87.
  Each window's block at a grid point is read off its array at `V`; the body loads every input block whole, loads
  its output buffer once (at whatever it holds) and stores one payload over all of it, so what it leaves there is a
  closed function of the input blocks. An input whose block index does not move between points is not fetched again
  and still holds the block of the point before, which is the same block.
-/
import proofs.«402161_j18391049961554_1_alg».proof.Proof.Gen.KernelIdeal.Launch
import proofs.«402161_j18391049961554_1_alg».proof.Proof.Gen.KernelIdeal.Skeleton
import proofs.«402161_j18391049961554_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

-- membership in a rectangle of 10000 rows: the structural look recurses once per coordinate of the long axis
set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Region6
-- the TensorCore's buffer contents when the region is entered
variable (V : (c : Dev nD) → (b : Ref sig .tc) → Buf (Elt F) ((c : Thread nD τ).loc b))

/-! ## The windows' blocks -/

/-- Window `w`'s block at point `t`, read off its array as the region finds it (`V`). -/
def iblk6 (c : Dev nD) (w : Fin cfg6.W) (t : Fin cfg6.N) : ((cfg6.win w).xblock (cfg6.grid.coords t)).Idx → Elt F (cfg6.win w).elt :=
  ((cfg6.win w).blk t).view.read (Elt F) (V c (Pipeline.arrRef spec6 w))

/-- Input window 0 (its block index moves with the point, so it is fetched at every point) holds its block at every
    point, for any proof data whose array is `V`'s and whose body leaves the block in place. The window is uncut and
    never idle. -/
theorem before6_0_of {c : Dev nD} (dat : Dat τ (Elt F) Unit ℕ (UR sig nD τ) ℕ cfg6 c) (hA : dat.A 0 = V c (Pipeline.arrRef spec6 0))
    (hafter : ∀ t, dat.after 0 t = iblk6 V c 0 t) (t : Fin cfg6.N) (d) : dat.before 0 t d = iblk6 V c 0 t :=
  (dat.before_in_eq_fetched 0 rfl (fun _ => rfl) (fun _ _ _ => rfl) (fun t => by rw [hafter]; unfold Dat.blockOf iblk6; rw [hA]; try rfl) t d).trans
    (by unfold Dat.fetched Dat.blockOf iblk6; rw [hA]; try rfl)

/-- Input window 1 (the bias row, a constant block index: fetched at the first point only) holds its block at every
    point all the same: where it is not fetched the index has not moved, and the buffer still holds the block of the
    point before, which is this point's. -/
theorem before6_1_of {c : Dev nD} (dat : Dat τ (Elt F) Unit ℕ (UR sig nD τ) ℕ cfg6 c) (hA : dat.A 1 = V c (Pipeline.arrRef spec6 1))
    (hafter : ∀ t, dat.after 1 t = iblk6 V c 1 t) (t : Fin cfg6.N) (d) : dat.before 1 t d = iblk6 V c 1 t :=
  (dat.before_in_eq_fetched 1 rfl (fun _ => rfl) (fun _ _ _ => rfl) (fun t => by rw [hafter]; unfold Dat.blockOf iblk6; rw [hA]; try rfl) t d).trans
    (by unfold Dat.fetched Dat.blockOf iblk6; rw [hA]; try rfl)

/-! ## The body's accesses: each buffer whole -/

abbrev r6_0 : Rect S10000x128 := Rect.unit (s := S10000x128) ![0, 0] S10000x128.size inb_S10000x128_S10000x128_0_0
abbrev r6_1 : Rect S1x128 := Rect.unit (s := S1x128) ![0, 0] S1x128.size inb_S1x128_S1x128_0_0

/-! ## What the body leaves in the output window's buffer -/

/-- The output buffer after the body, from the two input blocks (rows, bias): one store of the payload over all of it. -/
def out6 (x0 : Vec F S10000x128 .f32) (x1 : Vec F S1x128 .f32) : Vec F S10000x128 .f32 :=
  View.canon [⟨r6_0, k6_pay1 (View.ld x0 r6_0) (View.ld x1 r6_1)⟩]

/-- The one store's rectangle is the whole buffer, so it covers it. -/
theorem cover6 (p0 : Vec F S10000x128 .f32) (y : S10000x128.Idx) :
    ∃ pc ∈ ([⟨r6_0, p0⟩] : List (View.Piece (Elt F) S10000x128 .f32)), y ∈ pc.1.set :=
  View.cover_of_tiled [⟨r6_0, p0⟩] S10000x128.size (by rfl) y

/-! ## The body's triple -/

set_option maxHeartbeats 1000000 in
/-- The kernel body on whole staging memrefs, the inputs' at read contents `x0`, `x1` and the output's at anything,
    at any grid coordinate, runs to the continuation holding the inputs' as they were and the output's at `out6` of
    them: the load of the output buffer before the store reads what the buffer held and is not used. -/
theorem sound_kernel6 (c : Dev nD) (E : Set ℕ) (i : grid6.Coords)
    (arg1 : Memref sig .tc .vmem S10000x128 .f32) (harg1 : arg1.IsWhole) (arg2 : Memref sig .tc .vmem S1x128 .f32) (harg2 : arg2.IsWhole)
    (arg3 : Memref sig .tc .vmem S10000x128 .f32) (harg3 : arg3.IsWhole)
    (x0 : Vec F S10000x128 .f32) (x1 : Vec F S1x128 .f32) (K : PUnit → sProp 𝕄) :
    iprop(owns (c : Thread nD τ) arg1 fullShare x0 ∗ owns (c : Thread nD τ) arg2 fullShare x1 ∗ (∃ d, owns (c : Thread nD τ) arg3 fullShare d)
        ∗ (iprop(owns (c : Thread nD τ) arg1 fullShare x0 ∗ owns (c : Thread nD τ) arg2 fullShare x1
            ∗ owns (c : Thread nD τ) arg3 fullShare (out6 x0 x1)) -∗ K ⟨⟩))
      ⊢ wp frame (wpE (defs₀ (F := F)) Variants.none c none) E (cc6__bias_relu_kernel i arg1 harg1 arg2 harg2 arg3 harg3) K := by
  simp only [cc6__bias_relu_kernel_eq_skeleton]; unfold cc6__bias_relu_kernel_skel
  unfold owns
  iintro ⟨⟨%f0, %hf0, H0⟩, ⟨%f1, %hf1, H1⟩, ⟨%d2, %f2, -, H2⟩, Hk⟩
  subst hf0; subst hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover6 _)

/-! ## The pipeline's proof data -/

/-- The proof data of pipeline 6 on core `c`: the arrays as the region finds them; after the body at point `t` each
    input's buffer at its block and the output's at `out6` of the input blocks; the class's invariant; nothing owed;
    full shares. -/
def dat6 (c : Dev nD) : Dat τ (Elt F) Unit ℕ (UR sig nD τ) ℕ cfg6 c where
  A w := V c (Pipeline.arrRef spec6 w)
  after w t := match w with
    | ⟨0, _⟩ => iblk6 V c 0 t
    | ⟨1, _⟩ => iblk6 V c 1 t
    | ⟨2, _⟩ => out6 (iblk6 V c 0 t) (iblk6 V c 1 t)
  Φ _ := Pipeline.ΦA spec6 c
  q _ := fullShare
  owed _ := 0

theorem A_eq6 (c : Dev nD) (w : Fin cfg6.W) : (dat6 V c).A w = V c (Pipeline.arrRef spec6 w) := by
  dsimp only [dat6]

theorem after6_0 (c : Dev nD) (t : Fin cfg6.N) : (dat6 V c).after 0 t = iblk6 V c 0 t := by dsimp only [dat6]
theorem after6_1 (c : Dev nD) (t : Fin cfg6.N) : (dat6 V c).after 1 t = iblk6 V c 1 t := by dsimp only [dat6]
theorem after6_2 (c : Dev nD) (t : Fin cfg6.N) : (dat6 V c).after 2 t = out6 (iblk6 V c 0 t) (iblk6 V c 1 t) := by dsimp only [dat6]

/-- Each input's current staging buffer holds its block at every point, fetched there or not. -/
theorem before6_0 (c : Dev nD) (t : Fin cfg6.N) (d) : (dat6 V c).before 0 t d = iblk6 V c 0 t :=
  before6_0_of V (dat6 V c) (A_eq6 V c 0) (after6_0 V c) t d
theorem before6_1 (c : Dev nD) (t : Fin cfg6.N) (d) : (dat6 V c).before 1 t d = iblk6 V c 1 t :=
  before6_1_of V (dat6 V c) (A_eq6 V c 1) (after6_1 V c) t d

/-! ## The body obligation, at a generic point -/

/-- What the body is called with at point `t`, the windows one by one, -/
def bodyPre6 (c : Dev nD) (t : Fin cfg6.N) : sProp 𝕄 :=
  iprop((dat6 V c).Φ t.castSucc ∗ (dat6 V c).owesAt () t.castSucc
    ∗ (∃ d, owns (c : Thread nD τ) (st6_0 t) fullShare ((dat6 V c).before 0 t d))
    ∗ (∃ d, owns (c : Thread nD τ) (st6_1 t) fullShare ((dat6 V c).before 1 t d))
    ∗ (∃ d, owns (c : Thread nD τ) (st6_2 t) fullShare ((dat6 V c).before 2 t d)))

/-- and what it returns. -/
def bodyPost6 (c : Dev nD) (t : Fin cfg6.N) : sProp 𝕄 :=
  iprop((dat6 V c).Φ t.succ ∗ (dat6 V c).owesAt () t.succ
    ∗ owns (c : Thread nD τ) (st6_0 t) fullShare ((dat6 V c).after 0 t)
    ∗ owns (c : Thread nD τ) (st6_1 t) fullShare ((dat6 V c).after 1 t)
    ∗ owns (c : Thread nD τ) (st6_2 t) fullShare ((dat6 V c).after 2 t))

/-- The body at any point: the inputs' memrefs hold their blocks, so `sound_kernel6` applies; the invariant and the
    core's dues pass through unread. -/
theorem sound_body6 (c : Dev nD) (t : Fin cfg6.N) :
    bodyPre6 V c t ⊢ wp frame (wpE (defs₀ (F := F)) Variants.none c none) Set.univ (bodyAt6 t) (fun _ => bodyPost6 V c t) := by
  unfold bodyPre6 bodyPost6 bodyAt6
  simp only [before6_0, before6_1]
  rw [show (dat6 V c).Φ t.succ = (dat6 V c).Φ t.castSucc from rfl,
    show (dat6 V c).owesAt () t.succ = (dat6 V c).owesAt () t.castSucc from rfl,
    after6_0, after6_1, after6_2]
  iintro ⟨HΦ, Ho, ⟨%d0, H0⟩, ⟨%d1, H1⟩, ⟨%d2, H2⟩⟩
  iapply (sound_kernel6 c Set.univ _ _ _ _ _ _ _ (iblk6 V c 0 t) (iblk6 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The library's body obligation, at every point. -/
theorem body_obligation6 (c : Dev nD) : BodyObligation (dat6 (F := F) V c) (defs₀ (F := F)) Variants.none () Set.univ := fun t => by
  rw [bigSep_W6, bigSep_W6]
  exact sound_body6 V c t

end Region6

end Cert.KernelIdeal.Hand

end
-- ==== Proof.KI.Reg7.lean ====
import proofs.«402161_j18391049961554_1_alg».proof.Proof.Gen.KernelIdeal.Launch
import proofs.«402161_j18391049961554_1_alg».proof.Proof.Gen.KernelIdeal.Skeleton
import proofs.«402161_j18391049961554_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Pipeline.Value
import Idealize.ShloMosaic.Lib.Ring
import Idealize.ShloMosaic.Lib.Tactic

/-! # Region 7: the pooling kernel

Two scratch accumulators are carried across the twenty grid points: both are reset at the first
point, each point adds its block's contribution, and the last point copies what they then hold to
the two output windows. The region's proof data names the accumulators point by point; the body
obligation is proved from one triple per kind of point (first, middle, last). -/

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Region7

variable (V : (c : Dev nD) → (b : Ref sig .tc) → Buf (Elt F) ((c : Thread nD τ).loc b))

/-! ## The windows' blocks -/

/-- Window `w`'s block at point `t`, read off its array as the region finds it. -/
def iblk7 (c : Dev nD) (w : Fin cfg7.W) (t : Fin cfg7.N) : ((cfg7.win w).xblock (cfg7.grid.coords t)).Idx → Elt F (cfg7.win w).elt :=
  ((cfg7.win w).blk t).view.read (Elt F) (V c (Pipeline.arrRef spec7 w))

/-- The grid is not empty. -/
theorem N7_pos : 0 < cfg7.N := by
  have h : cfg7.N = 20 := N_7
  omega

/-! ## The accumulators, point by point -/

/-- The feature accumulator after point `n`: reset and fed the first block at point 0, fed one more block
    at every later point of the grid, unchanged beyond it. -/
def accS (c : Dev nD) : ℕ → Vec F S512x128 .f32
  | 0 => k7_pay4 (iblk7 V c 1 ⟨0, N7_pos⟩) (iblk7 V c 0 ⟨0, N7_pos⟩) k7_pay1
  | n + 1 => if h : n + 1 < cfg7.N then k7_pay4 (iblk7 V c 1 ⟨n + 1, h⟩) (iblk7 V c 0 ⟨n + 1, h⟩) (accS c n) else accS c n

/-- The count accumulator after point `n`, likewise. -/
def accC (c : Dev nD) : ℕ → Vec F S512x1 .f32
  | 0 => k7_pay5 (iblk7 V c 1 ⟨0, N7_pos⟩) k7_pay2
  | n + 1 => if h : n + 1 < cfg7.N then k7_pay5 (iblk7 V c 1 ⟨n + 1, h⟩) (accC c n) else accC c n

theorem accS_zero (c : Dev nD) (h : 0 < cfg7.N) :
    accS V c 0 = k7_pay4 (iblk7 V c 1 ⟨0, h⟩) (iblk7 V c 0 ⟨0, h⟩) k7_pay1 := rfl

theorem accS_succ (c : Dev nD) (n : ℕ) (h : n + 1 < cfg7.N) :
    accS V c (n + 1) = k7_pay4 (iblk7 V c 1 ⟨n + 1, h⟩) (iblk7 V c 0 ⟨n + 1, h⟩) (accS V c n) := by
  rw [accS, dif_pos h]

theorem accC_zero (c : Dev nD) (h : 0 < cfg7.N) :
    accC V c 0 = k7_pay5 (iblk7 V c 1 ⟨0, h⟩) k7_pay2 := rfl

theorem accC_succ (c : Dev nD) (n : ℕ) (h : n + 1 < cfg7.N) :
    accC V c (n + 1) = k7_pay5 (iblk7 V c 1 ⟨n + 1, h⟩) (accC V c n) := by
  rw [accC, dif_pos h]

/-! ## The body's branch conditions, decided over the grid -/

/-- The condition of the body's first `scf.if` (the reset), from the grid coordinates. -/
abbrev cond7_0 (i : grid7.Coords) : Prop :=
  (Scalar.cmpi .ne (Scalar.extui (Scalar.cmpi .eq (BitVec.ofNat 32 (i 0).val) 0#32)) 0#32) = 1#1
/-- It holds at the first point only. -/
theorem hcond7_0 : ∀ t : Fin cfg7.N, cond7_0 (grid7.coords t) ↔ t.val % 20 = 0 :=
  (by decide +kernel : ∀ t : Fin grid7.N, cond7_0 (grid7.coords t) ↔ t.val % 20 = 0)

/-- The condition of the body's second `scf.if` (the copy to the outputs). -/
abbrev cond7_1 (i : grid7.Coords) : Prop := k7_cond2 i = 1#1
/-- It holds at the last point only. -/
theorem hcond7_1 : ∀ t : Fin cfg7.N, cond7_1 (grid7.coords t) ↔ t.val % 20 = 19 :=
  (by decide +kernel : ∀ t : Fin grid7.N, cond7_1 (grid7.coords t) ↔ t.val % 20 = 19)

/-! ## Where the windows are idle -/

theorem liveAt7_0 : ∀ t : Fin cfg7.N, cfg7.idle 0 (grid7.coords t) = false := by decide +kernel
theorem liveAt7_1 : ∀ t : Fin cfg7.N, cfg7.idle 1 (grid7.coords t) = false := by decide +kernel
/-- Away from the last point the two output windows are idle and not written back. -/
theorem idleAt7_2 : ∀ t : Fin cfg7.N, ¬cond7_1 (grid7.coords t) → cfg7.idle 2 (grid7.coords t) = true := by decide +kernel
theorem noFlush7_2 : ∀ t : Fin cfg7.N, ¬cond7_1 (grid7.coords t) → (cfg7.win 2).flush t = false := by decide +kernel
theorem idleAt7_3 : ∀ t : Fin cfg7.N, ¬cond7_1 (grid7.coords t) → cfg7.idle 3 (grid7.coords t) = true := by decide +kernel
theorem noFlush7_3 : ∀ t : Fin cfg7.N, ¬cond7_1 (grid7.coords t) → (cfg7.win 3).flush t = false := by decide +kernel
/-- At the last point they are live. -/
theorem liveAt7_2 : ∀ t : Fin cfg7.N, cond7_1 (grid7.coords t) → cfg7.idle 2 (grid7.coords t) = false := by decide +kernel
theorem liveAt7_3 : ∀ t : Fin cfg7.N, cond7_1 (grid7.coords t) → cfg7.idle 3 (grid7.coords t) = false := by decide +kernel

/-! ## The scratch operands and the invariant -/

/-- The two scratch operands: whole scoped buffers of the kernel's own. -/
abbrev scM7_0 : Memref sig .tc .vmem S512x128 .f32 := Memref.whole cc7_scratch0
abbrev scM7_1 : Memref sig .tc .vmem S512x1 .f32 := Memref.whole cc7_scratch1

/-- The scoped buffers that are neither staging buffers nor the kernel's two scratch operands. -/
abbrev rest7 (c : Dev nD) : sProp 𝕄 :=
  Pipeline.scopedRestBut (Ix := Unit) (Name := ℕ) (U := UR sig nD τ) (Lvl := ℕ) (Val := Elt F) spec7 c [cc7_scratch0, cc7_scratch1]

/-- The region's entry invariant with the two scratch operands as memrefs owned at some contents. -/
theorem PhiA7_eq (c : Dev nD) :
    (Pipeline.ΦA spec7 c : sProp 𝕄)
      = iprop(iprop(iprop((∃ d, owns (c : Thread nD τ) scM7_0 fullShare d) ∗ (∃ d, owns (c : Thread nD τ) scM7_1 fullShare d)) ∗ rest7 c) ∗ (∃ r, prngReg c r)) := by
  unfold Pipeline.ΦA; rw [scopedRest7_split]; simp only [scM7_0, scM7_1, owns_whole]; try rfl

/-- The invariant before position `n`: the entry invariant before the first point; afterwards the two
    scratch operands at what the point before left in them, everything else as at entry. -/
def PhiS7 (c : Dev nD) : ℕ → sProp 𝕄
  | 0 => Pipeline.ΦA spec7 c
  | n + 1 => iprop(iprop(iprop(owns (c : Thread nD τ) scM7_0 fullShare (accS V c n) ∗ owns (c : Thread nD τ) scM7_1 fullShare (accC V c n)) ∗ rest7 c) ∗ (∃ r, prngReg c r))

theorem PhiS7_zero (c : Dev nD) (n : ℕ) (hz : n = 0) : PhiS7 V c n = Pipeline.ΦA spec7 c := by
  subst hz; rfl

theorem PhiS7_succ (c : Dev nD) (n : ℕ) :
    PhiS7 V c (n + 1) = iprop(iprop(iprop(owns (c : Thread nD τ) scM7_0 fullShare (accS V c n) ∗ owns (c : Thread nD τ) scM7_1 fullShare (accC V c n)) ∗ rest7 c) ∗ (∃ r, prngReg c r)) := rfl

theorem PhiS7_pos (c : Dev nD) (n : ℕ) (hz : n ≠ 0) :
    PhiS7 V c n = iprop(iprop(iprop(owns (c : Thread nD τ) scM7_0 fullShare (accS V c (n - 1)) ∗ owns (c : Thread nD τ) scM7_1 fullShare (accC V c (n - 1))) ∗ rest7 c) ∗ (∃ r, prngReg c r)) := by
  cases n with
  | zero => exact absurd rfl hz
  | succ n => rfl

/-! ## The proof data -/

/-- The proof data of the region on core `c`: the arrays as the region finds them; after the body each
    input's buffer at its block, the outputs' at the accumulators (consulted at the last point only:
    elsewhere the output windows are idle); the invariant `PhiS7`; nothing owed; full shares. -/
def dat7 (c : Dev nD) : Dat τ (Elt F) Unit ℕ (UR sig nD τ) ℕ cfg7 c where
  A w := V c (Pipeline.arrRef spec7 w)
  after w t := match w with
    | ⟨0, _⟩ => iblk7 V c 0 t
    | ⟨1, _⟩ => iblk7 V c 1 t
    | ⟨2, _⟩ => accS V c t.val
    | ⟨3, _⟩ => accC V c t.val
  Φ t := PhiS7 V c t.val
  q _ := fullShare
  owed _ := 0

theorem A_eq7 (c : Dev nD) (w : Fin cfg7.W) : (dat7 V c).A w = V c (Pipeline.arrRef spec7 w) := by
  dsimp only [dat7]

theorem after7_0 (c : Dev nD) (t : Fin cfg7.N) : (dat7 V c).after 0 t = iblk7 V c 0 t := by dsimp only [dat7]
theorem after7_1 (c : Dev nD) (t : Fin cfg7.N) : (dat7 V c).after 1 t = iblk7 V c 1 t := by dsimp only [dat7]
theorem after7_2 (c : Dev nD) (t : Fin cfg7.N) : (dat7 V c).after 2 t = accS V c t.val := by dsimp only [dat7]
theorem after7_3 (c : Dev nD) (t : Fin cfg7.N) : (dat7 V c).after 3 t = accC V c t.val := by dsimp only [dat7]

/-- At the last point the first output window is left at the feature accumulator's final contents. -/
theorem after7_2_last (c : Dev nD) (t : Fin cfg7.N) (h : t.val = 19) : (dat7 V c).after 2 t = accS V c 19 := by
  rw [after7_2, h]
/-- At the last point the second output window is left at the count accumulator's final contents. -/
theorem after7_3_last (c : Dev nD) (t : Fin cfg7.N) (h : t.val = 19) : (dat7 V c).after 3 t = accC V c 19 := by
  rw [after7_3, h]

/-- The invariant at a point's start and end, restated at the point's position. -/
theorem Phi7_castSucc (c : Dev nD) (t : Fin cfg7.N) : (dat7 V c).Φ t.castSucc = PhiS7 V c t.val := by
  dsimp only [dat7]; simp only [Fin.coe_castSucc]
theorem Phi7_succ (c : Dev nD) (t : Fin cfg7.N) : (dat7 V c).Φ t.succ = PhiS7 V c (t.val + 1) := by
  dsimp only [dat7]; simp only [Fin.val_succ]

/-- Each input's current staging buffer holds its block at every point, fetched there or not. -/
theorem before7_0 (c : Dev nD) (t : Fin cfg7.N) (d) : (dat7 V c).before 0 t d = iblk7 V c 0 t :=
  ((dat7 V c).before_in_eq_fetched 0 rfl (fun _ => rfl) (fun _ _ _ => rfl)
    (fun t => by rw [after7_0]; unfold Dat.blockOf iblk7; rw [A_eq7]; try rfl) t d).trans
    (by unfold Dat.fetched Dat.blockOf iblk7; rw [A_eq7]; try rfl)
theorem before7_1 (c : Dev nD) (t : Fin cfg7.N) (d) : (dat7 V c).before 1 t d = iblk7 V c 1 t :=
  ((dat7 V c).before_in_eq_fetched 1 rfl (fun _ => rfl) (fun _ _ _ => rfl)
    (fun t => by rw [after7_1]; unfold Dat.blockOf iblk7; rw [A_eq7]; try rfl) t d).trans
    (by unfold Dat.fetched Dat.blockOf iblk7; rw [A_eq7]; try rfl)

/-! ## The region's boundary -/

/-- What the launch hands the region is the invariant before the first point. -/
theorem hin7 (c : Dev nD) : Pipeline.ΦA spec7 c ⊢ (dat7 V c).Φ 0 := by
  rw [show (dat7 V c).Φ 0 = PhiS7 V c 0 from rfl, PhiS7_zero V c 0 rfl]

/-- After the last point the invariant gives the entry invariant back: the scratch contents are forgotten. -/
theorem hout7 (c : Dev nD) : (dat7 V c).Φ (Fin.last cfg7.N) ⊢ Pipeline.ΦA spec7 c := by
  have hN : cfg7.N = 20 := N_7
  rw [show (dat7 V c).Φ (Fin.last cfg7.N) = PhiS7 V c cfg7.N from rfl,
    PhiS7_pos V c _ (by omega), PhiA7_eq]
  iintro ⟨⟨⟨HS0, HS1⟩, Hr⟩, Hg⟩
  isplitl [HS0 HS1 Hr]
  · isplitl [HS0 HS1]
    · isplitl [HS0]
      · iexists _; iexact HS0
      iexists _; iexact HS1
    iexact Hr
  iexact Hg

/-! ## The body's three triples

Every access of the body is of a whole buffer, through the unit rectangle at zero offsets: a load reads the
buffer's contents, and what a buffer holds after the run is the payload of the last store into it. -/

theorem hz2 : (![0, 0] : Fin 2 → Nat) = fun _ => 0 := funext fun a => by fin_cases a <;> rfl

/-- A list of stores whose last is of the whole buffer covers the buffer. -/
theorem cover_unit {Val : EltTy → Type} {S : Shape} {e : EltTy} {off : Fin S.rank → Nat} (h : off = fun _ => 0)
    (inb : ∀ a, off a + S.size a ≤ S.size a) (w : S.Idx → Val e) (L : List (View.Piece Val S e)) (y : S.Idx) :
    ∃ p ∈ ((⟨Rect.unit off S.size inb, w⟩ : View.Piece Val S e) :: L), y ∈ p.1.set :=
  ⟨_, List.mem_cons.mpr (Or.inl rfl), View.mem_set_unit_zero h inb y⟩

set_option maxHeartbeats 1000000 in
/-- THE FIRST POINT. Both scratch operands are reset, then fed the point's block; the output windows' buffers are
    handed back untouched. -/
theorem sound_first (c : Dev nD) (E : Set ℕ) (i : grid7.Coords) (hc0 : cond7_0 i) (hc1 : ¬cond7_1 i)
    (arg1 : Memref sig .tc .vmem S5000x128 .f32) (harg1 : arg1.IsWhole) (arg2 : Memref sig .tc .vmem S5000x1 .i32) (harg2 : arg2.IsWhole)
    (arg3 : Memref sig .tc .vmem S512x128 .f32) (harg3 : arg3.IsWhole) (arg4 : Memref sig .tc .vmem S512x1 .f32) (harg4 : arg4.IsWhole)
    (arg5 : Memref sig .tc .vmem S512x128 .f32) (harg5 : arg5.IsWhole) (arg6 : Memref sig .tc .vmem S512x1 .f32) (harg6 : arg6.IsWhole)
    (x0 : Vec F S5000x128 .f32) (x1 : Vec F S5000x1 .i32) (xi2 : Vec F S512x128 .f32) (xi3 : Vec F S512x1 .f32)
    (K : PUnit → sProp 𝕄) :
    iprop(owns (c : Thread nD τ) arg1 fullShare x0 ∗ owns (c : Thread nD τ) arg2 fullShare x1
        ∗ owns (c : Thread nD τ) arg3 fullShare xi2 ∗ owns (c : Thread nD τ) arg4 fullShare xi3
        ∗ (∃ d, owns (c : Thread nD τ) arg5 fullShare d) ∗ (∃ d, owns (c : Thread nD τ) arg6 fullShare d)
        ∗ (iprop(owns (c : Thread nD τ) arg1 fullShare x0 ∗ owns (c : Thread nD τ) arg2 fullShare x1
            ∗ owns (c : Thread nD τ) arg3 fullShare xi2 ∗ owns (c : Thread nD τ) arg4 fullShare xi3
            ∗ owns (c : Thread nD τ) arg5 fullShare (k7_pay4 x1 x0 k7_pay1)
            ∗ owns (c : Thread nD τ) arg6 fullShare (k7_pay5 x1 k7_pay2)) -∗ K ⟨⟩))
      ⊢ wp frame (wpE (defs₀ (F := F)) Variants.none c none) E
          (cc7__lambda_ i arg1 harg1 arg2 harg2 arg3 harg3 arg4 harg4 arg5 harg5 arg6 harg6) K := by
  simp only [cc7__lambda__eq_skeleton]; unfold cc7__lambda__skel
  unfold owns
  iintro ⟨⟨%f0, %hf0, H0⟩, ⟨%f1, %hf1, H1⟩, ⟨%f2, %hf2, H2⟩, ⟨%f3, %hf3, H3⟩, ⟨%d5, %f5, -, H5⟩, ⟨%d6, %f6, -, H6⟩, Hk⟩
  subst hf0; subst hf1; subst hf2; subst hf3
  sl_exec (disch := first | sl_exact hc0 | sl_exact hc1)
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H5]
  · iexists _; isplitr
    swap; · iexact H5
    ipureintro
    sl_unfold_words
    rw [View.read_writes_eq_canon _ _ _ (cover_unit hz2 _ _ _),
      View.canon_cons_unit_zero (S := S512x128) hz2, View.readCov_unit_zero (S := S512x128) _ hz2]
    simp only [View.readAt_eq_ld, View.ld_unit_zero (S := S5000x1) hz2, View.ld_unit_zero (S := S5000x128) hz2]
  iexists _; isplitr
  swap; · iexact H6
  ipureintro
  sl_unfold_words
  rw [View.read_writes_eq_canon _ _ _ (cover_unit hz2 _ _ _),
    View.canon_cons_unit_zero (S := S512x1) hz2, View.readCov_unit_zero (S := S512x1) _ hz2]
  simp only [View.readAt_eq_ld, View.ld_unit_zero (S := S5000x1) hz2]

set_option maxHeartbeats 1000000 in
/-- A MIDDLE POINT. Each scratch operand, holding `s` (resp. `s'`), is fed the point's block; the output windows'
    buffers are handed back untouched. -/
theorem sound_mid (c : Dev nD) (E : Set ℕ) (i : grid7.Coords) (hc0 : ¬cond7_0 i) (hc1 : ¬cond7_1 i)
    (arg1 : Memref sig .tc .vmem S5000x128 .f32) (harg1 : arg1.IsWhole) (arg2 : Memref sig .tc .vmem S5000x1 .i32) (harg2 : arg2.IsWhole)
    (arg3 : Memref sig .tc .vmem S512x128 .f32) (harg3 : arg3.IsWhole) (arg4 : Memref sig .tc .vmem S512x1 .f32) (harg4 : arg4.IsWhole)
    (arg5 : Memref sig .tc .vmem S512x128 .f32) (harg5 : arg5.IsWhole) (arg6 : Memref sig .tc .vmem S512x1 .f32) (harg6 : arg6.IsWhole)
    (x0 : Vec F S5000x128 .f32) (x1 : Vec F S5000x1 .i32) (xi2 : Vec F S512x128 .f32) (xi3 : Vec F S512x1 .f32)
    (s : Vec F S512x128 .f32) (s' : Vec F S512x1 .f32)
    (K : PUnit → sProp 𝕄) :
    iprop(owns (c : Thread nD τ) arg1 fullShare x0 ∗ owns (c : Thread nD τ) arg2 fullShare x1
        ∗ owns (c : Thread nD τ) arg3 fullShare xi2 ∗ owns (c : Thread nD τ) arg4 fullShare xi3
        ∗ owns (c : Thread nD τ) arg5 fullShare s ∗ owns (c : Thread nD τ) arg6 fullShare s'
        ∗ (iprop(owns (c : Thread nD τ) arg1 fullShare x0 ∗ owns (c : Thread nD τ) arg2 fullShare x1
            ∗ owns (c : Thread nD τ) arg3 fullShare xi2 ∗ owns (c : Thread nD τ) arg4 fullShare xi3
            ∗ owns (c : Thread nD τ) arg5 fullShare (k7_pay4 x1 x0 s)
            ∗ owns (c : Thread nD τ) arg6 fullShare (k7_pay5 x1 s')) -∗ K ⟨⟩))
      ⊢ wp frame (wpE (defs₀ (F := F)) Variants.none c none) E
          (cc7__lambda_ i arg1 harg1 arg2 harg2 arg3 harg3 arg4 harg4 arg5 harg5 arg6 harg6) K := by
  simp only [cc7__lambda__eq_skeleton]; unfold cc7__lambda__skel
  unfold owns
  iintro ⟨⟨%f0, %hf0, H0⟩, ⟨%f1, %hf1, H1⟩, ⟨%f2, %hf2, H2⟩, ⟨%f3, %hf3, H3⟩, ⟨%f5, %hf5, H5⟩, ⟨%f6, %hf6, H6⟩, Hk⟩
  subst hf0; subst hf1; subst hf2; subst hf3; subst hf5; subst hf6
  sl_exec (disch := first | sl_exact hc0 | sl_exact hc1)
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H5]
  · iexists _; isplitr
    swap; · iexact H5
    ipureintro
    rw [View.read_writes_eq_canon _ _ _ (cover_unit hz2 _ _ _), View.canon_unit_zero (S := S512x128) hz2]
    simp only [View.readAt_eq_ld, View.ld_unit_zero (S := S5000x1) hz2, View.ld_unit_zero (S := S5000x128) hz2,
      View.ld_unit_zero (S := S512x128) hz2]
  iexists _; isplitr
  swap; · iexact H6
  ipureintro
  rw [View.read_writes_eq_canon _ _ _ (cover_unit hz2 _ _ _), View.canon_unit_zero (S := S512x1) hz2]
  simp only [View.readAt_eq_ld, View.ld_unit_zero (S := S5000x1) hz2, View.ld_unit_zero (S := S512x1) hz2]

set_option maxHeartbeats 1000000 in
/-- THE LAST POINT. As a middle point; then each output window's buffer is stored with what its scratch operand
    then holds. -/
theorem sound_last (c : Dev nD) (E : Set ℕ) (i : grid7.Coords) (hc0 : ¬cond7_0 i) (hc1 : cond7_1 i)
    (arg1 : Memref sig .tc .vmem S5000x128 .f32) (harg1 : arg1.IsWhole) (arg2 : Memref sig .tc .vmem S5000x1 .i32) (harg2 : arg2.IsWhole)
    (arg3 : Memref sig .tc .vmem S512x128 .f32) (harg3 : arg3.IsWhole) (arg4 : Memref sig .tc .vmem S512x1 .f32) (harg4 : arg4.IsWhole)
    (arg5 : Memref sig .tc .vmem S512x128 .f32) (harg5 : arg5.IsWhole) (arg6 : Memref sig .tc .vmem S512x1 .f32) (harg6 : arg6.IsWhole)
    (x0 : Vec F S5000x128 .f32) (x1 : Vec F S5000x1 .i32)
    (s : Vec F S512x128 .f32) (s' : Vec F S512x1 .f32)
    (K : PUnit → sProp 𝕄) :
    iprop(owns (c : Thread nD τ) arg1 fullShare x0 ∗ owns (c : Thread nD τ) arg2 fullShare x1
        ∗ (∃ d, owns (c : Thread nD τ) arg3 fullShare d) ∗ (∃ d, owns (c : Thread nD τ) arg4 fullShare d)
        ∗ owns (c : Thread nD τ) arg5 fullShare s ∗ owns (c : Thread nD τ) arg6 fullShare s'
        ∗ (iprop(owns (c : Thread nD τ) arg1 fullShare x0 ∗ owns (c : Thread nD τ) arg2 fullShare x1
            ∗ owns (c : Thread nD τ) arg3 fullShare (k7_pay4 x1 x0 s) ∗ owns (c : Thread nD τ) arg4 fullShare (k7_pay5 x1 s')
            ∗ owns (c : Thread nD τ) arg5 fullShare (k7_pay4 x1 x0 s)
            ∗ owns (c : Thread nD τ) arg6 fullShare (k7_pay5 x1 s')) -∗ K ⟨⟩))
      ⊢ wp frame (wpE (defs₀ (F := F)) Variants.none c none) E
          (cc7__lambda_ i arg1 harg1 arg2 harg2 arg3 harg3 arg4 harg4 arg5 harg5 arg6 harg6) K := by
  simp only [cc7__lambda__eq_skeleton]; unfold cc7__lambda__skel
  unfold owns
  iintro ⟨⟨%f0, %hf0, H0⟩, ⟨%f1, %hf1, H1⟩, ⟨%d2, %f2, -, H2⟩, ⟨%d3, %f3, -, H3⟩, ⟨%f5, %hf5, H5⟩, ⟨%f6, %hf6, H6⟩, Hk⟩
  subst hf0; subst hf1; subst hf5; subst hf6
  sl_exec (disch := first | sl_exact hc0 | sl_exact hc1)
  sl_step
  iapply Hk
  isplitl [H0]
  · iexists f0; isplitr; · ipureintro; rfl
    iexact H0
  isplitl [H1]
  · iexists f1; isplitr; · ipureintro; rfl
    iexact H1
  isplitl [H2]
  · iexists _; isplitr
    swap; · iexact H2
    ipureintro
    sl_unfold_words
    rw [View.read_writes_eq_canon _ _ _ (cover_unit hz2 _ _ _), View.canon_unit_zero (S := S512x128) hz2,
      View.readCov_unit_zero (S := S512x128) _ hz2]
    simp only [View.readAt_eq_ld, View.ld_unit_zero (S := S5000x1) hz2, View.ld_unit_zero (S := S5000x128) hz2,
      View.ld_unit_zero (S := S512x128) hz2]
  isplitl [H3]
  · iexists _; isplitr
    swap; · iexact H3
    ipureintro
    sl_unfold_words
    rw [View.read_writes_eq_canon _ _ _ (cover_unit hz2 _ _ _), View.canon_unit_zero (S := S512x1) hz2,
      View.readCov_unit_zero (S := S512x1) _ hz2]
    simp only [View.readAt_eq_ld, View.ld_unit_zero (S := S5000x1) hz2, View.ld_unit_zero (S := S512x1) hz2]
  isplitl [H5]
  · iexists _; isplitr
    swap; · iexact H5
    ipureintro
    sl_unfold_words
    rw [View.read_writes_eq_canon _ _ _ (cover_unit hz2 _ _ _), View.canon_unit_zero (S := S512x128) hz2]
    simp only [View.readAt_eq_ld, View.ld_unit_zero (S := S5000x1) hz2, View.ld_unit_zero (S := S5000x128) hz2,
      View.ld_unit_zero (S := S512x128) hz2]
  iexists _; isplitr
  swap; · iexact H6
  ipureintro
  sl_unfold_words
  rw [View.read_writes_eq_canon _ _ _ (cover_unit hz2 _ _ _), View.canon_unit_zero (S := S512x1) hz2]
  simp only [View.readAt_eq_ld, View.ld_unit_zero (S := S5000x1) hz2, View.ld_unit_zero (S := S512x1) hz2]

/-! ## The body obligation, at a generic point -/

/-- The feature accumulator at a point of the grid: the reset, at the first point; -/
theorem accS_at_zero (c : Dev nD) (t : Fin cfg7.N) (hz : t.val = 0) :
    accS V c t.val = k7_pay4 (iblk7 V c 1 t) (iblk7 V c 0 t) k7_pay1 := by
  obtain ⟨n, hn⟩ := t
  cases n with
  | zero => rfl
  | succ n => exact absurd hz (Nat.succ_ne_zero n)
/-- fed the point's block over what the point before left, at a later one. -/
theorem accS_at_pos (c : Dev nD) (t : Fin cfg7.N) (hz : t.val ≠ 0) :
    accS V c t.val = k7_pay4 (iblk7 V c 1 t) (iblk7 V c 0 t) (accS V c (t.val - 1)) := by
  obtain ⟨n, hn⟩ := t
  cases n with
  | zero => exact absurd rfl hz
  | succ n => exact accS_succ V c n hn
/-- The count accumulator likewise. -/
theorem accC_at_zero (c : Dev nD) (t : Fin cfg7.N) (hz : t.val = 0) :
    accC V c t.val = k7_pay5 (iblk7 V c 1 t) k7_pay2 := by
  obtain ⟨n, hn⟩ := t
  cases n with
  | zero => rfl
  | succ n => exact absurd hz (Nat.succ_ne_zero n)
theorem accC_at_pos (c : Dev nD) (t : Fin cfg7.N) (hz : t.val ≠ 0) :
    accC V c t.val = k7_pay5 (iblk7 V c 1 t) (accC V c (t.val - 1)) := by
  obtain ⟨n, hn⟩ := t
  cases n with
  | zero => exact absurd rfl hz
  | succ n => exact accC_succ V c n hn

/-- What the body is called with at point `t` (the windows one by one), -/
def bodyPre7 (c : Dev nD) (t : Fin cfg7.N) : sProp 𝕄 :=
  iprop((dat7 V c).Φ t.castSucc ∗ (dat7 V c).owesAt () t.castSucc
    ∗ (∃ d, owns (c : Thread nD τ) (st7_0 t) fullShare ((dat7 V c).before 0 t d))
    ∗ (∃ d, owns (c : Thread nD τ) (st7_1 t) fullShare ((dat7 V c).before 1 t d))
    ∗ (∃ d, owns (c : Thread nD τ) (st7_2 t) fullShare ((dat7 V c).before 2 t d))
    ∗ (∃ d, owns (c : Thread nD τ) (st7_3 t) fullShare ((dat7 V c).before 3 t d)))

/-- and what it returns. -/
def bodyPost7 (c : Dev nD) (t : Fin cfg7.N) : sProp 𝕄 :=
  iprop((dat7 V c).Φ t.succ ∗ (dat7 V c).owesAt () t.succ
    ∗ (dat7 V c).leavesExact 0 t
    ∗ (dat7 V c).leavesExact 1 t
    ∗ (dat7 V c).leavesExact 2 t
    ∗ (dat7 V c).leavesExact 3 t)

set_option maxHeartbeats 4000000 in
/-- The body at any point. The inputs' buffers hold their blocks; the closed forms of the two conditions say which
    kind of point it is, and that kind's triple applies: the invariant hands the body the scratch operands (at anything
    at the first point, else at what the point before left) and takes them back at this point's accumulators; away
    from the last point the output windows are idle and their buffers pass through, at the last they are left at the
    accumulators. -/
theorem sound_body7 (c : Dev nD) (t : Fin cfg7.N) :
    bodyPre7 V c t ⊢ wp frame (wpE (defs₀ (F := F)) Variants.none c none) Set.univ (bodyAt7 t) (fun _ => bodyPost7 V c t) := by
  unfold bodyPre7 bodyPost7 bodyAt7
  simp only [before7_0, before7_1]
  rw [show (dat7 V c).owesAt () t.succ = (dat7 V c).owesAt () t.castSucc from rfl]
  rw [Phi7_succ, PhiS7_succ, Phi7_castSucc]
  have hN : t.val < 20 := lt_of_lt_of_eq t.isLt (show cfg7.N = 20 from N_7)
  rw [show (dat7 V c).leavesExact 0 t = owns (c : Thread nD τ) (st7_0 t) fullShare ((dat7 V c).after 0 t) from by
    unfold Dat.leavesExact; rw [liveAt7_0 t], after7_0]
  rw [show (dat7 V c).leavesExact 1 t = owns (c : Thread nD τ) (st7_1 t) fullShare ((dat7 V c).after 1 t) from by
    unfold Dat.leavesExact; rw [liveAt7_1 t], after7_1]
  by_cases h1 : t.val % 20 = 19
  · -- the last point
    have hc1 : cond7_1 (grid7.coords t) := (hcond7_1 t).mpr h1
    have hc0 : ¬cond7_0 (grid7.coords t) := fun h => by have := (hcond7_0 t).mp h; omega
    have hz : t.val ≠ 0 := by omega
    rw [show (dat7 V c).leavesExact 2 t = owns (c : Thread nD τ) (st7_2 t) fullShare ((dat7 V c).after 2 t) from by
      unfold Dat.leavesExact; rw [liveAt7_2 t hc1], after7_2]
    rw [show (dat7 V c).leavesExact 3 t = owns (c : Thread nD τ) (st7_3 t) fullShare ((dat7 V c).after 3 t) from by
      unfold Dat.leavesExact; rw [liveAt7_3 t hc1], after7_3]
    rw [PhiS7_pos V c _ hz, accS_at_pos V c t hz, accC_at_pos V c t hz]
    iintro ⟨⟨⟨⟨HS0, HS1⟩, Hr⟩, Hg⟩, Ho, ⟨%d0, H0⟩, ⟨%d1, H1⟩, ⟨%d2, H2⟩, ⟨%d3, H3⟩⟩
    iapply (sound_last c Set.univ (grid7.coords t) hc0 hc1 _ _ _ _ _ _ _ _ _ _ _ _
      (iblk7 V c 0 t) (iblk7 V c 1 t) (accS V c (t.val - 1)) (accC V c (t.val - 1)) _)
    isplitl [H0]; · iexact H0
    isplitl [H1]; · iexact H1
    isplitl [H2]; · iexists _; iexact H2
    isplitl [H3]; · iexists _; iexact H3
    isplitl [HS0]; · iexact HS0
    isplitl [HS1]; · iexact HS1
    iintro ⟨H0, H1, H2, H3, HS0, HS1⟩
    isplitl [HS0 HS1 Hr Hg]
    · isplitl [HS0 HS1 Hr]
      · isplitl [HS0 HS1]
        · isplitl [HS0]; · iexact HS0
          iexact HS1
        iexact Hr
      iexact Hg
    isplitl [Ho]; · iexact Ho
    isplitl [H0]; · iexact H0
    isplitl [H1]; · iexact H1
    isplitl [H2]; · iexact H2
    iexact H3
  · -- the output windows are idle
    have hc1 : ¬cond7_1 (grid7.coords t) := fun h => h1 ((hcond7_1 t).mp h)
    rw [Dat.leavesExact_idle (dat7 V c) 2 t (idleAt7_2 t hc1) (noFlush7_2 t hc1)]
    rw [Dat.leavesExact_idle (dat7 V c) 3 t (idleAt7_3 t hc1) (noFlush7_3 t hc1)]
    by_cases hz : t.val = 0
    · -- the first point
      have hc0 : cond7_0 (grid7.coords t) := (hcond7_0 t).mpr (by omega)
      rw [PhiS7_zero V c _ hz, PhiA7_eq, accS_at_zero V c t hz, accC_at_zero V c t hz]
      iintro ⟨⟨⟨⟨HS0, HS1⟩, Hr⟩, Hg⟩, Ho, ⟨%d0, H0⟩, ⟨%d1, H1⟩, ⟨%d2, H2⟩, ⟨%d3, H3⟩⟩
      iapply (sound_first c Set.univ (grid7.coords t) hc0 hc1 _ _ _ _ _ _ _ _ _ _ _ _
        (iblk7 V c 0 t) (iblk7 V c 1 t) ((dat7 V c).before 2 t d2) ((dat7 V c).before 3 t d3) _)
      isplitl [H0]; · iexact H0
      isplitl [H1]; · iexact H1
      isplitl [H2]; · iexact H2
      isplitl [H3]; · iexact H3
      isplitl [HS0]; · iexact HS0
      isplitl [HS1]; · iexact HS1
      iintro ⟨H0, H1, H2, H3, HS0, HS1⟩
      isplitl [HS0 HS1 Hr Hg]
      · isplitl [HS0 HS1 Hr]
        · isplitl [HS0 HS1]
          · isplitl [HS0]; · iexact HS0
            iexact HS1
          iexact Hr
        iexact Hg
      isplitl [Ho]; · iexact Ho
      isplitl [H0]; · iexact H0
      isplitl [H1]; · iexact H1
      isplitl [H2]; · iexists _; iexact H2
      iexists _; iexact H3
    · -- a middle point
      have hc0 : ¬cond7_0 (grid7.coords t) := fun h => by have := (hcond7_0 t).mp h; omega
      rw [PhiS7_pos V c _ hz, accS_at_pos V c t hz, accC_at_pos V c t hz]
      iintro ⟨⟨⟨⟨HS0, HS1⟩, Hr⟩, Hg⟩, Ho, ⟨%d0, H0⟩, ⟨%d1, H1⟩, ⟨%d2, H2⟩, ⟨%d3, H3⟩⟩
      iapply (sound_mid c Set.univ (grid7.coords t) hc0 hc1 _ _ _ _ _ _ _ _ _ _ _ _
        (iblk7 V c 0 t) (iblk7 V c 1 t) ((dat7 V c).before 2 t d2) ((dat7 V c).before 3 t d3)
        (accS V c (t.val - 1)) (accC V c (t.val - 1)) _)
      isplitl [H0]; · iexact H0
      isplitl [H1]; · iexact H1
      isplitl [H2]; · iexact H2
      isplitl [H3]; · iexact H3
      isplitl [HS0]; · iexact HS0
      isplitl [HS1]; · iexact HS1
      iintro ⟨H0, H1, H2, H3, HS0, HS1⟩
      isplitl [HS0 HS1 Hr Hg]
      · isplitl [HS0 HS1 Hr]
        · isplitl [HS0 HS1]
          · isplitl [HS0]; · iexact HS0
            iexact HS1
          iexact Hr
        iexact Hg
      isplitl [Ho]; · iexact Ho
      isplitl [H0]; · iexact H0
      isplitl [H1]; · iexact H1
      isplitl [H2]; · iexists _; iexact H2
      iexists _; iexact H3

/-- The library's body obligation, at every point. -/
theorem body_obligation7 (c : Dev nD) : BodyObligation (dat7 (F := F) V c) (defs₀ (F := F)) Variants.none () Set.univ := fun t => by
  rw [bigSep_W7, bigSep_W7]
  exact sound_body7 V c t

end Region7

end Cert.KernelIdeal.Hand

end
-- ==== Proof.KI.Run.lean ====
/-
  The run of KernelIdeal's @main on the TensorCore, from the launch to the return.

  @main is eighteen items: ten stretches of host operations around eight kernel regions. The buffer contents at every
  boundary are a fold from the launch memory (`W0` … `W18`): a stretch applies its operations' results, a region
  leaves its windows' arrays at what its write-backs fold to and everything else untouched. Each pipeline's proof data
  are taken at its region's entry contents (`pdats`). Every item is a segment over one thread state — all unscoped
  buffers whole at the boundary's contents, the generator register at some state, nothing owed — and the segments
  chain, so the launch theorem for a list of segments gives termination of every weakly fair execution and the final
  memory at `W18` on every unscoped buffer (`run_all`). Each argument array is read back through the fold to its
  launch contents (`W18_main_arg<i>`).
-/
import proofs.«402161_j18391049961554_1_alg».proof.Proof.Gen.KernelIdeal.Launch
import proofs.«402161_j18391049961554_1_alg».proof.Proof.Gen.KernelIdeal.Skeleton
import proofs.«402161_j18391049961554_1_alg».proof.Proof.Gen.KernelIdeal.Points
import proofs.«402161_j18391049961554_1_alg».proof.Proof.Gen.KernelIdeal.Regions
import proofs.«402161_j18391049961554_1_alg».proof.Proof.KI.RegA0
import proofs.«402161_j18391049961554_1_alg».proof.Proof.KI.RegA1
import proofs.«402161_j18391049961554_1_alg».proof.Proof.KI.RegA2
import proofs.«402161_j18391049961554_1_alg».proof.Proof.KI.RegA3
import proofs.«402161_j18391049961554_1_alg».proof.Proof.KI.RegA4
import proofs.«402161_j18391049961554_1_alg».proof.Proof.KI.RegA5
import proofs.«402161_j18391049961554_1_alg».proof.Proof.KI.RegA6
import proofs.«402161_j18391049961554_1_alg».proof.Proof.KI.Reg7
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! # The run of @main: ten stretches of host operations around eight kernel regions

## The buffer contents at each boundary, folded from the launch memory

`WJ m c` is what core `c`'s buffers hold after the first `J` items of @main: a stretch of host operations
rewrites the valuation by the operations' results; a kernel region leaves each of its windows' arrays at what its
write-backs fold to and every other buffer as it found it. `VJ` is `WJ` read at the TensorCore's references, the form
a region's proof data take their entry contents in. -/

variable (m : (ℓ : Loc nD τ sig) → Buf (Elt F) ℓ)

/-- Core `c`'s buffers at launch. -/
abbrev W0 (c : Dev nD) : Valuation τ sig (Elt F) := fun b => m (c, b)
/-- After the stretch `hostOps0`. -/
abbrev W1 (c : Dev nD) : Valuation τ sig (Elt F) := StableHlo.after hostOps0 (W0 m c)
/-- A buffer no operation of `hostOps0` writes is as before the stretch. -/
theorem W1_of (c : Dev nD) (r : Ref sig .tc) (h : r ∉ hostOps0_W) :
    W1 m c (Proc.devRef .tc r) = W0 m c (Proc.devRef .tc r) :=
  StableHlo.after_of_writes_sub hostOps0 _ hostOps0_writes h
/-- After the stretch `hostOps0_1`. -/
abbrev W2 (c : Dev nD) : Valuation τ sig (Elt F) := StableHlo.after hostOps0_1 (W1 m c)
/-- A buffer no operation of `hostOps0_1` writes is as before the stretch. -/
theorem W2_of (c : Dev nD) (r : Ref sig .tc) (h : r ∉ hostOps0_1_W) :
    W2 m c (Proc.devRef .tc r) = W1 m c (Proc.devRef .tc r) :=
  StableHlo.after_of_writes_sub hostOps0_1 _ hostOps0_1_writes h
/-- After the stretch `hostOps0_2`. -/
abbrev W3 (c : Dev nD) : Valuation τ sig (Elt F) := StableHlo.after hostOps0_2 (W2 m c)
/-- A buffer no operation of `hostOps0_2` writes is as before the stretch. -/
theorem W3_of (c : Dev nD) (r : Ref sig .tc) (h : r ∉ hostOps0_2_W) :
    W3 m c (Proc.devRef .tc r) = W2 m c (Proc.devRef .tc r) :=
  StableHlo.after_of_writes_sub hostOps0_2 _ hostOps0_2_writes h
/-- `W3` read at the TensorCore's references. -/
abbrev V3 (c : Dev nD) (b : Ref sig .tc) : Buf (Elt F) ((c : Thread nD τ).loc b) := W3 m c b
/-- After region 0: its windows' arrays at the fold of its write-backs, every other buffer as entered. -/
def W4 (c : Dev nD) : Valuation τ sig (Elt F) :=
  Pipeline.withArrays spec0 c (W3 m c) fun w => (dat0 (V3 m) c).arrAt w cfg0.N
theorem W4_arr (c : Dev nD) (w : Fin cfg0.W) :
    W4 m c (Proc.devRef .tc (Pipeline.arrRef spec0 w)) = (dat0 (V3 m) c).arrAt w cfg0.N := by
  unfold W4; exact Pipeline.withArrays_arr spec0 launch0.win.arr_inj c _ _ w
theorem W4_of_ne (c : Dev nD) (b : Ref sig .tc) (hb : ∀ w, Pipeline.arrRef spec0 w ≠ b) :
    W4 m c (Proc.devRef .tc b) = W3 m c (Proc.devRef .tc b) := by
  unfold W4; exact Pipeline.withArrays_of_ne spec0 c _ _ b hb
/-- `W4` read at the TensorCore's references. -/
abbrev V4 (c : Dev nD) (b : Ref sig .tc) : Buf (Elt F) ((c : Thread nD τ).loc b) := W4 m c b
/-- After region 1: its windows' arrays at the fold of its write-backs, every other buffer as entered. -/
def W5 (c : Dev nD) : Valuation τ sig (Elt F) :=
  Pipeline.withArrays spec1 c (W4 m c) fun w => (dat1 (V4 m) c).arrAt w cfg1.N
theorem W5_arr (c : Dev nD) (w : Fin cfg1.W) :
    W5 m c (Proc.devRef .tc (Pipeline.arrRef spec1 w)) = (dat1 (V4 m) c).arrAt w cfg1.N := by
  unfold W5; exact Pipeline.withArrays_arr spec1 launch1.win.arr_inj c _ _ w
theorem W5_of_ne (c : Dev nD) (b : Ref sig .tc) (hb : ∀ w, Pipeline.arrRef spec1 w ≠ b) :
    W5 m c (Proc.devRef .tc b) = W4 m c (Proc.devRef .tc b) := by
  unfold W5; exact Pipeline.withArrays_of_ne spec1 c _ _ b hb
/-- After the stretch `hostOps2`. -/
abbrev W6 (c : Dev nD) : Valuation τ sig (Elt F) := StableHlo.after hostOps2 (W5 m c)
/-- A buffer no operation of `hostOps2` writes is as before the stretch. -/
theorem W6_of (c : Dev nD) (r : Ref sig .tc) (h : r ∉ hostOps2_W) :
    W6 m c (Proc.devRef .tc r) = W5 m c (Proc.devRef .tc r) :=
  StableHlo.after_of_writes_sub hostOps2 _ hostOps2_writes h
/-- `W6` read at the TensorCore's references. -/
abbrev V6 (c : Dev nD) (b : Ref sig .tc) : Buf (Elt F) ((c : Thread nD τ).loc b) := W6 m c b
/-- After region 2: its windows' arrays at the fold of its write-backs, every other buffer as entered. -/
def W7 (c : Dev nD) : Valuation τ sig (Elt F) :=
  Pipeline.withArrays spec2 c (W6 m c) fun w => (dat2 (V6 m) c).arrAt w cfg2.N
theorem W7_arr (c : Dev nD) (w : Fin cfg2.W) :
    W7 m c (Proc.devRef .tc (Pipeline.arrRef spec2 w)) = (dat2 (V6 m) c).arrAt w cfg2.N := by
  unfold W7; exact Pipeline.withArrays_arr spec2 launch2.win.arr_inj c _ _ w
theorem W7_of_ne (c : Dev nD) (b : Ref sig .tc) (hb : ∀ w, Pipeline.arrRef spec2 w ≠ b) :
    W7 m c (Proc.devRef .tc b) = W6 m c (Proc.devRef .tc b) := by
  unfold W7; exact Pipeline.withArrays_of_ne spec2 c _ _ b hb
/-- After the stretch `hostOps3`. -/
abbrev W8 (c : Dev nD) : Valuation τ sig (Elt F) := StableHlo.after hostOps3 (W7 m c)
/-- A buffer no operation of `hostOps3` writes is as before the stretch. -/
theorem W8_of (c : Dev nD) (r : Ref sig .tc) (h : r ∉ hostOps3_W) :
    W8 m c (Proc.devRef .tc r) = W7 m c (Proc.devRef .tc r) :=
  StableHlo.after_of_writes_sub hostOps3 _ hostOps3_writes h
/-- `W8` read at the TensorCore's references. -/
abbrev V8 (c : Dev nD) (b : Ref sig .tc) : Buf (Elt F) ((c : Thread nD τ).loc b) := W8 m c b
/-- After region 3: its windows' arrays at the fold of its write-backs, every other buffer as entered. -/
def W9 (c : Dev nD) : Valuation τ sig (Elt F) :=
  Pipeline.withArrays spec3 c (W8 m c) fun w => (dat3 (V8 m) c).arrAt w cfg3.N
theorem W9_arr (c : Dev nD) (w : Fin cfg3.W) :
    W9 m c (Proc.devRef .tc (Pipeline.arrRef spec3 w)) = (dat3 (V8 m) c).arrAt w cfg3.N := by
  unfold W9; exact Pipeline.withArrays_arr spec3 launch3.win.arr_inj c _ _ w
theorem W9_of_ne (c : Dev nD) (b : Ref sig .tc) (hb : ∀ w, Pipeline.arrRef spec3 w ≠ b) :
    W9 m c (Proc.devRef .tc b) = W8 m c (Proc.devRef .tc b) := by
  unfold W9; exact Pipeline.withArrays_of_ne spec3 c _ _ b hb
/-- After the stretch `hostOps4`. -/
abbrev W10 (c : Dev nD) : Valuation τ sig (Elt F) := StableHlo.after hostOps4 (W9 m c)
/-- A buffer no operation of `hostOps4` writes is as before the stretch. -/
theorem W10_of (c : Dev nD) (r : Ref sig .tc) (h : r ∉ hostOps4_W) :
    W10 m c (Proc.devRef .tc r) = W9 m c (Proc.devRef .tc r) :=
  StableHlo.after_of_writes_sub hostOps4 _ hostOps4_writes h
/-- `W10` read at the TensorCore's references. -/
abbrev V10 (c : Dev nD) (b : Ref sig .tc) : Buf (Elt F) ((c : Thread nD τ).loc b) := W10 m c b
/-- After region 4: its windows' arrays at the fold of its write-backs, every other buffer as entered. -/
def W11 (c : Dev nD) : Valuation τ sig (Elt F) :=
  Pipeline.withArrays spec4 c (W10 m c) fun w => (dat4 (V10 m) c).arrAt w cfg4.N
theorem W11_arr (c : Dev nD) (w : Fin cfg4.W) :
    W11 m c (Proc.devRef .tc (Pipeline.arrRef spec4 w)) = (dat4 (V10 m) c).arrAt w cfg4.N := by
  unfold W11; exact Pipeline.withArrays_arr spec4 launch4.win.arr_inj c _ _ w
theorem W11_of_ne (c : Dev nD) (b : Ref sig .tc) (hb : ∀ w, Pipeline.arrRef spec4 w ≠ b) :
    W11 m c (Proc.devRef .tc b) = W10 m c (Proc.devRef .tc b) := by
  unfold W11; exact Pipeline.withArrays_of_ne spec4 c _ _ b hb
/-- After the stretch `hostOps5`. -/
abbrev W12 (c : Dev nD) : Valuation τ sig (Elt F) := StableHlo.after hostOps5 (W11 m c)
/-- A buffer no operation of `hostOps5` writes is as before the stretch. -/
theorem W12_of (c : Dev nD) (r : Ref sig .tc) (h : r ∉ hostOps5_W) :
    W12 m c (Proc.devRef .tc r) = W11 m c (Proc.devRef .tc r) :=
  StableHlo.after_of_writes_sub hostOps5 _ hostOps5_writes h
/-- `W12` read at the TensorCore's references. -/
abbrev V12 (c : Dev nD) (b : Ref sig .tc) : Buf (Elt F) ((c : Thread nD τ).loc b) := W12 m c b
/-- After region 5: its windows' arrays at the fold of its write-backs, every other buffer as entered. -/
def W13 (c : Dev nD) : Valuation τ sig (Elt F) :=
  Pipeline.withArrays spec5 c (W12 m c) fun w => (dat5 (V12 m) c).arrAt w cfg5.N
theorem W13_arr (c : Dev nD) (w : Fin cfg5.W) :
    W13 m c (Proc.devRef .tc (Pipeline.arrRef spec5 w)) = (dat5 (V12 m) c).arrAt w cfg5.N := by
  unfold W13; exact Pipeline.withArrays_arr spec5 launch5.win.arr_inj c _ _ w
theorem W13_of_ne (c : Dev nD) (b : Ref sig .tc) (hb : ∀ w, Pipeline.arrRef spec5 w ≠ b) :
    W13 m c (Proc.devRef .tc b) = W12 m c (Proc.devRef .tc b) := by
  unfold W13; exact Pipeline.withArrays_of_ne spec5 c _ _ b hb
/-- After the stretch `hostOps6`. -/
abbrev W14 (c : Dev nD) : Valuation τ sig (Elt F) := StableHlo.after hostOps6 (W13 m c)
/-- A buffer no operation of `hostOps6` writes is as before the stretch. -/
theorem W14_of (c : Dev nD) (r : Ref sig .tc) (h : r ∉ hostOps6_W) :
    W14 m c (Proc.devRef .tc r) = W13 m c (Proc.devRef .tc r) :=
  StableHlo.after_of_writes_sub hostOps6 _ hostOps6_writes h
/-- `W14` read at the TensorCore's references. -/
abbrev V14 (c : Dev nD) (b : Ref sig .tc) : Buf (Elt F) ((c : Thread nD τ).loc b) := W14 m c b
/-- After region 6: its windows' arrays at the fold of its write-backs, every other buffer as entered. -/
def W15 (c : Dev nD) : Valuation τ sig (Elt F) :=
  Pipeline.withArrays spec6 c (W14 m c) fun w => (dat6 (V14 m) c).arrAt w cfg6.N
theorem W15_arr (c : Dev nD) (w : Fin cfg6.W) :
    W15 m c (Proc.devRef .tc (Pipeline.arrRef spec6 w)) = (dat6 (V14 m) c).arrAt w cfg6.N := by
  unfold W15; exact Pipeline.withArrays_arr spec6 launch6.win.arr_inj c _ _ w
theorem W15_of_ne (c : Dev nD) (b : Ref sig .tc) (hb : ∀ w, Pipeline.arrRef spec6 w ≠ b) :
    W15 m c (Proc.devRef .tc b) = W14 m c (Proc.devRef .tc b) := by
  unfold W15; exact Pipeline.withArrays_of_ne spec6 c _ _ b hb
/-- After the stretch `hostOps7`. -/
abbrev W16 (c : Dev nD) : Valuation τ sig (Elt F) := StableHlo.after hostOps7 (W15 m c)
/-- A buffer no operation of `hostOps7` writes is as before the stretch. -/
theorem W16_of (c : Dev nD) (r : Ref sig .tc) (h : r ∉ hostOps7_W) :
    W16 m c (Proc.devRef .tc r) = W15 m c (Proc.devRef .tc r) :=
  StableHlo.after_of_writes_sub hostOps7 _ hostOps7_writes h
/-- `W16` read at the TensorCore's references. -/
abbrev V16 (c : Dev nD) (b : Ref sig .tc) : Buf (Elt F) ((c : Thread nD τ).loc b) := W16 m c b
/-- After region 7: its windows' arrays at the fold of its write-backs, every other buffer as entered. -/
def W17 (c : Dev nD) : Valuation τ sig (Elt F) :=
  Pipeline.withArrays spec7 c (W16 m c) fun w => (dat7 (V16 m) c).arrAt w cfg7.N
theorem W17_arr (c : Dev nD) (w : Fin cfg7.W) :
    W17 m c (Proc.devRef .tc (Pipeline.arrRef spec7 w)) = (dat7 (V16 m) c).arrAt w cfg7.N := by
  unfold W17; exact Pipeline.withArrays_arr spec7 launch7.win.arr_inj c _ _ w
theorem W17_of_ne (c : Dev nD) (b : Ref sig .tc) (hb : ∀ w, Pipeline.arrRef spec7 w ≠ b) :
    W17 m c (Proc.devRef .tc b) = W16 m c (Proc.devRef .tc b) := by
  unfold W17; exact Pipeline.withArrays_of_ne spec7 c _ _ b hb
/-- After the stretch `hostOps8`. -/
abbrev W18 (c : Dev nD) : Valuation τ sig (Elt F) := StableHlo.after hostOps8 (W17 m c)
/-- A buffer no operation of `hostOps8` writes is as before the stretch. -/
theorem W18_of (c : Dev nD) (r : Ref sig .tc) (h : r ∉ hostOps8_W) :
    W18 m c (Proc.devRef .tc r) = W17 m c (Proc.devRef .tc r) :=
  StableHlo.after_of_writes_sub hostOps8 _ hostOps8_writes h

/-! ## The proof data of the eight pipelines, each at its region's entry contents -/

/-- Every pipeline's proof data, at what its region finds in the buffers. No pipeline of this program has a prefetched
    table: the admissible contents `adm` are the empty ones. -/
def pdats : (p : Fin 8) → (c : Dev nD) → Dat τ (Elt F) Unit ℕ (UR sig nD τ) ℕ (Pipeline.pin (pcfgs (F := F)) adm p) c
  | ⟨0, _⟩ => fun c => dat0 (V3 m) c
  | ⟨1, _⟩ => fun c => dat1 (V4 m) c
  | ⟨2, _⟩ => dat2 (V6 m)
  | ⟨3, _⟩ => dat3 (V8 m)
  | ⟨4, _⟩ => dat4 (V10 m)
  | ⟨5, _⟩ => dat5 (V12 m)
  | ⟨6, _⟩ => dat6 (V14 m)
  | ⟨7, _⟩ => dat7 (V16 m)

/-! ## The thread state between items -/

/-- No kernel body of this program recurses: no variant is carried. -/
abbrev 𝒱₀ : Variants := Variants.none
/-- No core owes another anything: no pair is assigned a level. -/
abbrev L : GSem nD τ sig → Finset Unit := fun _ => ∅
abbrev lv : GSem nD τ sig → Unit → ℕ := fun _ _ => 0
/-- What rides beside the buffers through every item: the core's generator register at some state, and its `owes`
    at nothing. -/
abbrev R (c : Dev nD) : sProp 𝕄 := iprop((∃ r, prngReg c r) ∗ ∃ W, owes (c : Thread nD τ) (0 : CellTallies nD τ sig Unit) W)
/-- The thread state at a boundary whose contents are `W`: every unscoped buffer whole at `W c`, beside `R c`. -/
abbrev T (W : Dev nD → Valuation τ sig (Elt F)) (c : Dev nD) : sProp 𝕄 :=
  iprop(StableHlo.held (c : Thread nD τ) (Pipeline.ucRefs τ sig) (W c) ∗ R c)
/-- A stretch of host operations as a segment from the contents `W`: it runs to the thread state at the contents
    `fun c => StableHlo.after ops (W c)`. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

/-- An unscoped TensorCore reference is among those the thread state holds. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩

/-! ## A kernel region as a segment, once for all eight

Pipeline `p`'s region between the boundary contents `Win` and `Wout`. What it needs of the pipeline: the launch's
decided layout; the body obligation; full shares, nothing owed, no bound on the recorded pairs; the proof data's
entry arrays read off `Win`; `Wout` holding the fold of the write-backs at each array and `Win` elsewhere; and the
body's invariant entered from, and returned to, the class invariant (the scoped buffers no window stages, the
generator register). The windows' arrays are split out of the unscoped buffers at entry and put back at exit; the
register goes into the invariant and comes back; the `owes` passes through at zero. -/

set_option backward.isDefEq.respectTransparency.types false in
def regOf (p : Fin 8) (lf : Pipeline.LaunchFacts (nD := nD) (τ := τ) cfgs p)
    (Win Wout : Dev nD → Valuation τ sig (Elt F))
    (hbody : ∀ c, BodyObligation (pdats m p c) (defs₀ (F := F)) Variants.none () Set.univ)
    (hq : ∀ c w, (pdats m p c).q w = fullShare)
    (howed : ∀ c t, (pdats m p c).owed t = 0)
    (hrec : ∀ c t, (pdats m p c).recorded t = Set.univ)
    (hA : ∀ c w, (pdats m p c).A w = Win c (Proc.devRef .tc (Pipeline.arrRef (cfgs p).spec w)))
    (hF : ∀ c w, (pdats m p c).arrAt w (cfgs p).N = Wout c (Proc.devRef .tc (Pipeline.arrRef (cfgs p).spec w)))
    (hrest : ∀ c (b : Ref sig .tc), b ∉ Finset.univ.image (Pipeline.arrRef (cfgs p).spec) →
      Wout c (Proc.devRef .tc b) = Win c (Proc.devRef .tc b))
    (hin : ∀ c, (Pipeline.ΦA (cfgs p).spec c : sProp 𝕄) ⊢ (pdats m p c).Φ 0)
    (hout : ∀ c, (pdats m p c).Φ (Fin.last (cfgs p).N) ⊢ (Pipeline.ΦA (cfgs p).spec c : sProp 𝕄)) :
    Pipeline.RegionSeg (pcfgs (F := F)) adm (pdats m) () defs₀ 𝒱₀ L lv p where
  win := lf.win.to₀
  block_pos := lf.block_pos
  stage_whole := lf.stage_whole
  K := PEmpty
  osem k := k.elim
  ho := Pipeline.OwnSemFacts.none _
  hbody c := (hbody c).loose
  hwaits := Pipeline.hwaits_of_owed_zero _ _ _ _ L lv p howed
  pre := T Win
  post := T Wout
  X c := iprop(∃ r, prngReg c r)
  Y c := iprop(∃ r, prngReg c r)
  Z c := Pipeline.unscopedRest (Ix := Unit) (Name := ℕ) (U := UR sig nD τ) (Lvl := ℕ) (cfgs p).spec c (fun b => Win c b)
  hentry c := by
    rw [Pipeline.ownSems0_none]
    have hsplit := Pipeline.arrays_of_unscopedBufs (p := p) (pcfgs (F := F)) adm (pdats m) lf.win lf.arr_whole c
      ((pdats m p c).share_full (hq c)) (fun b => Win c b) (hA c)
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr
    · unfold Pipeline.prefHeld
      rw [show (Finset.univ : Finset (Fin 0)) = ∅ from rfl, BI.bigSep_empty]; iempintro
    isplitl [HO]
    · unfold Pipeline.Dat.owesAt Pipeline.owesWithin
      rw [howed c 0]
      icases HO with ⟨%W, HO⟩; iexists W; isplitr; · ipureintro; exact fun _ _ => Or.inl (by rw [hrec c 0]; exact Set.mem_univ _)
      iexact HO
    isplitl [Hp]; · iexact Hp
    iexact Hrest
  hin c := by
    refine BIBase.Entails.trans ?_ (hin c)
    unfold Pipeline.ΦA
    iintro ⟨Hp, -, Hr⟩
    isplitl [Hr]; · iexact Hr
    iexact Hp
  hout c := by
    rw [Pipeline.ownSems0_none]
    refine BIBase.Entails.trans (hout c) ?_
    unfold Pipeline.ΦA
    iintro ⟨Hr, Hp⟩
    isplitl [Hp]; · iexact Hp
    isplitr; · iempintro
    iexact Hr
  hexit c := by
    have hjoin := Pipeline.unscopedBufs_of_arrays (p := p) (pcfgs (F := F)) adm (Ix := Unit) (Name := ℕ) (U := UR sig nD τ) (Lvl := ℕ)
      lf.win lf.arr_whole c (pdats m) ((pdats m p c).share_full (hq c))
      (fun b => Win c b) (fun b => Wout c b) ((pdats m p c).arrAt · (cfgs p).N) (hF c) (hrest c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    rw [howed c (Fin.last _)]
    icases HO with ⟨%W, -, HO⟩; iexists W; iexact HO

/-! ## The eight regions

Regions 0 to 6 keep the class invariant itself as the body's invariant, so entering and leaving it is the identity;
region 7's invariant also tracks its two accumulators, and is entered and left by that region's own two lemmas. -/

/-- REGION 0 over the thread state: entered at `W3`, left at `W4`. -/
def reg0 : Pipeline.RegionSeg (pcfgs (F := F)) adm (pdats m) () defs₀ 𝒱₀ L lv 0 :=
  regOf m 0 launch0 (W3 m) (W4 m)
    (fun c => body_obligation0 (V3 m) c) (fun _ _ => rfl) (fun _ _ => rfl) (fun _ _ => rfl)
    (fun c w => A_eq0 (V3 m) c w)
    (fun c w => (W4_arr m c w).symm)
    (fun c b hb => W4_of_ne m c b fun w e => hb (Finset.mem_image.mpr ⟨w, Finset.mem_univ _, e⟩))
    (fun _ => .rfl) (fun _ => .rfl)

/-- REGION 1 over the thread state: entered at `W4`, left at `W5`. -/
def reg1 : Pipeline.RegionSeg (pcfgs (F := F)) adm (pdats m) () defs₀ 𝒱₀ L lv 1 :=
  regOf m 1 launch1 (W4 m) (W5 m)
    (fun c => body_obligation1 (V4 m) c) (fun _ _ => rfl) (fun _ _ => rfl) (fun _ _ => rfl)
    (fun c w => A_eq1 (V4 m) c w)
    (fun c w => (W5_arr m c w).symm)
    (fun c b hb => W5_of_ne m c b fun w e => hb (Finset.mem_image.mpr ⟨w, Finset.mem_univ _, e⟩))
    (fun _ => .rfl) (fun _ => .rfl)

/-- REGION 2 over the thread state: entered at `W6`, left at `W7`. -/
def reg2 : Pipeline.RegionSeg (pcfgs (F := F)) adm (pdats m) () defs₀ 𝒱₀ L lv 2 :=
  regOf m 2 launch2 (W6 m) (W7 m)
    (fun c => body_obligation2 (V6 m) c) (fun _ _ => rfl) (fun _ _ => rfl) (fun _ _ => rfl)
    (fun c w => A_eq2 (V6 m) c w)
    (fun c w => (W7_arr m c w).symm)
    (fun c b hb => W7_of_ne m c b fun w e => hb (Finset.mem_image.mpr ⟨w, Finset.mem_univ _, e⟩))
    (fun _ => .rfl) (fun _ => .rfl)

/-- REGION 3 over the thread state: entered at `W8`, left at `W9`. -/
def reg3 : Pipeline.RegionSeg (pcfgs (F := F)) adm (pdats m) () defs₀ 𝒱₀ L lv 3 :=
  regOf m 3 launch3 (W8 m) (W9 m)
    (fun c => body_obligation3 (V8 m) c) (fun _ _ => rfl) (fun _ _ => rfl) (fun _ _ => rfl)
    (fun c w => A_eq3 (V8 m) c w)
    (fun c w => (W9_arr m c w).symm)
    (fun c b hb => W9_of_ne m c b fun w e => hb (Finset.mem_image.mpr ⟨w, Finset.mem_univ _, e⟩))
    (fun _ => .rfl) (fun _ => .rfl)

/-- REGION 4 over the thread state: entered at `W10`, left at `W11`. -/
def reg4 : Pipeline.RegionSeg (pcfgs (F := F)) adm (pdats m) () defs₀ 𝒱₀ L lv 4 :=
  regOf m 4 launch4 (W10 m) (W11 m)
    (fun c => body_obligation4 (V10 m) c) (fun _ _ => rfl) (fun _ _ => rfl) (fun _ _ => rfl)
    (fun c w => A_eq4 (V10 m) c w)
    (fun c w => (W11_arr m c w).symm)
    (fun c b hb => W11_of_ne m c b fun w e => hb (Finset.mem_image.mpr ⟨w, Finset.mem_univ _, e⟩))
    (fun _ => .rfl) (fun _ => .rfl)

/-- REGION 5 over the thread state: entered at `W12`, left at `W13`. -/
def reg5 : Pipeline.RegionSeg (pcfgs (F := F)) adm (pdats m) () defs₀ 𝒱₀ L lv 5 :=
  regOf m 5 launch5 (W12 m) (W13 m)
    (fun c => body_obligation5 (V12 m) c) (fun _ _ => rfl) (fun _ _ => rfl) (fun _ _ => rfl)
    (fun c w => A_eq5 (V12 m) c w)
    (fun c w => (W13_arr m c w).symm)
    (fun c b hb => W13_of_ne m c b fun w e => hb (Finset.mem_image.mpr ⟨w, Finset.mem_univ _, e⟩))
    (fun _ => .rfl) (fun _ => .rfl)

/-- REGION 6 over the thread state: entered at `W14`, left at `W15`. -/
def reg6 : Pipeline.RegionSeg (pcfgs (F := F)) adm (pdats m) () defs₀ 𝒱₀ L lv 6 :=
  regOf m 6 launch6 (W14 m) (W15 m)
    (fun c => body_obligation6 (V14 m) c) (fun _ _ => rfl) (fun _ _ => rfl) (fun _ _ => rfl)
    (fun c w => A_eq6 (V14 m) c w)
    (fun c w => (W15_arr m c w).symm)
    (fun c b hb => W15_of_ne m c b fun w e => hb (Finset.mem_image.mpr ⟨w, Finset.mem_univ _, e⟩))
    (fun _ => .rfl) (fun _ => .rfl)

/-- REGION 7 over the thread state: entered at `W16`, left at `W17`. -/
def reg7 : Pipeline.RegionSeg (pcfgs (F := F)) adm (pdats m) () defs₀ 𝒱₀ L lv 7 :=
  regOf m 7 launch7 (W16 m) (W17 m)
    (fun c => body_obligation7 (V16 m) c) (fun _ _ => rfl) (fun _ _ => rfl) (fun _ _ => rfl)
    (fun c w => A_eq7 (V16 m) c w)
    (fun c w => (W17_arr m c w).symm)
    (fun c b hb => W17_of_ne m c b fun w e => hb (Finset.mem_image.mpr ⟨w, Finset.mem_univ _, e⟩))
    (fun c => hin7 (V16 m) c) (fun c => hout7 (V16 m) c)

/-! ## @main as segments -/

/-- @main's eighteen items in order: a host segment per stretch from its boundary's contents, a region per kernel call. -/
abbrev segs : List (Pipeline.Seg (pcfgs (F := F)) adm (pdats m) () defs₀ 𝒱₀ L lv) :=
  [ .host (hseg hostOps0 hostOps0_sub hostOps0_fresh (W0 m)),
    .host (hseg hostOps0_1 hostOps0_1_sub hostOps0_1_fresh (W1 m)),
    .host (hseg hostOps0_2 hostOps0_2_sub hostOps0_2_fresh (W2 m)),
    .region (reg0 m),
    .region (reg1 m),
    .host (hseg hostOps2 hostOps2_sub hostOps2_fresh (W5 m)),
    .region (reg2 m),
    .host (hseg hostOps3 hostOps3_sub hostOps3_fresh (W7 m)),
    .region (reg3 m),
    .host (hseg hostOps4 hostOps4_sub hostOps4_fresh (W9 m)),
    .region (reg4 m),
    .host (hseg hostOps5 hostOps5_sub hostOps5_fresh (W11 m)),
    .region (reg5 m),
    .host (hseg hostOps6 hostOps6_sub hostOps6_fresh (W13 m)),
    .region (reg6 m),
    .host (hseg hostOps7 hostOps7_sub hostOps7_fresh (W15 m)),
    .region (reg7 m),
    .host (hseg hostOps8 hostOps8_sub hostOps8_fresh (W17 m)) ]

/-- @main is the run of the segments: both are the chain of the same eighteen items. -/
theorem main_run (c : Dev nD) : main (F := F) c = Pipeline.Seg.run (segs m) := (main_chain c).trans (by chain_rfl)

/-! ## The arguments end as launched

No stretch writes an argument and no region has one as an output window; a region that stages an argument as an input
window never writes its array. So the fold at an argument's buffer walks back, item by item, to the launch memory. -/

theorem W18_main_arg0 (c : Dev nD) : W18 m c (Proc.devRef .tc main_arg0) = m ((c : Thread nD τ).loc main_arg0) :=
  (W18_of m c main_arg0 (by decide)).trans <|
  (W17_of_ne m c main_arg0 (by decide)).trans <|
  (W16_of m c main_arg0 (by decide)).trans <|
  (W15_of_ne m c main_arg0 (by decide)).trans <|
  (W14_of m c main_arg0 (by decide)).trans <|
  (W13_of_ne m c main_arg0 (by decide)).trans <|
  (W12_of m c main_arg0 (by decide)).trans <|
  (W11_of_ne m c main_arg0 (by decide)).trans <|
  (W10_of m c main_arg0 (by decide)).trans <|
  (W9_of_ne m c main_arg0 (by decide)).trans <|
  (W8_of m c main_arg0 (by decide)).trans <|
  (W7_of_ne m c main_arg0 (by decide)).trans <|
  (W6_of m c main_arg0 (by decide)).trans <|
  ((W5_arr m c 0).trans (((dat1 (V4 m) c).arrAt_in 0 rfl _).trans (A_eq1 (V4 m) c 0))).trans <|
  (W4_of_ne m c main_arg0 (by decide)).trans <|
  (W3_of m c main_arg0 (by decide)).trans <|
  (W2_of m c main_arg0 (by decide)).trans <|
  (W1_of m c main_arg0 (by decide)).trans <|
  rfl

theorem W18_main_arg1 (c : Dev nD) : W18 m c (Proc.devRef .tc main_arg1) = m ((c : Thread nD τ).loc main_arg1) :=
  (W18_of m c main_arg1 (by decide)).trans <|
  (W17_of_ne m c main_arg1 (by decide)).trans <|
  (W16_of m c main_arg1 (by decide)).trans <|
  (W15_of_ne m c main_arg1 (by decide)).trans <|
  (W14_of m c main_arg1 (by decide)).trans <|
  (W13_of_ne m c main_arg1 (by decide)).trans <|
  (W12_of m c main_arg1 (by decide)).trans <|
  (W11_of_ne m c main_arg1 (by decide)).trans <|
  (W10_of m c main_arg1 (by decide)).trans <|
  (W9_of_ne m c main_arg1 (by decide)).trans <|
  (W8_of m c main_arg1 (by decide)).trans <|
  (W7_of_ne m c main_arg1 (by decide)).trans <|
  (W6_of m c main_arg1 (by decide)).trans <|
  (W5_of_ne m c main_arg1 (by decide)).trans <|
  (W4_of_ne m c main_arg1 (by decide)).trans <|
  (W3_of m c main_arg1 (by decide)).trans <|
  (W2_of m c main_arg1 (by decide)).trans <|
  (W1_of m c main_arg1 (by decide)).trans <|
  rfl

theorem W18_main_arg2 (c : Dev nD) : W18 m c (Proc.devRef .tc main_arg2) = m ((c : Thread nD τ).loc main_arg2) :=
  (W18_of m c main_arg2 (by decide)).trans <|
  (W17_of_ne m c main_arg2 (by decide)).trans <|
  (W16_of m c main_arg2 (by decide)).trans <|
  (W15_of_ne m c main_arg2 (by decide)).trans <|
  (W14_of m c main_arg2 (by decide)).trans <|
  (W13_of_ne m c main_arg2 (by decide)).trans <|
  (W12_of m c main_arg2 (by decide)).trans <|
  (W11_of_ne m c main_arg2 (by decide)).trans <|
  (W10_of m c main_arg2 (by decide)).trans <|
  (W9_of_ne m c main_arg2 (by decide)).trans <|
  (W8_of m c main_arg2 (by decide)).trans <|
  (W7_of_ne m c main_arg2 (by decide)).trans <|
  (W6_of m c main_arg2 (by decide)).trans <|
  (W5_of_ne m c main_arg2 (by decide)).trans <|
  ((W4_arr m c 0).trans (((dat0 (V3 m) c).arrAt_in 0 rfl _).trans (A_eq0 (V3 m) c 0))).trans <|
  (W3_of m c main_arg2 (by decide)).trans <|
  (W2_of m c main_arg2 (by decide)).trans <|
  (W1_of m c main_arg2 (by decide)).trans <|
  rfl

theorem W18_main_arg3 (c : Dev nD) : W18 m c (Proc.devRef .tc main_arg3) = m ((c : Thread nD τ).loc main_arg3) :=
  (W18_of m c main_arg3 (by decide)).trans <|
  (W17_of_ne m c main_arg3 (by decide)).trans <|
  (W16_of m c main_arg3 (by decide)).trans <|
  (W15_of_ne m c main_arg3 (by decide)).trans <|
  (W14_of m c main_arg3 (by decide)).trans <|
  (W13_of_ne m c main_arg3 (by decide)).trans <|
  (W12_of m c main_arg3 (by decide)).trans <|
  (W11_of_ne m c main_arg3 (by decide)).trans <|
  (W10_of m c main_arg3 (by decide)).trans <|
  (W9_of_ne m c main_arg3 (by decide)).trans <|
  (W8_of m c main_arg3 (by decide)).trans <|
  (W7_of_ne m c main_arg3 (by decide)).trans <|
  (W6_of m c main_arg3 (by decide)).trans <|
  (W5_of_ne m c main_arg3 (by decide)).trans <|
  (W4_of_ne m c main_arg3 (by decide)).trans <|
  (W3_of m c main_arg3 (by decide)).trans <|
  (W2_of m c main_arg3 (by decide)).trans <|
  (W1_of m c main_arg3 (by decide)).trans <|
  rfl

theorem W18_main_arg4 (c : Dev nD) : W18 m c (Proc.devRef .tc main_arg4) = m ((c : Thread nD τ).loc main_arg4) :=
  (W18_of m c main_arg4 (by decide)).trans <|
  (W17_of_ne m c main_arg4 (by decide)).trans <|
  (W16_of m c main_arg4 (by decide)).trans <|
  (W15_of_ne m c main_arg4 (by decide)).trans <|
  (W14_of m c main_arg4 (by decide)).trans <|
  (W13_of_ne m c main_arg4 (by decide)).trans <|
  (W12_of m c main_arg4 (by decide)).trans <|
  (W11_of_ne m c main_arg4 (by decide)).trans <|
  (W10_of m c main_arg4 (by decide)).trans <|
  (W9_of_ne m c main_arg4 (by decide)).trans <|
  (W8_of m c main_arg4 (by decide)).trans <|
  (W7_of_ne m c main_arg4 (by decide)).trans <|
  (W6_of m c main_arg4 (by decide)).trans <|
  (W5_of_ne m c main_arg4 (by decide)).trans <|
  ((W4_arr m c 1).trans (((dat0 (V3 m) c).arrAt_in 1 rfl _).trans (A_eq0 (V3 m) c 1))).trans <|
  (W3_of m c main_arg4 (by decide)).trans <|
  (W2_of m c main_arg4 (by decide)).trans <|
  (W1_of m c main_arg4 (by decide)).trans <|
  rfl

theorem W18_main_arg5 (c : Dev nD) : W18 m c (Proc.devRef .tc main_arg5) = m ((c : Thread nD τ).loc main_arg5) :=
  (W18_of m c main_arg5 (by decide)).trans <|
  (W17_of_ne m c main_arg5 (by decide)).trans <|
  (W16_of m c main_arg5 (by decide)).trans <|
  (W15_of_ne m c main_arg5 (by decide)).trans <|
  (W14_of m c main_arg5 (by decide)).trans <|
  (W13_of_ne m c main_arg5 (by decide)).trans <|
  (W12_of m c main_arg5 (by decide)).trans <|
  (W11_of_ne m c main_arg5 (by decide)).trans <|
  (W10_of m c main_arg5 (by decide)).trans <|
  (W9_of_ne m c main_arg5 (by decide)).trans <|
  (W8_of m c main_arg5 (by decide)).trans <|
  (W7_of_ne m c main_arg5 (by decide)).trans <|
  (W6_of m c main_arg5 (by decide)).trans <|
  (W5_of_ne m c main_arg5 (by decide)).trans <|
  (W4_of_ne m c main_arg5 (by decide)).trans <|
  (W3_of m c main_arg5 (by decide)).trans <|
  (W2_of m c main_arg5 (by decide)).trans <|
  (W1_of m c main_arg5 (by decide)).trans <|
  rfl

theorem W18_main_arg6 (c : Dev nD) : W18 m c (Proc.devRef .tc main_arg6) = m ((c : Thread nD τ).loc main_arg6) :=
  (W18_of m c main_arg6 (by decide)).trans <|
  (W17_of_ne m c main_arg6 (by decide)).trans <|
  (W16_of m c main_arg6 (by decide)).trans <|
  (W15_of_ne m c main_arg6 (by decide)).trans <|
  (W14_of m c main_arg6 (by decide)).trans <|
  (W13_of_ne m c main_arg6 (by decide)).trans <|
  (W12_of m c main_arg6 (by decide)).trans <|
  (W11_of_ne m c main_arg6 (by decide)).trans <|
  (W10_of m c main_arg6 (by decide)).trans <|
  (W9_of_ne m c main_arg6 (by decide)).trans <|
  (W8_of m c main_arg6 (by decide)).trans <|
  (W7_of_ne m c main_arg6 (by decide)).trans <|
  (W6_of m c main_arg6 (by decide)).trans <|
  ((W5_arr m c 1).trans (((dat1 (V4 m) c).arrAt_in 1 rfl _).trans (A_eq1 (V4 m) c 1))).trans <|
  (W4_of_ne m c main_arg6 (by decide)).trans <|
  (W3_of m c main_arg6 (by decide)).trans <|
  (W2_of m c main_arg6 (by decide)).trans <|
  (W1_of m c main_arg6 (by decide)).trans <|
  rfl

theorem W18_main_arg7 (c : Dev nD) : W18 m c (Proc.devRef .tc main_arg7) = m ((c : Thread nD τ).loc main_arg7) :=
  (W18_of m c main_arg7 (by decide)).trans <|
  (W17_of_ne m c main_arg7 (by decide)).trans <|
  (W16_of m c main_arg7 (by decide)).trans <|
  (W15_of_ne m c main_arg7 (by decide)).trans <|
  (W14_of m c main_arg7 (by decide)).trans <|
  (W13_of_ne m c main_arg7 (by decide)).trans <|
  (W12_of m c main_arg7 (by decide)).trans <|
  (W11_of_ne m c main_arg7 (by decide)).trans <|
  (W10_of m c main_arg7 (by decide)).trans <|
  (W9_of_ne m c main_arg7 (by decide)).trans <|
  (W8_of m c main_arg7 (by decide)).trans <|
  (W7_of_ne m c main_arg7 (by decide)).trans <|
  (W6_of m c main_arg7 (by decide)).trans <|
  (W5_of_ne m c main_arg7 (by decide)).trans <|
  (W4_of_ne m c main_arg7 (by decide)).trans <|
  (W3_of m c main_arg7 (by decide)).trans <|
  (W2_of m c main_arg7 (by decide)).trans <|
  (W1_of m c main_arg7 (by decide)).trans <|
  rfl

theorem W18_main_arg8 (c : Dev nD) : W18 m c (Proc.devRef .tc main_arg8) = m ((c : Thread nD τ).loc main_arg8) :=
  (W18_of m c main_arg8 (by decide)).trans <|
  (W17_of_ne m c main_arg8 (by decide)).trans <|
  (W16_of m c main_arg8 (by decide)).trans <|
  (W15_of_ne m c main_arg8 (by decide)).trans <|
  (W14_of m c main_arg8 (by decide)).trans <|
  (W13_of_ne m c main_arg8 (by decide)).trans <|
  (W12_of m c main_arg8 (by decide)).trans <|
  (W11_of_ne m c main_arg8 (by decide)).trans <|
  (W10_of m c main_arg8 (by decide)).trans <|
  (W9_of_ne m c main_arg8 (by decide)).trans <|
  (W8_of m c main_arg8 (by decide)).trans <|
  (W7_of_ne m c main_arg8 (by decide)).trans <|
  (W6_of m c main_arg8 (by decide)).trans <|
  (W5_of_ne m c main_arg8 (by decide)).trans <|
  (W4_of_ne m c main_arg8 (by decide)).trans <|
  (W3_of m c main_arg8 (by decide)).trans <|
  (W2_of m c main_arg8 (by decide)).trans <|
  (W1_of m c main_arg8 (by decide)).trans <|
  rfl

theorem W18_main_arg9 (c : Dev nD) : W18 m c (Proc.devRef .tc main_arg9) = m ((c : Thread nD τ).loc main_arg9) :=
  (W18_of m c main_arg9 (by decide)).trans <|
  (W17_of_ne m c main_arg9 (by decide)).trans <|
  (W16_of m c main_arg9 (by decide)).trans <|
  (W15_of_ne m c main_arg9 (by decide)).trans <|
  (W14_of m c main_arg9 (by decide)).trans <|
  (W13_of_ne m c main_arg9 (by decide)).trans <|
  (W12_of m c main_arg9 (by decide)).trans <|
  (W11_of_ne m c main_arg9 (by decide)).trans <|
  (W10_of m c main_arg9 (by decide)).trans <|
  (W9_of_ne m c main_arg9 (by decide)).trans <|
  (W8_of m c main_arg9 (by decide)).trans <|
  (W7_of_ne m c main_arg9 (by decide)).trans <|
  (W6_of m c main_arg9 (by decide)).trans <|
  (W5_of_ne m c main_arg9 (by decide)).trans <|
  (W4_of_ne m c main_arg9 (by decide)).trans <|
  (W3_of m c main_arg9 (by decide)).trans <|
  (W2_of m c main_arg9 (by decide)).trans <|
  (W1_of m c main_arg9 (by decide)).trans <|
  rfl

theorem W18_main_arg10 (c : Dev nD) : W18 m c (Proc.devRef .tc main_arg10) = m ((c : Thread nD τ).loc main_arg10) :=
  (W18_of m c main_arg10 (by decide)).trans <|
  (W17_of_ne m c main_arg10 (by decide)).trans <|
  (W16_of m c main_arg10 (by decide)).trans <|
  (W15_of_ne m c main_arg10 (by decide)).trans <|
  (W14_of m c main_arg10 (by decide)).trans <|
  (W13_of_ne m c main_arg10 (by decide)).trans <|
  (W12_of m c main_arg10 (by decide)).trans <|
  (W11_of_ne m c main_arg10 (by decide)).trans <|
  (W10_of m c main_arg10 (by decide)).trans <|
  (W9_of_ne m c main_arg10 (by decide)).trans <|
  (W8_of m c main_arg10 (by decide)).trans <|
  (W7_of_ne m c main_arg10 (by decide)).trans <|
  (W6_of m c main_arg10 (by decide)).trans <|
  (W5_of_ne m c main_arg10 (by decide)).trans <|
  (W4_of_ne m c main_arg10 (by decide)).trans <|
  (W3_of m c main_arg10 (by decide)).trans <|
  (W2_of m c main_arg10 (by decide)).trans <|
  (W1_of m c main_arg10 (by decide)).trans <|
  rfl

theorem W18_main_arg11 (c : Dev nD) : W18 m c (Proc.devRef .tc main_arg11) = m ((c : Thread nD τ).loc main_arg11) :=
  (W18_of m c main_arg11 (by decide)).trans <|
  (W17_of_ne m c main_arg11 (by decide)).trans <|
  (W16_of m c main_arg11 (by decide)).trans <|
  (W15_of_ne m c main_arg11 (by decide)).trans <|
  (W14_of m c main_arg11 (by decide)).trans <|
  (W13_of_ne m c main_arg11 (by decide)).trans <|
  (W12_of m c main_arg11 (by decide)).trans <|
  (W11_of_ne m c main_arg11 (by decide)).trans <|
  (W10_of m c main_arg11 (by decide)).trans <|
  (W9_of_ne m c main_arg11 (by decide)).trans <|
  (W8_of m c main_arg11 (by decide)).trans <|
  (W7_of_ne m c main_arg11 (by decide)).trans <|
  (W6_of m c main_arg11 (by decide)).trans <|
  (W5_of_ne m c main_arg11 (by decide)).trans <|
  (W4_of_ne m c main_arg11 (by decide)).trans <|
  (W3_of m c main_arg11 (by decide)).trans <|
  (W2_of m c main_arg11 (by decide)).trans <|
  (W1_of m c main_arg11 (by decide)).trans <|
  rfl

/-! ## The launch -/

set_option backward.isDefEq.respectTransparency.types false in
/-- From any memory `m` with zero counters, every weakly fair execution of @main on the TensorCore terminates, and in
    every final state each unscoped buffer holds what the fold leaves there (`W18`): the thread state chains through
    the eighteen segments, and the last one is read against the final state. -/
theorem run_all (ρ : Dev nD → PrngReg) : θ_run defs (onTc (τ := τ) (main (F := F))) ⟨m, fun _ => 0, ρ⟩
    (fun r => ∀ c : Dev nD, ∀ b ∈ Pipeline.ucRefs τ sig, r.2.mem (((c : Thread nD τ)).1, b) = W18 m c b) :=
  Pipeline.θ_run_regions_kit (pcfgs (F := F)) adm (pdats m) () cellOf_inj emb₁ defs₀ 𝒱₀ L lv m ρ main (segs m)
    (fun c Q => by rw [main_run m c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := T (W0 m))
    (Tₙ := fun c => iprop(StableHlo.held (c : Thread nD τ) (Pipeline.ucRefs τ sig) (W18 m c) ∗ ∃ r, prngReg c r))
    (hch := ⟨fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl,
      fun c => by
        show T (W18 m) c ⊢ _
        iintro ⟨Hh, Hp, HO⟩
        isplitl [Hh Hp]
        · isplitl [Hh] <;> iassumption
        iexact HO⟩)
    (hinit := by
      refine Pipeline.initEach L lv fun c => ?_
      rw [show unscopedBufs c (fun b => m ((c : Thread nD τ).loc b)) = StableHlo.held (c : Thread nD τ) (Pipeline.ucRefs τ sig) (W0 m c)
        from Pipeline.unscopedBufs_held c (W0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W18 m c b)
    (hfin := fun c s' => by
      iintro ⟨⟨Hh, -⟩, HSI⟩
      unfold StableHlo.held
      imodintro
      iapply (pointsTo_read_all (Pipeline.ucRefs τ sig) (fun b => (((c : Thread nD τ)).1, b)) (W18 m c) s')
      isplitl [Hh] <;> iassumption)
    (hQ := fun s h => h)

end Cert.KernelIdeal.Hand

end
-- ==== Proof.LibPlainMatmul.lean ====
/-
  A plain matrix product read at one element.

  `[a, k] × [k, b] → [a, b]` with the left operand's second axis contracted against the right operand's first, no batch
  axis: the product into a zero accumulator reads, at `(p, q)`, the sum over `j < k` of `lhs (p, j) · rhs (j, q)`.
  The contraction index of the dimension numbers is a one-coordinate index; the sum is re-indexed through its one
  coordinate, and each operand index is identified axis by axis (the free axis from the result index, the contracted
  axis from the contraction index).
-/
import Idealize.ShloMosaic.PureOps.Ideal.Laws
import Idealize.ShloMosaic.Lib.ValueIdx
import Mathlib.Algebra.BigOperators.Fin

namespace Cert.Lib.PlainMatmul

open Idealize.ShloMosaic Idealize.ShloMosaic.ValueIdx
open scoped BigOperators

/-- The dimension numbers of a plain product: contract the left's axis 1 with the right's axis 0. -/
abbrev plainDims (a k b : ℕ) (wf : DotDims.WF ⟨2, ![a, k]⟩ ⟨2, ![k, b]⟩ ⟨2, ![a, b]⟩ [1] [0] [0] [1] [] []) :
    DotDims ⟨2, ![a, k]⟩ ⟨2, ![k, b]⟩ ⟨2, ![a, b]⟩ where
  lhsContracting := [1]
  rhsContracting := [0]
  lhsNonContracting := [0]
  rhsNonContracting := [1]
  lhsBatch := []
  rhsBatch := []
  wf := wf

section
variable {a k b : ℕ} (wf : DotDims.WF ⟨2, ![a, k]⟩ ⟨2, ![k, b]⟩ ⟨2, ![a, b]⟩ [1] [0] [0] [1] [] [])

/-- The left operand's row is the result's row. -/
theorem lhs_row (j : (⟨2, ![a, b]⟩ : Shape).Idx) (q : (plainDims a k b wf).contr.Idx) :
    ((plainDims a k b wf).lhsIdx j q 0).val = (j 0).val := by
  unfold DotDims.lhsIdx
  rw [dif_neg (show ¬(0 : Fin 2) ∈ (plainDims a k b wf).lhsBatch from List.not_mem_nil),
    dif_pos (show (0 : Fin 2) ∈ (plainDims a k b wf).lhsNonContracting from List.mem_singleton.mpr rfl)]
  rfl

/-- The left operand's column is the contraction coordinate. -/
theorem lhs_col (j : (⟨2, ![a, b]⟩ : Shape).Idx) (q : (plainDims a k b wf).contr.Idx) :
    ((plainDims a k b wf).lhsIdx j q 1).val = (q ⟨0, Nat.one_pos⟩).val :=
  (plainDims a k b wf).lhsIdx_val_of_single rfl j q

/-- The right operand's row is the contraction coordinate. -/
theorem rhs_row (j : (⟨2, ![a, b]⟩ : Shape).Idx) (q : (plainDims a k b wf).contr.Idx) :
    ((plainDims a k b wf).rhsIdx j q 0).val = (q ⟨0, Nat.one_pos⟩).val :=
  (plainDims a k b wf).rhsIdx_val_of_single rfl j q

/-- The right operand's column is the result's column. -/
theorem rhs_col (j : (⟨2, ![a, b]⟩ : Shape).Idx) (q : (plainDims a k b wf).contr.Idx) :
    ((plainDims a k b wf).rhsIdx j q 1).val = (j 1).val := by
  unfold DotDims.rhsIdx
  rw [dif_neg (show ¬(1 : Fin 2) ∈ (plainDims a k b wf).rhsBatch from List.not_mem_nil),
    dif_pos (show (1 : Fin 2) ∈ (plainDims a k b wf).rhsNonContracting from List.mem_singleton.mpr rfl)]
  rfl

/-- The contraction sum of a plain product at `(p, q)`, as a sum over `j < k`. -/
theorem contr_sum_plainDims (lhs : (⟨2, ![a, k]⟩ : Shape).Idx → EReal) (rhs : (⟨2, ![k, b]⟩ : Shape).Idx → EReal)
    (p : Fin a) (q : Fin b) :
    (∑ c : (plainDims a k b wf).contr.Idx,
        lhs ((plainDims a k b wf).lhsIdx (ix2 p q) c) * rhs ((plainDims a k b wf).rhsIdx (ix2 p q) c))
      = ∑ j : Fin k, lhs (ix2 p j) * rhs (ix2 j q) := by
  rw [← Equiv.sum_comp (contrEquiv1 (plainDims a k b wf) k rfl rfl).symm]
  refine Finset.sum_congr rfl fun j _ => ?_
  have hk := contrEquiv1_symm_val (plainDims a k b wf) k rfl rfl j
  have el : (plainDims a k b wf).lhsIdx (ix2 p q) ((contrEquiv1 (plainDims a k b wf) k rfl rfl).symm j) = ix2 p j :=
    funext fun ax => Fin.ext (by
      match ax with
      | ⟨0, _⟩ => exact lhs_row wf _ _
      | ⟨1, _⟩ => exact (lhs_col wf _ _).trans hk)
  have er : (plainDims a k b wf).rhsIdx (ix2 p q) ((contrEquiv1 (plainDims a k b wf) k rfl rfl).symm j) = ix2 j q :=
    funext fun ax => Fin.ext (by
      match ax with
      | ⟨0, _⟩ => exact (rhs_row wf _ _).trans hk
      | ⟨1, _⟩ => exact rhs_col wf _ _)
  rw [el, er]

end

/-- THE PRODUCT INTO A ZERO ACCUMULATOR AT `(p, q)`, for any record with the plain dimension numbers: the sum over
    `j < k` of `lhs (p, j) · rhs (j, q)`. -/
theorem matmul_zero_apply {a k b : ℕ} {φ₁ φ₂ : FTy} (d : DotDims ⟨2, ![a, k]⟩ ⟨2, ![k, b]⟩ ⟨2, ![a, b]⟩)
    (h1 : d.lhsContracting = [1]) (h2 : d.rhsContracting = [0]) (h3 : d.lhsNonContracting = [0])
    (h4 : d.rhsNonContracting = [1]) (h5 : d.lhsBatch = []) (h6 : d.rhsBatch = [])
    (prec : Option ContractPrecision) (lhs : FVec Ideal ⟨2, ![a, k]⟩ φ₁) (rhs : FVec Ideal ⟨2, ![k, b]⟩ φ₂)
    (p : Fin a) (q : Fin b) :
    FloatOps.matmul d prec lhs rhs (constant ⟨2, ![a, b]⟩ .f32 0x00000000#32) (ix2 p q)
      = ∑ j : Fin k, lhs (ix2 p j) * rhs (ix2 j q) := by
  obtain ⟨lc, rc, ln, rn, lb, rb, wf⟩ := d
  simp only at h1 h2 h3 h4 h5 h6
  subst h1 h2 h3 h4 h5 h6
  rw [Ideal.matmul_constant_zero_apply]
  exact contr_sum_plainDims wf lhs rhs p q

/-- The host's contraction at the same dimension numbers, at `(p, q)`: the same sum. -/
theorem dotGeneral_apply {a k b : ℕ} {φ₁ φ₂ : FTy} (d : DotDims ⟨2, ![a, k]⟩ ⟨2, ![k, b]⟩ ⟨2, ![a, b]⟩)
    (h1 : d.lhsContracting = [1]) (h2 : d.rhsContracting = [0]) (h3 : d.lhsNonContracting = [0])
    (h4 : d.rhsNonContracting = [1]) (h5 : d.lhsBatch = []) (h6 : d.rhsBatch = [])
    (prec : Option ContractPrecision) (sched : HostSchedule) (lhs : FVec Ideal ⟨2, ![a, k]⟩ φ₁)
    (rhs : FVec Ideal ⟨2, ![k, b]⟩ φ₂) (p : Fin a) (q : Fin b) :
    FloatOps.dotGeneral d prec sched lhs rhs (ix2 p q) = ∑ j : Fin k, lhs (ix2 p j) * rhs (ix2 j q) := by
  obtain ⟨lc, rc, ln, rn, lb, rb, wf⟩ := d
  simp only at h1 h2 h3 h4 h5 h6
  subst h1 h2 h3 h4 h5 h6
  rw [Ideal.dotGeneral_apply]
  exact contr_sum_plainDims wf lhs rhs p q

end Cert.Lib.PlainMatmul
-- ==== Proof.KI.ValPay.lean ====
/-
  The matrix-product payloads of regions 0, 1, 3 and 5, each read at one element, at the ideal instance.

  At the ideal instance a change of float format is the identity, and a product into the zero accumulator has no
  accumulator term, so the payload of regions 1, 3 and 5 at row `p` and column `q` is the sum over the contracted
  coordinate `k` of `x (p, k) · w (k, q)` (regions 3 and 5 first cast each operand to its own shape, which changes
  nothing). Region 0 adds the one bias row at column `q` and takes the maximum with the zero word's value.
-/
import proofs.«402161_j18391049961554_1_alg».proof.Proof.Gen.KernelIdeal.Skeleton
import proofs.«402161_j18391049961554_1_alg».proof.Proof.LibPlainMatmul
import Idealize.ShloMosaic.Lib.Pipeline.Value
import Idealize.ShloMosaic.Lib.ValueIdx
import Idealize.ShloMosaic.Lib.ValueLayout
import Idealize.ShloMosaic.PureOps.Ideal.Laws

noncomputable section

namespace Cert.KernelIdeal.Hand

open Cert.KernelIdeal Cert.KernelIdeal.Gen
open Idealize.ShloMosaic Idealize.ShloMosaic.ValueIdx
open scoped BigOperators

/-- Region 1's payload at `(p, q)`: the 64-term product sum. -/
theorem k1_pay1_apply (x : FVec Ideal S10000x64 .f32) (w : FVec Ideal S64x128 .f32) (p : Fin 10000) (q : Fin 128) :
    k1_pay1 (F := Ideal) x w (ix2 p q) = ∑ k : Fin 64, x (ix2 p k) * w (ix2 k q) := by
  unfold k1_pay1
  exact Cert.Lib.PlainMatmul.matmul_zero_apply dot_S10000x64_S64x128_S10000x128_1_0_0_1_n_n rfl rfl rfl rfl rfl rfl
    none _ _ p q

/-- Region 3's payload at `(p, q)`: the 128-term product sum. -/
theorem k3_pay1_apply (x : FVec Ideal S10000x128 .f32) (w : FVec Ideal S128x128 .f32) (p : Fin 10000) (q : Fin 128) :
    k3_pay1 (F := Ideal) x w (ix2 p q) = ∑ k : Fin 128, x (ix2 p k) * w (ix2 k q) := by
  unfold k3_pay1
  simp only [shapeCast_self]
  exact Cert.Lib.PlainMatmul.matmul_zero_apply dot_S10000x128_S128x128_S10000x128_1_0_0_1_n_n rfl rfl rfl rfl rfl rfl
    none _ _ p q

/-- Region 5's payload at `(p, q)`: the 128-term product sum. -/
theorem k5_pay1_apply (x : FVec Ideal S10000x128 .f32) (w : FVec Ideal S128x128 .f32) (p : Fin 10000) (q : Fin 128) :
    k5_pay1 (F := Ideal) x w (ix2 p q) = ∑ k : Fin 128, x (ix2 p k) * w (ix2 k q) := by
  unfold k5_pay1
  simp only [shapeCast_self]
  exact Cert.Lib.PlainMatmul.matmul_zero_apply dot_S10000x128_S128x128_S10000x128_1_0_0_1_n_n rfl rfl rfl rfl rfl rfl
    none _ _ p q

/-- Region 0's payload at `(p, q)`: the product sum plus the bias row's entry at `q`, and the maximum of that with
    the zero word's value. -/
theorem k0_pay1_apply (x : FVec Ideal S10000x128 .f32) (w : FVec Ideal S128x128 .f32) (b : FVec Ideal S1x128 .f32)
    (p : Fin 10000) (q : Fin 128) :
    k0_pay1 (F := Ideal) x w b (ix2 p q)
      = max ((∑ k : Fin 128, x (ix2 p k) * w (ix2 k q)) + b (ix2 (0 : Fin 1) q)) (Ideal.ofBits .f32 0x00000000#32) := by
  unfold k0_pay1
  simp only [shapeCast_self]
  show max (FloatOps.matmul dot_S10000x128_S128x128_S10000x128_1_0_0_1_n_n none _ _ (constant S10000x128 .f32 0x00000000#32) (ix2 p q)
      + broadcastTo S10000x128 b broadcasts_S1x128_S10000x128 (ix2 p q)) _ = _
  rw [Cert.Lib.PlainMatmul.matmul_zero_apply dot_S10000x128_S128x128_S10000x128_1_0_0_1_n_n rfl rfl rfl rfl rfl rfl
    none _ _ p q, broadcastTo_1b_ab_apply]
  rfl

end Cert.KernelIdeal.Hand

end
-- ==== Proof.KI.Val0.lean ====
/-
  Region 0 (a dense layer with bias and rectifier, `max (x · w + b, 0)` with `x : [100000, 128]`, `w : [128, 128]` and
  one bias row `b`), its value: at any entry contents, the output array after the region is the whole-array expression
  of the operand arrays as the region finds them.

  The grid has ten points. Point `t` reads rows `10000·t … 10000·t + 9999` of `x`, all of `w` and the bias row, and writes
  the same rows of the output. Row `p` and column `q` of what it writes is the 128-term sum of `block (p, k) · w (k, q)`,
  plus the bias row's entry at `q`, and the maximum of that with the zero word's value. The whole-array expression at
  row `10000·t + p`, column `q` is the same: its product has the same 128 terms (the contracted coordinate does not meet
  the row blocking), its bias is the length-128 vector laid along one row and that row laid down every row, so it reads
  the vector's entry at `q`, and its zero is the same word broadcast from a scalar. The ten row blocks tile the output
  (row `r` lies in block `r / 10000`), so the array ends holding the whole-array expression.
-/
import proofs.«402161_j18391049961554_1_alg».proof.Proof.KI.RegA0
import proofs.«402161_j18391049961554_1_alg».proof.Proof.KI.ValPay
import proofs.«402161_j18391049961554_1_alg».proof.Proof.Gen.ReferenceIdeal
import Idealize.ShloMosaic.Lib.Pipeline.Value
import Idealize.ShloMosaic.Lib.ValueIdx
import Idealize.ShloMosaic.Lib.IdealHost
import Idealize.ShloMosaic.Lib.KernelVsHost
import Idealize.ShloMosaic.PureOps.Ideal.Laws

noncomputable section

namespace Cert.KernelIdeal.Hand

open Cert.KernelIdeal Cert.KernelIdeal.Gen
open Idealize.ShloMosaic Idealize.ShloMosaic.TcCoe Idealize.ShloMosaic.ValueIdx Idealize.SL.Sem
open Idealize.ShloMosaic.Pipeline (Dat)
open scoped BigOperators

/-! ## The steps, in a namespace of their own -/

namespace Val0

/-- The zero offsets of a whole-buffer access. -/
theorem hz : (![0, 0] : Fin 2 → Nat) = fun _ => 0 := funext fun a => by fin_cases a <;> rfl

/-- The whole-array expression: the product, plus the bias vector laid along every row, and the maximum of that with
    the zero word broadcast from a scalar. -/
abbrev dense0 (x2 : FVec Ideal Cert.ReferenceIdeal.S100000x128 .f32) (x4 : FVec Ideal Cert.ReferenceIdeal.S128x128 .f32)
    (x5 : FVec Ideal Cert.ReferenceIdeal.S128 .f32) : FVec Ideal Cert.ReferenceIdeal.S100000x128 .f32 :=
  maximumf
    (addf (Host.dotGeneral (F := Ideal) Cert.ReferenceIdeal.dot_S100000x128_S128x128_S100000x128_1_0_0_1_n_n none x2 x4)
      (broadcastInDim Cert.ReferenceIdeal.S100000x128 ![0, 1] Cert.ReferenceIdeal.Facts₀.bcast_S1x128_S100000x128_0_1
        (broadcastInDim Cert.ReferenceIdeal.S1x128 ![1] Cert.ReferenceIdeal.Facts₀.bcast_S128_S1x128_1 x5)))
    (broadcastInDim Cert.ReferenceIdeal.S100000x128 ![] Cert.ReferenceIdeal.Facts₀.bcast_S_S100000x128
      (constant (F := Ideal) Cert.ReferenceIdeal.S_ .f32 0x00000000#32))

/-- The whole-array expression at row `r`, column `q`. -/
theorem dense0_apply (x2 : FVec Ideal Cert.ReferenceIdeal.S100000x128 .f32)
    (x4 : FVec Ideal Cert.ReferenceIdeal.S128x128 .f32) (x5 : FVec Ideal Cert.ReferenceIdeal.S128 .f32)
    (r : Fin 100000) (q : Fin 128) :
    dense0 x2 x4 x5 (ix2 r q)
      = max ((∑ k : Fin 128, x2 (ix2 r k) * x4 (ix2 k q)) + x5 (ix1 q)) (Ideal.ofBits .f32 0x00000000#32) := by
  show max (FloatOps.dotGeneral Cert.ReferenceIdeal.dot_S100000x128_S128x128_S100000x128_1_0_0_1_n_n none _ x2 x4 (ix2 r q)
      + broadcastInDim Cert.ReferenceIdeal.S100000x128 ![0, 1] Cert.ReferenceIdeal.Facts₀.bcast_S1x128_S100000x128_0_1
          (broadcastInDim Cert.ReferenceIdeal.S1x128 ![1] Cert.ReferenceIdeal.Facts₀.bcast_S128_S1x128_1 x5) (ix2 r q))
      (broadcastInDim Cert.ReferenceIdeal.S100000x128 ![] Cert.ReferenceIdeal.Facts₀.bcast_S_S100000x128
          (constant (F := Ideal) Cert.ReferenceIdeal.S_ .f32 0x00000000#32) (ix2 r q)) = _
  rw [Cert.Lib.PlainMatmul.dotGeneral_apply Cert.ReferenceIdeal.dot_S100000x128_S128x128_S100000x128_1_0_0_1_n_n
    rfl rfl rfl rfl rfl rfl none _ x2 x4 r q, broadcastInDim_oneRow_apply, broadcastInDim_scalar_apply, constant_apply]
  congr 2
  refine broadcastInDim_apply ![1] Cert.ReferenceIdeal.Facts₀.bcast_S128_S1x128_1 x5 (ix2 (0 : Fin 1) q) (ix1 q) fun a => ?_
  match a with
  | ⟨0, _⟩ => show q.val = if (128 : ℕ) = 1 then 0 else q.val; rw [if_neg (by decide)]

/-- The printed index maps over the ten points: the two row-blocked windows are at block row `t`, column block 0; the
    weight window and the bias window are at block (0, 0) at every point. -/
theorem idx_facts : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = t.val ∧ win0_3.index t (1 : Fin 2) = 0 :=
  (by decide +kernel : ∀ t : Fin grid0.N, _)

/-- ONE ELEMENT OF ONE BLOCK. If `b0` is rows `10000·n …` of `x2`, `b1` is `x4` and `b2`'s one row is `x5`, the block
    expression at `(p, q)` is the whole-array expression at row `10000·n + p`, column `q`. -/
theorem block_apply (x2 : FVec Ideal Cert.ReferenceIdeal.S100000x128 .f32)
    (x4 : FVec Ideal Cert.ReferenceIdeal.S128x128 .f32) (x5 : FVec Ideal Cert.ReferenceIdeal.S128 .f32)
    (b0 : FVec Ideal S10000x128 .f32) (b1 : FVec Ideal S128x128 .f32) (b2 : FVec Ideal S1x128 .f32)
    (n : ℕ) (p : Fin 10000) (q : Fin 128)
    (i : S100000x128.Idx) (hi0 : (i 0).val = n * 10000 + p.val) (hi1 : (i 1).val = q.val)
    (hb0 : ∀ (k : Fin 128) (j : S100000x128.Idx), (j 0).val = n * 10000 + p.val → (j 1).val = k.val → b0 (ix2 p k) = x2 j)
    (hb1 : ∀ k : Fin 128, b1 (ix2 k q) = x4 (ix2 k q))
    (hb2 : b2 (ix2 (0 : Fin 1) q) = x5 (ix1 q)) :
    k0_pay1 (F := Ideal) b0 b1 b2 (ix2 p q) = dense0 x2 x4 x5 i := by
  obtain ⟨i0, i1, rfl⟩ : ∃ (i0 : Fin 100000) (i1 : Fin 128), i = ix2 i0 i1 := ⟨i 0, i 1, eq_ix2 i⟩
  obtain rfl : i1 = q := Fin.ext hi1
  rw [k0_pay1_apply, dense0_apply, hb2]
  congr 2
  refine Finset.sum_congr rfl fun k _ => ?_
  rw [hb0 k (ix2 i0 k) hi0 rfl, hb1 k]

section
variable (V : (c : Dev nD) → (b : Ref sig .tc) → Buf (Elt Ideal) ((c : Thread nD τ).loc b))

/-- WHAT POINT `t` WRITES BACK is block `t` of the whole-array expression. -/
theorem flushed_eq (c : Dev nD) (x2 : FVec Ideal Cert.ReferenceIdeal.S100000x128 .f32)
    (x4 : FVec Ideal Cert.ReferenceIdeal.S128x128 .f32) (x5 : FVec Ideal Cert.ReferenceIdeal.S128 .f32)
    (h2 : V c main_arg2 = x2) (h4 : V c main_arg4 = x4)
    (h5 : ∀ j : Fin 128, (V c main_v30 : S1x128.Idx → EReal) (ix2 (0 : Fin 1) j) = x5 (ix1 j))
    (t : Fin cfg0.N) :
    (dat0 V c).flushed 3 t = ((cfg0.win 3).blk t).view.read (Elt Ideal) (dense0 x2 x4 x5) := by
  show (cfg0.win 3).cut (grid0.coords t) ((dat0 V c).after 3 t) = _
  rw [after0_3]
  unfold out0
  rw [View.canon_unit_zero hz]
  simp only [View.ld_unit_zero (S := S10000x128) hz, View.ld_unit_zero (S := S128x128) hz,
    View.ld_unit_zero (S := S1x128) hz]
  obtain ⟨e00, e01, e10, e11, e20, e21, e30, e31⟩ := idx_facts t
  funext y
  obtain ⟨p, q, rfl⟩ : ∃ (p : Fin 10000) (q : Fin 128), y = ix2 p q := ⟨y 0, y 1, eq_ix2 y⟩
  show k0_pay1 (F := Ideal) (iblk0 V c 0 t) (iblk0 V c 1 t) (iblk0 V c 2 t) (ix2 p q)
    = dense0 x2 x4 x5 (((cfg0.win 3).blk t).view.emb (ix2 p q))
  refine block_apply x2 x4 x5 (iblk0 V c 0 t) (iblk0 V c 1 t) (iblk0 V c 2 t) t.val p q
    (((cfg0.win 3).blk t).view.emb (ix2 p q)) ?_ ?_ ?_ ?_ ?_
  · show win0_3.index t (0 : Fin 2) * 10000 + 1 * p.val = t.val * 10000 + p.val
    rw [e30]; omega
  · show win0_3.index t (1 : Fin 2) * 128 + 1 * q.val = q.val
    rw [e31]; omega
  · intro k j hj0 hj1
    show V c main_arg2 (((cfg0.win 0).blk t).view.emb (ix2 p k)) = x2 j
    rw [← h2]
    refine congrArg (V c main_arg2) (funext fun a => Fin.ext ?_)
    match a with
    | ⟨0, _⟩ => show win0_0.index t (0 : Fin 2) * 10000 + 1 * p.val = (j 0).val; rw [e00, hj0]; omega
    | ⟨1, _⟩ => show win0_0.index t (1 : Fin 2) * 128 + 1 * k.val = (j 1).val; rw [e01, hj1]; omega
  · intro k
    show V c main_arg4 (((cfg0.win 1).blk t).view.emb (ix2 k q)) = x4 (ix2 k q)
    rw [← h4]
    refine congrArg (V c main_arg4) (funext fun a => Fin.ext ?_)
    match a with
    | ⟨0, _⟩ => show win0_1.index t (0 : Fin 2) * 128 + 1 * k.val = k.val; rw [e10]; omega
    | ⟨1, _⟩ => show win0_1.index t (1 : Fin 2) * 128 + 1 * q.val = q.val; rw [e11]; omega
  · show V c main_v30 (((cfg0.win 2).blk t).view.emb (ix2 (0 : Fin 1) q)) = x5 (ix1 q)
    rw [← h5 q]
    refine congrArg (V c main_v30) (funext fun a => Fin.ext ?_)
    match a with
    | ⟨0, _⟩ => show win0_2.index t (0 : Fin 2) * 1 + 1 * 0 = 0; rw [e20]
    | ⟨1, _⟩ => show win0_2.index t (1 : Fin 2) * 128 + 1 * q.val = q.val; rw [e21]; omega

end

/-- An index of the output array is in point `t`'s block iff each coordinate is in the block's range on its axis. -/
theorem mem_blk (t : Fin cfg0.N) (i : S100000x128.Idx) :
    i ∈ ((cfg0.win 3).blk t).view.set ↔ ∀ a : Fin 2, win0_3.index t a * S10000x128.size a ≤ (i a).val
      ∧ (i a).val < win0_3.index t a * S10000x128.size a + S10000x128.size a := by
  show i ∈ ((View.whole main_v31).slice (win0_3.rect t)).set ↔ _
  rw [View.set_slice_whole, Rect.mem_set_unit]
  exact Iff.rfl

/-- THE ROW BLOCKS TILE THE OUTPUT: row `r` is in the block of point `r / 10000`. -/
theorem cover (i : S100000x128.Idx) :
    ∃ t : Fin cfg0.N, (cfg0.win 3).flush t = true ∧ i ∈ ((cfg0.win 3).blk t).view.set := by
  have hi0 : (i 0).val < 100000 := (i 0).isLt
  have hi1 : (i 1).val < 128 := (i 1).isLt
  have hN : cfg0.N = 10 := N_0
  obtain ⟨t, ht⟩ : ∃ t : Fin cfg0.N, t.val = (i 0).val / 10000 := ⟨⟨(i 0).val / 10000, by omega⟩, rfl⟩
  obtain ⟨-, -, -, -, -, -, e30, e31⟩ := idx_facts t
  refine ⟨t, flush0_3 t, ?_⟩
  rw [mem_blk]
  intro a
  match a with
  | ⟨0, _⟩ =>
    show win0_3.index t (0 : Fin 2) * 10000 ≤ (i 0).val ∧ (i 0).val < win0_3.index t (0 : Fin 2) * 10000 + 10000
    rw [e30, ht]; omega
  | ⟨1, _⟩ =>
    show win0_3.index t (1 : Fin 2) * 128 ≤ (i 1).val ∧ (i 1).val < win0_3.index t (1 : Fin 2) * 128 + 128
    rw [e31]; omega

end Val0

/-! ## The region's value -/

section Region0Value
variable (V : (c : Dev nD) → (b : Ref sig .tc) → Buf (Elt Ideal) ((c : Thread nD τ).loc b))

/-- THE OUTPUT ARRAY AFTER REGION 0 is the whole-array dense layer of the operand arrays at region entry. -/
theorem reg0_value (c : Dev nD) (x2 : FVec Ideal Cert.ReferenceIdeal.S100000x128 .f32)
    (x4 : FVec Ideal Cert.ReferenceIdeal.S128x128 .f32) (x5 : FVec Ideal Cert.ReferenceIdeal.S128 .f32)
    (h2 : V c main_arg2 = x2) (h4 : V c main_arg4 = x4)
    (h5 : ∀ j : Fin 128, (V c main_v30 : S1x128.Idx → EReal) (ix2 (0 : Fin 1) j) = x5 (ix1 j)) :
    (dat0 V c).arrAt 3 cfg0.N
      = maximumf
          (addf (Host.dotGeneral (F := Ideal) Cert.ReferenceIdeal.dot_S100000x128_S128x128_S100000x128_1_0_0_1_n_n none x2 x4)
            (broadcastInDim Cert.ReferenceIdeal.S100000x128 ![0, 1] Cert.ReferenceIdeal.Facts₀.bcast_S1x128_S100000x128_0_1
              (broadcastInDim Cert.ReferenceIdeal.S1x128 ![1] Cert.ReferenceIdeal.Facts₀.bcast_S128_S1x128_1 x5)))
          (broadcastInDim Cert.ReferenceIdeal.S100000x128 ![] Cert.ReferenceIdeal.Facts₀.bcast_S_S100000x128
            (constant (F := Ideal) Cert.ReferenceIdeal.S_ .f32 0x00000000#32)) :=
  (dat0 V c).arrAt_eq_of_cover 3 (Val0.dense0 x2 x4 x5) (fun t _ => Val0.flushed_eq V c x2 x4 x5 h2 h4 h5 t) Val0.cover

end Region0Value

end Cert.KernelIdeal.Hand

end
-- ==== Proof.KI.Val1.lean ====
/-
  Region 1 (the first dense product, `[100000, 64] × [64, 128]`), its value: at any entry contents, the output array
  after the region is the whole-array product of the two operand arrays as the region finds them.

  The grid has ten points. Point `t` reads rows `10000·t … 10000·t + 9999` of the left operand and all of the right
  operand, and writes the same rows of the output. Row `p` and column `q` of what it writes is the 64-term sum of
  `block (p, k) · weight (k, q)`, which is the whole-array product at row `10000·t + p`, column `q`: the contracted
  coordinate does not meet the row blocking. The ten row blocks tile the output (row `r` lies in block `r / 10000`), so
  the array ends holding the whole-array product.
-/
import proofs.«402161_j18391049961554_1_alg».proof.Proof.KI.RegA1
import proofs.«402161_j18391049961554_1_alg».proof.Proof.KI.ValPay
import proofs.«402161_j18391049961554_1_alg».proof.Proof.Gen.ReferenceIdeal
import Idealize.ShloMosaic.Lib.Pipeline.Value
import Idealize.ShloMosaic.Lib.ValueIdx
import Idealize.ShloMosaic.PureOps.Ideal.Laws

noncomputable section

namespace Cert.KernelIdeal.Hand

open Cert.KernelIdeal Cert.KernelIdeal.Gen
open Idealize.ShloMosaic Idealize.ShloMosaic.TcCoe Idealize.ShloMosaic.ValueIdx Idealize.SL.Sem
open Idealize.ShloMosaic.Pipeline (Dat)
open scoped BigOperators

/-! ## The steps, in a namespace of their own -/

namespace Val1

/-- The zero offsets of a whole-buffer access. -/
theorem hz : (![0, 0] : Fin 2 → Nat) = fun _ => 0 := funext fun a => by fin_cases a <;> rfl

/-- The printed index maps over the ten points: the two row-blocked windows are at block row `t`, column block 0; the
    weight window is at block (0, 0) at every point. -/
theorem idx_facts : ∀ t : Fin cfg1.N, win1_0.index t (0 : Fin 2) = t.val ∧ win1_0.index t (1 : Fin 2) = 0
    ∧ win1_1.index t (0 : Fin 2) = 0 ∧ win1_1.index t (1 : Fin 2) = 0
    ∧ win1_2.index t (0 : Fin 2) = t.val ∧ win1_2.index t (1 : Fin 2) = 0 :=
  (by decide +kernel : ∀ t : Fin grid1.N, _)

/-- ONE ELEMENT OF ONE BLOCK. If `b0` is rows `10000·n …` of `x0` and `b1` is `x6`, the block product at `(p, q)` is the
    whole-array product at row `10000·n + p`, column `q`. -/
theorem block_apply (x0 : FVec Ideal S100000x64 .f32) (x6 : FVec Ideal S64x128 .f32)
    (b0 : FVec Ideal S10000x64 .f32) (b1 : FVec Ideal S64x128 .f32) (n : ℕ) (p : Fin 10000) (q : Fin 128)
    (i : S100000x128.Idx) (hi0 : (i 0).val = n * 10000 + p.val) (hi1 : (i 1).val = q.val)
    (hb0 : ∀ (k : Fin 64) (j : S100000x64.Idx), (j 0).val = n * 10000 + p.val → (j 1).val = k.val → b0 (ix2 p k) = x0 j)
    (hb1 : ∀ k : Fin 64, b1 (ix2 k q) = x6 (ix2 k q)) :
    k1_pay1 (F := Ideal) b0 b1 (ix2 p q)
      = Host.dotGeneral (F := Ideal) Cert.ReferenceIdeal.dot_S100000x64_S64x128_S100000x128_1_0_0_1_n_n none x0 x6 i := by
  obtain ⟨i0, i1, rfl⟩ : ∃ (i0 : Fin 100000) (i1 : Fin 128), i = ix2 i0 i1 := ⟨i 0, i 1, eq_ix2 i⟩
  obtain rfl : i1 = q := Fin.ext hi1
  rw [k1_pay1_apply]
  show _ = FloatOps.dotGeneral Cert.ReferenceIdeal.dot_S100000x64_S64x128_S100000x128_1_0_0_1_n_n none _ x0 x6 (ix2 i0 i1)
  rw [Cert.Lib.PlainMatmul.dotGeneral_apply Cert.ReferenceIdeal.dot_S100000x64_S64x128_S100000x128_1_0_0_1_n_n
    rfl rfl rfl rfl rfl rfl none _ x0 x6 i0 i1]
  refine Finset.sum_congr rfl fun k _ => ?_
  rw [hb0 k (ix2 i0 k) hi0 rfl, hb1 k]

section
variable (V : (c : Dev nD) → (b : Ref sig .tc) → Buf (Elt Ideal) ((c : Thread nD τ).loc b))

/-- WHAT POINT `t` WRITES BACK is block `t` of the whole-array product. -/
theorem flushed_eq (c : Dev nD) (x0 : FVec Ideal Cert.ReferenceIdeal.S100000x64 .f32)
    (x6 : FVec Ideal Cert.ReferenceIdeal.S64x128 .f32) (h0 : V c main_arg0 = x0) (h6 : V c main_arg6 = x6)
    (t : Fin cfg1.N) :
    (dat1 V c).flushed 2 t = ((cfg1.win 2).blk t).view.read (Elt Ideal)
      (Host.dotGeneral (F := Ideal) Cert.ReferenceIdeal.dot_S100000x64_S64x128_S100000x128_1_0_0_1_n_n none x0 x6) := by
  show (cfg1.win 2).cut (grid1.coords t) ((dat1 V c).after 2 t) = _
  rw [after1_2]
  unfold out1
  rw [View.canon_unit_zero hz]
  simp only [View.ld_unit_zero (S := S10000x64) hz, View.ld_unit_zero (S := S64x128) hz]
  obtain ⟨e00, e01, e10, e11, e20, e21⟩ := idx_facts t
  funext y
  obtain ⟨p, q, rfl⟩ : ∃ (p : Fin 10000) (q : Fin 128), y = ix2 p q := ⟨y 0, y 1, eq_ix2 y⟩
  show k1_pay1 (F := Ideal) (iblk1 V c 0 t) (iblk1 V c 1 t) (ix2 p q)
    = Host.dotGeneral (F := Ideal) Cert.ReferenceIdeal.dot_S100000x64_S64x128_S100000x128_1_0_0_1_n_n none x0 x6
        (((cfg1.win 2).blk t).view.emb (ix2 p q))
  refine block_apply x0 x6 (iblk1 V c 0 t) (iblk1 V c 1 t) t.val p q (((cfg1.win 2).blk t).view.emb (ix2 p q)) ?_ ?_ ?_ ?_
  · show win1_2.index t (0 : Fin 2) * 10000 + 1 * p.val = t.val * 10000 + p.val
    rw [e20]; omega
  · show win1_2.index t (1 : Fin 2) * 128 + 1 * q.val = q.val
    rw [e21]; omega
  · intro k j hj0 hj1
    show V c main_arg0 (((cfg1.win 0).blk t).view.emb (ix2 p k)) = x0 j
    rw [← h0]
    refine congrArg (V c main_arg0) (funext fun a => Fin.ext ?_)
    match a with
    | ⟨0, _⟩ => show win1_0.index t (0 : Fin 2) * 10000 + 1 * p.val = (j 0).val; rw [e00, hj0]; omega
    | ⟨1, _⟩ => show win1_0.index t (1 : Fin 2) * 64 + 1 * k.val = (j 1).val; rw [e01, hj1]; omega
  · intro k
    show V c main_arg6 (((cfg1.win 1).blk t).view.emb (ix2 k q)) = x6 (ix2 k q)
    rw [← h6]
    refine congrArg (V c main_arg6) (funext fun a => Fin.ext ?_)
    match a with
    | ⟨0, _⟩ => show win1_1.index t (0 : Fin 2) * 64 + 1 * k.val = k.val; rw [e10]; omega
    | ⟨1, _⟩ => show win1_1.index t (1 : Fin 2) * 128 + 1 * q.val = q.val; rw [e11]; omega

end

/-- An index of the output array is in point `t`'s block iff each coordinate is in the block's range on its axis. -/
theorem mem_blk (t : Fin cfg1.N) (i : S100000x128.Idx) :
    i ∈ ((cfg1.win 2).blk t).view.set ↔ ∀ a : Fin 2, win1_2.index t a * S10000x128.size a ≤ (i a).val
      ∧ (i a).val < win1_2.index t a * S10000x128.size a + S10000x128.size a := by
  show i ∈ ((View.whole main_v32).slice (win1_2.rect t)).set ↔ _
  rw [View.set_slice_whole, Rect.mem_set_unit]
  exact Iff.rfl

/-- THE ROW BLOCKS TILE THE OUTPUT: row `r` is in the block of point `r / 10000`. -/
theorem cover (i : S100000x128.Idx) :
    ∃ t : Fin cfg1.N, (cfg1.win 2).flush t = true ∧ i ∈ ((cfg1.win 2).blk t).view.set := by
  have hi0 : (i 0).val < 100000 := (i 0).isLt
  have hi1 : (i 1).val < 128 := (i 1).isLt
  have hN : cfg1.N = 10 := N_1
  obtain ⟨t, ht⟩ : ∃ t : Fin cfg1.N, t.val = (i 0).val / 10000 := ⟨⟨(i 0).val / 10000, by omega⟩, rfl⟩
  obtain ⟨-, -, -, -, e20, e21⟩ := idx_facts t
  refine ⟨t, flush1_2 t, ?_⟩
  rw [mem_blk]
  intro a
  match a with
  | ⟨0, _⟩ =>
    show win1_2.index t (0 : Fin 2) * 10000 ≤ (i 0).val ∧ (i 0).val < win1_2.index t (0 : Fin 2) * 10000 + 10000
    rw [e20, ht]; omega
  | ⟨1, _⟩ =>
    show win1_2.index t (1 : Fin 2) * 128 ≤ (i 1).val ∧ (i 1).val < win1_2.index t (1 : Fin 2) * 128 + 128
    rw [e21]; omega

end Val1

/-! ## The region's value -/

section Region1Value
variable (V : (c : Dev nD) → (b : Ref sig .tc) → Buf (Elt Ideal) ((c : Thread nD τ).loc b))

/-- THE OUTPUT ARRAY AFTER REGION 1 is the whole-array product of the two operand arrays at region entry. -/
theorem reg1_value (c : Dev nD) (x0 : FVec Ideal Cert.ReferenceIdeal.S100000x64 .f32)
    (x6 : FVec Ideal Cert.ReferenceIdeal.S64x128 .f32) (h0 : V c main_arg0 = x0) (h6 : V c main_arg6 = x6) :
    (dat1 V c).arrAt 2 cfg1.N
      = Host.dotGeneral (F := Ideal) Cert.ReferenceIdeal.dot_S100000x64_S64x128_S100000x128_1_0_0_1_n_n none x0 x6 :=
  (dat1 V c).arrAt_eq_of_cover 2 _ (fun t _ => Val1.flushed_eq V c x0 x6 h0 h6 t) Val1.cover

end Region1Value

end Cert.KernelIdeal.Hand

end
-- ==== Proof.KI.Val2.lean ====
/-
  Region 2 of the idealized kernel program, read as a value: the output array after the region as one function of the
  three arrays the region reads. Every point of the ten-point grid takes rows 10000·t … 10000·t + 9999 of the feature
  array, adds the one-row bias array to each row, clamps below at zero, adds the same rows of a second array (the skip
  connection), and writes the rows back at the same place; the ten row blocks tile the array. So the output is the map
  i ↦ max (x i + bias (0, i₁)) 0 + e i  of the three inputs, index by index, which is the host expression read at i.
-/
import proofs.«402161_j18391049961554_1_alg».proof.Proof.KI.RegA2
import proofs.«402161_j18391049961554_1_alg».proof.Proof.Gen.ReferenceIdeal
import Idealize.ShloMosaic.Lib.Pipeline.Value
import Idealize.ShloMosaic.Lib.ValueIdx
import Idealize.ShloMosaic.Lib.ValueLayout

noncomputable section

namespace Cert.KernelIdeal.Hand.Val2

open Cert.KernelIdeal Cert.KernelIdeal.Gen Cert.KernelIdeal.Hand
open Idealize.ShloMosaic Idealize.ShloMosaic.TcCoe Idealize.SL.Sem
open Idealize.ShloMosaic.Pipeline (Dat)
open Idealize.ShloMosaic.ValueIdx

/-! ## The payload at an index -/

/-- The zero the clamp compares with: the word of the kernel's constant, never evaluated. -/
abbrev zeroWord : EReal := Scalar.ofBits (F := Ideal) .f32 0x00000000#32

/-- The payload at an index: the row's entry plus the bias entry of its column, clamped below at zero, plus the
    skip array's entry. -/
theorem pay_apply (x : Vec Ideal S10000x128 .f32) (b : Vec Ideal S1x128 .f32) (e : Vec Ideal S10000x128 .f32)
    (p : Fin 10000) (q : Fin 128) :
    k2_pay1 x b e (ix2 p q) = max (x (ix2 p q) + b (ix2 (0 : Fin 1) q)) zeroWord + e (ix2 p q) := by
  unfold k2_pay1
  rw [addf_apply, maximumf_apply, addf_apply, broadcast_apply, shapeCast_self, shapeCast_self, shapeCast_self,
    broadcastTo_1b_ab_apply]

/-- The whole output array as a function of the three input arrays. -/
def reluBiasSkip (A : S100000x128.Idx → EReal) (B : S1x128.Idx → EReal) (E : S100000x128.Idx → EReal) :
    S100000x128.Idx → EReal :=
  fun i => max (A i + B (ix2 (0 : Fin 1) (⟨(i 1).val, idx2_lt1 i⟩ : Fin 128))) zeroWord + E i

/-! ## From blocks to the array -/

theorem hz : (![0, 0] : Fin 2 → Nat) = fun _ => 0 := funext fun a => by fin_cases a <;> rfl

variable (V : (c : Dev nD) → (b : Ref sig .tc) → Buf (Elt Ideal) ((c : Thread nD τ).loc b))

/-- The four index maps over the grid: the three row-blocked windows sit at block row t, column block 0; the bias
    window always at block (0, 0). -/
theorem idx_facts : ∀ t : Fin cfg2.N, win2_0.index t (0 : Fin 2) = t.val ∧ win2_0.index t (1 : Fin 2) = 0
    ∧ win2_1.index t (0 : Fin 2) = 0 ∧ win2_1.index t (1 : Fin 2) = 0
    ∧ win2_2.index t (0 : Fin 2) = t.val ∧ win2_2.index t (1 : Fin 2) = 0
    ∧ win2_3.index t (0 : Fin 2) = t.val ∧ win2_3.index t (1 : Fin 2) = 0 :=
  (by decide +kernel : ∀ t : Fin grid2.N, _)

/-- Where entry (p, q) of the output's block at point t sits in the array: row 10000·t + p, column q. -/
theorem emb_out (t : Fin cfg2.N) (p : Fin 10000) (q : Fin 128) :
    ((((cfg2.win 3).blk t).view.emb (ix2 p q) : S100000x128.Idx) 0).val = 10000 * t.val + p.val
    ∧ ((((cfg2.win 3).blk t).view.emb (ix2 p q) : S100000x128.Idx) 1).val = q.val := by
  obtain ⟨e0, e1, e2, e3, e4, e5, e6, e7⟩ := idx_facts t
  constructor
  · show win2_3.index t (0 : Fin 2) * 10000 + 1 * p.val = _; omega
  · show win2_3.index t (1 : Fin 2) * 128 + 1 * q.val = _; omega

/-- The feature window's block at point t is rows 10000·t … 10000·t + 9999 of its array. -/
theorem rows_apply (c : Dev nD) (t : Fin cfg2.N) (p : Fin 10000) (q : Fin 128) (k : S100000x128.Idx)
    (hk0 : (k 0).val = 10000 * t.val + p.val) (hk1 : (k 1).val = q.val) :
    (iblk2 V c 0 t : Vec Ideal S10000x128 .f32) (ix2 p q) = (V c main_v45 : S100000x128.Idx → EReal) k := by
  obtain ⟨e0, e1, e2, e3, e4, e5, e6, e7⟩ := idx_facts t
  show (V c main_v45 : S100000x128.Idx → EReal) (((cfg2.win 0).blk t).view.emb (ix2 p q)) = _
  refine congrArg _ (funext fun a => Fin.ext ?_)
  match a with
  | ⟨0, _⟩ => show win2_0.index t (0 : Fin 2) * 10000 + 1 * p.val = (k 0).val; omega
  | ⟨1, _⟩ => show win2_0.index t (1 : Fin 2) * 128 + 1 * q.val = (k 1).val; omega

/-- The bias window's block at every point is its whole one-row array. -/
theorem bias_apply (c : Dev nD) (t : Fin cfg2.N) (q : Fin 128) :
    (iblk2 V c 1 t : Vec Ideal S1x128 .f32) (ix2 (0 : Fin 1) q) = (V c main_v46 : S1x128.Idx → EReal) (ix2 (0 : Fin 1) q) := by
  obtain ⟨e0, e1, e2, e3, e4, e5, e6, e7⟩ := idx_facts t
  show (V c main_v46 : S1x128.Idx → EReal) (((cfg2.win 1).blk t).view.emb (ix2 (0 : Fin 1) q)) = _
  refine congrArg _ (funext fun a => Fin.ext ?_)
  match a with
  | ⟨0, _⟩ => show win2_1.index t (0 : Fin 2) * 1 + 1 * 0 = 0; omega
  | ⟨1, _⟩ => show win2_1.index t (1 : Fin 2) * 128 + 1 * q.val = q.val; omega

/-- The skip window's block at point t is rows 10000·t … 10000·t + 9999 of its array. -/
theorem skip_apply (c : Dev nD) (t : Fin cfg2.N) (p : Fin 10000) (q : Fin 128) (k : S100000x128.Idx)
    (hk0 : (k 0).val = 10000 * t.val + p.val) (hk1 : (k 1).val = q.val) :
    (iblk2 V c 2 t : Vec Ideal S10000x128 .f32) (ix2 p q) = (V c main_v31 : S100000x128.Idx → EReal) k := by
  obtain ⟨e0, e1, e2, e3, e4, e5, e6, e7⟩ := idx_facts t
  show (V c main_v31 : S100000x128.Idx → EReal) (((cfg2.win 2).blk t).view.emb (ix2 p q)) = _
  refine congrArg _ (funext fun a => Fin.ext ?_)
  match a with
  | ⟨0, _⟩ => show win2_2.index t (0 : Fin 2) * 10000 + 1 * p.val = (k 0).val; omega
  | ⟨1, _⟩ => show win2_2.index t (1 : Fin 2) * 128 + 1 * q.val = (k 1).val; omega

/-- What point t writes back is block t of the whole-array function of the arrays as the region finds them. -/
theorem flushed_eq (c : Dev nD) (t : Fin cfg2.N) :
    (dat2 V c).flushed 3 t
      = ((cfg2.win 3).blk t).view.read (Elt Ideal) (reluBiasSkip (V c main_v45) (V c main_v46) (V c main_v31)) := by
  show (cfg2.win 3).cut (grid2.coords t) ((dat2 V c).after 3 t) = _
  rw [after2_3]
  unfold out2
  rw [View.canon_unit_zero hz]
  simp only [View.ld_unit_zero (S := S10000x128) hz, View.ld_unit_zero (S := S1x128) hz]
  funext j
  obtain ⟨p, q, rfl⟩ : ∃ (p : Fin 10000) (q : Fin 128), j = ix2 p q := ⟨j 0, j 1, eq_ix2 j⟩
  obtain ⟨m0, m1⟩ := emb_out t p q
  show k2_pay1 (iblk2 V c 0 t) (iblk2 V c 1 t) (iblk2 V c 2 t) (ix2 p q)
    = reluBiasSkip (V c main_v45) (V c main_v46) (V c main_v31) (((cfg2.win 3).blk t).view.emb (ix2 p q))
  refine (pay_apply (iblk2 V c 0 t) (iblk2 V c 1 t) (iblk2 V c 2 t) p q).trans ?_
  unfold reluBiasSkip
  rw [rows_apply V c t p q (((cfg2.win 3).blk t).view.emb (ix2 p q)) m0 m1, bias_apply V c t q,
    skip_apply V c t p q (((cfg2.win 3).blk t).view.emb (ix2 p q)) m0 m1]
  have hq : (⟨((((cfg2.win 3).blk t).view.emb (ix2 p q) : S100000x128.Idx) 1).val,
      idx2_lt1 (((cfg2.win 3).blk t).view.emb (ix2 p q) : S100000x128.Idx)⟩ : Fin 128) = q := Fin.ext m1
  rw [hq]

/-- An index of the array is in point t's block iff each coordinate is in the block's range on its axis. -/
theorem mem_blk (t : Fin cfg2.N) (i : S100000x128.Idx) :
    i ∈ ((cfg2.win 3).blk t).view.set ↔ ∀ a : Fin 2, win2_3.index t a * S10000x128.size a ≤ (i a).val
      ∧ (i a).val < win2_3.index t a * S10000x128.size a + S10000x128.size a := by
  show i ∈ ((View.whole main_v47).slice (win2_3.rect t)).set ↔ _
  rw [View.set_slice_whole, Rect.mem_set_unit]
  exact Iff.rfl

/-- The ten row blocks tile the array: row r lies in the block of point r / 10000. -/
theorem covered (i : S100000x128.Idx) :
    ∃ t : Fin cfg2.N, (cfg2.win 3).flush t = true ∧ i ∈ ((cfg2.win 3).blk t).view.set := by
  have hi0 : (i 0).val < 100000 := idx2_lt0 i
  have hi1 : (i 1).val < 128 := idx2_lt1 i
  have hN : cfg2.N = 10 := N_2
  obtain ⟨t, ht⟩ : ∃ t : Fin cfg2.N, t.val = (i 0).val / 10000 := ⟨⟨(i 0).val / 10000, by rw [hN]; omega⟩, rfl⟩
  obtain ⟨e0, e1, e2, e3, e4, e5, e6, e7⟩ := idx_facts t
  refine ⟨t, flush2_3 t, ?_⟩
  rw [mem_blk]
  intro a
  match a with
  | ⟨0, _⟩ =>
    show win2_3.index t (0 : Fin 2) * 10000 ≤ (i 0).val ∧ (i 0).val < win2_3.index t (0 : Fin 2) * 10000 + 10000
    omega
  | ⟨1, _⟩ =>
    show win2_3.index t (1 : Fin 2) * 128 ≤ (i 1).val ∧ (i 1).val < win2_3.index t (1 : Fin 2) * 128 + 128
    omega

/-- The output array after the region is the whole-array function of the three input arrays as the region finds them. -/
theorem final (c : Dev nD) :
    (dat2 V c).arrAt 3 cfg2.N = reluBiasSkip (V c main_v45) (V c main_v46) (V c main_v31) :=
  (dat2 V c).arrAt_eq_of_cover 3 (reluBiasSkip (V c main_v45) (V c main_v46) (V c main_v31))
    (fun t _ => flushed_eq V c t) covered

/-! ## The host expression read at an index -/

/-- The bias vector broadcast to one row and then over all rows reads, at (r, q), the vector at q. -/
theorem bias_bcast_apply (b : FVec Ideal Cert.ReferenceIdeal.S128 .f32) (r : Fin 100000) (q : Fin 128) :
    broadcastInDim Cert.ReferenceIdeal.S100000x128 ![0, 1] Cert.ReferenceIdeal.Gen.bcast_S1x128_S100000x128_0_1
      (broadcastInDim Cert.ReferenceIdeal.S1x128 ![1] Cert.ReferenceIdeal.Gen.bcast_S128_S1x128_1 b) (ix2 r q) = b (ix1 q) := by
  refine (broadcastInDim_apply _ Cert.ReferenceIdeal.Gen.bcast_S1x128_S100000x128_0_1 _ (ix2 r q) (ix2 (0 : Fin 1) q)
    (fun a => match a with
      | ⟨0, _⟩ => by show 0 = if (1 : Nat) = 1 then 0 else r.val; rw [if_pos rfl]
      | ⟨1, _⟩ => by show q.val = if (128 : Nat) = 1 then 0 else q.val; rw [if_neg (by decide)])).trans ?_
  exact broadcastInDim_apply _ Cert.ReferenceIdeal.Gen.bcast_S128_S1x128_1 b (ix2 (0 : Fin 1) q) (ix1 q)
    (fun a => match a with
      | ⟨0, _⟩ => by show q.val = if (128 : Nat) = 1 then 0 else q.val; rw [if_neg (by decide)])

/-- The scalar zero broadcast over the array reads the zero word everywhere. -/
theorem zero_bcast_apply (i : Cert.ReferenceIdeal.S100000x128.Idx) :
    broadcastInDim Cert.ReferenceIdeal.S100000x128 ![] Cert.ReferenceIdeal.Gen.bcast_S_S100000x128
      (constant (F := Ideal) Cert.ReferenceIdeal.S_ .f32 0x00000000#32) i = zeroWord :=
  broadcastInDim_apply _ Cert.ReferenceIdeal.Gen.bcast_S_S100000x128 _ i (fun a => a.elim0) (fun a => a.elim0)

end Cert.KernelIdeal.Hand.Val2

namespace Cert.KernelIdeal.Hand

open Cert.KernelIdeal Cert.KernelIdeal.Gen
open Idealize.ShloMosaic Idealize.ShloMosaic.TcCoe Idealize.SL.Sem
open Idealize.ShloMosaic.ValueIdx

/-- REGION 2's VALUE: at any entry contents whose feature array is a, whose one-row bias array holds the vector b and
    whose skip array is e, the output array after the region is  max (a + b broadcast over the rows) 0 + e. -/
theorem reg2_value (V : (c : Dev nD) → (b : Ref sig .tc) → Buf (Elt Ideal) ((c : Thread nD τ).loc b)) (c : Dev nD)
    (a e : FVec Ideal Cert.ReferenceIdeal.S100000x128 .f32) (b : FVec Ideal Cert.ReferenceIdeal.S128 .f32)
    (h0 : V c main_v45 = a)
    (h1 : ∀ j : Fin 128, (V c main_v46 : S1x128.Idx → EReal) (ix2 (0 : Fin 1) j) = b (ix1 j))
    (h2 : V c main_v31 = e) :
    (dat2 V c).arrAt 3 cfg2.N
      = addf (maximumf (addf a (broadcastInDim Cert.ReferenceIdeal.S100000x128 ![0, 1] Cert.ReferenceIdeal.Gen.bcast_S1x128_S100000x128_0_1
            (broadcastInDim Cert.ReferenceIdeal.S1x128 ![1] Cert.ReferenceIdeal.Gen.bcast_S128_S1x128_1 b)))
          (broadcastInDim Cert.ReferenceIdeal.S100000x128 ![] Cert.ReferenceIdeal.Gen.bcast_S_S100000x128
            (constant Cert.ReferenceIdeal.S_ .f32 0x00000000#32))) e := by
  rw [Val2.final, h0, h2]
  funext i
  obtain ⟨r, q, rfl⟩ : ∃ (r : Fin 100000) (q : Fin 128), i = ix2 r q := ⟨i 0, i 1, eq_ix2 i⟩
  rw [addf_apply, maximumf_apply, addf_apply, Val2.bias_bcast_apply, Val2.zero_bcast_apply]
  unfold Val2.reluBiasSkip
  rw [h1]

end Cert.KernelIdeal.Hand

end
-- ==== Proof.KI.Val3.lean ====
/-
  Region 3 (a dense product `[100000, 128] × [128, 128]`), its value: at any entry contents, the output array after the
  region is the whole-array product of the two operand arrays as the region finds them.

  The grid has ten points. Point `t` reads rows `10000·t … 10000·t + 9999` of the left operand and all of the right
  operand, and writes the same rows of the output. Row `p` and column `q` of what it writes is the 128-term sum of
  `block (p, k) · weight (k, q)`, which is the whole-array product at row `10000·t + p`, column `q`: the contracted
  coordinate does not meet the row blocking. The ten row blocks tile the output (row `r` lies in block `r / 10000`), so
  the array ends holding the whole-array product.
-/
import proofs.«402161_j18391049961554_1_alg».proof.Proof.KI.RegA3
import proofs.«402161_j18391049961554_1_alg».proof.Proof.KI.ValPay
import proofs.«402161_j18391049961554_1_alg».proof.Proof.Gen.ReferenceIdeal
import Idealize.ShloMosaic.Lib.Pipeline.Value
import Idealize.ShloMosaic.Lib.ValueIdx
import Idealize.ShloMosaic.PureOps.Ideal.Laws

noncomputable section

namespace Cert.KernelIdeal.Hand

open Cert.KernelIdeal Cert.KernelIdeal.Gen
open Idealize.ShloMosaic Idealize.ShloMosaic.TcCoe Idealize.ShloMosaic.ValueIdx Idealize.SL.Sem
open Idealize.ShloMosaic.Pipeline (Dat)
open scoped BigOperators

/-! ## The steps, in a namespace of their own -/

namespace Val3

/-- The zero offsets of a whole-buffer access. -/
theorem hz : (![0, 0] : Fin 2 → Nat) = fun _ => 0 := funext fun a => by fin_cases a <;> rfl

/-- The printed index maps over the ten points: the two row-blocked windows are at block row `t`, column block 0; the
    weight window is at block (0, 0) at every point. -/
theorem idx_facts : ∀ t : Fin cfg3.N, win3_0.index t (0 : Fin 2) = t.val ∧ win3_0.index t (1 : Fin 2) = 0
    ∧ win3_1.index t (0 : Fin 2) = 0 ∧ win3_1.index t (1 : Fin 2) = 0
    ∧ win3_2.index t (0 : Fin 2) = t.val ∧ win3_2.index t (1 : Fin 2) = 0 :=
  (by decide +kernel : ∀ t : Fin grid3.N, _)

/-- ONE ELEMENT OF ONE BLOCK. If `b0` is rows `10000·n …` of `h` and `b1` is `w`, the block product at `(p, q)` is the
    whole-array product at row `10000·n + p`, column `q`. -/
theorem block_apply (h : FVec Ideal S100000x128 .f32) (w : FVec Ideal S128x128 .f32)
    (b0 : FVec Ideal S10000x128 .f32) (b1 : FVec Ideal S128x128 .f32) (n : ℕ) (p : Fin 10000) (q : Fin 128)
    (i : S100000x128.Idx) (hi0 : (i 0).val = n * 10000 + p.val) (hi1 : (i 1).val = q.val)
    (hb0 : ∀ (k : Fin 128) (j : S100000x128.Idx), (j 0).val = n * 10000 + p.val → (j 1).val = k.val → b0 (ix2 p k) = h j)
    (hb1 : ∀ k : Fin 128, b1 (ix2 k q) = w (ix2 k q)) :
    k3_pay1 (F := Ideal) b0 b1 (ix2 p q)
      = Host.dotGeneral (F := Ideal) Cert.ReferenceIdeal.dot_S100000x128_S128x128_S100000x128_1_0_0_1_n_n none h w i := by
  obtain ⟨i0, i1, rfl⟩ : ∃ (i0 : Fin 100000) (i1 : Fin 128), i = ix2 i0 i1 := ⟨i 0, i 1, eq_ix2 i⟩
  obtain rfl : i1 = q := Fin.ext hi1
  rw [k3_pay1_apply]
  show _ = FloatOps.dotGeneral Cert.ReferenceIdeal.dot_S100000x128_S128x128_S100000x128_1_0_0_1_n_n none _ h w (ix2 i0 i1)
  rw [Cert.Lib.PlainMatmul.dotGeneral_apply Cert.ReferenceIdeal.dot_S100000x128_S128x128_S100000x128_1_0_0_1_n_n
    rfl rfl rfl rfl rfl rfl none _ h w i0 i1]
  refine Finset.sum_congr rfl fun k _ => ?_
  rw [hb0 k (ix2 i0 k) hi0 rfl, hb1 k]

section
variable (V : (c : Dev nD) → (b : Ref sig .tc) → Buf (Elt Ideal) ((c : Thread nD τ).loc b))

/-- WHAT POINT `t` WRITES BACK is block `t` of the whole-array product. -/
theorem flushed_eq (c : Dev nD) (h : FVec Ideal Cert.ReferenceIdeal.S100000x128 .f32)
    (w : FVec Ideal Cert.ReferenceIdeal.S128x128 .f32) (h0 : V c main_v47 = h) (h1 : V c main_v49 = w)
    (t : Fin cfg3.N) :
    (dat3 V c).flushed 2 t = ((cfg3.win 2).blk t).view.read (Elt Ideal)
      (Host.dotGeneral (F := Ideal) Cert.ReferenceIdeal.dot_S100000x128_S128x128_S100000x128_1_0_0_1_n_n none h w) := by
  show (cfg3.win 2).cut (grid3.coords t) ((dat3 V c).after 2 t) = _
  rw [after3_2]
  unfold out3
  rw [View.canon_unit_zero hz]
  simp only [View.ld_unit_zero (S := S10000x128) hz, View.ld_unit_zero (S := S128x128) hz]
  obtain ⟨e00, e01, e10, e11, e20, e21⟩ := idx_facts t
  funext y
  obtain ⟨p, q, rfl⟩ : ∃ (p : Fin 10000) (q : Fin 128), y = ix2 p q := ⟨y 0, y 1, eq_ix2 y⟩
  show k3_pay1 (F := Ideal) (iblk3 V c 0 t) (iblk3 V c 1 t) (ix2 p q)
    = Host.dotGeneral (F := Ideal) Cert.ReferenceIdeal.dot_S100000x128_S128x128_S100000x128_1_0_0_1_n_n none h w
        (((cfg3.win 2).blk t).view.emb (ix2 p q))
  refine block_apply h w (iblk3 V c 0 t) (iblk3 V c 1 t) t.val p q (((cfg3.win 2).blk t).view.emb (ix2 p q)) ?_ ?_ ?_ ?_
  · show win3_2.index t (0 : Fin 2) * 10000 + 1 * p.val = t.val * 10000 + p.val
    rw [e20]; omega
  · show win3_2.index t (1 : Fin 2) * 128 + 1 * q.val = q.val
    rw [e21]; omega
  · intro k j hj0 hj1
    show V c main_v47 (((cfg3.win 0).blk t).view.emb (ix2 p k)) = h j
    rw [← h0]
    refine congrArg (V c main_v47) (funext fun a => Fin.ext ?_)
    match a with
    | ⟨0, _⟩ => show win3_0.index t (0 : Fin 2) * 10000 + 1 * p.val = (j 0).val; rw [e00, hj0]; omega
    | ⟨1, _⟩ => show win3_0.index t (1 : Fin 2) * 128 + 1 * k.val = (j 1).val; rw [e01, hj1]; omega
  · intro k
    show V c main_v49 (((cfg3.win 1).blk t).view.emb (ix2 k q)) = w (ix2 k q)
    rw [← h1]
    refine congrArg (V c main_v49) (funext fun a => Fin.ext ?_)
    match a with
    | ⟨0, _⟩ => show win3_1.index t (0 : Fin 2) * 128 + 1 * k.val = k.val; rw [e10]; omega
    | ⟨1, _⟩ => show win3_1.index t (1 : Fin 2) * 128 + 1 * q.val = q.val; rw [e11]; omega

end

/-- An index of the output array is in point `t`'s block iff each coordinate is in the block's range on its axis. -/
theorem mem_blk (t : Fin cfg3.N) (i : S100000x128.Idx) :
    i ∈ ((cfg3.win 2).blk t).view.set ↔ ∀ a : Fin 2, win3_2.index t a * S10000x128.size a ≤ (i a).val
      ∧ (i a).val < win3_2.index t a * S10000x128.size a + S10000x128.size a := by
  show i ∈ ((View.whole main_v50).slice (win3_2.rect t)).set ↔ _
  rw [View.set_slice_whole, Rect.mem_set_unit]
  exact Iff.rfl

/-- THE ROW BLOCKS TILE THE OUTPUT: row `r` is in the block of point `r / 10000`. -/
theorem cover (i : S100000x128.Idx) :
    ∃ t : Fin cfg3.N, (cfg3.win 2).flush t = true ∧ i ∈ ((cfg3.win 2).blk t).view.set := by
  have hi0 : (i 0).val < 100000 := (i 0).isLt
  have hi1 : (i 1).val < 128 := (i 1).isLt
  have hN : cfg3.N = 10 := N_3
  obtain ⟨t, ht⟩ : ∃ t : Fin cfg3.N, t.val = (i 0).val / 10000 := ⟨⟨(i 0).val / 10000, by omega⟩, rfl⟩
  obtain ⟨-, -, -, -, e20, e21⟩ := idx_facts t
  refine ⟨t, flush3_2 t, ?_⟩
  rw [mem_blk]
  intro a
  match a with
  | ⟨0, _⟩ =>
    show win3_2.index t (0 : Fin 2) * 10000 ≤ (i 0).val ∧ (i 0).val < win3_2.index t (0 : Fin 2) * 10000 + 10000
    rw [e20, ht]; omega
  | ⟨1, _⟩ =>
    show win3_2.index t (1 : Fin 2) * 128 ≤ (i 1).val ∧ (i 1).val < win3_2.index t (1 : Fin 2) * 128 + 128
    rw [e21]; omega

end Val3

/-! ## The region's value -/

section Region3Value
variable (V : (c : Dev nD) → (b : Ref sig .tc) → Buf (Elt Ideal) ((c : Thread nD τ).loc b))

/-- THE OUTPUT ARRAY AFTER REGION 3 is the whole-array product of the two operand arrays at region entry. -/
theorem reg3_value (c : Dev nD) (h : FVec Ideal Cert.ReferenceIdeal.S100000x128 .f32)
    (w : FVec Ideal Cert.ReferenceIdeal.S128x128 .f32) (h0 : V c main_v47 = h) (h1 : V c main_v49 = w) :
    (dat3 V c).arrAt 2 cfg3.N
      = Host.dotGeneral (F := Ideal) Cert.ReferenceIdeal.dot_S100000x128_S128x128_S100000x128_1_0_0_1_n_n none h w :=
  (dat3 V c).arrAt_eq_of_cover 2 _ (fun t _ => Val3.flushed_eq V c h w h0 h1 t) Val3.cover

end Region3Value

end Cert.KernelIdeal.Hand

end
-- ==== Proof.KI.Val4.lean ====
/-
  Region 4 of the idealized kernel program, read as a value: the output array after the region as one function of the
  two arrays the region reads. Every point of the ten-point grid takes rows 10000·t … 10000·t + 9999 of the feature
  array, adds the one-row bias array to each row, clamps below at zero, and writes the rows back at the same place; the ten
  row blocks tile the array. So the output is the map  i ↦ max (x i + bias (0, i₁)) 0  of the two inputs, index by index,
  which is the host expression (add of the bias broadcast over the rows, maximum with the broadcast zero) read at i.
-/
import proofs.«402161_j18391049961554_1_alg».proof.Proof.KI.RegA4
import proofs.«402161_j18391049961554_1_alg».proof.Proof.Gen.ReferenceIdeal
import Idealize.ShloMosaic.Lib.Pipeline.Value
import Idealize.ShloMosaic.Lib.ValueIdx
import Idealize.ShloMosaic.Lib.ValueLayout

noncomputable section

namespace Cert.KernelIdeal.Hand.Val4

open Cert.KernelIdeal Cert.KernelIdeal.Gen Cert.KernelIdeal.Hand
open Idealize.ShloMosaic Idealize.ShloMosaic.TcCoe Idealize.SL.Sem
open Idealize.ShloMosaic.Pipeline (Dat)
open Idealize.ShloMosaic.ValueIdx

/-! ## The payload at an index -/

/-- The zero the clamp compares with: the word of the kernel's constant, never evaluated. -/
abbrev zeroWord : EReal := Scalar.ofBits (F := Ideal) .f32 0x00000000#32

/-- The payload at an index: the row's entry plus the bias entry of its column, clamped below at zero. -/
theorem pay_apply (x : Vec Ideal S10000x128 .f32) (b : Vec Ideal S1x128 .f32) (p : Fin 10000) (q : Fin 128) :
    k4_pay1 x b (ix2 p q) = max (x (ix2 p q) + b (ix2 (0 : Fin 1) q)) zeroWord := by
  unfold k4_pay1
  rw [maximumf_apply, addf_apply, broadcast_apply, shapeCast_self, shapeCast_self, broadcastTo_1b_ab_apply]

/-- The whole output array as a function of the two input arrays. -/
def reluBias (A : S100000x128.Idx → EReal) (B : S1x128.Idx → EReal) : S100000x128.Idx → EReal :=
  fun i => max (A i + B (ix2 (0 : Fin 1) (⟨(i 1).val, idx2_lt1 i⟩ : Fin 128))) zeroWord

/-! ## From blocks to the array -/

theorem hz : (![0, 0] : Fin 2 → Nat) = fun _ => 0 := funext fun a => by fin_cases a <;> rfl

variable (V : (c : Dev nD) → (b : Ref sig .tc) → Buf (Elt Ideal) ((c : Thread nD τ).loc b))

/-- The three index maps over the grid: the row-blocked windows sit at block row t, column block 0; the bias window
    always at block (0, 0). -/
theorem idx_facts : ∀ t : Fin cfg4.N, win4_0.index t (0 : Fin 2) = t.val ∧ win4_0.index t (1 : Fin 2) = 0
    ∧ win4_1.index t (0 : Fin 2) = 0 ∧ win4_1.index t (1 : Fin 2) = 0
    ∧ win4_2.index t (0 : Fin 2) = t.val ∧ win4_2.index t (1 : Fin 2) = 0 :=
  (by decide +kernel : ∀ t : Fin grid4.N, _)

/-- Where entry (p, q) of the output's block at point t sits in the array: row 10000·t + p, column q. -/
theorem emb_out (t : Fin cfg4.N) (p : Fin 10000) (q : Fin 128) :
    ((((cfg4.win 2).blk t).view.emb (ix2 p q) : S100000x128.Idx) 0).val = 10000 * t.val + p.val
    ∧ ((((cfg4.win 2).blk t).view.emb (ix2 p q) : S100000x128.Idx) 1).val = q.val := by
  obtain ⟨e0, e1, e2, e3, e4, e5⟩ := idx_facts t
  constructor
  · show win4_2.index t (0 : Fin 2) * 10000 + 1 * p.val = _; omega
  · show win4_2.index t (1 : Fin 2) * 128 + 1 * q.val = _; omega

/-- The feature window's block at point t is rows 10000·t … 10000·t + 9999 of its array. -/
theorem rows_apply (c : Dev nD) (t : Fin cfg4.N) (p : Fin 10000) (q : Fin 128) (k : S100000x128.Idx)
    (hk0 : (k 0).val = 10000 * t.val + p.val) (hk1 : (k 1).val = q.val) :
    (iblk4 V c 0 t : Vec Ideal S10000x128 .f32) (ix2 p q) = (V c main_v63 : S100000x128.Idx → EReal) k := by
  obtain ⟨e0, e1, e2, e3, e4, e5⟩ := idx_facts t
  show (V c main_v63 : S100000x128.Idx → EReal) (((cfg4.win 0).blk t).view.emb (ix2 p q)) = _
  refine congrArg _ (funext fun a => Fin.ext ?_)
  match a with
  | ⟨0, _⟩ => show win4_0.index t (0 : Fin 2) * 10000 + 1 * p.val = (k 0).val; omega
  | ⟨1, _⟩ => show win4_0.index t (1 : Fin 2) * 128 + 1 * q.val = (k 1).val; omega

/-- The bias window's block at every point is its whole one-row array. -/
theorem bias_apply (c : Dev nD) (t : Fin cfg4.N) (q : Fin 128) :
    (iblk4 V c 1 t : Vec Ideal S1x128 .f32) (ix2 (0 : Fin 1) q) = (V c main_v66 : S1x128.Idx → EReal) (ix2 (0 : Fin 1) q) := by
  obtain ⟨e0, e1, e2, e3, e4, e5⟩ := idx_facts t
  show (V c main_v66 : S1x128.Idx → EReal) (((cfg4.win 1).blk t).view.emb (ix2 (0 : Fin 1) q)) = _
  refine congrArg _ (funext fun a => Fin.ext ?_)
  match a with
  | ⟨0, _⟩ => show win4_1.index t (0 : Fin 2) * 1 + 1 * 0 = 0; omega
  | ⟨1, _⟩ => show win4_1.index t (1 : Fin 2) * 128 + 1 * q.val = q.val; omega

/-- What point t writes back is block t of the whole-array function of the arrays as the region finds them. -/
theorem flushed_eq (c : Dev nD) (t : Fin cfg4.N) :
    (dat4 V c).flushed 2 t = ((cfg4.win 2).blk t).view.read (Elt Ideal) (reluBias (V c main_v63) (V c main_v66)) := by
  show (cfg4.win 2).cut (grid4.coords t) ((dat4 V c).after 2 t) = _
  rw [after4_2]
  unfold out4
  rw [View.canon_unit_zero hz]
  simp only [View.ld_unit_zero (S := S10000x128) hz, View.ld_unit_zero (S := S1x128) hz]
  funext j
  obtain ⟨p, q, rfl⟩ : ∃ (p : Fin 10000) (q : Fin 128), j = ix2 p q := ⟨j 0, j 1, eq_ix2 j⟩
  obtain ⟨m0, m1⟩ := emb_out t p q
  show k4_pay1 (iblk4 V c 0 t) (iblk4 V c 1 t) (ix2 p q)
    = reluBias (V c main_v63) (V c main_v66) (((cfg4.win 2).blk t).view.emb (ix2 p q))
  refine (pay_apply (iblk4 V c 0 t) (iblk4 V c 1 t) p q).trans ?_
  unfold reluBias
  rw [rows_apply V c t p q (((cfg4.win 2).blk t).view.emb (ix2 p q)) m0 m1, bias_apply V c t q]
  have hq : (⟨((((cfg4.win 2).blk t).view.emb (ix2 p q) : S100000x128.Idx) 1).val,
      idx2_lt1 (((cfg4.win 2).blk t).view.emb (ix2 p q) : S100000x128.Idx)⟩ : Fin 128) = q := Fin.ext m1
  rw [hq]

/-- An index of the array is in point t's block iff each coordinate is in the block's range on its axis. -/
theorem mem_blk (t : Fin cfg4.N) (i : S100000x128.Idx) :
    i ∈ ((cfg4.win 2).blk t).view.set ↔ ∀ a : Fin 2, win4_2.index t a * S10000x128.size a ≤ (i a).val
      ∧ (i a).val < win4_2.index t a * S10000x128.size a + S10000x128.size a := by
  show i ∈ ((View.whole main_v67).slice (win4_2.rect t)).set ↔ _
  rw [View.set_slice_whole, Rect.mem_set_unit]
  exact Iff.rfl

/-- The ten row blocks tile the array: row r lies in the block of point r / 10000. -/
theorem covered (i : S100000x128.Idx) :
    ∃ t : Fin cfg4.N, (cfg4.win 2).flush t = true ∧ i ∈ ((cfg4.win 2).blk t).view.set := by
  have hi0 : (i 0).val < 100000 := idx2_lt0 i
  have hi1 : (i 1).val < 128 := idx2_lt1 i
  have hN : cfg4.N = 10 := N_4
  obtain ⟨t, ht⟩ : ∃ t : Fin cfg4.N, t.val = (i 0).val / 10000 := ⟨⟨(i 0).val / 10000, by rw [hN]; omega⟩, rfl⟩
  obtain ⟨e0, e1, e2, e3, e4, e5⟩ := idx_facts t
  refine ⟨t, flush4_2 t, ?_⟩
  rw [mem_blk]
  intro a
  match a with
  | ⟨0, _⟩ =>
    show win4_2.index t (0 : Fin 2) * 10000 ≤ (i 0).val ∧ (i 0).val < win4_2.index t (0 : Fin 2) * 10000 + 10000
    omega
  | ⟨1, _⟩ =>
    show win4_2.index t (1 : Fin 2) * 128 ≤ (i 1).val ∧ (i 1).val < win4_2.index t (1 : Fin 2) * 128 + 128
    omega

/-- The output array after the region is the whole-array function of the two input arrays as the region finds them. -/
theorem final (c : Dev nD) : (dat4 V c).arrAt 2 cfg4.N = reluBias (V c main_v63) (V c main_v66) :=
  (dat4 V c).arrAt_eq_of_cover 2 (reluBias (V c main_v63) (V c main_v66)) (fun t _ => flushed_eq V c t) covered

/-! ## The host expression read at an index -/

/-- The bias vector broadcast to one row and then over all rows reads, at (r, q), the vector at q. -/
theorem bias_bcast_apply (b : FVec Ideal Cert.ReferenceIdeal.S128 .f32) (r : Fin 100000) (q : Fin 128) :
    broadcastInDim Cert.ReferenceIdeal.S100000x128 ![0, 1] Cert.ReferenceIdeal.Gen.bcast_S1x128_S100000x128_0_1
      (broadcastInDim Cert.ReferenceIdeal.S1x128 ![1] Cert.ReferenceIdeal.Gen.bcast_S128_S1x128_1 b) (ix2 r q) = b (ix1 q) := by
  refine (broadcastInDim_apply _ Cert.ReferenceIdeal.Gen.bcast_S1x128_S100000x128_0_1 _ (ix2 r q) (ix2 (0 : Fin 1) q)
    (fun a => match a with
      | ⟨0, _⟩ => by show 0 = if (1 : Nat) = 1 then 0 else r.val; rw [if_pos rfl]
      | ⟨1, _⟩ => by show q.val = if (128 : Nat) = 1 then 0 else q.val; rw [if_neg (by decide)])).trans ?_
  exact broadcastInDim_apply _ Cert.ReferenceIdeal.Gen.bcast_S128_S1x128_1 b (ix2 (0 : Fin 1) q) (ix1 q)
    (fun a => match a with
      | ⟨0, _⟩ => by show q.val = if (128 : Nat) = 1 then 0 else q.val; rw [if_neg (by decide)])

/-- The scalar zero broadcast over the array reads the zero word everywhere. -/
theorem zero_bcast_apply (i : Cert.ReferenceIdeal.S100000x128.Idx) :
    broadcastInDim Cert.ReferenceIdeal.S100000x128 ![] Cert.ReferenceIdeal.Gen.bcast_S_S100000x128
      (constant (F := Ideal) Cert.ReferenceIdeal.S_ .f32 0x00000000#32) i = zeroWord :=
  broadcastInDim_apply _ Cert.ReferenceIdeal.Gen.bcast_S_S100000x128 _ i (fun a => a.elim0) (fun a => a.elim0)

end Cert.KernelIdeal.Hand.Val4

namespace Cert.KernelIdeal.Hand

open Cert.KernelIdeal Cert.KernelIdeal.Gen
open Idealize.ShloMosaic Idealize.ShloMosaic.TcCoe Idealize.SL.Sem
open Idealize.ShloMosaic.ValueIdx

/-- REGION 4's VALUE: at any entry contents whose feature array is a and whose one-row bias array holds the vector b,
    the output array after the region is  max (a + b broadcast over the rows) 0. -/
theorem reg4_value (V : (c : Dev nD) → (b : Ref sig .tc) → Buf (Elt Ideal) ((c : Thread nD τ).loc b)) (c : Dev nD)
    (a : FVec Ideal Cert.ReferenceIdeal.S100000x128 .f32) (b : FVec Ideal Cert.ReferenceIdeal.S128 .f32)
    (h0 : V c main_v63 = a)
    (h1 : ∀ j : Fin 128, (V c main_v66 : S1x128.Idx → EReal) (ix2 (0 : Fin 1) j) = b (ix1 j)) :
    (dat4 V c).arrAt 2 cfg4.N
      = maximumf (addf a (broadcastInDim Cert.ReferenceIdeal.S100000x128 ![0, 1] Cert.ReferenceIdeal.Gen.bcast_S1x128_S100000x128_0_1
            (broadcastInDim Cert.ReferenceIdeal.S1x128 ![1] Cert.ReferenceIdeal.Gen.bcast_S128_S1x128_1 b)))
          (broadcastInDim Cert.ReferenceIdeal.S100000x128 ![] Cert.ReferenceIdeal.Gen.bcast_S_S100000x128
            (constant Cert.ReferenceIdeal.S_ .f32 0x00000000#32)) := by
  rw [Val4.final, h0]
  funext i
  obtain ⟨r, q, rfl⟩ : ∃ (r : Fin 100000) (q : Fin 128), i = ix2 r q := ⟨i 0, i 1, eq_ix2 i⟩
  rw [maximumf_apply, addf_apply, Val4.bias_bcast_apply, Val4.zero_bcast_apply]
  unfold Val4.reluBias
  rw [h1]

end Cert.KernelIdeal.Hand

end
-- ==== Proof.KI.Val5.lean ====
/-
  Region 5 (a dense product `[100000, 128] × [128, 128]`), its value: at any entry contents, the output array after the
  region is the whole-array product of the two operand arrays as the region finds them.

  The grid has ten points. Point `t` reads rows `10000·t … 10000·t + 9999` of the left operand and all of the right
  operand, and writes the same rows of the output. Row `p` and column `q` of what it writes is the 128-term sum of
  `block (p, k) · weight (k, q)`, which is the whole-array product at row `10000·t + p`, column `q`: the contracted
  coordinate does not meet the row blocking. The ten row blocks tile the output (row `r` lies in block `r / 10000`), so
  the array ends holding the whole-array product.
-/
import proofs.«402161_j18391049961554_1_alg».proof.Proof.KI.RegA5
import proofs.«402161_j18391049961554_1_alg».proof.Proof.KI.ValPay
import proofs.«402161_j18391049961554_1_alg».proof.Proof.Gen.ReferenceIdeal
import Idealize.ShloMosaic.Lib.Pipeline.Value
import Idealize.ShloMosaic.Lib.ValueIdx
import Idealize.ShloMosaic.PureOps.Ideal.Laws

noncomputable section

namespace Cert.KernelIdeal.Hand

open Cert.KernelIdeal Cert.KernelIdeal.Gen
open Idealize.ShloMosaic Idealize.ShloMosaic.TcCoe Idealize.ShloMosaic.ValueIdx Idealize.SL.Sem
open Idealize.ShloMosaic.Pipeline (Dat)
open scoped BigOperators

/-! ## The steps, in a namespace of their own -/

namespace Val5

/-- The zero offsets of a whole-buffer access. -/
theorem hz : (![0, 0] : Fin 2 → Nat) = fun _ => 0 := funext fun a => by fin_cases a <;> rfl

/-- The printed index maps over the ten points: the two row-blocked windows are at block row `t`, column block 0; the
    weight window is at block (0, 0) at every point. -/
theorem idx_facts : ∀ t : Fin cfg5.N, win5_0.index t (0 : Fin 2) = t.val ∧ win5_0.index t (1 : Fin 2) = 0
    ∧ win5_1.index t (0 : Fin 2) = 0 ∧ win5_1.index t (1 : Fin 2) = 0
    ∧ win5_2.index t (0 : Fin 2) = t.val ∧ win5_2.index t (1 : Fin 2) = 0 :=
  (by decide +kernel : ∀ t : Fin grid5.N, _)

/-- ONE ELEMENT OF ONE BLOCK. If `b0` is rows `10000·n …` of `h` and `b1` is `w`, the block product at `(p, q)` is the
    whole-array product at row `10000·n + p`, column `q`. -/
theorem block_apply (h : FVec Ideal S100000x128 .f32) (w : FVec Ideal S128x128 .f32)
    (b0 : FVec Ideal S10000x128 .f32) (b1 : FVec Ideal S128x128 .f32) (n : ℕ) (p : Fin 10000) (q : Fin 128)
    (i : S100000x128.Idx) (hi0 : (i 0).val = n * 10000 + p.val) (hi1 : (i 1).val = q.val)
    (hb0 : ∀ (k : Fin 128) (j : S100000x128.Idx), (j 0).val = n * 10000 + p.val → (j 1).val = k.val → b0 (ix2 p k) = h j)
    (hb1 : ∀ k : Fin 128, b1 (ix2 k q) = w (ix2 k q)) :
    k5_pay1 (F := Ideal) b0 b1 (ix2 p q)
      = Host.dotGeneral (F := Ideal) Cert.ReferenceIdeal.dot_S100000x128_S128x128_S100000x128_1_0_0_1_n_n none h w i := by
  obtain ⟨i0, i1, rfl⟩ : ∃ (i0 : Fin 100000) (i1 : Fin 128), i = ix2 i0 i1 := ⟨i 0, i 1, eq_ix2 i⟩
  obtain rfl : i1 = q := Fin.ext hi1
  rw [k5_pay1_apply]
  show _ = FloatOps.dotGeneral Cert.ReferenceIdeal.dot_S100000x128_S128x128_S100000x128_1_0_0_1_n_n none _ h w (ix2 i0 i1)
  rw [Cert.Lib.PlainMatmul.dotGeneral_apply Cert.ReferenceIdeal.dot_S100000x128_S128x128_S100000x128_1_0_0_1_n_n
    rfl rfl rfl rfl rfl rfl none _ h w i0 i1]
  refine Finset.sum_congr rfl fun k _ => ?_
  rw [hb0 k (ix2 i0 k) hi0 rfl, hb1 k]

section
variable (V : (c : Dev nD) → (b : Ref sig .tc) → Buf (Elt Ideal) ((c : Thread nD τ).loc b))

/-- WHAT POINT `t` WRITES BACK is block `t` of the whole-array product. -/
theorem flushed_eq (c : Dev nD) (h : FVec Ideal Cert.ReferenceIdeal.S100000x128 .f32)
    (w : FVec Ideal Cert.ReferenceIdeal.S128x128 .f32) (h0 : V c main_v67 = h) (h1 : V c main_v69 = w)
    (t : Fin cfg5.N) :
    (dat5 V c).flushed 2 t = ((cfg5.win 2).blk t).view.read (Elt Ideal)
      (Host.dotGeneral (F := Ideal) Cert.ReferenceIdeal.dot_S100000x128_S128x128_S100000x128_1_0_0_1_n_n none h w) := by
  show (cfg5.win 2).cut (grid5.coords t) ((dat5 V c).after 2 t) = _
  rw [after5_2]
  unfold out5
  rw [View.canon_unit_zero hz]
  simp only [View.ld_unit_zero (S := S10000x128) hz, View.ld_unit_zero (S := S128x128) hz]
  obtain ⟨e00, e01, e10, e11, e20, e21⟩ := idx_facts t
  funext y
  obtain ⟨p, q, rfl⟩ : ∃ (p : Fin 10000) (q : Fin 128), y = ix2 p q := ⟨y 0, y 1, eq_ix2 y⟩
  show k5_pay1 (F := Ideal) (iblk5 V c 0 t) (iblk5 V c 1 t) (ix2 p q)
    = Host.dotGeneral (F := Ideal) Cert.ReferenceIdeal.dot_S100000x128_S128x128_S100000x128_1_0_0_1_n_n none h w
        (((cfg5.win 2).blk t).view.emb (ix2 p q))
  refine block_apply h w (iblk5 V c 0 t) (iblk5 V c 1 t) t.val p q (((cfg5.win 2).blk t).view.emb (ix2 p q)) ?_ ?_ ?_ ?_
  · show win5_2.index t (0 : Fin 2) * 10000 + 1 * p.val = t.val * 10000 + p.val
    rw [e20]; omega
  · show win5_2.index t (1 : Fin 2) * 128 + 1 * q.val = q.val
    rw [e21]; omega
  · intro k j hj0 hj1
    show V c main_v67 (((cfg5.win 0).blk t).view.emb (ix2 p k)) = h j
    rw [← h0]
    refine congrArg (V c main_v67) (funext fun a => Fin.ext ?_)
    match a with
    | ⟨0, _⟩ => show win5_0.index t (0 : Fin 2) * 10000 + 1 * p.val = (j 0).val; rw [e00, hj0]; omega
    | ⟨1, _⟩ => show win5_0.index t (1 : Fin 2) * 128 + 1 * k.val = (j 1).val; rw [e01, hj1]; omega
  · intro k
    show V c main_v69 (((cfg5.win 1).blk t).view.emb (ix2 k q)) = w (ix2 k q)
    rw [← h1]
    refine congrArg (V c main_v69) (funext fun a => Fin.ext ?_)
    match a with
    | ⟨0, _⟩ => show win5_1.index t (0 : Fin 2) * 128 + 1 * k.val = k.val; rw [e10]; omega
    | ⟨1, _⟩ => show win5_1.index t (1 : Fin 2) * 128 + 1 * q.val = q.val; rw [e11]; omega

end

/-- An index of the output array is in point `t`'s block iff each coordinate is in the block's range on its axis. -/
theorem mem_blk (t : Fin cfg5.N) (i : S100000x128.Idx) :
    i ∈ ((cfg5.win 2).blk t).view.set ↔ ∀ a : Fin 2, win5_2.index t a * S10000x128.size a ≤ (i a).val
      ∧ (i a).val < win5_2.index t a * S10000x128.size a + S10000x128.size a := by
  show i ∈ ((View.whole main_v70).slice (win5_2.rect t)).set ↔ _
  rw [View.set_slice_whole, Rect.mem_set_unit]
  exact Iff.rfl

/-- THE ROW BLOCKS TILE THE OUTPUT: row `r` is in the block of point `r / 10000`. -/
theorem cover (i : S100000x128.Idx) :
    ∃ t : Fin cfg5.N, (cfg5.win 2).flush t = true ∧ i ∈ ((cfg5.win 2).blk t).view.set := by
  have hi0 : (i 0).val < 100000 := (i 0).isLt
  have hi1 : (i 1).val < 128 := (i 1).isLt
  have hN : cfg5.N = 10 := N_5
  obtain ⟨t, ht⟩ : ∃ t : Fin cfg5.N, t.val = (i 0).val / 10000 := ⟨⟨(i 0).val / 10000, by omega⟩, rfl⟩
  obtain ⟨-, -, -, -, e20, e21⟩ := idx_facts t
  refine ⟨t, flush5_2 t, ?_⟩
  rw [mem_blk]
  intro a
  match a with
  | ⟨0, _⟩ =>
    show win5_2.index t (0 : Fin 2) * 10000 ≤ (i 0).val ∧ (i 0).val < win5_2.index t (0 : Fin 2) * 10000 + 10000
    rw [e20, ht]; omega
  | ⟨1, _⟩ =>
    show win5_2.index t (1 : Fin 2) * 128 ≤ (i 1).val ∧ (i 1).val < win5_2.index t (1 : Fin 2) * 128 + 128
    rw [e21]; omega

end Val5

/-! ## The region's value -/

section Region5Value
variable (V : (c : Dev nD) → (b : Ref sig .tc) → Buf (Elt Ideal) ((c : Thread nD τ).loc b))

/-- THE OUTPUT ARRAY AFTER REGION 5 is the whole-array product of the two operand arrays at region entry. -/
theorem reg5_value (c : Dev nD) (h : FVec Ideal Cert.ReferenceIdeal.S100000x128 .f32)
    (w : FVec Ideal Cert.ReferenceIdeal.S128x128 .f32) (h0 : V c main_v67 = h) (h1 : V c main_v69 = w) :
    (dat5 V c).arrAt 2 cfg5.N
      = Host.dotGeneral (F := Ideal) Cert.ReferenceIdeal.dot_S100000x128_S128x128_S100000x128_1_0_0_1_n_n none h w :=
  (dat5 V c).arrAt_eq_of_cover 2 _ (fun t _ => Val5.flushed_eq V c h w h0 h1 t) Val5.cover

end Region5Value

end Cert.KernelIdeal.Hand

end
-- ==== Proof.KI.Val6.lean ====
/-
  Region 6 of the idealized kernel program, read as a value: the output array after the region as one function of the
  two arrays the region reads. Every point of the ten-point grid takes rows 10000·t … 10000·t + 9999 of the feature
  array, adds the one-row bias array to each row, clamps below at zero, and writes the rows back at the same place; the ten
  row blocks tile the array. So the output is the map  i ↦ max (x i + bias (0, i₁)) 0  of the two inputs, index by index,
  which is the host expression (add of the bias broadcast over the rows, maximum with the broadcast zero) read at i.
-/
import proofs.«402161_j18391049961554_1_alg».proof.Proof.KI.RegA6
import proofs.«402161_j18391049961554_1_alg».proof.Proof.Gen.ReferenceIdeal
import Idealize.ShloMosaic.Lib.Pipeline.Value
import Idealize.ShloMosaic.Lib.ValueIdx
import Idealize.ShloMosaic.Lib.ValueLayout

noncomputable section

namespace Cert.KernelIdeal.Hand.Val6

open Cert.KernelIdeal Cert.KernelIdeal.Gen Cert.KernelIdeal.Hand
open Idealize.ShloMosaic Idealize.ShloMosaic.TcCoe Idealize.SL.Sem
open Idealize.ShloMosaic.Pipeline (Dat)
open Idealize.ShloMosaic.ValueIdx

/-! ## The payload at an index -/

/-- The zero the clamp compares with: the word of the kernel's constant, never evaluated. -/
abbrev zeroWord : EReal := Scalar.ofBits (F := Ideal) .f32 0x00000000#32

/-- The payload at an index: the row's entry plus the bias entry of its column, clamped below at zero. -/
theorem pay_apply (x : Vec Ideal S10000x128 .f32) (b : Vec Ideal S1x128 .f32) (p : Fin 10000) (q : Fin 128) :
    k6_pay1 x b (ix2 p q) = max (x (ix2 p q) + b (ix2 (0 : Fin 1) q)) zeroWord := by
  unfold k6_pay1
  rw [maximumf_apply, addf_apply, broadcast_apply, shapeCast_self, shapeCast_self, broadcastTo_1b_ab_apply]

/-- The whole output array as a function of the two input arrays. -/
def reluBias (A : S100000x128.Idx → EReal) (B : S1x128.Idx → EReal) : S100000x128.Idx → EReal :=
  fun i => max (A i + B (ix2 (0 : Fin 1) (⟨(i 1).val, idx2_lt1 i⟩ : Fin 128))) zeroWord

/-! ## From blocks to the array -/

theorem hz : (![0, 0] : Fin 2 → Nat) = fun _ => 0 := funext fun a => by fin_cases a <;> rfl

variable (V : (c : Dev nD) → (b : Ref sig .tc) → Buf (Elt Ideal) ((c : Thread nD τ).loc b))

/-- The three index maps over the grid: the row-blocked windows sit at block row t, column block 0; the bias window
    always at block (0, 0). -/
theorem idx_facts : ∀ t : Fin cfg6.N, win6_0.index t (0 : Fin 2) = t.val ∧ win6_0.index t (1 : Fin 2) = 0
    ∧ win6_1.index t (0 : Fin 2) = 0 ∧ win6_1.index t (1 : Fin 2) = 0
    ∧ win6_2.index t (0 : Fin 2) = t.val ∧ win6_2.index t (1 : Fin 2) = 0 :=
  (by decide +kernel : ∀ t : Fin grid6.N, _)

/-- Where entry (p, q) of the output's block at point t sits in the array: row 10000·t + p, column q. -/
theorem emb_out (t : Fin cfg6.N) (p : Fin 10000) (q : Fin 128) :
    ((((cfg6.win 2).blk t).view.emb (ix2 p q) : S100000x128.Idx) 0).val = 10000 * t.val + p.val
    ∧ ((((cfg6.win 2).blk t).view.emb (ix2 p q) : S100000x128.Idx) 1).val = q.val := by
  obtain ⟨e0, e1, e2, e3, e4, e5⟩ := idx_facts t
  constructor
  · show win6_2.index t (0 : Fin 2) * 10000 + 1 * p.val = _; omega
  · show win6_2.index t (1 : Fin 2) * 128 + 1 * q.val = _; omega

/-- The feature window's block at point t is rows 10000·t … 10000·t + 9999 of its array. -/
theorem rows_apply (c : Dev nD) (t : Fin cfg6.N) (p : Fin 10000) (q : Fin 128) (k : S100000x128.Idx)
    (hk0 : (k 0).val = 10000 * t.val + p.val) (hk1 : (k 1).val = q.val) :
    (iblk6 V c 0 t : Vec Ideal S10000x128 .f32) (ix2 p q) = (V c main_v83 : S100000x128.Idx → EReal) k := by
  obtain ⟨e0, e1, e2, e3, e4, e5⟩ := idx_facts t
  show (V c main_v83 : S100000x128.Idx → EReal) (((cfg6.win 0).blk t).view.emb (ix2 p q)) = _
  refine congrArg _ (funext fun a => Fin.ext ?_)
  match a with
  | ⟨0, _⟩ => show win6_0.index t (0 : Fin 2) * 10000 + 1 * p.val = (k 0).val; omega
  | ⟨1, _⟩ => show win6_0.index t (1 : Fin 2) * 128 + 1 * q.val = (k 1).val; omega

/-- The bias window's block at every point is its whole one-row array. -/
theorem bias_apply (c : Dev nD) (t : Fin cfg6.N) (q : Fin 128) :
    (iblk6 V c 1 t : Vec Ideal S1x128 .f32) (ix2 (0 : Fin 1) q) = (V c main_v86 : S1x128.Idx → EReal) (ix2 (0 : Fin 1) q) := by
  obtain ⟨e0, e1, e2, e3, e4, e5⟩ := idx_facts t
  show (V c main_v86 : S1x128.Idx → EReal) (((cfg6.win 1).blk t).view.emb (ix2 (0 : Fin 1) q)) = _
  refine congrArg _ (funext fun a => Fin.ext ?_)
  match a with
  | ⟨0, _⟩ => show win6_1.index t (0 : Fin 2) * 1 + 1 * 0 = 0; omega
  | ⟨1, _⟩ => show win6_1.index t (1 : Fin 2) * 128 + 1 * q.val = q.val; omega

/-- What point t writes back is block t of the whole-array function of the arrays as the region finds them. -/
theorem flushed_eq (c : Dev nD) (t : Fin cfg6.N) :
    (dat6 V c).flushed 2 t = ((cfg6.win 2).blk t).view.read (Elt Ideal) (reluBias (V c main_v83) (V c main_v86)) := by
  show (cfg6.win 2).cut (grid6.coords t) ((dat6 V c).after 2 t) = _
  rw [after6_2]
  unfold out6
  rw [View.canon_unit_zero hz]
  simp only [View.ld_unit_zero (S := S10000x128) hz, View.ld_unit_zero (S := S1x128) hz]
  funext j
  obtain ⟨p, q, rfl⟩ : ∃ (p : Fin 10000) (q : Fin 128), j = ix2 p q := ⟨j 0, j 1, eq_ix2 j⟩
  obtain ⟨m0, m1⟩ := emb_out t p q
  show k6_pay1 (iblk6 V c 0 t) (iblk6 V c 1 t) (ix2 p q)
    = reluBias (V c main_v83) (V c main_v86) (((cfg6.win 2).blk t).view.emb (ix2 p q))
  refine (pay_apply (iblk6 V c 0 t) (iblk6 V c 1 t) p q).trans ?_
  unfold reluBias
  rw [rows_apply V c t p q (((cfg6.win 2).blk t).view.emb (ix2 p q)) m0 m1, bias_apply V c t q]
  have hq : (⟨((((cfg6.win 2).blk t).view.emb (ix2 p q) : S100000x128.Idx) 1).val,
      idx2_lt1 (((cfg6.win 2).blk t).view.emb (ix2 p q) : S100000x128.Idx)⟩ : Fin 128) = q := Fin.ext m1
  rw [hq]

/-- An index of the array is in point t's block iff each coordinate is in the block's range on its axis. -/
theorem mem_blk (t : Fin cfg6.N) (i : S100000x128.Idx) :
    i ∈ ((cfg6.win 2).blk t).view.set ↔ ∀ a : Fin 2, win6_2.index t a * S10000x128.size a ≤ (i a).val
      ∧ (i a).val < win6_2.index t a * S10000x128.size a + S10000x128.size a := by
  show i ∈ ((View.whole main_v87).slice (win6_2.rect t)).set ↔ _
  rw [View.set_slice_whole, Rect.mem_set_unit]
  exact Iff.rfl

/-- The ten row blocks tile the array: row r lies in the block of point r / 10000. -/
theorem covered (i : S100000x128.Idx) :
    ∃ t : Fin cfg6.N, (cfg6.win 2).flush t = true ∧ i ∈ ((cfg6.win 2).blk t).view.set := by
  have hi0 : (i 0).val < 100000 := idx2_lt0 i
  have hi1 : (i 1).val < 128 := idx2_lt1 i
  have hN : cfg6.N = 10 := N_6
  obtain ⟨t, ht⟩ : ∃ t : Fin cfg6.N, t.val = (i 0).val / 10000 := ⟨⟨(i 0).val / 10000, by rw [hN]; omega⟩, rfl⟩
  obtain ⟨e0, e1, e2, e3, e4, e5⟩ := idx_facts t
  refine ⟨t, flush6_2 t, ?_⟩
  rw [mem_blk]
  intro a
  match a with
  | ⟨0, _⟩ =>
    show win6_2.index t (0 : Fin 2) * 10000 ≤ (i 0).val ∧ (i 0).val < win6_2.index t (0 : Fin 2) * 10000 + 10000
    omega
  | ⟨1, _⟩ =>
    show win6_2.index t (1 : Fin 2) * 128 ≤ (i 1).val ∧ (i 1).val < win6_2.index t (1 : Fin 2) * 128 + 128
    omega

/-- The output array after the region is the whole-array function of the two input arrays as the region finds them. -/
theorem final (c : Dev nD) : (dat6 V c).arrAt 2 cfg6.N = reluBias (V c main_v83) (V c main_v86) :=
  (dat6 V c).arrAt_eq_of_cover 2 (reluBias (V c main_v83) (V c main_v86)) (fun t _ => flushed_eq V c t) covered

/-! ## The host expression read at an index -/

/-- The bias vector broadcast to one row and then over all rows reads, at (r, q), the vector at q. -/
theorem bias_bcast_apply (b : FVec Ideal Cert.ReferenceIdeal.S128 .f32) (r : Fin 100000) (q : Fin 128) :
    broadcastInDim Cert.ReferenceIdeal.S100000x128 ![0, 1] Cert.ReferenceIdeal.Gen.bcast_S1x128_S100000x128_0_1
      (broadcastInDim Cert.ReferenceIdeal.S1x128 ![1] Cert.ReferenceIdeal.Gen.bcast_S128_S1x128_1 b) (ix2 r q) = b (ix1 q) := by
  refine (broadcastInDim_apply _ Cert.ReferenceIdeal.Gen.bcast_S1x128_S100000x128_0_1 _ (ix2 r q) (ix2 (0 : Fin 1) q)
    (fun a => match a with
      | ⟨0, _⟩ => by show 0 = if (1 : Nat) = 1 then 0 else r.val; rw [if_pos rfl]
      | ⟨1, _⟩ => by show q.val = if (128 : Nat) = 1 then 0 else q.val; rw [if_neg (by decide)])).trans ?_
  exact broadcastInDim_apply _ Cert.ReferenceIdeal.Gen.bcast_S128_S1x128_1 b (ix2 (0 : Fin 1) q) (ix1 q)
    (fun a => match a with
      | ⟨0, _⟩ => by show q.val = if (128 : Nat) = 1 then 0 else q.val; rw [if_neg (by decide)])

/-- The scalar zero broadcast over the array reads the zero word everywhere. -/
theorem zero_bcast_apply (i : Cert.ReferenceIdeal.S100000x128.Idx) :
    broadcastInDim Cert.ReferenceIdeal.S100000x128 ![] Cert.ReferenceIdeal.Gen.bcast_S_S100000x128
      (constant (F := Ideal) Cert.ReferenceIdeal.S_ .f32 0x00000000#32) i = zeroWord :=
  broadcastInDim_apply _ Cert.ReferenceIdeal.Gen.bcast_S_S100000x128 _ i (fun a => a.elim0) (fun a => a.elim0)

end Cert.KernelIdeal.Hand.Val6

namespace Cert.KernelIdeal.Hand

open Cert.KernelIdeal Cert.KernelIdeal.Gen
open Idealize.ShloMosaic Idealize.ShloMosaic.TcCoe Idealize.SL.Sem
open Idealize.ShloMosaic.ValueIdx

/-- REGION 6's VALUE: at any entry contents whose feature array is a and whose one-row bias array holds the vector b,
    the output array after the region is  max (a + b broadcast over the rows) 0. -/
theorem reg6_value (V : (c : Dev nD) → (b : Ref sig .tc) → Buf (Elt Ideal) ((c : Thread nD τ).loc b)) (c : Dev nD)
    (a : FVec Ideal Cert.ReferenceIdeal.S100000x128 .f32) (b : FVec Ideal Cert.ReferenceIdeal.S128 .f32)
    (h0 : V c main_v83 = a)
    (h1 : ∀ j : Fin 128, (V c main_v86 : S1x128.Idx → EReal) (ix2 (0 : Fin 1) j) = b (ix1 j)) :
    (dat6 V c).arrAt 2 cfg6.N
      = maximumf (addf a (broadcastInDim Cert.ReferenceIdeal.S100000x128 ![0, 1] Cert.ReferenceIdeal.Gen.bcast_S1x128_S100000x128_0_1
            (broadcastInDim Cert.ReferenceIdeal.S1x128 ![1] Cert.ReferenceIdeal.Gen.bcast_S128_S1x128_1 b)))
          (broadcastInDim Cert.ReferenceIdeal.S100000x128 ![] Cert.ReferenceIdeal.Gen.bcast_S_S100000x128
            (constant Cert.ReferenceIdeal.S_ .f32 0x00000000#32)) := by
  rw [Val6.final, h0]
  funext i
  obtain ⟨r, q, rfl⟩ : ∃ (r : Fin 100000) (q : Fin 128), i = ix2 r q := ⟨i 0, i 1, eq_ix2 i⟩
  rw [maximumf_apply, addf_apply, Val6.bias_bcast_apply, Val6.zero_bcast_apply]
  unfold Val6.reluBias
  rw [h1]

end Cert.KernelIdeal.Hand

end
-- ==== Proof.KI.Val7a.lean ====
import proofs.«402161_j18391049961554_1_alg».proof.Proof.Gen.KernelIdeal.Skeleton
import Idealize.ShloMosaic.Lib.Pipeline.Value
import Idealize.ShloMosaic.Lib.ValueIdx
import Idealize.ShloMosaic.PureOps.Ideal.Laws

/-! # The pooling region's arithmetic, read at an entry

The region turns the segment word of each row into a row of 512 weights — one at the word's own segment number, zero
everywhere else — and, block of 5000 rows by block, adds (weights)ᵀ · (features) to one accumulator and the column
sums of the weights to another; both accumulators start from zero. This module reads each of these values at one
entry, for arbitrary blocks: the weights, the two zero fills, and the two updates as sums over the block's rows.
Changing the float format is the identity on extended reals, and the product into a zero accumulator is the plain
sum of products. -/

noncomputable section

namespace Cert.KernelIdeal.Hand.Val7

open Idealize.ShloMosaic Idealize.ShloMosaic.ValueIdx
open Cert.KernelIdeal Cert.KernelIdeal.Gen
open scoped BigOperators

/-- The weight a row whose segment word is `x` gives segment `n`: one when the word is the number `n`, zero otherwise. -/
def hot (x : BitVec 32) (n : ℕ) : EReal := if x = BitVec.ofNat 32 n then 1 else 0

/-- An equality test of two words, widened to 32 bits and read as a signed integer, is one or zero. -/
theorem eqWord_toReal (x y : BitVec 32) :
    ((((IntOp.cmpi .eq x y).setWidth 32).toInt : ℝ) : EReal) = if x = y then 1 else 0 := by
  unfold IntOp.cmpi
  by_cases h : x = y
  · subst h; simp
  · have hb : (x == y) = false := by simpa using h
    simp [hb, h]

/-- The weight of row `r` of a block for segment `n`: the row's word, spread along the 512 segments, is compared with
    the segment numbers 0 … 511; the one-bit answer, widened and converted, is one where they agree and zero elsewhere. -/
theorem k7_pay3_apply (v3 : Vec Ideal S5000x1 .i32) (r : Fin 5000) (n : Fin 512) :
    k7_pay3 (F := Ideal) v3 (ix2 r n) = hot (v3 (ix2 r (0 : Fin 1))) n.val := by
  unfold k7_pay3
  dsimp only
  show FloatOps.sitofp .f32 ((IntOp.cmpi .eq (broadcastTo S5000x512 (shapeCast S5000x1 v3 shapeCasts_S5000x1_S5000x1) broadcasts_S5000x1_S5000x512 (ix2 r n)) (iota Kind.tc S5000x512 32 [1] iota_S5000x512_d1_w32 (ix2 r n))).setWidth 32) = _
  rw [shapeCast_self, iota_single_apply,
    broadcastTo_apply v3 broadcasts_S5000x1_S5000x512 (ix2 r n) (ix2 r (0 : Fin 1)) (fun a => by
      match a with
      | ⟨0, _⟩ => rfl
      | ⟨1, _⟩ => rfl)]
  exact eqWord_toReal _ _

/-- The feature accumulator is reset to zero. -/
theorem k7_pay1_apply (i : S512x128.Idx) : k7_pay1 (F := Ideal) i = 0 := by
  unfold k7_pay1
  rw [shapeCast_self]
  show Ideal.ofBits .f32 0x00000000#32 = 0
  exact Ideal.ofBits_zero_f32

/-- The count accumulator is reset to zero. -/
theorem k7_pay2_apply (i : S512x1.Idx) : k7_pay2 (F := Ideal) i = 0 := by
  unfold k7_pay2
  rw [shapeCast_self]
  show Ideal.ofBits .f32 0x00000000#32 = 0
  exact Ideal.ofBits_zero_f32

/-! The product's contraction runs over the rows of the block: at the output entry (n, j) and the row k it reads the
weight at (k, n) and the feature at (k, j). -/

theorem lhs_dot7_0 (i : S512x128.Idx) (q : dot_S5000x512_S5000x128_S512x128_0_0_1_1_n_n.contr.Idx) :
    (dot_S5000x512_S5000x128_S512x128_0_0_1_1_n_n.lhsIdx i q 0).val = (q ⟨0, by decide⟩).val :=
  dot_S5000x512_S5000x128_S512x128_0_0_1_1_n_n.lhsIdx_val_of_single rfl i q
theorem lhs_dot7_1 (i : S512x128.Idx) (q : dot_S5000x512_S5000x128_S512x128_0_0_1_1_n_n.contr.Idx) :
    (dot_S5000x512_S5000x128_S512x128_0_0_1_1_n_n.lhsIdx i q 1).val = (i 0).val := by
  unfold DotDims.lhsIdx
  rw [dif_neg (show ¬(1 : Fin S5000x512.rank) ∈ dot_S5000x512_S5000x128_S512x128_0_0_1_1_n_n.lhsBatch by decide), dif_pos (show (1 : Fin S5000x512.rank) ∈ dot_S5000x512_S5000x128_S512x128_0_0_1_1_n_n.lhsNonContracting by decide)]
  rfl
theorem rhs_dot7_0 (i : S512x128.Idx) (q : dot_S5000x512_S5000x128_S512x128_0_0_1_1_n_n.contr.Idx) :
    (dot_S5000x512_S5000x128_S512x128_0_0_1_1_n_n.rhsIdx i q 0).val = (q ⟨0, by decide⟩).val :=
  dot_S5000x512_S5000x128_S512x128_0_0_1_1_n_n.rhsIdx_val_of_single rfl i q
theorem rhs_dot7_1 (i : S512x128.Idx) (q : dot_S5000x512_S5000x128_S512x128_0_0_1_1_n_n.contr.Idx) :
    (dot_S5000x512_S5000x128_S512x128_0_0_1_1_n_n.rhsIdx i q 1).val = (i 1).val := by
  unfold DotDims.rhsIdx
  rw [dif_neg (show ¬(1 : Fin S5000x128.rank) ∈ dot_S5000x512_S5000x128_S512x128_0_0_1_1_n_n.rhsBatch by decide), dif_pos (show (1 : Fin S5000x128.rank) ∈ dot_S5000x512_S5000x128_S512x128_0_0_1_1_n_n.rhsNonContracting by decide)]
  rfl

/-- The feature accumulator's update at an entry: what it held plus, over the 5000 rows of the block, the weight
    of the row for the segment times the row's feature. -/
theorem k7_pay4_apply (v3 : Vec Ideal S5000x1 .i32) (v11 : Vec Ideal S5000x128 .f32) (v14 : Vec Ideal S512x128 .f32)
    (n : Fin 512) (j : Fin 128) :
    k7_pay4 (F := Ideal) v3 v11 v14 (ix2 n j)
      = v14 (ix2 n j) + ∑ r : Fin 5000, hot (v3 (ix2 r (0 : Fin 1))) n.val * v11 (ix2 r j) := by
  unfold k7_pay4
  rw [shapeCast_self, shapeCast_self]
  show v14 (ix2 n j) + FloatOps.matmul dot_S5000x512_S5000x128_S512x128_0_0_1_1_n_n none
      (truncf FTy.bf16 (k7_pay3 (F := Ideal) v3) bitsLt_bf16_f32) (truncf FTy.bf16 v11 bitsLt_bf16_f32)
      (constant S512x128 FTy.f32 0x00000000#32) (ix2 n j) = _
  rw [Ideal.matmul_constant_zero_apply, ← Equiv.sum_comp (contrEquiv1 dot_S5000x512_S5000x128_S512x128_0_0_1_1_n_n 5000 rfl rfl).symm]
  refine congrArg (v14 (ix2 n j) + ·) (Finset.sum_congr rfl fun k _ => ?_)
  have hk := contrEquiv1_symm_val dot_S5000x512_S5000x128_S512x128_0_0_1_1_n_n 5000 rfl rfl k
  have el : dot_S5000x512_S5000x128_S512x128_0_0_1_1_n_n.lhsIdx (ix2 n j) ((contrEquiv1 dot_S5000x512_S5000x128_S512x128_0_0_1_1_n_n 5000 rfl rfl).symm k) = ix2 k n := funext fun a => Fin.ext (by
    match a with
    | ⟨0, _⟩ => exact (lhs_dot7_0 _ _).trans hk
    | ⟨1, _⟩ => exact lhs_dot7_1 _ _)
  have er : dot_S5000x512_S5000x128_S512x128_0_0_1_1_n_n.rhsIdx (ix2 n j) ((contrEquiv1 dot_S5000x512_S5000x128_S512x128_0_0_1_1_n_n 5000 rfl rfl).symm k) = ix2 k j := funext fun a => Fin.ext (by
    match a with
    | ⟨0, _⟩ => exact (rhs_dot7_0 _ _).trans hk
    | ⟨1, _⟩ => exact rhs_dot7_1 _ _)
  rw [el, er]
  show k7_pay3 (F := Ideal) v3 (ix2 k n) * v11 (ix2 k j) = _
  rw [k7_pay3_apply]

/-- The column sums of a block of weights: at segment `n`, the sum over the block's 5000 rows of the weight at (r, n). -/
theorem colsum_apply (src : FVec Ideal S5000x512 .f32) (hφ : FKind.Formats .f32)
    (hacc : (0x00000000#32 : BitVec 32) = FKind.add.neutral .f32 hφ) (n : Fin 512) :
    multiReduction .add [0] S512 src 0x00000000#32 reduces_S5000x512_S512 hφ hacc (ix1 n)
      = ∑ r : Fin 5000, src (ix2 r n) := by
  refine (Ideal.multiReduction_add_single src 0x00000000#32 reduces_S5000x512_S512 hφ hacc (ix1 n)).trans ?_
  refine Finset.sum_congr rfl fun r _ => congrArg src (funext fun a => Fin.ext ?_)
  match a with
  | ⟨0, _⟩ => rfl
  | ⟨1, _⟩ => rfl

/-- The count accumulator's update at an entry: what it held plus, over the 5000 rows of the block, the weight of
    the row for the segment. -/
theorem k7_pay5_apply (v3 : Vec Ideal S5000x1 .i32) (v23 : Vec Ideal S512x1 .f32) (n : Fin 512) :
    k7_pay5 (F := Ideal) v3 v23 (ix2 n (0 : Fin 1))
      = v23 (ix2 n (0 : Fin 1)) + ∑ r : Fin 5000, hot (v3 (ix2 r (0 : Fin 1))) n.val := by
  unfold k7_pay5
  rw [shapeCast_self]
  show v23 (ix2 n (0 : Fin 1)) + shapeCast S512x1 (multiReduction FKind.add [0] S512 (k7_pay3 (F := Ideal) v3) 0x00000000#32
      reduces_S5000x512_S512 (.inl rfl) rfl) shapeCasts_S512_S512x1 (ix2 n (0 : Fin 1)) = _
  rw [shapeCast_apply _ shapeCasts_S512_S512x1 (ix2 n (0 : Fin 1)) (ix1 n) (by
    rw [Shape.rowMajor_val_one, Shape.rowMajor_val_two]
    show n.val = n.val * 1 + 0
    omega)]
  refine congrArg (v23 (ix2 n (0 : Fin 1)) + ·) ((colsum_apply _ _ _ n).trans ?_)
  exact Finset.sum_congr rfl fun r _ => k7_pay3_apply v3 r n

end Cert.KernelIdeal.Hand.Val7
-- ==== Proof.KI.Val7b.lean ====
import proofs.«402161_j18391049961554_1_alg».proof.Proof.KI.Reg7
import proofs.«402161_j18391049961554_1_alg».proof.Proof.KI.Val7a

set_option maxRecDepth 16384

/-! # The accumulators after each point, as sums over rows

Point `t` of the grid reads rows `5000 t … 5000 t + 4999` of the two input arrays and adds their contributions to the
two accumulators, which start from zero at point 0. By induction over the points, after point `n` each accumulator
entry is the sum of the contributions of the first `5000 (n + 1)` rows; after the last point, of all 100000 rows.
Only that addition of extended reals is associative with zero neutral is used: nothing here needs a finite value. -/

noncomputable section

namespace Cert.KernelIdeal.Hand.Val7

open Idealize.ShloMosaic Idealize.ShloMosaic.TcCoe Idealize.ShloMosaic.ValueIdx
open Cert.KernelIdeal Cert.KernelIdeal.Gen Cert.KernelIdeal.Hand
open scoped BigOperators

/-! ## Sums over the rows, block by block

A function of the 100000 rows is extended by zero to every natural number; its sum over the rows is then a sum
over an initial segment of the naturals, which splits into the 20 blocks of 5000 consecutive rows. -/

/-- A function of the rows, zero beyond them. -/
def ext0 (f : Fin 100000 → EReal) (b : ℕ) : EReal := if h : b < 100000 then f ⟨b, h⟩ else 0

/-- On a row the extension is the function. -/
theorem ext0_of_lt (f : Fin 100000 → EReal) (b : ℕ) (h : b < 100000) : ext0 f b = f ⟨b, h⟩ := dif_pos h

/-- The sum over all rows is the sum of the extension over the first 100000 naturals. -/
theorem sum_ext0 (f : Fin 100000 → EReal) : ∑ b ∈ Finset.range 100000, ext0 f b = ∑ b : Fin 100000, f b := by
  rw [← Fin.sum_univ_eq_sum_range (ext0 f) 100000]
  exact Finset.sum_congr rfl fun b _ => ext0_of_lt f b.val b.isLt

section Region7

variable (V : (c : Dev nD) → (b : Ref sig .tc) → Buf (Elt Ideal) ((c : Thread nD τ).loc b))

/-- The segment words of all rows, as the region finds them. -/
abbrev idsArr (c : Dev nD) : Vec Ideal S100000x1 .i32 := V c main_v88
/-- The features of all rows, as the region finds them. -/
abbrev featArr (c : Dev nD) : Vec Ideal S100000x128 .f32 := V c main_v87
/-- The segment words of the rows of block `t`. -/
abbrev idsBlk (c : Dev nD) (t : Fin cfg7.N) : Vec Ideal S5000x1 .i32 := iblk7 V c 1 t
/-- The features of the rows of block `t`. -/
abbrev featBlk (c : Dev nD) (t : Fin cfg7.N) : Vec Ideal S5000x128 .f32 := iblk7 V c 0 t

/-- The block of the two inputs at point `t` starts at row `5000 t` and at column 0. -/
theorem idx_facts7 : ∀ t : Fin cfg7.N, win7_0.index t (0 : Fin 2) = t.val ∧ win7_0.index t (1 : Fin 2) = 0
    ∧ win7_1.index t (0 : Fin 2) = t.val ∧ win7_1.index t (1 : Fin 2) = 0 :=
  (by decide +kernel : ∀ t : Fin grid7.N, _)

/-- Row `r` of block `t` is a row of the array. -/
theorem row_lt (t : Fin cfg7.N) (r : Fin 5000) : 5000 * t.val + r.val < 100000 := by
  have hN : cfg7.N = 20 := N_7
  have := t.isLt
  have := r.isLt
  omega

/-- Row `r` of block `t` is row `5000 t + r` of the array: the segment words. -/
theorem idsBlk_apply (c : Dev nD) (t : Fin cfg7.N) (r : Fin 5000) :
    idsBlk V c t (ix2 r (0 : Fin 1)) = idsArr V c (ix2 (⟨5000 * t.val + r.val, row_lt t r⟩ : Fin 100000) (0 : Fin 1)) := by
  obtain ⟨-, -, e0, e1⟩ := idx_facts7 t
  show V c main_v88 (((cfg7.win 1).blk t).view.emb (ix2 r (0 : Fin 1))) = V c main_v88 _
  refine congrArg (V c main_v88) (funext fun a => Fin.ext ?_)
  match a with
  | ⟨0, _⟩ => show win7_1.index t (0 : Fin 2) * 5000 + 1 * r.val = 5000 * t.val + r.val; omega
  | ⟨1, _⟩ => show win7_1.index t (1 : Fin 2) * 1 + 1 * 0 = 0; omega

/-- Row `r` of block `t` is row `5000 t + r` of the array: the features. -/
theorem featBlk_apply (c : Dev nD) (t : Fin cfg7.N) (r : Fin 5000) (j : Fin 128) :
    featBlk V c t (ix2 r j) = featArr V c (ix2 (⟨5000 * t.val + r.val, row_lt t r⟩ : Fin 100000) j) := by
  obtain ⟨e0, e1, -, -⟩ := idx_facts7 t
  show V c main_v87 (((cfg7.win 0).blk t).view.emb (ix2 r j)) = V c main_v87 _
  refine congrArg (V c main_v87) (funext fun a => Fin.ext ?_)
  match a with
  | ⟨0, _⟩ => show win7_0.index t (0 : Fin 2) * 5000 + 1 * r.val = 5000 * t.val + r.val; omega
  | ⟨1, _⟩ => show win7_0.index t (1 : Fin 2) * 128 + 1 * j.val = j.val; omega

/-- What row `b` contributes to entry (s, j) of the segment sums: its weight for segment `s` times its feature `j`. -/
def sumTerm (c : Dev nD) (s : Fin 512) (j : Fin 128) (b : Fin 100000) : EReal :=
  hot (idsArr V c (ix2 b (0 : Fin 1))) s.val * featArr V c (ix2 b j)

/-- What row `b` contributes to the count of segment `s`: its weight for the segment. -/
def cntTerm (c : Dev nD) (s : Fin 512) (b : Fin 100000) : EReal := hot (idsArr V c (ix2 b (0 : Fin 1))) s.val

/-- The product of a block's weights and features at an entry is the sum of the rows' contributions over the block. -/
theorem blockSum (c : Dev nD) (t : Fin cfg7.N) (s : Fin 512) (j : Fin 128) :
    ∑ r : Fin 5000, hot (idsBlk V c t (ix2 r (0 : Fin 1))) s.val * featBlk V c t (ix2 r j)
      = ∑ r ∈ Finset.range 5000, ext0 (sumTerm V c s j) (5000 * t.val + r) := by
  rw [← Fin.sum_univ_eq_sum_range (fun r => ext0 (sumTerm V c s j) (5000 * t.val + r)) 5000]
  refine Finset.sum_congr rfl fun r _ => ?_
  rw [ext0_of_lt _ _ (row_lt t r), idsBlk_apply V c t r, featBlk_apply V c t r j]
  rfl

/-- The column sum of a block's weights at a segment is the sum of the rows' weights over the block. -/
theorem blockCnt (c : Dev nD) (t : Fin cfg7.N) (s : Fin 512) :
    ∑ r : Fin 5000, hot (idsBlk V c t (ix2 r (0 : Fin 1))) s.val
      = ∑ r ∈ Finset.range 5000, ext0 (cntTerm V c s) (5000 * t.val + r) := by
  rw [← Fin.sum_univ_eq_sum_range (fun r => ext0 (cntTerm V c s) (5000 * t.val + r)) 5000]
  refine Finset.sum_congr rfl fun r _ => ?_
  rw [ext0_of_lt _ _ (row_lt t r), idsBlk_apply V c t r]
  rfl

/-- After point `n` the feature accumulator holds, at every entry, the contributions of the rows of the blocks
    0 … n: the first `5000 (n + 1)` rows. -/
theorem accS_apply (c : Dev nD) : ∀ n : ℕ, n < 20 → ∀ (s : Fin 512) (j : Fin 128),
    accS V c n (ix2 s j) = ∑ b ∈ Finset.range (5000 * (n + 1)), ext0 (sumTerm V c s j) b
  | 0, _, s, j => by
    rw [accS_zero V c N7_pos]
    refine (k7_pay4_apply (idsBlk V c ⟨0, N7_pos⟩) (featBlk V c ⟨0, N7_pos⟩) (k7_pay1 (F := Ideal)) s j).trans ?_
    rw [k7_pay1_apply, zero_add, blockSum V c ⟨0, N7_pos⟩ s j]
    refine Finset.sum_congr rfl fun r _ => ?_
    show ext0 (sumTerm V c s j) (5000 * 0 + r) = _
    rw [Nat.mul_zero, Nat.zero_add]
  | n + 1, h, s, j => by
    have hN : n + 1 < cfg7.N := by have e : cfg7.N = 20 := N_7; omega
    rw [accS_succ V c n hN]
    refine (k7_pay4_apply (idsBlk V c ⟨n + 1, hN⟩) (featBlk V c ⟨n + 1, hN⟩) (accS V c n) s j).trans ?_
    rw [accS_apply c n (by omega) s j, blockSum V c ⟨n + 1, hN⟩ s j,
      show 5000 * (n + 1 + 1) = 5000 * (n + 1) + 5000 by omega, Finset.sum_range_add]

/-- After point `n` the count accumulator holds, at every segment, the weights of the first `5000 (n + 1)` rows. -/
theorem accC_apply (c : Dev nD) : ∀ n : ℕ, n < 20 → ∀ (s : Fin 512),
    accC V c n (ix2 s (0 : Fin 1)) = ∑ b ∈ Finset.range (5000 * (n + 1)), ext0 (cntTerm V c s) b
  | 0, _, s => by
    rw [accC_zero V c N7_pos]
    refine (k7_pay5_apply (idsBlk V c ⟨0, N7_pos⟩) (k7_pay2 (F := Ideal)) s).trans ?_
    rw [k7_pay2_apply, zero_add, blockCnt V c ⟨0, N7_pos⟩ s]
    refine Finset.sum_congr rfl fun r _ => ?_
    show ext0 (cntTerm V c s) (5000 * 0 + r) = _
    rw [Nat.mul_zero, Nat.zero_add]
  | n + 1, h, s => by
    have hN : n + 1 < cfg7.N := by have e : cfg7.N = 20 := N_7; omega
    rw [accC_succ V c n hN]
    refine (k7_pay5_apply (idsBlk V c ⟨n + 1, hN⟩) (accC V c n) s).trans ?_
    rw [accC_apply c n (by omega) s, blockCnt V c ⟨n + 1, hN⟩ s,
      show 5000 * (n + 1 + 1) = 5000 * (n + 1) + 5000 by omega, Finset.sum_range_add]

/-- At the last point the feature accumulator holds the sum over ALL rows of weight times feature. -/
theorem accS_last (c : Dev nD) (s : Fin 512) (j : Fin 128) :
    accS V c 19 (ix2 s j) = ∑ b : Fin 100000, hot (idsArr V c (ix2 b (0 : Fin 1))) s.val * featArr V c (ix2 b j) := by
  rw [accS_apply V c 19 (by omega) s j]
  exact sum_ext0 (sumTerm V c s j)

/-- At the last point the count accumulator holds the sum over ALL rows of the weights. -/
theorem accC_last (c : Dev nD) (s : Fin 512) :
    accC V c 19 (ix2 s (0 : Fin 1)) = ∑ b : Fin 100000, hot (idsArr V c (ix2 b (0 : Fin 1))) s.val := by
  rw [accC_apply V c 19 (by omega) s]
  exact sum_ext0 (cntTerm V c s)

end Region7

end Cert.KernelIdeal.Hand.Val7
-- ==== Proof.KI.Val7s.lean ====
import proofs.«402161_j18391049961554_1_alg».proof.Proof.Gen.ReferenceIdeal
import proofs.«402161_j18391049961554_1_alg».proof.Proof.KI.Val7a
import Idealize.ShloMosaic.Lib.Pipeline.Value
import Idealize.ShloMosaic.Lib.ValueIdx
import Idealize.ShloMosaic.PureOps.Ideal.Laws
import Idealize.ShloMosaic.Lib.IdealHost

/-! # The reference's segment sums and counts, read at an entry

An accumulating scatter into zeros holds, at each entry of the result, the sum of the updates whose result index is
that entry. Here update row `b` goes to the segment its word names, the word read as a SIGNED integer and not clamped:
to row `n` of the result when that integer is `n` with 0 ≤ n < 512, and nowhere when it is negative or at least 512.
For 0 ≤ n < 512 "the word read signed is n" and "the word is the 32-bit word of n" are the same condition, so the
reference weighs row `b` for segment `n` by the very zero-or-one the kernel's comparison computes. -/

noncomputable section

namespace Cert.KernelIdeal.Hand.Val7

open Idealize.ShloMosaic Idealize.ShloMosaic.ValueIdx
open scoped BigOperators

/-! ## The segment sums: where update entry (b, c) lands -/

/-- On the segment axis the window of update (b, c) starts at row `b`'s word, read signed. -/
theorem sc_start0 (idx : IVec Cert.ReferenceIdeal.S100000x1 32) (b : Fin 100000) (c : Fin 128) :
    Cert.ReferenceIdeal.scatter_S512x128_S100000x1_S100000x128_1_0_0_1.start (ix2 b c) idx 0 = (idx (ix2 b (0 : Fin 1))).toInt := by
  unfold ScatterDims.start
  rw [dif_pos (show (0 : Fin Cert.ReferenceIdeal.S512x128.rank) ∈ Cert.ReferenceIdeal.scatter_S512x128_S100000x1_S100000x128_1_0_0_1.scatterDimsToOperandDims by decide)]
  refine congrArg (fun z => (idx z).toInt) (funext fun a => Fin.ext ?_)
  match a with
  | ⟨0, _⟩ => rfl
  | ⟨1, _⟩ => rfl

/-- On the feature axis it starts at 0. -/
theorem sc_start1 (idx : IVec Cert.ReferenceIdeal.S100000x1 32) (b : Fin 100000) (c : Fin 128) :
    Cert.ReferenceIdeal.scatter_S512x128_S100000x1_S100000x128_1_0_0_1.start (ix2 b c) idx 1 = 0 := by
  unfold ScatterDims.start
  rw [dif_neg (show ¬(1 : Fin Cert.ReferenceIdeal.S512x128.rank) ∈ Cert.ReferenceIdeal.scatter_S512x128_S100000x1_S100000x128_1_0_0_1.scatterDimsToOperandDims by decide)]

/-- Inside the window, update (b, c) sits at 0 on the segment axis -/
theorem sc_window0 (b : Fin 100000) (c : Fin 128) :
    Cert.ReferenceIdeal.scatter_S512x128_S100000x1_S100000x128_1_0_0_1.window (ix2 b c) 0 = 0 := by
  unfold ScatterDims.window
  rw [dif_neg (show ¬(0 : Fin Cert.ReferenceIdeal.S512x128.rank) ∈ Cert.ReferenceIdeal.scatter_S512x128_S100000x1_S100000x128_1_0_0_1.sKept by decide)]

/-- and at its own column `c` on the feature axis. -/
theorem sc_window1 (b : Fin 100000) (c : Fin 128) :
    Cert.ReferenceIdeal.scatter_S512x128_S100000x1_S100000x128_1_0_0_1.window (ix2 b c) 1 = c.val := by
  unfold ScatterDims.window
  rw [dif_pos (show (1 : Fin Cert.ReferenceIdeal.S512x128.rank) ∈ Cert.ReferenceIdeal.scatter_S512x128_S100000x1_S100000x128_1_0_0_1.sKept by decide)]
  rfl

/-- So update (b, c) lands on entry (n, j) exactly when row `b`'s word, read signed, is `n` and `c` is `j`; a word
    outside [0, 512) lands on no entry. -/
theorem sc_result_iff (idx : IVec Cert.ReferenceIdeal.S100000x1 32) (b : Fin 100000) (c : Fin 128) (n : Fin 512) (j : Fin 128) :
    Cert.ReferenceIdeal.scatter_S512x128_S100000x1_S100000x128_1_0_0_1.resultIdx? (ix2 b c) idx = some (ix2 n j)
      ↔ (idx (ix2 b (0 : Fin 1))).toInt = (n.val : ℤ) ∧ c = j := by
  have h0 := sc_start0 idx b c
  have h1 := sc_start1 idx b c
  have w0 := sc_window0 b c
  have w1 := sc_window1 b c
  unfold ScatterDims.resultIdx?
  constructor
  · intro h
    split at h
    · rename_i hall
      have e := Option.some.inj h
      have e0 : ((Cert.ReferenceIdeal.scatter_S512x128_S100000x1_S100000x128_1_0_0_1.start (ix2 b c) idx 0 + (Cert.ReferenceIdeal.scatter_S512x128_S100000x1_S100000x128_1_0_0_1.window (ix2 b c) 0 : ℤ)).toNat) = n.val := congrArg (fun f => (f 0).val) e
      have e1 : ((Cert.ReferenceIdeal.scatter_S512x128_S100000x1_S100000x128_1_0_0_1.start (ix2 b c) idx 1 + (Cert.ReferenceIdeal.scatter_S512x128_S100000x1_S100000x128_1_0_0_1.window (ix2 b c) 1 : ℤ)).toNat) = j.val := congrArg (fun f => (f 1).val) e
      have b0 := (hall 0).1
      rw [h0, w0] at e0 b0
      rw [h1, w1] at e1
      refine ⟨by omega, Fin.ext (by omega)⟩
    · exact absurd h (by simp)
  · rintro ⟨hn, rfl⟩
    have hall : ∀ a : Fin Cert.ReferenceIdeal.S512x128.rank,
        0 ≤ Cert.ReferenceIdeal.scatter_S512x128_S100000x1_S100000x128_1_0_0_1.start (ix2 b c) idx a
              + (Cert.ReferenceIdeal.scatter_S512x128_S100000x1_S100000x128_1_0_0_1.window (ix2 b c) a : ℤ)
          ∧ Cert.ReferenceIdeal.scatter_S512x128_S100000x1_S100000x128_1_0_0_1.start (ix2 b c) idx a
              + (Cert.ReferenceIdeal.scatter_S512x128_S100000x1_S100000x128_1_0_0_1.window (ix2 b c) a : ℤ)
            < (Cert.ReferenceIdeal.S512x128.size a : ℤ) := fun a => by
      match a with
      | ⟨0, _⟩ =>
        show 0 ≤ Cert.ReferenceIdeal.scatter_S512x128_S100000x1_S100000x128_1_0_0_1.start (ix2 b c) idx 0 + (Cert.ReferenceIdeal.scatter_S512x128_S100000x1_S100000x128_1_0_0_1.window (ix2 b c) 0 : ℤ)
          ∧ Cert.ReferenceIdeal.scatter_S512x128_S100000x1_S100000x128_1_0_0_1.start (ix2 b c) idx 0 + (Cert.ReferenceIdeal.scatter_S512x128_S100000x1_S100000x128_1_0_0_1.window (ix2 b c) 0 : ℤ) < ((512 : ℕ) : ℤ)
        rw [h0, w0, hn]; have := n.isLt; omega
      | ⟨1, _⟩ =>
        show 0 ≤ Cert.ReferenceIdeal.scatter_S512x128_S100000x1_S100000x128_1_0_0_1.start (ix2 b c) idx 1 + (Cert.ReferenceIdeal.scatter_S512x128_S100000x1_S100000x128_1_0_0_1.window (ix2 b c) 1 : ℤ)
          ∧ Cert.ReferenceIdeal.scatter_S512x128_S100000x1_S100000x128_1_0_0_1.start (ix2 b c) idx 1 + (Cert.ReferenceIdeal.scatter_S512x128_S100000x1_S100000x128_1_0_0_1.window (ix2 b c) 1 : ℤ) < ((128 : ℕ) : ℤ)
        rw [h1, w1]; have := c.isLt; omega
    rw [dif_pos hall]
    refine congrArg some (funext fun a => Fin.ext ?_)
    match a with
    | ⟨0, _⟩ =>
      show (Cert.ReferenceIdeal.scatter_S512x128_S100000x1_S100000x128_1_0_0_1.start (ix2 b c) idx 0 + (Cert.ReferenceIdeal.scatter_S512x128_S100000x1_S100000x128_1_0_0_1.window (ix2 b c) 0 : ℤ)).toNat = n.val
      rw [h0, w0, hn]; omega
    | ⟨1, _⟩ =>
      show (Cert.ReferenceIdeal.scatter_S512x128_S100000x1_S100000x128_1_0_0_1.start (ix2 b c) idx 1 + (Cert.ReferenceIdeal.scatter_S512x128_S100000x1_S100000x128_1_0_0_1.window (ix2 b c) 1 : ℤ)).toNat = c.val
      rw [h1, w1]; omega

/-- A word read as a signed integer is the small number `n` exactly when it is the word of `n`. -/
theorem toInt_eq_iff (x : BitVec 32) (n : ℕ) (hn : n < 512) : x.toInt = (n : ℤ) ↔ x = BitVec.ofNat 32 n := by
  have hv : (BitVec.ofNat 32 n).toInt = (n : ℤ) := by
    rw [BitVec.toInt_ofNat']
    unfold Int.bmod
    dsimp only
    omega
  constructor
  · intro h; exact BitVec.eq_of_toInt_eq (h.trans hv.symm)
  · intro h; rw [h]; exact hv

/-- The segment sums of the reference at an entry: the sum over all rows of the row's weight for the segment times
    its feature. A row whose segment word, read signed, is negative or at least 512 lands outside the result and
    is dropped; its weight is zero for every segment. -/
theorem scatterSum_apply (x3 : IVec Cert.ReferenceIdeal.S100000 32) (h : FVec Ideal Cert.ReferenceIdeal.S100000x128 .f32)
    (n : Fin 512) (j : Fin 128) :
    Host.scatterAdd (F := Ideal) Cert.ReferenceIdeal.scatter_S512x128_S100000x1_S100000x128_1_0_0_1
        (broadcastInDim Cert.ReferenceIdeal.S512x128 ![] Cert.ReferenceIdeal.Facts₀.bcast_S_S512x128 (constant (F := Ideal) Cert.ReferenceIdeal.S_ .f32 0x00000000#32))
        (broadcastInDim Cert.ReferenceIdeal.S100000x1 ![0] Cert.ReferenceIdeal.Facts₀.bcast_S100000_S100000x1_0 x3) h (ix2 n j)
      = ∑ b : Fin 100000, hot (x3 (ix1 b)) n.val * h (ix2 b j) := by
  show Ideal.ofBits .f32 0x00000000#32 + ∑ u ∈ Finset.univ.filter (fun u =>
      Cert.ReferenceIdeal.scatter_S512x128_S100000x1_S100000x128_1_0_0_1.resultIdx? u
        (broadcastInDim Cert.ReferenceIdeal.S100000x1 ![0] Cert.ReferenceIdeal.Facts₀.bcast_S100000_S100000x1_0 x3) = some (ix2 n j)), h u = _
  rw [Ideal.ofBits_zero_f32, zero_add, Finset.sum_filter, sum_idx2]
  refine Finset.sum_congr rfl fun b _ => ?_
  have hidx : (broadcastInDim Cert.ReferenceIdeal.S100000x1 ![0] Cert.ReferenceIdeal.Facts₀.bcast_S100000_S100000x1_0 x3) (ix2 b (0 : Fin 1)) = x3 (ix1 b) :=
    broadcastInDim_apply _ _ x3 (ix2 b (0 : Fin 1)) (ix1 b) (fun a => match a with
      | ⟨0, _⟩ => by show b.val = if (100000 : ℕ) = 1 then 0 else b.val; rw [if_neg (by decide)])
  simp only [sc_result_iff, hidx]
  unfold hot
  by_cases hb : x3 (ix1 b) = BitVec.ofNat 32 n.val
  · have hi : (x3 (ix1 b)).toInt = (n.val : ℤ) := (toInt_eq_iff _ _ n.isLt).2 hb
    rw [if_pos hb, one_mul]
    simp only [hi, true_and]
    rw [Finset.sum_ite_eq' Finset.univ j (fun c => h (ix2 b c)), if_pos (Finset.mem_univ j)]
  · have hi : ¬(x3 (ix1 b)).toInt = (n.val : ℤ) := fun e => hb ((toInt_eq_iff _ _ n.isLt).1 e)
    rw [if_neg hb, zero_mul]
    simp only [hi, false_and, if_false]
    exact Finset.sum_const_zero

/-! ## The segment counts: the same scatter of the constant one, into a vector -/

/-- The window of update `b` starts at row `b`'s word, read signed, -/
theorem cn_start0 (idx : IVec Cert.ReferenceIdeal.S100000x1 32) (b : Fin 100000) :
    Cert.ReferenceIdeal.scatter_S512_S100000x1_S100000_n_0_0_1.start (ix1 b) idx 0 = (idx (ix2 b (0 : Fin 1))).toInt := by
  unfold ScatterDims.start
  rw [dif_pos (show (0 : Fin Cert.ReferenceIdeal.S512.rank) ∈ Cert.ReferenceIdeal.scatter_S512_S100000x1_S100000_n_0_0_1.scatterDimsToOperandDims by decide)]
  refine congrArg (fun z => (idx z).toInt) (funext fun a => Fin.ext ?_)
  match a with
  | ⟨0, _⟩ => rfl
  | ⟨1, _⟩ => rfl

/-- and the update sits at 0 inside it. -/
theorem cn_window0 (b : Fin 100000) :
    Cert.ReferenceIdeal.scatter_S512_S100000x1_S100000_n_0_0_1.window (ix1 b) 0 = 0 := by
  unfold ScatterDims.window
  rw [dif_neg (show ¬(0 : Fin Cert.ReferenceIdeal.S512.rank) ∈ Cert.ReferenceIdeal.scatter_S512_S100000x1_S100000_n_0_0_1.sKept by decide)]

/-- So update `b` lands on segment `n` exactly when row `b`'s word, read signed, is `n`. -/
theorem cn_result_iff (idx : IVec Cert.ReferenceIdeal.S100000x1 32) (b : Fin 100000) (n : Fin 512) :
    Cert.ReferenceIdeal.scatter_S512_S100000x1_S100000_n_0_0_1.resultIdx? (ix1 b) idx = some (ix1 n)
      ↔ (idx (ix2 b (0 : Fin 1))).toInt = (n.val : ℤ) := by
  have h0 := cn_start0 idx b
  have w0 := cn_window0 b
  unfold ScatterDims.resultIdx?
  constructor
  · intro h
    split at h
    · rename_i hall
      have e := Option.some.inj h
      have e0 : ((Cert.ReferenceIdeal.scatter_S512_S100000x1_S100000_n_0_0_1.start (ix1 b) idx 0 + (Cert.ReferenceIdeal.scatter_S512_S100000x1_S100000_n_0_0_1.window (ix1 b) 0 : ℤ)).toNat) = n.val := congrArg (fun f => (f 0).val) e
      have b0 := (hall 0).1
      rw [h0, w0] at e0 b0
      omega
    · exact absurd h (by simp)
  · intro hn
    have hall : ∀ a : Fin Cert.ReferenceIdeal.S512.rank,
        0 ≤ Cert.ReferenceIdeal.scatter_S512_S100000x1_S100000_n_0_0_1.start (ix1 b) idx a
              + (Cert.ReferenceIdeal.scatter_S512_S100000x1_S100000_n_0_0_1.window (ix1 b) a : ℤ)
          ∧ Cert.ReferenceIdeal.scatter_S512_S100000x1_S100000_n_0_0_1.start (ix1 b) idx a
              + (Cert.ReferenceIdeal.scatter_S512_S100000x1_S100000_n_0_0_1.window (ix1 b) a : ℤ)
            < (Cert.ReferenceIdeal.S512.size a : ℤ) := fun a => by
      match a with
      | ⟨0, _⟩ =>
        show 0 ≤ Cert.ReferenceIdeal.scatter_S512_S100000x1_S100000_n_0_0_1.start (ix1 b) idx 0 + (Cert.ReferenceIdeal.scatter_S512_S100000x1_S100000_n_0_0_1.window (ix1 b) 0 : ℤ)
          ∧ Cert.ReferenceIdeal.scatter_S512_S100000x1_S100000_n_0_0_1.start (ix1 b) idx 0 + (Cert.ReferenceIdeal.scatter_S512_S100000x1_S100000_n_0_0_1.window (ix1 b) 0 : ℤ) < ((512 : ℕ) : ℤ)
        rw [h0, w0, hn]; have := n.isLt; omega
    rw [dif_pos hall]
    refine congrArg some (funext fun a => Fin.ext ?_)
    match a with
    | ⟨0, _⟩ =>
      show (Cert.ReferenceIdeal.scatter_S512_S100000x1_S100000_n_0_0_1.start (ix1 b) idx 0 + (Cert.ReferenceIdeal.scatter_S512_S100000x1_S100000_n_0_0_1.window (ix1 b) 0 : ℤ)).toNat = n.val
      rw [h0, w0, hn]; omega

/-- A sum over a rank-1 index set is the sum over its coordinate. -/
theorem sum_idx1 {n0 : ℕ} (f : (⟨1, ![n0]⟩ : Shape).Idx → EReal) : ∑ i, f i = ∑ a : Fin n0, f (ix1 a) := by
  refine (Fintype.sum_equiv ⟨fun i => i 0, fun a => ix1 a, fun i => (eq_ix1 i).symm, fun _ => rfl⟩ f (fun a => f (ix1 a)) fun i => ?_)
  exact congrArg f (eq_ix1 i)

/-- The segment counts of the reference at a segment: the sum over all rows of the row's weight for the segment. -/
theorem scatterCnt_apply (x3 : IVec Cert.ReferenceIdeal.S100000 32) (n : Fin 512) :
    Host.scatterAdd (F := Ideal) Cert.ReferenceIdeal.scatter_S512_S100000x1_S100000_n_0_0_1
        (broadcastInDim Cert.ReferenceIdeal.S512 ![] Cert.ReferenceIdeal.Facts₀.bcast_S_S512 (constant (F := Ideal) Cert.ReferenceIdeal.S_ .f32 0x00000000#32))
        (broadcastInDim Cert.ReferenceIdeal.S100000x1 ![0] Cert.ReferenceIdeal.Facts₀.bcast_S100000_S100000x1_0 x3)
        (broadcastInDim Cert.ReferenceIdeal.S100000 ![] Cert.ReferenceIdeal.Facts₀.bcast_S_S100000 (constant (F := Ideal) Cert.ReferenceIdeal.S_ .f32 0x3F800000#32)) (ix1 n)
      = ∑ b : Fin 100000, hot (x3 (ix1 b)) n.val := by
  show Ideal.ofBits .f32 0x00000000#32 + ∑ u ∈ Finset.univ.filter (fun u =>
      Cert.ReferenceIdeal.scatter_S512_S100000x1_S100000_n_0_0_1.resultIdx? u
        (broadcastInDim Cert.ReferenceIdeal.S100000x1 ![0] Cert.ReferenceIdeal.Facts₀.bcast_S100000_S100000x1_0 x3) = some (ix1 n)),
      Ideal.ofBits .f32 0x3F800000#32 = _
  rw [Ideal.ofBits_zero_f32, zero_add, Ideal.ofBits_one_f32, Finset.sum_filter, sum_idx1]
  refine Finset.sum_congr rfl fun b _ => ?_
  have hidx : (broadcastInDim Cert.ReferenceIdeal.S100000x1 ![0] Cert.ReferenceIdeal.Facts₀.bcast_S100000_S100000x1_0 x3) (ix2 b (0 : Fin 1)) = x3 (ix1 b) :=
    broadcastInDim_apply _ _ x3 (ix2 b (0 : Fin 1)) (ix1 b) (fun a => match a with
      | ⟨0, _⟩ => by show b.val = if (100000 : ℕ) = 1 then 0 else b.val; rw [if_neg (by decide)])
  simp only [cn_result_iff, hidx]
  unfold hot
  exact if_congr (toInt_eq_iff _ _ n.isLt) rfl rfl

end Cert.KernelIdeal.Hand.Val7
-- ==== Proof.KI.Val7.lean ====
import proofs.«402161_j18391049961554_1_alg».proof.Proof.KI.Val7b
import proofs.«402161_j18391049961554_1_alg».proof.Proof.KI.Val7s

set_option maxRecDepth 16384

/-! # The pooling region's two output arrays

The output arrays end at the accumulators' contents after the last point; entry by entry those are the sums over all
rows that the reference's two accumulating scatters into zeros hold. -/

noncomputable section

namespace Cert.KernelIdeal.Hand.Val7

open Idealize.ShloMosaic Idealize.ShloMosaic.TcCoe Idealize.ShloMosaic.ValueIdx
open Cert.KernelIdeal Cert.KernelIdeal.Gen Cert.KernelIdeal.Hand
open Idealize.ShloMosaic.Pipeline (Dat Cfg Window)
open scoped BigOperators

section Region7

variable (V : (c : Dev nD) → (b : Ref sig .tc) → Buf (Elt Ideal) ((c : Thread nD τ).loc b))

/-! ## From the last point's write-back to the arrays

Each output window is the whole array, at block index (0, 0), and is written back at the last point only: the
array ends holding what that point leaves in the window, the accumulator after point 19. -/

/-- The output windows' block index is (0, 0) at every point. -/
theorem out_idx_facts7 : ∀ t : Fin cfg7.N, win7_2.index t (0 : Fin 2) = 0 ∧ win7_2.index t (1 : Fin 2) = 0
    ∧ win7_3.index t (0 : Fin 2) = 0 ∧ win7_3.index t (1 : Fin 2) = 0 :=
  (by decide +kernel : ∀ t : Fin grid7.N, _)

/-- The first output is written back at the last point only. -/
theorem last_of_flush2 (t : Fin cfg7.N) (hf : (cfg7.win 2).flush t = true) : t.val = 19 := by
  have h := (flush7_2 t).1 hf
  have hN : cfg7.N = 20 := N_7
  have := t.isLt
  omega

/-- The second output is written back at the last point only. -/
theorem last_of_flush3 (t : Fin cfg7.N) (hf : (cfg7.win 3).flush t = true) : t.val = 19 := by
  have h := (flush7_3 t).1 hf
  have hN : cfg7.N = 20 := N_7
  have := t.isLt
  omega

/-- What a point writes back of the first output is its block (the whole) of the feature accumulator's final contents. -/
theorem flushed7_2 (c : Dev nD) (t : Fin cfg7.N) (hf : (cfg7.win 2).flush t = true) :
    (dat7 V c).flushed 2 t = ((cfg7.win 2).blk t).view.read (Elt Ideal) (accS V c 19) := by
  show (cfg7.win 2).cut (grid7.coords t) ((dat7 V c).after 2 t) = _
  rw [after7_2_last V c t (last_of_flush2 t hf)]
  obtain ⟨e0, e1, -, -⟩ := out_idx_facts7 t
  funext y
  show accS V c 19 y = accS V c 19 (((cfg7.win 2).blk t).view.emb y)
  refine congrArg (accS V c 19) (funext fun a => Fin.ext ?_)
  match a with
  | ⟨0, _⟩ => show (y 0).val = win7_2.index t (0 : Fin 2) * 512 + 1 * (y 0).val; omega
  | ⟨1, _⟩ => show (y 1).val = win7_2.index t (1 : Fin 2) * 128 + 1 * (y 1).val; omega

/-- What a point writes back of the second output is its block (the whole) of the count accumulator's final contents. -/
theorem flushed7_3 (c : Dev nD) (t : Fin cfg7.N) (hf : (cfg7.win 3).flush t = true) :
    (dat7 V c).flushed 3 t = ((cfg7.win 3).blk t).view.read (Elt Ideal) (accC V c 19) := by
  show (cfg7.win 3).cut (grid7.coords t) ((dat7 V c).after 3 t) = _
  rw [after7_3_last V c t (last_of_flush3 t hf)]
  obtain ⟨-, -, e0, e1⟩ := out_idx_facts7 t
  funext y
  show accC V c 19 y = accC V c 19 (((cfg7.win 3).blk t).view.emb y)
  refine congrArg (accC V c 19) (funext fun a => Fin.ext ?_)
  match a with
  | ⟨0, _⟩ => show (y 0).val = win7_3.index t (0 : Fin 2) * 512 + 1 * (y 0).val; omega
  | ⟨1, _⟩ => show (y 1).val = win7_3.index t (1 : Fin 2) * 1 + 1 * (y 1).val; omega

/-- An index of the first output array is in point `t`'s block iff each coordinate is in the block's range. -/
theorem mem_blk7_2 (t : Fin cfg7.N) (i : S512x128.Idx) :
    i ∈ ((cfg7.win 2).blk t).view.set ↔ ∀ a : Fin 2, win7_2.index t a * S512x128.size a ≤ (i a).val ∧ (i a).val < win7_2.index t a * S512x128.size a + S512x128.size a := by
  show i ∈ ((View.whole main_v89_0).slice (win7_2.rect t)).set ↔ _
  rw [View.set_slice_whole, Rect.mem_set_unit]
  exact Iff.rfl

/-- The same for the second output array. -/
theorem mem_blk7_3 (t : Fin cfg7.N) (i : S512x1.Idx) :
    i ∈ ((cfg7.win 3).blk t).view.set ↔ ∀ a : Fin 2, win7_3.index t a * S512x1.size a ≤ (i a).val ∧ (i a).val < win7_3.index t a * S512x1.size a + S512x1.size a := by
  show i ∈ ((View.whole main_v89_1).slice (win7_3.rect t)).set ↔ _
  rw [View.set_slice_whole, Rect.mem_set_unit]
  exact Iff.rfl

/-- The last point is a point of the grid. -/
theorem lt19 : 19 < cfg7.N := by have hN : cfg7.N = 20 := N_7; omega

/-- Every index of the first output array is in the block the last point writes back. -/
theorem cover7_2 (i : S512x128.Idx) :
    ∃ t : Fin cfg7.N, (cfg7.win 2).flush t = true ∧ i ∈ ((cfg7.win 2).blk t).view.set := by
  refine ⟨⟨19, lt19⟩, (flush7_2 ⟨19, lt19⟩).2 rfl, ?_⟩
  obtain ⟨e0, e1, -, -⟩ := out_idx_facts7 ⟨19, lt19⟩
  rw [mem_blk7_2]
  intro a
  match a with
  | ⟨0, _⟩ =>
    show win7_2.index ⟨19, lt19⟩ (0 : Fin 2) * 512 ≤ (i 0).val ∧ (i 0).val < win7_2.index ⟨19, lt19⟩ (0 : Fin 2) * 512 + 512
    have : (i 0).val < 512 := (i 0).isLt
    omega
  | ⟨1, _⟩ =>
    show win7_2.index ⟨19, lt19⟩ (1 : Fin 2) * 128 ≤ (i 1).val ∧ (i 1).val < win7_2.index ⟨19, lt19⟩ (1 : Fin 2) * 128 + 128
    have : (i 1).val < 128 := (i 1).isLt
    omega

/-- Every index of the second output array is in the block the last point writes back. -/
theorem cover7_3 (i : S512x1.Idx) :
    ∃ t : Fin cfg7.N, (cfg7.win 3).flush t = true ∧ i ∈ ((cfg7.win 3).blk t).view.set := by
  refine ⟨⟨19, lt19⟩, (flush7_3 ⟨19, lt19⟩).2 rfl, ?_⟩
  obtain ⟨-, -, e0, e1⟩ := out_idx_facts7 ⟨19, lt19⟩
  rw [mem_blk7_3]
  intro a
  match a with
  | ⟨0, _⟩ =>
    show win7_3.index ⟨19, lt19⟩ (0 : Fin 2) * 512 ≤ (i 0).val ∧ (i 0).val < win7_3.index ⟨19, lt19⟩ (0 : Fin 2) * 512 + 512
    have : (i 0).val < 512 := (i 0).isLt
    omega
  | ⟨1, _⟩ =>
    show win7_3.index ⟨19, lt19⟩ (1 : Fin 2) * 1 ≤ (i 1).val ∧ (i 1).val < win7_3.index ⟨19, lt19⟩ (1 : Fin 2) * 1 + 1
    have : (i 1).val < 1 := (i 1).isLt
    omega

/-- After the region the first output array holds the feature accumulator's final contents. -/
theorem arr7_2 (c : Dev nD) : (dat7 V c).arrAt 2 cfg7.N = accS V c 19 :=
  (dat7 V c).arrAt_eq_of_cover 2 (accS V c 19) (fun t hf => flushed7_2 V c t hf) cover7_2

/-- After the region the second output array holds the count accumulator's final contents. -/
theorem arr7_3 (c : Dev nD) : (dat7 V c).arrAt 3 cfg7.N = accC V c 19 :=
  (dat7 V c).arrAt_eq_of_cover 3 (accC V c 19) (fun t hf => flushed7_3 V c t hf) cover7_3

end Region7

end Cert.KernelIdeal.Hand.Val7

namespace Cert.KernelIdeal.Hand

open Idealize.ShloMosaic Idealize.ShloMosaic.TcCoe Idealize.ShloMosaic.ValueIdx
open Cert.KernelIdeal Cert.KernelIdeal.Gen
open scoped BigOperators

/-- THE SEGMENT SUMS. Whatever the region finds in its arrays, its first output array ends holding the reference's
    scatter-add of the features by segment word into zeros: at entry (n, j) both are the sum, over all 100000 rows,
    of the row's feature `j` where the row's word is the number `n` (a word that is no segment number, negative ones
    included, counts nowhere on either side). The sums are of extended reals in one order or another, and the weights
    are zero and one: no finiteness is used. -/
theorem reg7_sum (V : (c : Dev nD) → (b : Ref sig .tc) → Buf (Elt Ideal) ((c : Thread nD τ).loc b)) (c : Dev nD)
    (h : FVec Ideal Cert.ReferenceIdeal.S100000x128 .f32) (x3 : IVec Cert.ReferenceIdeal.S100000 32)
    (h0 : V c main_v87 = h)
    (h1 : ∀ i : Fin 100000, (V c main_v88 : S100000x1.Idx → BitVec 32) (ix2 i (0 : Fin 1)) = x3 (ix1 i)) :
    (dat7 V c).arrAt 2 cfg7.N
      = Host.scatterAdd (F := Ideal) Cert.ReferenceIdeal.scatter_S512x128_S100000x1_S100000x128_1_0_0_1
          (broadcastInDim Cert.ReferenceIdeal.S512x128 ![] Cert.ReferenceIdeal.Facts₀.bcast_S_S512x128 (constant (F := Ideal) Cert.ReferenceIdeal.S_ .f32 0x00000000#32))
          (broadcastInDim Cert.ReferenceIdeal.S100000x1 ![0] Cert.ReferenceIdeal.Facts₀.bcast_S100000_S100000x1_0 x3) h := by
  rw [Val7.arr7_2 V c]
  funext i
  obtain ⟨n, j, rfl⟩ : ∃ (n : Fin 512) (j : Fin 128), i = ix2 n j := ⟨i 0, i 1, eq_ix2 i⟩
  refine (Val7.accS_last V c n j).trans ((Val7.scatterSum_apply x3 h n j).trans ?_).symm
  refine Finset.sum_congr rfl fun b _ => ?_
  rw [← h1 b, ← h0]

/-- THE SEGMENT COUNTS. The second output array ends holding, at segment `n`, the reference's scatter-add of ones by
    segment word into zeros: the number of rows whose word is the number `n`, as a sum of zeros and ones. -/
theorem reg7_cnt (V : (c : Dev nD) → (b : Ref sig .tc) → Buf (Elt Ideal) ((c : Thread nD τ).loc b)) (c : Dev nD)
    (x3 : IVec Cert.ReferenceIdeal.S100000 32)
    (h1 : ∀ i : Fin 100000, (V c main_v88 : S100000x1.Idx → BitVec 32) (ix2 i (0 : Fin 1)) = x3 (ix1 i))
    (n : Fin 512) :
    ((dat7 V c).arrAt 3 cfg7.N : S512x1.Idx → EReal) (ix2 n (0 : Fin 1))
      = (Host.scatterAdd (F := Ideal) Cert.ReferenceIdeal.scatter_S512_S100000x1_S100000_n_0_0_1
          (broadcastInDim Cert.ReferenceIdeal.S512 ![] Cert.ReferenceIdeal.Facts₀.bcast_S_S512 (constant (F := Ideal) Cert.ReferenceIdeal.S_ .f32 0x00000000#32))
          (broadcastInDim Cert.ReferenceIdeal.S100000x1 ![0] Cert.ReferenceIdeal.Facts₀.bcast_S100000_S100000x1_0 x3)
          (broadcastInDim Cert.ReferenceIdeal.S100000 ![] Cert.ReferenceIdeal.Facts₀.bcast_S_S100000 (constant (F := Ideal) Cert.ReferenceIdeal.S_ .f32 0x3F800000#32))) (ix1 n) := by
  rw [Val7.arr7_3 V c]
  refine (Val7.accC_last V c n).trans ((Val7.scatterCnt_apply x3 n).trans ?_).symm
  refine Finset.sum_congr rfl fun b _ => ?_
  rw [← h1 b]

end Cert.KernelIdeal.Hand
-- ==== Proof.KI.Host.lean ====
/- The host stretches of the kernel program, read as pure functions.

   Between its kernel regions the kernel program runs the same host operations as the reference: the edge lists with
   self loops, the degree and its inverse square root, the per-edge normalisation, and, per layer, gather by source,
   multiply by the normalisation, scatter-add by destination. Each lemma here takes ANY buffer contents `V` in which
   the buffers a stretch reads hold a stage of the reference, and says which stage of the reference the stretch
   leaves in the buffer a later item reads. Nothing here depends on the float family. -/
import proofs.«402161_j18391049961554_1_alg».proof.Proof.Gen.KernelIdeal.Launch
import proofs.«402161_j18391049961554_1_alg».proof.Proof.Ref.ReadP

set_option maxRecDepth 16384

noncomputable section

namespace Cert.KernelIdeal.Hand.HostVal

open Cert.KernelIdeal Cert.KernelIdeal.Gen
open Idealize.ShloMosaic Idealize.ShloMosaic.TcCoe
open Idealize.SL.Sem Idealize.ShloMosaic.StableHlo
open Cert.ReferenceIdeal.ReadP

variable {F : FTy → Type} [FloatOps F]

/-! ## The argument arrays' types, as the reference's stage functions take them -/

abbrev X0 (F : FTy → Type) : Type := (⟨Cert.ReferenceIdeal.S100000x64, .f32⟩ : BufTy).Contents (Elt F)
abbrev X1 (F : FTy → Type) : Type := (⟨Cert.ReferenceIdeal.S2x1600000, .i32⟩ : BufTy).Contents (Elt F)
abbrev X2 (F : FTy → Type) : Type := (⟨Cert.ReferenceIdeal.S100000x128, .f32⟩ : BufTy).Contents (Elt F)
abbrev X3 (F : FTy → Type) : Type := (⟨Cert.ReferenceIdeal.S100000, .i32⟩ : BufTy).Contents (Elt F)
abbrev X4 (F : FTy → Type) : Type := (⟨Cert.ReferenceIdeal.S128x128, .f32⟩ : BufTy).Contents (Elt F)
abbrev X5 (F : FTy → Type) : Type := (⟨Cert.ReferenceIdeal.S128, .f32⟩ : BufTy).Contents (Elt F)
abbrev X6 (F : FTy → Type) : Type := (⟨Cert.ReferenceIdeal.S64x128, .f32⟩ : BufTy).Contents (Elt F)
abbrev X7 (F : FTy → Type) : Type := (⟨Cert.ReferenceIdeal.S128, .f32⟩ : BufTy).Contents (Elt F)
abbrev X8 (F : FTy → Type) : Type := (⟨Cert.ReferenceIdeal.S2x128x128, .f32⟩ : BufTy).Contents (Elt F)
abbrev X9 (F : FTy → Type) : Type := (⟨Cert.ReferenceIdeal.S2x128, .f32⟩ : BufTy).Contents (Elt F)
abbrev X10 (F : FTy → Type) : Type := (⟨Cert.ReferenceIdeal.S128x16, .f32⟩ : BufTy).Contents (Elt F)
abbrev X11 (F : FTy → Type) : Type := (⟨Cert.ReferenceIdeal.S16, .f32⟩ : BufTy).Contents (Elt F)

variable (V : Valuation τ sig (Elt F))

/-! ## The first stretch: the edge lists with self loops, the degree, its sign test and inverse square root -/

/-- The source list with a self loop per node. -/
theorem host_src (x1 : X1 F) (h1 : V (Proc.devRef .tc main_arg1) = x1) :
    StableHlo.after hostOps0 V (Proc.devRef .tc main_v3) = val_main_v3 x1 := by
  after_results
  rw [h1]
  rfl

/-- The destination list with a self loop per node. -/
theorem host_dst (x1 : X1 F) (h1 : V (Proc.devRef .tc main_arg1) = x1) :
    StableHlo.after hostOps0 V (Proc.devRef .tc main_v6) = val_main_v6 x1 := by
  after_results
  rw [h1]
  rfl

/-- Where the degree is positive. -/
theorem host_degpos (x1 : X1 F) (h1 : V (Proc.devRef .tc main_arg1) = x1) :
    StableHlo.after hostOps0 V (Proc.devRef .tc main_v12) = val_main_v12 x1 := by
  after_results
  rw [h1]
  rfl

/-- The inverse square root of the degree. -/
theorem host_degrsqrt (x1 : X1 F) (h1 : V (Proc.devRef .tc main_arg1) = x1) :
    StableHlo.after hostOps0 V (Proc.devRef .tc main_v13) = val_main_v13 x1 := by
  after_results
  rw [h1]
  rfl

/-- The zero the selection falls back to. -/
theorem host_zero :
    StableHlo.after hostOps0 V (Proc.devRef .tc main_cst_2) = val_main_cst_2 (F := F) := by
  after_results
  rfl

/-! ## The selection: the inverse square root where the degree is positive, zero elsewhere -/

theorem host_dinv (x1 : X1 F)
    (h12 : V (Proc.devRef .tc main_v12) = val_main_v12 x1)
    (h13 : V (Proc.devRef .tc main_v13) = val_main_v13 x1)
    (hc : V (Proc.devRef .tc main_cst_2) = val_main_cst_2 (F := F)) :
    StableHlo.after hostOps0_1 V (Proc.devRef .tc main_v14) = val_main_v14 x1 := by
  after_results
  rw [h12, h13, hc]
  rfl

/-! ## The per-edge normalisation, and the first dense layer's bias as a row -/

/-- The normalisation of an edge: the product of its two ends' inverse square roots. -/
theorem host_norm (x1 : X1 F)
    (h3 : V (Proc.devRef .tc main_v3) = val_main_v3 x1)
    (h6 : V (Proc.devRef .tc main_v6) = val_main_v6 x1)
    (h14 : V (Proc.devRef .tc main_v14) = val_main_v14 x1) :
    StableHlo.after hostOps0_2 V (Proc.devRef .tc main_v29) = val_main_v29 x1 := by
  after_results_simp
  rw [h3, h6, h14]
  rfl

/-- The bias of the dense layer on the node features, reshaped to one row. -/
theorem host_bias0 (x5 : X5 F) (h5 : V (Proc.devRef .tc main_arg5) = x5) :
    StableHlo.after hostOps0_2 V (Proc.devRef .tc main_v30) = shapeCast S1x128 x5 shapeCasts_S128_S1x128 := by
  after_results
  rw [h5]
  rfl

/-! ## The first aggregation -/

/-- Gather the projected features by source, scale by the normalisation, add up by destination. -/
theorem host_agg1 (x0 : X0 F) (x1 : X1 F) (x6 : X6 F)
    (h3 : V (Proc.devRef .tc main_v3) = val_main_v3 x1)
    (h6 : V (Proc.devRef .tc main_v6) = val_main_v6 x1)
    (h29 : V (Proc.devRef .tc main_v29) = val_main_v29 x1)
    (h32 : V (Proc.devRef .tc main_v32) = val_main_v35 x0 x6) :
    StableHlo.after hostOps2 V (Proc.devRef .tc main_v45) = val_main_v48 x0 x1 x6 := by
  after_results_simp
  rw [h3, h6, h29, h32]
  rfl

/-- The first graph layer's bias, reshaped to one row. -/
theorem host_bias1 (x7 : X7 F) (h7 : V (Proc.devRef .tc main_arg7) = x7) :
    StableHlo.after hostOps2 V (Proc.devRef .tc main_v46) = shapeCast S1x128 x7 shapeCasts_S128_S1x128 := by
  after_results
  rw [h7]
  rfl

/-! ## The second layer's weights, aggregation and bias -/

theorem host_w1 (x8 : X8 F) (h8 : V (Proc.devRef .tc main_arg8) = x8) :
    StableHlo.after hostOps3 V (Proc.devRef .tc main_v49) = val_main_v55 x8 := by
  after_results
  rw [h8]
  rfl

theorem host_agg2 (x0 : X0 F) (x1 : X1 F) (x2 : X2 F) (x4 : X4 F) (x5 : X5 F) (x6 : X6 F) (x7 : X7 F) (x8 : X8 F)
    (h3 : V (Proc.devRef .tc main_v3) = val_main_v3 x1)
    (h6 : V (Proc.devRef .tc main_v6) = val_main_v6 x1)
    (h29 : V (Proc.devRef .tc main_v29) = val_main_v29 x1)
    (h50 : V (Proc.devRef .tc main_v50) = val_main_v58 x0 x1 x2 x4 x5 x6 x7 x8) :
    StableHlo.after hostOps4 V (Proc.devRef .tc main_v63) = val_main_v71 x0 x1 x2 x4 x5 x6 x7 x8 := by
  after_results_simp
  rw [h3, h6, h29, h50]
  rfl

theorem host_bias2 (x9 : X9 F) (h9 : V (Proc.devRef .tc main_arg9) = x9) :
    StableHlo.after hostOps4 V (Proc.devRef .tc main_v66) = shapeCast S1x128 (val_main_v57 x9) shapeCasts_S128_S1x128 := by
  after_results
  rw [h9]
  rfl

/-! ## The third layer's weights, aggregation and bias -/

theorem host_w2 (x8 : X8 F) (h8 : V (Proc.devRef .tc main_arg8) = x8) :
    StableHlo.after hostOps5 V (Proc.devRef .tc main_v69) = val_main_v77 x8 := by
  after_results
  rw [h8]
  rfl

theorem host_agg3 (x0 : X0 F) (x1 : X1 F) (x2 : X2 F) (x4 : X4 F) (x5 : X5 F) (x6 : X6 F) (x7 : X7 F) (x8 : X8 F) (x9 : X9 F)
    (h3 : V (Proc.devRef .tc main_v3) = val_main_v3 x1)
    (h6 : V (Proc.devRef .tc main_v6) = val_main_v6 x1)
    (h29 : V (Proc.devRef .tc main_v29) = val_main_v29 x1)
    (h70 : V (Proc.devRef .tc main_v70) = val_main_v80 x0 x1 x2 x4 x5 x6 x7 x8 x9) :
    StableHlo.after hostOps6 V (Proc.devRef .tc main_v83) = val_main_v93 x0 x1 x2 x4 x5 x6 x7 x8 x9 := by
  after_results_simp
  rw [h3, h6, h29, h70]
  rfl

theorem host_bias3 (x9 : X9 F) (h9 : V (Proc.devRef .tc main_arg9) = x9) :
    StableHlo.after hostOps6 V (Proc.devRef .tc main_v86) = shapeCast S1x128 (val_main_v79 x9) shapeCasts_S128_S1x128 := by
  after_results
  rw [h9]
  rfl

/-! ## The graph ids as a column -/

theorem host_ids (x3 : X3 F) (h3 : V (Proc.devRef .tc main_arg3) = x3) :
    StableHlo.after hostOps7 V (Proc.devRef .tc main_v88) = shapeCast S100000x1 x3 shapeCasts_S100000_S100000x1 := by
  after_results
  rw [h3]
  rfl

/-! ## The tail: the mean per graph, the last dense layer -/

/-- The program's result, given the per-graph sums and the clamped per-graph counts as a column. -/
theorem host_out (x0 : X0 F) (x1 : X1 F) (x2 : X2 F) (x3 : X3 F) (x4 : X4 F) (x5 : X5 F) (x6 : X6 F) (x7 : X7 F)
    (x8 : X8 F) (x9 : X9 F) (x10 : X10 F) (x11 : X11 F)
    (hs : V (Proc.devRef .tc main_v89_0) = val_main_v100 x0 x1 x2 x3 x4 x5 x6 x7 x8 x9)
    (hc : maximumf (V (Proc.devRef .tc main_v89_1))
            (broadcastInDim S512x1 ![] bcast_S_S512x1 (constant S_ .f32 0x3F800000#32)) = val_main_v107 x3)
    (h10 : V (Proc.devRef .tc main_arg10) = x10) (h11 : V (Proc.devRef .tc main_arg11) = x11) :
    StableHlo.after hostOps8 V (Proc.devRef .tc main_v97) = val_main_v113 x0 x1 x2 x3 x4 x5 x6 x7 x8 x9 x10 x11 := by
  after_results
  rw [hs, h10, h11, hc]
  rfl

/-! ## A reshape read at an index -/

/-- A [128] vector reshaped to one row: entry (0, j) of the row is entry j of the vector. -/
theorem row_apply {α : Type} (x : S128.Idx → α) (j : Fin 128) :
    shapeCast S1x128 x shapeCasts_S128_S1x128 (ValueIdx.ix2 (0 : Fin 1) j) = x (ValueIdx.ix1 j) :=
  shapeCast_apply x shapeCasts_S128_S1x128 (ValueIdx.ix2 (0 : Fin 1) j) (ValueIdx.ix1 j) (by
    rw [Shape.rowMajor_val_two, Shape.rowMajor_val_one]
    show j.val = 0 * 128 + j.val
    omega)

/-- A [100000] vector reshaped to one column: entry (i, 0) of the column is entry i of the vector. -/
theorem col_apply {α : Type} (x : S100000.Idx → α) (i : Fin 100000) :
    shapeCast S100000x1 x shapeCasts_S100000_S100000x1 (ValueIdx.ix2 i (0 : Fin 1)) = x (ValueIdx.ix1 i) :=
  shapeCast_apply x shapeCasts_S100000_S100000x1 (ValueIdx.ix2 i (0 : Fin 1)) (ValueIdx.ix1 i) (by
    rw [Shape.rowMajor_val_two, Shape.rowMajor_val_one]
    show i.val = i.val * 1 + 0
    omega)

end Cert.KernelIdeal.Hand.HostVal
-- ==== Proof.KI.RefForms.lean ====
/- The reference's stages, met from outside.

   A kernel region's value is stated as a whole-array host expression over the arrays the region was handed. When
   those arrays are themselves stages of the reference, the expression is the next stage: each lemma below is that
   identification, by unfolding the stage's definition. The last one reads the clamped per-graph count as a column:
   the kernel keeps the counts as a [512,1] array and clamps it, the reference clamps the [512] array and then adds
   the unit axis; entry by entry they are the same maximum. Nothing here depends on the float family. -/
import proofs.«402161_j18391049961554_1_alg».proof.Proof.Ref.ReadP

set_option maxRecDepth 16384

noncomputable section

namespace Cert.ReferenceIdeal.Stages

open Cert.ReferenceIdeal Cert.ReferenceIdeal.Gen Cert.ReferenceIdeal.ReadP
open Idealize.ShloMosaic Idealize.ShloMosaic.TcCoe
open Idealize.SL.Sem Idealize.ShloMosaic.StableHlo

variable {F : FTy → Type} [FloatOps F]

variable (x0 : (⟨S100000x64, .f32⟩ : BufTy).Contents (Elt F)) (x1 : (⟨S2x1600000, .i32⟩ : BufTy).Contents (Elt F))
  (x2 : (⟨S100000x128, .f32⟩ : BufTy).Contents (Elt F)) (x3 : (⟨S100000, .i32⟩ : BufTy).Contents (Elt F))
  (x4 : (⟨S128x128, .f32⟩ : BufTy).Contents (Elt F)) (x5 : (⟨S128, .f32⟩ : BufTy).Contents (Elt F))
  (x6 : (⟨S64x128, .f32⟩ : BufTy).Contents (Elt F)) (x7 : (⟨S128, .f32⟩ : BufTy).Contents (Elt F))
  (x8 : (⟨S2x128x128, .f32⟩ : BufTy).Contents (Elt F)) (x9 : (⟨S2x128, .f32⟩ : BufTy).Contents (Elt F))

/-- The dense layer on the node features: relu (x2 · x4 + x5). -/
theorem dense_relu :
    maximumf (addf (Host.dotGeneral dot_S100000x128_S128x128_S100000x128_1_0_0_1_n_n none x2 x4)
        (broadcastInDim S100000x128 ![0, 1] bcast_S1x128_S100000x128_0_1 (broadcastInDim S1x128 ![1] bcast_S128_S1x128_1 x5)))
      (broadcastInDim S100000x128 ![] bcast_S_S100000x128 (constant (F := F) S_ .f32 0x00000000#32))
      = val_main_v34 x2 x4 x5 := rfl

/-- The projection of the raw features: x0 · x6. -/
theorem proj : Host.dotGeneral dot_S100000x64_S64x128_S100000x128_1_0_0_1_n_n none x0 x6 = val_main_v35 x0 x6 := rfl

/-- The first graph layer: relu (aggregate + x7) + the dense layer's output. -/
theorem layer1 :
    addf (maximumf (addf (val_main_v48 x0 x1 x6)
          (broadcastInDim S100000x128 ![0, 1] bcast_S1x128_S100000x128_0_1 (broadcastInDim S1x128 ![1] bcast_S128_S1x128_1 x7)))
        (broadcastInDim S100000x128 ![] bcast_S_S100000x128 (constant (F := F) S_ .f32 0x00000000#32)))
      (val_main_v34 x2 x4 x5)
      = val_main_v53 x0 x1 x2 x4 x5 x6 x7 := rfl

/-- The second layer's projection. -/
theorem proj2 :
    Host.dotGeneral dot_S100000x128_S128x128_S100000x128_1_0_0_1_n_n none (val_main_v53 x0 x1 x2 x4 x5 x6 x7) (val_main_v55 x8)
      = val_main_v58 x0 x1 x2 x4 x5 x6 x7 x8 := rfl

/-- The second graph layer: relu (aggregate + the first row of x9). -/
theorem layer2 :
    maximumf (addf (val_main_v71 x0 x1 x2 x4 x5 x6 x7 x8)
        (broadcastInDim S100000x128 ![0, 1] bcast_S1x128_S100000x128_0_1 (broadcastInDim S1x128 ![1] bcast_S128_S1x128_1 (val_main_v57 x9))))
      (broadcastInDim S100000x128 ![] bcast_S_S100000x128 (constant (F := F) S_ .f32 0x00000000#32))
      = val_main_v75 x0 x1 x2 x4 x5 x6 x7 x8 x9 := rfl

/-- The third layer's projection. -/
theorem proj3 :
    Host.dotGeneral dot_S100000x128_S128x128_S100000x128_1_0_0_1_n_n none (val_main_v75 x0 x1 x2 x4 x5 x6 x7 x8 x9) (val_main_v77 x8)
      = val_main_v80 x0 x1 x2 x4 x5 x6 x7 x8 x9 := rfl

/-- The third graph layer: relu (aggregate + the second row of x9). -/
theorem layer3 :
    maximumf (addf (val_main_v93 x0 x1 x2 x4 x5 x6 x7 x8 x9)
        (broadcastInDim S100000x128 ![0, 1] bcast_S1x128_S100000x128_0_1 (broadcastInDim S1x128 ![1] bcast_S128_S1x128_1 (val_main_v79 x9))))
      (broadcastInDim S100000x128 ![] bcast_S_S100000x128 (constant (F := F) S_ .f32 0x00000000#32))
      = val_main_v97 x0 x1 x2 x4 x5 x6 x7 x8 x9 := rfl

/-- The per-graph sums of the node features. -/
theorem pool_sum :
    Host.scatterAdd scatter_S512x128_S100000x1_S100000x128_1_0_0_1
        (broadcastInDim S512x128 ![] bcast_S_S512x128 (constant (F := F) S_ .f32 0x00000000#32))
        (broadcastInDim S100000x1 ![0] bcast_S100000_S100000x1_0 x3) (val_main_v97 x0 x1 x2 x4 x5 x6 x7 x8 x9)
      = val_main_v100 x0 x1 x2 x3 x4 x5 x6 x7 x8 x9 := rfl

/-- The per-graph node counts. -/
theorem pool_cnt :
    Host.scatterAdd scatter_S512_S100000x1_S100000_n_0_0_1
        (broadcastInDim S512 ![] bcast_S_S512 (constant (F := F) S_ .f32 0x00000000#32))
        (broadcastInDim S100000x1 ![0] bcast_S100000_S100000x1_0 x3)
        (broadcastInDim S100000 ![] bcast_S_S100000 (constant (F := F) S_ .f32 0x3F800000#32))
      = val_main_v104 (F := F) x3 := rfl

/-- The clamped counts as a column. A [512,1] array that holds the count of graph `n` in row `n`, clamped below
    by one entry by entry, is the reference's clamped [512] count with the unit axis added. -/
theorem clamp_col (y : (⟨S512x1, .f32⟩ : BufTy).Contents (Elt F)) (hb : S_.BroadcastsInDim S512x1 ![])
    (hy : ∀ n : Fin 512, y (ValueIdx.ix2 n (0 : Fin 1)) = val_main_v104 (F := F) x3 (ValueIdx.ix1 n)) :
    maximumf y (broadcastInDim S512x1 ![] hb (constant (F := F) S_ .f32 0x3F800000#32)) = val_main_v107 x3 := by
  funext i
  obtain ⟨n, z, rfl⟩ : ∃ (n : Fin 512) (z : Fin 1), i = ValueIdx.ix2 n z := ⟨i 0, i 1, ValueIdx.eq_ix2 i⟩
  obtain rfl : z = 0 := Subsingleton.elim _ _
  rw [val_main_v107_apply, val_main_v106_apply, val_main_v105_apply, val_main_cst_18_apply]
  show FloatOps.maximumf (y (ValueIdx.ix2 n 0))
      (broadcastInDim S512x1 ![] hb (constant (F := F) S_ .f32 0x3F800000#32) (ValueIdx.ix2 n 0)) = _
  rw [hy n, broadcastInDim_apply _ hb (constant (F := F) S_ .f32 0x3F800000#32) (ValueIdx.ix2 n 0) ValueIdx.ix0 (fun a => a.elim0)]
  have e : idx_main_v107 (ValueIdx.ix2 n (0 : Fin 1)) = ValueIdx.ix1 n := by
    funext a; match a with | ⟨0, _⟩ => rfl
  rw [e]
  rfl

end Cert.ReferenceIdeal.Stages
-- ==== Proof.KI.Result.lean ====
/- The kernel program's result is the reference's.

   @main of the kernel program is eighteen items: ten stretches of host operations around eight kernel regions. Read
   from the launch, buffer by buffer: the host stretches compute the graph's structure (edge lists with self loops, the
   inverse square root of the degree, the per-edge normalisation) and, per graph layer, the aggregation (gather by
   source, scale, add up by destination) exactly as the reference does; regions 0 and 1 are the dense layer on the
   node features and the projection of the raw features; regions 2, 4 and 6 add a layer's bias and apply relu (region
   2 also adds the dense layer's output); regions 3 and 5 are the next layer's projection; region 7 adds up node
   features and node counts per graph. Each region's output array is a whole-array expression of what the region was
   handed, and when that is a stage of the reference the expression is the next stage. The tail divides the sums by
   the clamped counts and applies the last dense layer. Every buffer an item reads is followed from the item that
   wrote it through the items that leave it alone. -/
import proofs.«402161_j18391049961554_1_alg».proof.Proof.KI.Run
import proofs.«402161_j18391049961554_1_alg».proof.Proof.KI.Val0
import proofs.«402161_j18391049961554_1_alg».proof.Proof.KI.Val1
import proofs.«402161_j18391049961554_1_alg».proof.Proof.KI.Val2
import proofs.«402161_j18391049961554_1_alg».proof.Proof.KI.Val3
import proofs.«402161_j18391049961554_1_alg».proof.Proof.KI.Val4
import proofs.«402161_j18391049961554_1_alg».proof.Proof.KI.Val5
import proofs.«402161_j18391049961554_1_alg».proof.Proof.KI.Val6
import proofs.«402161_j18391049961554_1_alg».proof.Proof.KI.Val7
import proofs.«402161_j18391049961554_1_alg».proof.Proof.KI.Host
import proofs.«402161_j18391049961554_1_alg».proof.Proof.KI.RefForms
import proofs.«402161_j18391049961554_1_alg».proof.Proof.Ref.ReadP

set_option maxRecDepth 16384

noncomputable section

namespace Cert.KernelIdeal.Hand

open Cert.KernelIdeal Cert.KernelIdeal.Gen
open Idealize.ShloMosaic Idealize.ShloMosaic.TcCoe Idealize.ShloMosaic.ValueIdx
open Idealize.SL.Sem Idealize.ShloMosaic.StableHlo
open Cert.ReferenceIdeal.ReadP Cert.KernelIdeal.Hand.HostVal

namespace Res

variable (m : (ℓ : Loc nD τ sig) → Buf (Elt Ideal) ℓ) (c : Dev nD)

/-! ## The twelve argument arrays as launched -/

abbrev arg0 : X0 Ideal := m ((c : Thread nD τ).loc main_arg0)
abbrev arg1 : X1 Ideal := m ((c : Thread nD τ).loc main_arg1)
abbrev arg2 : X2 Ideal := m ((c : Thread nD τ).loc main_arg2)
abbrev arg3 : X3 Ideal := m ((c : Thread nD τ).loc main_arg3)
abbrev arg4 : X4 Ideal := m ((c : Thread nD τ).loc main_arg4)
abbrev arg5 : X5 Ideal := m ((c : Thread nD τ).loc main_arg5)
abbrev arg6 : X6 Ideal := m ((c : Thread nD τ).loc main_arg6)
abbrev arg7 : X7 Ideal := m ((c : Thread nD τ).loc main_arg7)
abbrev arg8 : X8 Ideal := m ((c : Thread nD τ).loc main_arg8)
abbrev arg9 : X9 Ideal := m ((c : Thread nD τ).loc main_arg9)
abbrev arg10 : X10 Ideal := m ((c : Thread nD τ).loc main_arg10)
abbrev arg11 : X11 Ideal := m ((c : Thread nD τ).loc main_arg11)

/-- Walks one buffer's contents back through the items of @main that do not write it: a host stretch whose list of
    written buffers does not hold it, a kernel region none of whose windows' arrays it is. Stops at the first item
    that writes it. -/
local macro "carry" : tactic => `(tactic| repeat (first
  | (rewrite [W18_of]; rotate_left; decide)
  | (rewrite [W17_of_ne]; rotate_left; decide)
  | (rewrite [W16_of]; rotate_left; decide)
  | (rewrite [W15_of_ne]; rotate_left; decide)
  | (rewrite [W14_of]; rotate_left; decide)
  | (rewrite [W13_of_ne]; rotate_left; decide)
  | (rewrite [W12_of]; rotate_left; decide)
  | (rewrite [W11_of_ne]; rotate_left; decide)
  | (rewrite [W10_of]; rotate_left; decide)
  | (rewrite [W9_of_ne]; rotate_left; decide)
  | (rewrite [W8_of]; rotate_left; decide)
  | (rewrite [W7_of_ne]; rotate_left; decide)
  | (rewrite [W6_of]; rotate_left; decide)
  | (rewrite [W5_of_ne]; rotate_left; decide)
  | (rewrite [W4_of_ne]; rotate_left; decide)
  | (rewrite [W3_of]; rotate_left; decide)
  | (rewrite [W2_of]; rotate_left; decide)
  | (rewrite [W1_of]; rotate_left; decide)))

/-! ## Each argument array where an item reads it: no item before has written it -/

theorem arg5_2 : W2 m c (Proc.devRef .tc main_arg5) = arg5 m c := by carry; rfl
theorem arg2_3 : W3 m c (Proc.devRef .tc main_arg2) = arg2 m c := by carry; rfl
theorem arg4_3 : W3 m c (Proc.devRef .tc main_arg4) = arg4 m c := by carry; rfl
theorem arg0_4 : W4 m c (Proc.devRef .tc main_arg0) = arg0 m c := by carry; rfl
theorem arg6_4 : W4 m c (Proc.devRef .tc main_arg6) = arg6 m c := by carry; rfl
theorem arg7_5 : W5 m c (Proc.devRef .tc main_arg7) = arg7 m c := by carry; rfl
theorem arg8_7 : W7 m c (Proc.devRef .tc main_arg8) = arg8 m c := by carry; rfl
theorem arg9_9 : W9 m c (Proc.devRef .tc main_arg9) = arg9 m c := by carry; rfl
theorem arg8_11 : W11 m c (Proc.devRef .tc main_arg8) = arg8 m c := by carry; rfl
theorem arg9_13 : W13 m c (Proc.devRef .tc main_arg9) = arg9 m c := by carry; rfl
theorem arg3_15 : W15 m c (Proc.devRef .tc main_arg3) = arg3 m c := by carry; rfl
theorem arg10_17 : W17 m c (Proc.devRef .tc main_arg10) = arg10 m c := by carry; rfl
theorem arg11_17 : W17 m c (Proc.devRef .tc main_arg11) = arg11 m c := by carry; rfl

/-! ## The graph's structure: edge lists with self loops, inverse square root of the degree, per-edge normalisation -/

theorem src_1 : W1 m c (Proc.devRef .tc main_v3) = val_main_v3 (arg1 m c) := host_src (W0 m c) (arg1 m c) rfl
theorem dst_1 : W1 m c (Proc.devRef .tc main_v6) = val_main_v6 (arg1 m c) := host_dst (W0 m c) (arg1 m c) rfl
theorem degpos_1 : W1 m c (Proc.devRef .tc main_v12) = val_main_v12 (arg1 m c) := host_degpos (W0 m c) (arg1 m c) rfl
theorem degrsqrt_1 : W1 m c (Proc.devRef .tc main_v13) = val_main_v13 (arg1 m c) := host_degrsqrt (W0 m c) (arg1 m c) rfl
theorem zero_1 : W1 m c (Proc.devRef .tc main_cst_2) = val_main_cst_2 (F := Ideal) := host_zero (W0 m c)

theorem src_2 : W2 m c (Proc.devRef .tc main_v3) = val_main_v3 (arg1 m c) := by carry; exact src_1 m c
theorem dst_2 : W2 m c (Proc.devRef .tc main_v6) = val_main_v6 (arg1 m c) := by carry; exact dst_1 m c
theorem dinv_2 : W2 m c (Proc.devRef .tc main_v14) = val_main_v14 (arg1 m c) :=
  host_dinv (W1 m c) (arg1 m c) (degpos_1 m c) (degrsqrt_1 m c) (zero_1 m c)

theorem norm_3 : W3 m c (Proc.devRef .tc main_v29) = val_main_v29 (arg1 m c) :=
  host_norm (W2 m c) (arg1 m c) (src_2 m c) (dst_2 m c) (dinv_2 m c)

/-- The three arrays every aggregation reads, at the entry of a later stretch. -/
theorem src_5 : W5 m c (Proc.devRef .tc main_v3) = val_main_v3 (arg1 m c) := by carry; exact src_1 m c
theorem dst_5 : W5 m c (Proc.devRef .tc main_v6) = val_main_v6 (arg1 m c) := by carry; exact dst_1 m c
theorem norm_5 : W5 m c (Proc.devRef .tc main_v29) = val_main_v29 (arg1 m c) := by carry; exact norm_3 m c
theorem src_9 : W9 m c (Proc.devRef .tc main_v3) = val_main_v3 (arg1 m c) := by carry; exact src_1 m c
theorem dst_9 : W9 m c (Proc.devRef .tc main_v6) = val_main_v6 (arg1 m c) := by carry; exact dst_1 m c
theorem norm_9 : W9 m c (Proc.devRef .tc main_v29) = val_main_v29 (arg1 m c) := by carry; exact norm_3 m c
theorem src_13 : W13 m c (Proc.devRef .tc main_v3) = val_main_v3 (arg1 m c) := by carry; exact src_1 m c
theorem dst_13 : W13 m c (Proc.devRef .tc main_v6) = val_main_v6 (arg1 m c) := by carry; exact dst_1 m c
theorem norm_13 : W13 m c (Proc.devRef .tc main_v29) = val_main_v29 (arg1 m c) := by carry; exact norm_3 m c

/-! ## The dense layer on the node features (region 0) and the projection of the raw features (region 1) -/

theorem bias0_3 : W3 m c (Proc.devRef .tc main_v30) = shapeCast S1x128 (arg5 m c) shapeCasts_S128_S1x128 :=
  host_bias0 (W2 m c) (arg5 m c) (arg5_2 m c)

theorem dense_4 : W4 m c (Proc.devRef .tc main_v31) = val_main_v34 (arg2 m c) (arg4 m c) (arg5 m c) :=
  (W4_arr m c 3).trans ((reg0_value (V3 m) c (arg2 m c) (arg4 m c) (arg5 m c) (arg2_3 m c) (arg4_3 m c)
    (fun j => (congrFun (bias0_3 m c) (ix2 (0 : Fin 1) j)).trans (row_apply (arg5 m c) j))).trans
    (Cert.ReferenceIdeal.Stages.dense_relu (arg2 m c) (arg4 m c) (arg5 m c)))

theorem proj_5 : W5 m c (Proc.devRef .tc main_v32) = val_main_v35 (arg0 m c) (arg6 m c) :=
  (W5_arr m c 2).trans ((reg1_value (V4 m) c (arg0 m c) (arg6 m c) (arg0_4 m c) (arg6_4 m c)).trans
    (Cert.ReferenceIdeal.Stages.proj (arg0 m c) (arg6 m c)))

/-! ## The first graph layer (aggregation on the host, bias, relu and the residual in region 2) -/

theorem agg1_6 : W6 m c (Proc.devRef .tc main_v45) = val_main_v48 (arg0 m c) (arg1 m c) (arg6 m c) :=
  host_agg1 (W5 m c) (arg0 m c) (arg1 m c) (arg6 m c) (src_5 m c) (dst_5 m c) (norm_5 m c) (proj_5 m c)

theorem bias1_6 : W6 m c (Proc.devRef .tc main_v46) = shapeCast S1x128 (arg7 m c) shapeCasts_S128_S1x128 :=
  host_bias1 (W5 m c) (arg7 m c) (arg7_5 m c)

theorem dense_6 : W6 m c (Proc.devRef .tc main_v31) = val_main_v34 (arg2 m c) (arg4 m c) (arg5 m c) := by
  carry; exact dense_4 m c

theorem layer1_7 : W7 m c (Proc.devRef .tc main_v47)
    = val_main_v53 (arg0 m c) (arg1 m c) (arg2 m c) (arg4 m c) (arg5 m c) (arg6 m c) (arg7 m c) :=
  (W7_arr m c 3).trans ((reg2_value (V6 m) c (val_main_v48 (arg0 m c) (arg1 m c) (arg6 m c))
      (val_main_v34 (arg2 m c) (arg4 m c) (arg5 m c)) (arg7 m c) (agg1_6 m c)
      (fun j => (congrFun (bias1_6 m c) (ix2 (0 : Fin 1) j)).trans (row_apply (arg7 m c) j)) (dense_6 m c)).trans
    (Cert.ReferenceIdeal.Stages.layer1 (arg0 m c) (arg1 m c) (arg2 m c) (arg4 m c) (arg5 m c) (arg6 m c) (arg7 m c)))

/-! ## The second graph layer -/

theorem w1_8 : W8 m c (Proc.devRef .tc main_v49) = val_main_v55 (arg8 m c) := host_w1 (W7 m c) (arg8 m c) (arg8_7 m c)

theorem layer1_8 : W8 m c (Proc.devRef .tc main_v47)
    = val_main_v53 (arg0 m c) (arg1 m c) (arg2 m c) (arg4 m c) (arg5 m c) (arg6 m c) (arg7 m c) := by
  carry; exact layer1_7 m c

theorem proj2_9 : W9 m c (Proc.devRef .tc main_v50)
    = val_main_v58 (arg0 m c) (arg1 m c) (arg2 m c) (arg4 m c) (arg5 m c) (arg6 m c) (arg7 m c) (arg8 m c) :=
  (W9_arr m c 2).trans ((reg3_value (V8 m) c _ _ (layer1_8 m c) (w1_8 m c)).trans
    (Cert.ReferenceIdeal.Stages.proj2 (arg0 m c) (arg1 m c) (arg2 m c) (arg4 m c) (arg5 m c) (arg6 m c) (arg7 m c) (arg8 m c)))

theorem agg2_10 : W10 m c (Proc.devRef .tc main_v63)
    = val_main_v71 (arg0 m c) (arg1 m c) (arg2 m c) (arg4 m c) (arg5 m c) (arg6 m c) (arg7 m c) (arg8 m c) :=
  host_agg2 (W9 m c) (arg0 m c) (arg1 m c) (arg2 m c) (arg4 m c) (arg5 m c) (arg6 m c) (arg7 m c) (arg8 m c)
    (src_9 m c) (dst_9 m c) (norm_9 m c) (proj2_9 m c)

theorem bias2_10 : W10 m c (Proc.devRef .tc main_v66) = shapeCast S1x128 (val_main_v57 (arg9 m c)) shapeCasts_S128_S1x128 :=
  host_bias2 (W9 m c) (arg9 m c) (arg9_9 m c)

theorem layer2_11 : W11 m c (Proc.devRef .tc main_v67)
    = val_main_v75 (arg0 m c) (arg1 m c) (arg2 m c) (arg4 m c) (arg5 m c) (arg6 m c) (arg7 m c) (arg8 m c) (arg9 m c) :=
  (W11_arr m c 2).trans ((reg4_value (V10 m) c _ (val_main_v57 (arg9 m c)) (agg2_10 m c)
      (fun j => (congrFun (bias2_10 m c) (ix2 (0 : Fin 1) j)).trans (row_apply (val_main_v57 (arg9 m c)) j))).trans
    (Cert.ReferenceIdeal.Stages.layer2 (arg0 m c) (arg1 m c) (arg2 m c) (arg4 m c) (arg5 m c) (arg6 m c) (arg7 m c) (arg8 m c) (arg9 m c)))

/-! ## The third graph layer -/

theorem w2_12 : W12 m c (Proc.devRef .tc main_v69) = val_main_v77 (arg8 m c) := host_w2 (W11 m c) (arg8 m c) (arg8_11 m c)

theorem layer2_12 : W12 m c (Proc.devRef .tc main_v67)
    = val_main_v75 (arg0 m c) (arg1 m c) (arg2 m c) (arg4 m c) (arg5 m c) (arg6 m c) (arg7 m c) (arg8 m c) (arg9 m c) := by
  carry; exact layer2_11 m c

theorem proj3_13 : W13 m c (Proc.devRef .tc main_v70)
    = val_main_v80 (arg0 m c) (arg1 m c) (arg2 m c) (arg4 m c) (arg5 m c) (arg6 m c) (arg7 m c) (arg8 m c) (arg9 m c) :=
  (W13_arr m c 2).trans ((reg5_value (V12 m) c _ _ (layer2_12 m c) (w2_12 m c)).trans
    (Cert.ReferenceIdeal.Stages.proj3 (arg0 m c) (arg1 m c) (arg2 m c) (arg4 m c) (arg5 m c) (arg6 m c) (arg7 m c) (arg8 m c) (arg9 m c)))

theorem agg3_14 : W14 m c (Proc.devRef .tc main_v83)
    = val_main_v93 (arg0 m c) (arg1 m c) (arg2 m c) (arg4 m c) (arg5 m c) (arg6 m c) (arg7 m c) (arg8 m c) (arg9 m c) :=
  host_agg3 (W13 m c) (arg0 m c) (arg1 m c) (arg2 m c) (arg4 m c) (arg5 m c) (arg6 m c) (arg7 m c) (arg8 m c) (arg9 m c)
    (src_13 m c) (dst_13 m c) (norm_13 m c) (proj3_13 m c)

theorem bias3_14 : W14 m c (Proc.devRef .tc main_v86) = shapeCast S1x128 (val_main_v79 (arg9 m c)) shapeCasts_S128_S1x128 :=
  host_bias3 (W13 m c) (arg9 m c) (arg9_13 m c)

theorem layer3_15 : W15 m c (Proc.devRef .tc main_v87)
    = val_main_v97 (arg0 m c) (arg1 m c) (arg2 m c) (arg4 m c) (arg5 m c) (arg6 m c) (arg7 m c) (arg8 m c) (arg9 m c) :=
  (W15_arr m c 2).trans ((reg6_value (V14 m) c _ (val_main_v79 (arg9 m c)) (agg3_14 m c)
      (fun j => (congrFun (bias3_14 m c) (ix2 (0 : Fin 1) j)).trans (row_apply (val_main_v79 (arg9 m c)) j))).trans
    (Cert.ReferenceIdeal.Stages.layer3 (arg0 m c) (arg1 m c) (arg2 m c) (arg4 m c) (arg5 m c) (arg6 m c) (arg7 m c) (arg8 m c) (arg9 m c)))

/-! ## The pooling per graph (region 7): sums and counts -/

theorem ids_16 : W16 m c (Proc.devRef .tc main_v88) = shapeCast S100000x1 (arg3 m c) shapeCasts_S100000_S100000x1 :=
  host_ids (W15 m c) (arg3 m c) (arg3_15 m c)

theorem layer3_16 : W16 m c (Proc.devRef .tc main_v87)
    = val_main_v97 (arg0 m c) (arg1 m c) (arg2 m c) (arg4 m c) (arg5 m c) (arg6 m c) (arg7 m c) (arg8 m c) (arg9 m c) := by
  carry; exact layer3_15 m c

theorem ids_col (i : Fin 100000) :
    (V16 m c main_v88 : S100000x1.Idx → BitVec 32) (ix2 i (0 : Fin 1)) = arg3 m c (ix1 i) :=
  (congrFun (ids_16 m c) (ix2 i (0 : Fin 1))).trans (col_apply (arg3 m c) i)

theorem sums_17 : W17 m c (Proc.devRef .tc main_v89_0)
    = val_main_v100 (arg0 m c) (arg1 m c) (arg2 m c) (arg3 m c) (arg4 m c) (arg5 m c) (arg6 m c) (arg7 m c) (arg8 m c) (arg9 m c) :=
  (W17_arr m c 2).trans ((reg7_sum (V16 m) c _ (arg3 m c) (layer3_16 m c) (ids_col m c)).trans
    (Cert.ReferenceIdeal.Stages.pool_sum (arg0 m c) (arg1 m c) (arg2 m c) (arg3 m c) (arg4 m c) (arg5 m c) (arg6 m c) (arg7 m c) (arg8 m c) (arg9 m c)))

theorem cnt_17 (n : Fin 512) :
    (W17 m c (Proc.devRef .tc main_v89_1) : S512x1.Idx → EReal) (ix2 n (0 : Fin 1)) = val_main_v104 (F := Ideal) (arg3 m c) (ix1 n) :=
  (congrFun (W17_arr m c 3) (ix2 n (0 : Fin 1))).trans ((reg7_cnt (V16 m) c (arg3 m c) (ids_col m c) n).trans
    (congrFun (Cert.ReferenceIdeal.Stages.pool_cnt (F := Ideal) (arg3 m c)) (ix1 n)))

end Res

/-! ## The result -/

/-- The kernel program's result buffer after its last host stretch is the reference's last stage of the twelve
    argument arrays: every kernel region computes a dense layer, a bias-and-relu step or the pooling sums of the
    reference as a whole-array expression, and the host stretches between them are the reference's own operations. -/
theorem kernel_value (m : (ℓ : Loc nD τ sig) → Buf (Elt Ideal) ℓ) (c : Dev nD) :
    W18 (F := Ideal) m c (Proc.devRef .tc main_v97)
      = Cert.ReferenceIdeal.ReadP.val_main_v113 (F := Ideal)
          (m ((c : Thread nD τ).loc main_arg0)) (m ((c : Thread nD τ).loc main_arg1)) (m ((c : Thread nD τ).loc main_arg2))
          (m ((c : Thread nD τ).loc main_arg3)) (m ((c : Thread nD τ).loc main_arg4)) (m ((c : Thread nD τ).loc main_arg5))
          (m ((c : Thread nD τ).loc main_arg6)) (m ((c : Thread nD τ).loc main_arg7)) (m ((c : Thread nD τ).loc main_arg8))
          (m ((c : Thread nD τ).loc main_arg9)) (m ((c : Thread nD τ).loc main_arg10)) (m ((c : Thread nD τ).loc main_arg11)) :=
  host_out (W17 m c) (Res.arg0 m c) (Res.arg1 m c) (Res.arg2 m c) (Res.arg3 m c) (Res.arg4 m c) (Res.arg5 m c) (Res.arg6 m c)
    (Res.arg7 m c) (Res.arg8 m c) (Res.arg9 m c) (Res.arg10 m c) (Res.arg11 m c) (Res.sums_17 m c)
    (Cert.ReferenceIdeal.Stages.clamp_col (Res.arg3 m c) (W17 m c (Proc.devRef .tc main_v89_1)) bcast_S_S512x1 (Res.cnt_17 m c))
    (Res.arg10_17 m c) (Res.arg11_17 m c)

end Cert.KernelIdeal.Hand

end
-- ==== Proof.lean ====
/-
  A three-layer graph convolution with a global mean pool, as eight pipelined kernel regions among stretches of host
  operations, against the plain array program.  At the ideal instance a float is an extended real, every operation is
  the exact one and a change of float format is the identity, so each dense region is the row block of one matrix
  product (a sum of products over the contracted axis), each bias region is pointwise, and the pooling region's
  one-hot product accumulated over the twenty row blocks is the sum of the rows of each segment: 0 · x = 0 and
  1 · x = x hold for every extended real, and sums regroup freely, so no finiteness is used.  The gathers, the
  scatter-adds over the edges, the degree normalisation and the closing quotient and projection are the same host
  operations in both programs.

  The frames: one run of @main over its eighteen items (host stretches and regions), the buffers' contents named at
  every boundary; the argument arrays are written by no item.  The word-level program has the same run.
  The one rewrite of the ideal pass (a bf16 round trip of the one-hot mask) is the rule's own statement.
-/
import proofs.«402161_j18391049961554_1_alg».proof.Defs
import proofs.«402161_j18391049961554_1_alg».proof.Proof.Gen.Kernel
import proofs.«402161_j18391049961554_1_alg».proof.Proof.Gen.KernelIdeal
import proofs.«402161_j18391049961554_1_alg».proof.Proof.Gen.ReferenceIdeal
import proofs.«402161_j18391049961554_1_alg».proof.Proof.Gen.Pre_finite_inputs
import proofs.«402161_j18391049961554_1_alg».proof.Proof.K.Run
import proofs.«402161_j18391049961554_1_alg».proof.Proof.KI.Run
import proofs.«402161_j18391049961554_1_alg».proof.Proof.KI.Result
import proofs.«402161_j18391049961554_1_alg».proof.Proof.Ref.ReadP
import Idealize.ShloMosaic.PureOps.IdealRules

set_option maxRecDepth 16384

noncomputable section

namespace Cert.Proof

open Idealize.ShloMosaic Idealize.ShloMosaic.TcCoe Idealize.SL.Sem

/-- The word-level program runs to the end and leaves its arguments as launched. -/
theorem frame_k : Cert.frame_Kernel (hKernel := Cert.Kernel.Gen.facts) (hPre_finite_inputs := Cert.Pre_finite_inputs.Gen.facts) :=
  fun m ρ _ => (θ_run Cert.Kernel.defs _ _).mono (fun r h c =>
    ⟨(h c _ (Cert.Kernel.Hand.mem_uc Cert.Kernel.main_arg0 (by decide))).trans (Cert.Kernel.Hand.W18_main_arg0 m c),
      (h c _ (Cert.Kernel.Hand.mem_uc Cert.Kernel.main_arg1 (by decide))).trans (Cert.Kernel.Hand.W18_main_arg1 m c),
      (h c _ (Cert.Kernel.Hand.mem_uc Cert.Kernel.main_arg2 (by decide))).trans (Cert.Kernel.Hand.W18_main_arg2 m c),
      (h c _ (Cert.Kernel.Hand.mem_uc Cert.Kernel.main_arg3 (by decide))).trans (Cert.Kernel.Hand.W18_main_arg3 m c),
      (h c _ (Cert.Kernel.Hand.mem_uc Cert.Kernel.main_arg4 (by decide))).trans (Cert.Kernel.Hand.W18_main_arg4 m c),
      (h c _ (Cert.Kernel.Hand.mem_uc Cert.Kernel.main_arg5 (by decide))).trans (Cert.Kernel.Hand.W18_main_arg5 m c),
      (h c _ (Cert.Kernel.Hand.mem_uc Cert.Kernel.main_arg6 (by decide))).trans (Cert.Kernel.Hand.W18_main_arg6 m c),
      (h c _ (Cert.Kernel.Hand.mem_uc Cert.Kernel.main_arg7 (by decide))).trans (Cert.Kernel.Hand.W18_main_arg7 m c),
      (h c _ (Cert.Kernel.Hand.mem_uc Cert.Kernel.main_arg8 (by decide))).trans (Cert.Kernel.Hand.W18_main_arg8 m c),
      (h c _ (Cert.Kernel.Hand.mem_uc Cert.Kernel.main_arg9 (by decide))).trans (Cert.Kernel.Hand.W18_main_arg9 m c),
      (h c _ (Cert.Kernel.Hand.mem_uc Cert.Kernel.main_arg10 (by decide))).trans (Cert.Kernel.Hand.W18_main_arg10 m c),
      (h c _ (Cert.Kernel.Hand.mem_uc Cert.Kernel.main_arg11 (by decide))).trans (Cert.Kernel.Hand.W18_main_arg11 m c)⟩)
    (Cert.Kernel.Hand.run_all (F := Bits) m ρ)

/-- The idealized program runs to the end and leaves its arguments as launched. -/
theorem frame_ki : Cert.frame_KernelIdeal (hKernelIdeal := Cert.KernelIdeal.Gen.facts) (hPre_finite_inputs := Cert.Pre_finite_inputs.Gen.facts) :=
  fun m ρ _ => (θ_run Cert.KernelIdeal.defs _ _).mono (fun r h c =>
    ⟨(h c _ (Cert.KernelIdeal.Hand.mem_uc Cert.KernelIdeal.main_arg0 (by decide))).trans (Cert.KernelIdeal.Hand.W18_main_arg0 m c),
      (h c _ (Cert.KernelIdeal.Hand.mem_uc Cert.KernelIdeal.main_arg1 (by decide))).trans (Cert.KernelIdeal.Hand.W18_main_arg1 m c),
      (h c _ (Cert.KernelIdeal.Hand.mem_uc Cert.KernelIdeal.main_arg2 (by decide))).trans (Cert.KernelIdeal.Hand.W18_main_arg2 m c),
      (h c _ (Cert.KernelIdeal.Hand.mem_uc Cert.KernelIdeal.main_arg3 (by decide))).trans (Cert.KernelIdeal.Hand.W18_main_arg3 m c),
      (h c _ (Cert.KernelIdeal.Hand.mem_uc Cert.KernelIdeal.main_arg4 (by decide))).trans (Cert.KernelIdeal.Hand.W18_main_arg4 m c),
      (h c _ (Cert.KernelIdeal.Hand.mem_uc Cert.KernelIdeal.main_arg5 (by decide))).trans (Cert.KernelIdeal.Hand.W18_main_arg5 m c),
      (h c _ (Cert.KernelIdeal.Hand.mem_uc Cert.KernelIdeal.main_arg6 (by decide))).trans (Cert.KernelIdeal.Hand.W18_main_arg6 m c),
      (h c _ (Cert.KernelIdeal.Hand.mem_uc Cert.KernelIdeal.main_arg7 (by decide))).trans (Cert.KernelIdeal.Hand.W18_main_arg7 m c),
      (h c _ (Cert.KernelIdeal.Hand.mem_uc Cert.KernelIdeal.main_arg8 (by decide))).trans (Cert.KernelIdeal.Hand.W18_main_arg8 m c),
      (h c _ (Cert.KernelIdeal.Hand.mem_uc Cert.KernelIdeal.main_arg9 (by decide))).trans (Cert.KernelIdeal.Hand.W18_main_arg9 m c),
      (h c _ (Cert.KernelIdeal.Hand.mem_uc Cert.KernelIdeal.main_arg10 (by decide))).trans (Cert.KernelIdeal.Hand.W18_main_arg10 m c),
      (h c _ (Cert.KernelIdeal.Hand.mem_uc Cert.KernelIdeal.main_arg11 (by decide))).trans (Cert.KernelIdeal.Hand.W18_main_arg11 m c)⟩)
    (Cert.KernelIdeal.Hand.run_all (F := Ideal) m ρ)

/-- The reference is host operations only: its run with the result dropped. -/
theorem frame_ri : Cert.frame_ReferenceIdeal (hReferenceIdeal := Cert.ReferenceIdeal.Gen.facts) (hPre_finite_inputs := Cert.Pre_finite_inputs.Gen.facts) :=
  fun m ρ _ => (θ_run Cert.ReferenceIdeal.defs _ _).mono (fun _ h c => (h c).2) (Cert.ReferenceIdeal.ValueP.run (F := Ideal) m ρ)

/-- The one-hot mask rounded to bf16 and widened again is the mask. -/
theorem preserves : Cert.preserves_Kernel_KernelIdeal :=
  IdealRules.truncf_extf.statement _ .f32 .bf16

/-- Both idealized programs end with the pooled projection of the same node features. -/
theorem algebraic : Cert.algebraic_KernelIdeal_ReferenceIdeal (hKernelIdeal := Cert.KernelIdeal.Gen.facts) (hReferenceIdeal := Cert.ReferenceIdeal.Gen.facts) (hPre_finite_inputs := Cert.Pre_finite_inputs.Gen.facts) := by
  intro m ρ m' ρ' _ hagree
  refine ⟨fun c => Cert.KernelIdeal.Hand.W18 (F := Ideal) m c (Proc.devRef .tc Cert.KernelIdeal.main_v97), ?_, ?_⟩
  · exact (θ_run Cert.KernelIdeal.defs _ _).mono (fun r h c =>
      ⟨h c _ (Cert.KernelIdeal.Hand.mem_uc Cert.KernelIdeal.main_v97 (by decide)),
       (h c _ (Cert.KernelIdeal.Hand.mem_uc Cert.KernelIdeal.main_arg0 (by decide))).trans (Cert.KernelIdeal.Hand.W18_main_arg0 m c),
       (h c _ (Cert.KernelIdeal.Hand.mem_uc Cert.KernelIdeal.main_arg1 (by decide))).trans (Cert.KernelIdeal.Hand.W18_main_arg1 m c),
       (h c _ (Cert.KernelIdeal.Hand.mem_uc Cert.KernelIdeal.main_arg2 (by decide))).trans (Cert.KernelIdeal.Hand.W18_main_arg2 m c),
       (h c _ (Cert.KernelIdeal.Hand.mem_uc Cert.KernelIdeal.main_arg3 (by decide))).trans (Cert.KernelIdeal.Hand.W18_main_arg3 m c),
       (h c _ (Cert.KernelIdeal.Hand.mem_uc Cert.KernelIdeal.main_arg4 (by decide))).trans (Cert.KernelIdeal.Hand.W18_main_arg4 m c),
       (h c _ (Cert.KernelIdeal.Hand.mem_uc Cert.KernelIdeal.main_arg5 (by decide))).trans (Cert.KernelIdeal.Hand.W18_main_arg5 m c),
       (h c _ (Cert.KernelIdeal.Hand.mem_uc Cert.KernelIdeal.main_arg6 (by decide))).trans (Cert.KernelIdeal.Hand.W18_main_arg6 m c),
       (h c _ (Cert.KernelIdeal.Hand.mem_uc Cert.KernelIdeal.main_arg7 (by decide))).trans (Cert.KernelIdeal.Hand.W18_main_arg7 m c),
       (h c _ (Cert.KernelIdeal.Hand.mem_uc Cert.KernelIdeal.main_arg8 (by decide))).trans (Cert.KernelIdeal.Hand.W18_main_arg8 m c),
       (h c _ (Cert.KernelIdeal.Hand.mem_uc Cert.KernelIdeal.main_arg9 (by decide))).trans (Cert.KernelIdeal.Hand.W18_main_arg9 m c),
       (h c _ (Cert.KernelIdeal.Hand.mem_uc Cert.KernelIdeal.main_arg10 (by decide))).trans (Cert.KernelIdeal.Hand.W18_main_arg10 m c),
       (h c _ (Cert.KernelIdeal.Hand.mem_uc Cert.KernelIdeal.main_arg11 (by decide))).trans (Cert.KernelIdeal.Hand.W18_main_arg11 m c)⟩)
      (Cert.KernelIdeal.Hand.run_all (F := Ideal) m ρ)
  · refine (θ_run Cert.ReferenceIdeal.defs _ _).mono (fun _ h c => ⟨(h c).1.trans ?_, (h c).2⟩)
      (Cert.ReferenceIdeal.ValueP.run (F := Ideal) m' ρ')
    rw [Cert.ReferenceIdeal.ReadP.val_main_v113_eq, (hagree c).1, (hagree c).2.1, (hagree c).2.2.1, (hagree c).2.2.2.1,
      (hagree c).2.2.2.2.1, (hagree c).2.2.2.2.2.1, (hagree c).2.2.2.2.2.2.1, (hagree c).2.2.2.2.2.2.2.1,
      (hagree c).2.2.2.2.2.2.2.2.1, (hagree c).2.2.2.2.2.2.2.2.2.1, (hagree c).2.2.2.2.2.2.2.2.2.2.1,
      (hagree c).2.2.2.2.2.2.2.2.2.2.2]
    exact (Cert.KernelIdeal.Hand.kernel_value m c).symm

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
